-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x215 : Shape := ⟨3, ![32, 1024, 215]⟩
abbrev S2x524288 : Shape := ⟨2, ![2, 524288]⟩
abbrev S524288 : Shape := ⟨1, ![524288]⟩
abbrev S256x215 : Shape := ⟨2, ![256, 215]⟩
abbrev S256 : Shape := ⟨1, ![256]⟩
abbrev S3x8x256x256 : Shape := ⟨4, ![3, 8, 256, 256]⟩
abbrev S3x8x256 : Shape := ⟨3, ![3, 8, 256]⟩
abbrev S3x768x256 : Shape := ⟨3, ![3, 768, 256]⟩
abbrev S3x768 : Shape := ⟨2, ![3, 768]⟩
abbrev S_ : Shape := ⟨0, ![]⟩
abbrev S1x524288 : Shape := ⟨2, ![1, 524288]⟩

class Facts : Prop where
  bcast_S_S32x1024x215 : S_.BroadcastsInDim S32x1024x215 (![] : Fin 0 → Fin S32x1024x215.rank)
  reducesTo_S32x1024x215_S_d0_1_2 : S32x1024x215.ReducesTo [0, 1, 2] S_
  h_S_ : 0 < S_.numel
  bcast_S_S256x215 : S_.BroadcastsInDim S256x215 (![] : Fin 0 → Fin S256x215.rank)
  reducesTo_S256x215_S_d0_1 : S256x215.ReducesTo [0, 1] S_
  bcast_S_S256 : S_.BroadcastsInDim S256 (![] : Fin 0 → Fin S256.rank)
  reducesTo_S256_S_d0 : S256.ReducesTo [0] S_
  bcast_S_S3x8x256x256 : S_.BroadcastsInDim S3x8x256x256 (![] : Fin 0 → Fin S3x8x256x256.rank)
  reducesTo_S3x8x256x256_S_d0_1_2_3 : S3x8x256x256.ReducesTo [0, 1, 2, 3] S_
  bcast_S_S3x8x256 : S_.BroadcastsInDim S3x8x256 (![] : Fin 0 → Fin S3x8x256.rank)
  reducesTo_S3x8x256_S_d0_1_2 : S3x8x256.ReducesTo [0, 1, 2] S_
  bcast_S_S3x768x256 : S_.BroadcastsInDim S3x768x256 (![] : Fin 0 → Fin S3x768x256.rank)
  reducesTo_S3x768x256_S_d0_1_2 : S3x768x256.ReducesTo [0, 1, 2] S_
  bcast_S_S3x768 : S_.BroadcastsInDim S3x768 (![] : Fin 0 → Fin S3x768.rank)
  reducesTo_S3x768_S_d0_1 : S3x768.ReducesTo [0, 1] S_
  slices_S2x524288_S1x524288_0_0 : S2x524288.Slices ![0, 0] S1x524288
  shapeCasts_S1x524288_S524288 : S1x524288.ShapeCasts S524288
  bcast_S_S524288 : S_.BroadcastsInDim S524288 (![] : Fin 0 → Fin S524288.rank)
  reducesTo_S524288_S_d0 : S524288.ReducesTo [0] S_

variable [Facts]

def fn_part3 {F : FTy → Type} [FloatOps F] (main_arg2 : IVec S524288 32) (main_v43 : IVec S_ 1) (main_v47 : IVec S524288 1) (main_v51 : IVec S524288 1) : IVec S_ 1 :=
  let main_v52 : IVec S524288 1 := andi main_v47 main_v51
  let main_c_18 : IVec S_ 1 := constantI S_ 1 1#1
  let main_v53 : IVec S_ 1 := (fun x v => Host.reduce IntOp.andi x v reducesTo_S524288_S_d0 h_S_) main_v52 main_c_18
  let main_v54 : IVec S_ 1 := andi main_v43 main_v53
  let main_c_19 : IVec S_ 32 := constantI S_ 32 0#32
  let main_v55 : IVec S524288 32 := broadcastInDim S524288 ![] bcast_S_S524288 main_c_19
  let main_v56 : IVec S524288 1 := cmpi .sge main_arg2 main_v55
  let main_c_20 : IVec S_ 32 := constantI S_ 32 8#32
  let main_v57 : IVec S524288 32 := broadcastInDim S524288 ![] bcast_S_S524288 main_c_20
  let main_v58 : IVec S524288 1 := cmpi .slt main_arg2 main_v57
  let main_v59 : IVec S524288 1 := andi main_v56 main_v58
  let main_c_21 : IVec S_ 1 := constantI S_ 1 1#1
  let main_v60 : IVec S_ 1 := (fun x v => Host.reduce IntOp.andi x v reducesTo_S524288_S_d0 h_S_) main_v59 main_c_21
  let main_v61 : IVec S_ 1 := andi main_v54 main_v60
  main_v61

def fn_part2 {F : FTy → Type} [FloatOps F] (main_arg1 : IVec S2x524288 32) (main_arg2 : IVec S524288 32) (main_arg9 : FVec F S3x768 .f32) (main_arg10 : FVec F S3x768 .f32) (main_v33 : IVec S_ 1) : IVec S_ 1 :=
  let main_v34 : FVec F S3x768 .f32 := Host.absf main_arg9
  let main_cst_12 : FVec F S_ .f32 := constant S_ .f32 0x7F800000#32
  let main_v35 : FVec F S3x768 .f32 := broadcastInDim S3x768 ![] bcast_S_S3x768 main_cst_12
  let main_v36 : IVec S3x768 1 := cmpf .olt main_v34 main_v35
  let main_c_13 : IVec S_ 1 := constantI S_ 1 1#1
  let main_v37 : IVec S_ 1 := (fun x v => Host.reduce IntOp.andi x v reducesTo_S3x768_S_d0_1 h_S_) main_v36 main_c_13
  let main_v38 : IVec S_ 1 := andi main_v33 main_v37
  let main_v39 : FVec F S3x768 .f32 := Host.absf main_arg10
  let main_cst_14 : FVec F S_ .f32 := constant S_ .f32 0x7F800000#32
  let main_v40 : FVec F S3x768 .f32 := broadcastInDim S3x768 ![] bcast_S_S3x768 main_cst_14
  let main_v41 : IVec S3x768 1 := cmpf .olt main_v39 main_v40
  let main_c_15 : IVec S_ 1 := constantI S_ 1 1#1
  let main_v42 : IVec S_ 1 := (fun x v => Host.reduce IntOp.andi x v reducesTo_S3x768_S_d0_1 h_S_) main_v41 main_c_15
  let main_v43 : IVec S_ 1 := andi main_v38 main_v42
  let main_v44 : IVec S1x524288 32 := (extractStridedSlice S1x524288 ![0, 0] · slices_S2x524288_S1x524288_0_0) main_arg1
  let main_v45 : IVec S524288 32 := shapeCast S524288 main_v44 shapeCasts_S1x524288_S524288
  let main_c_16 : IVec S_ 32 := constantI S_ 32 0#32
  let main_v46 : IVec S524288 32 := broadcastInDim S524288 ![] bcast_S_S524288 main_c_16
  let main_v47 : IVec S524288 1 := cmpi .sge main_v45 main_v46
  let main_v48 : IVec S1x524288 32 := (extractStridedSlice S1x524288 ![0, 0] · slices_S2x524288_S1x524288_0_0) main_arg1
  let main_v49 : IVec S524288 32 := shapeCast S524288 main_v48 shapeCasts_S1x524288_S524288
  let main_c_17 : IVec S_ 32 := constantI S_ 32 32768#32
  let main_v50 : IVec S524288 32 := broadcastInDim S524288 ![] bcast_S_S524288 main_c_17
  let main_v51 : IVec S524288 1 := cmpi .slt main_v49 main_v50
  fn_part3 (F := F) main_arg2 main_v43 main_v47 main_v51

def fn_part1 {F : FTy → Type} [FloatOps F] (main_arg1 : IVec S2x524288 32) (main_arg2 : IVec S524288 32) (main_arg6 : FVec F S3x8x256 .f32) (main_arg7 : FVec F S3x768x256 .f32) (main_arg8 : FVec F S3x768x256 .f32) (main_arg9 : FVec F S3x768 .f32) (main_arg10 : FVec F S3x768 .f32) (main_v13 : IVec S_ 1) (main_v16 : IVec S3x8x256x256 1) : IVec S_ 1 :=
  let main_c_5 : IVec S_ 1 := constantI S_ 1 1#1
  let main_v17 : IVec S_ 1 := (fun x v => Host.reduce IntOp.andi x v reducesTo_S3x8x256x256_S_d0_1_2_3 h_S_) main_v16 main_c_5
  let main_v18 : IVec S_ 1 := andi main_v13 main_v17
  let main_v19 : FVec F S3x8x256 .f32 := Host.absf main_arg6
  let main_cst_6 : FVec F S_ .f32 := constant S_ .f32 0x7F800000#32
  let main_v20 : FVec F S3x8x256 .f32 := broadcastInDim S3x8x256 ![] bcast_S_S3x8x256 main_cst_6
  let main_v21 : IVec S3x8x256 1 := cmpf .olt main_v19 main_v20
  let main_c_7 : IVec S_ 1 := constantI S_ 1 1#1
  let main_v22 : IVec S_ 1 := (fun x v => Host.reduce IntOp.andi x v reducesTo_S3x8x256_S_d0_1_2 h_S_) main_v21 main_c_7
  let main_v23 : IVec S_ 1 := andi main_v18 main_v22
  let main_v24 : FVec F S3x768x256 .f32 := Host.absf main_arg7
  let main_cst_8 : FVec F S_ .f32 := constant S_ .f32 0x7F800000#32
  let main_v25 : FVec F S3x768x256 .f32 := broadcastInDim S3x768x256 ![] bcast_S_S3x768x256 main_cst_8
  let main_v26 : IVec S3x768x256 1 := cmpf .olt main_v24 main_v25
  let main_c_9 : IVec S_ 1 := constantI S_ 1 1#1
  let main_v27 : IVec S_ 1 := (fun x v => Host.reduce IntOp.andi x v reducesTo_S3x768x256_S_d0_1_2 h_S_) main_v26 main_c_9
  let main_v28 : IVec S_ 1 := andi main_v23 main_v27
  let main_v29 : FVec F S3x768x256 .f32 := Host.absf main_arg8
  let main_cst_10 : FVec F S_ .f32 := constant S_ .f32 0x7F800000#32
  let main_v30 : FVec F S3x768x256 .f32 := broadcastInDim S3x768x256 ![] bcast_S_S3x768x256 main_cst_10
  let main_v31 : IVec S3x768x256 1 := cmpf .olt main_v29 main_v30
  let main_c_11 : IVec S_ 1 := constantI S_ 1 1#1
  let main_v32 : IVec S_ 1 := (fun x v => Host.reduce IntOp.andi x v reducesTo_S3x768x256_S_d0_1_2 h_S_) main_v31 main_c_11
  let main_v33 : IVec S_ 1 := andi main_v28 main_v32
  fn_part2 (F := F) main_arg1 main_arg2 main_arg9 main_arg10 main_v33

def fn {F : FTy → Type} [FloatOps F] (main_arg0 : FVec F S32x1024x215 .f32) (main_arg1 : IVec S2x524288 32) (main_arg2 : IVec S524288 32) (main_arg3 : FVec F S256x215 .f32) (main_arg4 : FVec F S256 .f32) (main_arg5 : FVec F S3x8x256x256 .f32) (main_arg6 : FVec F S3x8x256 .f32) (main_arg7 : FVec F S3x768x256 .f32) (main_arg8 : FVec F S3x768x256 .f32) (main_arg9 : FVec F S3x768 .f32) (main_arg10 : FVec F S3x768 .f32) : IVec S_ 1 :=
  let main_v0 : FVec F S32x1024x215 .f32 := Host.absf main_arg0
  let main_cst : FVec F S_ .f32 := constant S_ .f32 0x7F800000#32
  let main_v1 : FVec F S32x1024x215 .f32 := broadcastInDim S32x1024x215 ![] bcast_S_S32x1024x215 main_cst
  let main_v2 : IVec S32x1024x215 1 := cmpf .olt main_v0 main_v1
  let main_c : IVec S_ 1 := constantI S_ 1 1#1
  let main_v3 : IVec S_ 1 := (fun x v => Host.reduce IntOp.andi x v reducesTo_S32x1024x215_S_d0_1_2 h_S_) main_v2 main_c
  let main_v4 : FVec F S256x215 .f32 := Host.absf main_arg3
  let main_cst_0 : FVec F S_ .f32 := constant S_ .f32 0x7F800000#32
  let main_v5 : FVec F S256x215 .f32 := broadcastInDim S256x215 ![] bcast_S_S256x215 main_cst_0
  let main_v6 : IVec S256x215 1 := cmpf .olt main_v4 main_v5
  let main_c_1 : IVec S_ 1 := constantI S_ 1 1#1
  let main_v7 : IVec S_ 1 := (fun x v => Host.reduce IntOp.andi x v reducesTo_S256x215_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x8x256x256 .f32 := Host.absf main_arg5
  let main_cst_4 : FVec F S_ .f32 := constant S_ .f32 0x7F800000#32
  let main_v15 : FVec F S3x8x256x256 .f32 := broadcastInDim S3x8x256x256 ![] bcast_S_S3x8x256x256 main_cst_4
  let main_v16 : IVec S3x8x256x256 1 := cmpf .olt main_v14 main_v15
  fn_part1 (F := F) main_arg1 main_arg2 main_arg6 main_arg7 main_arg8 main_arg9 main_arg10 main_v13 main_v16
-- ==== Kernel.lean ====
abbrev S32x1024x215 : Shape := ⟨3, ![32, 1024, 215]⟩
abbrev S2x524288 : Shape := ⟨2, ![2, 524288]⟩
abbrev S524288 : Shape := ⟨1, ![524288]⟩
abbrev S256x215 : Shape := ⟨2, ![256, 215]⟩
abbrev S256 : Shape := ⟨1, ![256]⟩
abbrev S3x8x256x256 : Shape := ⟨4, ![3, 8, 256, 256]⟩
abbrev S3x8x256 : Shape := ⟨3, ![3, 8, 256]⟩
abbrev S3x768x256 : Shape := ⟨3, ![3, 768, 256]⟩
abbrev S3x768 : Shape := ⟨2, ![3, 768]⟩
abbrev S32768x215 : Shape := ⟨2, ![32768, 215]⟩
abbrev S215x256 : Shape := ⟨2, ![215, 256]⟩
abbrev S1x256 : Shape := ⟨2, ![1, 256]⟩
abbrev S32768x256 : Shape := ⟨2, ![32768, 256]⟩
abbrev S2048x215 : Shape := ⟨2, ![2048, 215]⟩
abbrev S2048x256 : Shape := ⟨2, ![2048, 256]⟩
abbrev S1x524288 : Shape := ⟨2, ![1, 524288]⟩
abbrev S1x8x256x256 : Shape := ⟨4, ![1, 8, 256, 256]⟩
abbrev S8x256x256 : Shape := ⟨3, ![8, 256, 256]⟩
abbrev S256x2048 : Shape := ⟨2, ![256, 2048]⟩
abbrev S1x8x256 : Shape := ⟨3, ![1, 8, 256]⟩
abbrev S8x256 : Shape := ⟨2, ![8, 256]⟩
abbrev S1x2048 : Shape := ⟨2, ![1, 2048]⟩
abbrev S32768x2048 : Shape := ⟨2, ![32768, 2048]⟩
abbrev S1024x256 : Shape := ⟨2, ![1024, 256]⟩
abbrev S1024x2048 : Shape := ⟨2, ![1024, 2048]⟩
abbrev S262144x256 : Shape := ⟨2, ![262144, 256]⟩
abbrev S_ : Shape := ⟨0, ![]⟩
abbrev S524288x1 : Shape := ⟨2, ![524288, 1]⟩
abbrev S1 : Shape := ⟨1, ![1]⟩
abbrev S1x1 : Shape := ⟨2, ![1, 1]⟩
abbrev S524288x256 : Shape := ⟨2, ![524288, 256]⟩
abbrev S1x768x256 : Shape := ⟨3, ![1, 768, 256]⟩
abbrev S768x256 : Shape := ⟨2, ![768, 256]⟩
abbrev S256x768 : Shape := ⟨2, ![256, 768]⟩
abbrev S1x768 : Shape := ⟨2, ![1, 768]⟩
abbrev S768 : Shape := ⟨1, ![768]⟩
abbrev S1024x768 : Shape := ⟨2, ![1024, 768]⟩
abbrev S32x1024x256 : Shape := ⟨3, ![32, 1024, 256]⟩
abbrev S32x256 : Shape := ⟨2, ![32, 256]⟩
abbrev S8x1024x256 : Shape := ⟨3, ![8, 1024, 256]⟩

abbrev nBuf : Space → Nat
  | .hbm => 180
  | .vmem => 58
  | .smem => 0
  | _ => 0

abbrev hbmTy0_0 (i : Nat) : BufTy := match i % 128 with
  | 0 => ⟨S32x1024x215, .f32⟩
  | 1 => ⟨S2x524288, .i32⟩
  | 2 => ⟨S524288, .i32⟩
  | 3 => ⟨S256x215, .f32⟩
  | 4 => ⟨S256, .f32⟩
  | 5 => ⟨S3x8x256x256, .f32⟩
  | 6 => ⟨S3x8x256, .f32⟩
  | 7 => ⟨S3x768x256, .f32⟩
  | 8 => ⟨S3x768x256, .f32⟩
  | 9 => ⟨S3x768, .f32⟩
  | 10 => ⟨S3x768, .f32⟩
  | 11 => ⟨S32768x215, .f32⟩
  | 12 => ⟨S215x256, .f32⟩
  | 13 => ⟨S1x256, .f32⟩
  | 14 => ⟨S32768x256, .f32⟩
  | 15 => ⟨S1x524288, .i32⟩
  | 16 => ⟨S524288, .i32⟩
  | 17 => ⟨S1x524288, .i32⟩
  | 18 => ⟨S524288, .i32⟩
  | 19 => ⟨S1x8x256x256, .f32⟩
  | 20 => ⟨S8x256x256, .f32⟩
  | 21 => ⟨S2048x256, .f32⟩
  | 22 => ⟨S256x2048, .f32⟩
  | 23 => ⟨S1x8x256, .f32⟩
  | 24 => ⟨S8x256, .f32⟩
  | 25 => ⟨S1x2048, .f32⟩
  | 26 => ⟨S32768x2048, .f32⟩
  | 27 => ⟨S262144x256, .f32⟩
  | 28 => ⟨S_, .i32⟩
  | 29 => ⟨S524288, .i32⟩
  | 30 => ⟨S524288, .i32⟩
  | 31 => ⟨S524288, .i32⟩
  | 32 => ⟨S_, .i32⟩
  | 33 => ⟨S524288, .i32⟩
  | 34 => ⟨S524288, .i1⟩
  | 35 => ⟨S_, .i32⟩
  | 36 => ⟨S524288, .i32⟩
  | 37 => ⟨S524288, .i32⟩
  | 38 => ⟨S524288, .i32⟩
  | 39 => ⟨S524288x1, .i32⟩
  | 40 => ⟨S1, .i32⟩
  | 41 => ⟨S_, .i32⟩
  | 42 => ⟨S524288x1, .i32⟩
  | 43 => ⟨S524288x1, .i1⟩
  | 44 => ⟨S1x1, .i32⟩
  | 45 => ⟨S524288x1, .i32⟩
  | 46 => ⟨S524288x1, .i1⟩
  | 47 => ⟨S524288x1, .i1⟩
  | 48 => ⟨S_, .i1⟩
  | 49 => ⟨S524288, .i1⟩
  | 50 => ⟨S524288x256, .f32⟩
  | 51 => ⟨S524288x256, .i1⟩
  | 52 => ⟨S_, .f32⟩
  | 53 => ⟨S524288x256, .f32⟩
  | 54 => ⟨S524288x256, .f32⟩
  | 55 => ⟨S_, .f32⟩
  | 56 => ⟨S32768x256, .f32⟩
  | 57 => ⟨S524288x1, .i32⟩
  | 58 => ⟨S32768x256, .f32⟩
  | 59 => ⟨S1x768x256, .f32⟩
  | 60 => ⟨S768x256, .f32⟩
  | 61 => ⟨S256x768, .f32⟩
  | 62 => ⟨S1x768x256, .f32⟩
  | 63 => ⟨S768x256, .f32⟩
  | 64 => ⟨S256x768, .f32⟩
  | 65 => ⟨S1x768, .f32⟩
  | 66 => ⟨S768, .f32⟩
  | 67 => ⟨S1x768, .f32⟩
  | 68 => ⟨S1x768, .f32⟩
  | 69 => ⟨S768, .f32⟩
  | 70 => ⟨S1x768, .f32⟩
  | 71 => ⟨S32768x256, .f32⟩
  | 72 => ⟨S1x8x256x256, .f32⟩
  | 73 => ⟨S8x256x256, .f32⟩
  | 74 => ⟨S2048x256, .f32⟩
  | 75 => ⟨S256x2048, .f32⟩
  | 76 => ⟨S1x8x256, .f32⟩
  | 77 => ⟨S8x256, .f32⟩
  | 78 => ⟨S1x2048, .f32⟩
  | 79 => ⟨S32768x2048, .f32⟩
  | 80 => ⟨S262144x256, .f32⟩
  | 81 => ⟨S_, .i32⟩
  | 82 => ⟨S524288, .i32⟩
  | 83 => ⟨S524288, .i32⟩
  | 84 => ⟨S524288, .i32⟩
  | 85 => ⟨S_, .i32⟩
  | 86 => ⟨S524288, .i32⟩
  | 87 => ⟨S524288, .i1⟩
  | 88 => ⟨S_, .i32⟩
  | 89 => ⟨S524288, .i32⟩
  | 90 => ⟨S524288, .i32⟩
  | 91 => ⟨S524288, .i32⟩
  | 92 => ⟨S524288x1, .i32⟩
  | 93 => ⟨S1, .i32⟩
  | 94 => ⟨S_, .i32⟩
  | 95 => ⟨S524288x1, .i32⟩
  | 96 => ⟨S524288x1, .i1⟩
  | 97 => ⟨S1x1, .i32⟩
  | 98 => ⟨S524288x1, .i32⟩
  | 99 => ⟨S524288x1, .i1⟩
  | 100 => ⟨S524288x1, .i1⟩
  | 101 => ⟨S_, .i1⟩
  | 102 => ⟨S524288, .i1⟩
  | 103 => ⟨S524288x256, .f32⟩
  | 104 => ⟨S524288x256, .i1⟩
  | 105 => ⟨S_, .f32⟩
  | 106 => ⟨S524288x256, .f32⟩
  | 107 => ⟨S524288x256, .f32⟩
  | 108 => ⟨S_, .f32⟩
  | 109 => ⟨S32768x256, .f32⟩
  | 110 => ⟨S524288x1, .i32⟩
  | 111 => ⟨S32768x256, .f32⟩
  | 112 => ⟨S1x768x256, .f32⟩
  | 113 => ⟨S768x256, .f32⟩
  | 114 => ⟨S256x768, .f32⟩
  | 115 => ⟨S1x768x256, .f32⟩
  | 116 => ⟨S768x256, .f32⟩
  | 117 => ⟨S256x768, .f32⟩
  | 118 => ⟨S1x768, .f32⟩
  | 119 => ⟨S768, .f32⟩
  | 120 => ⟨S1x768, .f32⟩
  | 121 => ⟨S1x768, .f32⟩
  | 122 => ⟨S768, .f32⟩
  | 123 => ⟨S1x768, .f32⟩
  | 124 => ⟨S32768x256, .f32⟩
  | 125 => ⟨S1x8x256x256, .f32⟩
  | 126 => ⟨S8x256x256, .f32⟩
  | 127 => ⟨S2048x256, .f32⟩
  | _ => ⟨S32x1024x215, .f32⟩

abbrev hbmTy0_1 (i : Nat) : BufTy := match i % 128 with
  | 0 => ⟨S256x2048, .f32⟩
  | 1 => ⟨S1x8x256, .f32⟩
  | 2 => ⟨S8x256, .f32⟩
  | 3 => ⟨S1x2048, .f32⟩
  | 4 => ⟨S32768x2048, .f32⟩
  | 5 => ⟨S262144x256, .f32⟩
  | 6 => ⟨S_, .i32⟩
  | 7 => ⟨S524288, .i32⟩
  | 8 => ⟨S524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S524288x1, .i32⟩
  | 18 => ⟨S1, .i32⟩
  | 19 => ⟨S_, .i32⟩
  | 20 => ⟨S524288x1, .i32⟩
  | 21 => ⟨S524288x1, .i1⟩
  | 22 => ⟨S1x1, .i32⟩
  | 23 => ⟨S524288x1, .i32⟩
  | 24 => ⟨S524288x1, .i1⟩
  | 25 => ⟨S524288x1, .i1⟩
  | 26 => ⟨S_, .i1⟩
  | 27 => ⟨S524288, .i1⟩
  | 28 => ⟨S524288x256, .f32⟩
  | 29 => ⟨S524288x256, .i1⟩
  | 30 => ⟨S_, .f32⟩
  | 31 => ⟨S524288x256, .f32⟩
  | 32 => ⟨S524288x256, .f32⟩
  | 33 => ⟨S_, .f32⟩
  | 34 => ⟨S32768x256, .f32⟩
  | 35 => ⟨S524288x1, .i32⟩
  | 36 => ⟨S32768x256, .f32⟩
  | 37 => ⟨S1x768x256, .f32⟩
  | 38 => ⟨S768x256, .f32⟩
  | 39 => ⟨S256x768, .f32⟩
  | 40 => ⟨S1x768x256, .f32⟩
  | 41 => ⟨S768x256, .f32⟩
  | 42 => ⟨S256x768, .f32⟩
  | 43 => ⟨S1x768, .f32⟩
  | 44 => ⟨S768, .f32⟩
  | 45 => ⟨S1x768, .f32⟩
  | 46 => ⟨S1x768, .f32⟩
  | 47 => ⟨S768, .f32⟩
  | 48 => ⟨S1x768, .f32⟩
  | 49 => ⟨S32768x256, .f32⟩
  | 50 => ⟨S32x1024x256, .f32⟩
  | 51 => ⟨S32x256, .f32⟩
  | _ => ⟨S32x1024x215, .f32⟩

abbrev hbmTy (i : Nat) : BufTy := match i / 128 with
  | 0 => hbmTy0_0 i
  | 1 => hbmTy0_1 i
  | _ => ⟨S32x1024x215, .f32⟩

abbrev bufTy : (tb : Table) → Fin (tcTables nBuf tb) → BufTy
  | .hbm, ⟨i, _⟩ => hbmTy i
  | .local _ .vmem, ⟨0, _⟩ => ⟨S2048x215, .f32⟩
  | .local _ .vmem, ⟨1, _⟩ => ⟨S2048x215, .f32⟩
  | .local _ .vmem, ⟨2, _⟩ => ⟨S215x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S1024x256, .f32⟩
  | .local _ .vmem, ⟨7, _⟩ => ⟨S1024x256, .f32⟩
  | .local _ .vmem, ⟨8, _⟩ => ⟨S256x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S256x768, .f32⟩
  | .local _ .vmem, ⟨17, _⟩ => ⟨S256x768, .f32⟩
  | .local _ .vmem, ⟨18, _⟩ => ⟨S1x768, .f32⟩
  | .local _ .vmem, ⟨19, _⟩ => ⟨S1x768, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S256x2048, .f32⟩
  | .local _ .vmem, ⟨25, _⟩ => ⟨S1x2048, .f32⟩
  | .local _ .vmem, ⟨26, _⟩ => ⟨S1024x2048, .f32⟩
  | .local _ .vmem, ⟨27, _⟩ => ⟨S1024x2048, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S256x768, .f32⟩
  | .local _ .vmem, ⟨33, _⟩ => ⟨S256x768, .f32⟩
  | .local _ .vmem, ⟨34, _⟩ => ⟨S1x768, .f32⟩
  | .local _ .vmem, ⟨35, _⟩ => ⟨S1x768, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S256x2048, .f32⟩
  | .local _ .vmem, ⟨41, _⟩ => ⟨S1x2048, .f32⟩
  | .local _ .vmem, ⟨42, _⟩ => ⟨S1024x2048, .f32⟩
  | .local _ .vmem, ⟨43, _⟩ => ⟨S1024x2048, .f32⟩
  | .local _ .vmem, ⟨44, _⟩ => ⟨S1024x256, .f32⟩
  | .local _ .vmem, ⟨45, _⟩ => ⟨S1024x256, .f32⟩
  | .local _ .vmem, ⟨46, _⟩ => ⟨S1024x256, .f32⟩
  | .local _ .vmem, ⟨47, _⟩ => ⟨S1024x256, .f32⟩
  | .local _ .vmem, ⟨48, _⟩ => ⟨S256x768, .f32⟩
  | .local _ .vmem, ⟨49, _⟩ => ⟨S256x768, .f32⟩
  | .local _ .vmem, ⟨50, _⟩ => ⟨S1x768, .f32⟩
  | .local _ .vmem, ⟨51, _⟩ => ⟨S1x768, .f32⟩
  | .local _ .vmem, ⟨52, _⟩ => ⟨S1024x256, .f32⟩
  | .local _ .vmem, ⟨53, _⟩ => ⟨S1024x256, .f32⟩
  | .local _ .vmem, ⟨54, _⟩ => ⟨S8x1024x256, .f32⟩
  | .local _ .vmem, ⟨55, _⟩ => ⟨S8x1024x256, .f32⟩
  | .local _ .vmem, ⟨56, _⟩ => ⟨S8x256, .f32⟩
  | .local _ .vmem, ⟨57, _⟩ => ⟨S8x256, .f32⟩
  | _, _ => ⟨S32x1024x215, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v20 : Ref sig .tc := ⟨.hbm, 54, rfl⟩
abbrev main_cst : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_call1_c : Ref sig .tc := ⟨.hbm, 85, rfl⟩
abbrev main_call1_v0 : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_c_1 : Ref sig .tc := ⟨.hbm, 93, rfl⟩
abbrev main_call1_c_2 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_3 : Ref sig .tc := ⟨.hbm, 101, rfl⟩
abbrev main_call1_v12 : Ref sig .tc := ⟨.hbm, 102, rfl⟩
abbrev main_call1_v13 : Ref sig .tc := ⟨.hbm, 103, rfl⟩
abbrev main_call1_v14 : Ref sig .tc := ⟨.hbm, 104, rfl⟩
abbrev main_call1_cst : Ref sig .tc := ⟨.hbm, 105, rfl⟩
abbrev main_call1_v15 : Ref sig .tc := ⟨.hbm, 106, rfl⟩
abbrev main_v49 : Ref sig .tc := ⟨.hbm, 107, rfl⟩
abbrev main_cst_1 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_2 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_call2_c : Ref sig .tc := ⟨.hbm, 138, rfl⟩
abbrev main_call2_v0 : Ref sig .tc := ⟨.hbm, 139, rfl⟩
abbrev main_call2_v1 : Ref sig .tc := ⟨.hbm, 140, rfl⟩
abbrev main_call2_c_0 : Ref sig .tc := ⟨.hbm, 141, rfl⟩
abbrev main_call2_v2 : Ref sig .tc := ⟨.hbm, 142, rfl⟩
abbrev main_call2_v3 : Ref sig .tc := ⟨.hbm, 143, rfl⟩
abbrev main_call2_v4 : Ref sig .tc := ⟨.hbm, 144, rfl⟩
abbrev main_call2_v5 : Ref sig .tc := ⟨.hbm, 145, rfl⟩
abbrev main_call2_c_1 : Ref sig .tc := ⟨.hbm, 146, rfl⟩
abbrev main_call2_c_2 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_call2_v11 : Ref sig .tc := ⟨.hbm, 153, rfl⟩
abbrev main_call2_c_3 : Ref sig .tc := ⟨.hbm, 154, rfl⟩
abbrev main_call2_v12 : Ref sig .tc := ⟨.hbm, 155, rfl⟩
abbrev main_call2_v13 : Ref sig .tc := ⟨.hbm, 156, rfl⟩
abbrev main_call2_v14 : Ref sig .tc := ⟨.hbm, 157, rfl⟩
abbrev main_call2_cst : Ref sig .tc := ⟨.hbm, 158, rfl⟩
abbrev main_call2_v15 : Ref sig .tc := ⟨.hbm, 159, rfl⟩
abbrev main_v78 : Ref sig .tc := ⟨.hbm, 160, rfl⟩
abbrev main_cst_3 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg6_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43
abbrev cc6_sem0_0 : DmaSem sig := 44
abbrev cc6_sem0_1 : DmaSem sig := 45
abbrev cc6_sem1_0 : DmaSem sig := 46
abbrev cc6_sem1_1 : DmaSem sig := 47
abbrev cc6_sem2_0 : DmaSem sig := 48
abbrev cc6_sem3_0 : DmaSem sig := 49
abbrev cc6_sem4_0 : DmaSem sig := 50
abbrev cc6_sem5_0 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem1_1 : DmaSem sig := 57

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x215 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S215x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1024x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1024x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x768 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x768 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x768 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1024x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![4], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8x1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  shapeCasts_S32x1024x215_S32768x215 : S32x1024x215.ShapeCasts S32768x215
  transposes_S256x215_S215x256_1_0 : S256x215.Transposes [1, 0] S215x256
  shapeCasts_S256_S1x256 : S256.ShapeCasts S1x256
  inb_S2048x215_S2048x215_0_0 : ∀ a, (![0, 0] : Fin 2 → Nat) a + S2048x215.size a ≤ S2048x215.size a
  h_S2048x215 : 0 < S2048x215.numel
  shapeCasts_S2048x215_S2048x215 : S2048x215.ShapeCasts S2048x215
  bitsLt_bf16_f32 : FTy.bits .bf16 < FTy.bits .f32
  inb_S215x256_S215x256_0_0 : ∀ a, (![0, 0] : Fin 2 → Nat) a + S215x256.size a ≤ S215x256.size a
  h_S215x256 : 0 < S215x256.numel
  shapeCasts_S215x256_S215x256 : S215x256.ShapeCasts S215x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  slices_S2x524288_S1x524288_0_0 : S2x524288.Slices ![0, 0] S1x524288
  shapeCasts_S1x524288_S524288 : S1x524288.ShapeCasts S524288
  slices_S2x524288_S1x524288_1_0 : S2x524288.Slices ![1, 0] S1x524288
  slices_S3x8x256x256_S1x8x256x256_0_0_0_0 : S3x8x256x256.Slices ![0, 0, 0, 0] S1x8x256x256
  shapeCasts_S1x8x256x256_S8x256x256 : S1x8x256x256.ShapeCasts S8x256x256
  shapeCasts_S8x256x256_S2048x256 : S8x256x256.ShapeCasts S2048x256
  transposes_S2048x256_S256x2048_1_0 : S2048x256.Transposes [1, 0] S256x2048
  slices_S3x8x256_S1x8x256_0_0_0 : S3x8x256.Slices ![0, 0, 0] S1x8x256
  shapeCasts_S1x8x256_S8x256 : S1x8x256.ShapeCasts S8x256
  shapeCasts_S8x256_S1x2048 : S8x256.ShapeCasts S1x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S32768x2048_S262144x256 : S32768x2048.ShapeCasts S262144x256
  bcast_S_S524288 : S_.BroadcastsInDim S524288 (![] : Fin 0 → Fin S524288.rank)
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  reducesTo_S524288x1_S524288_d1 : S524288x1.ReducesTo [1] S524288
  h_S_ : 0 < S_.numel
  bcast_S524288_S524288x256_0 : S524288.BroadcastsInDim S524288x256 (![0] : Fin 1 → Fin S524288x256.rank)
  bcast_S_S524288x256 : S_.BroadcastsInDim S524288x256 (![] : Fin 0 → Fin S524288x256.rank)
  bcast_S_S32768x256 : S_.BroadcastsInDim S32768x256 (![] : Fin 0 → Fin S32768x256.rank)
  slices_S3x768x256_S1x768x256_0_0_0 : S3x768x256.Slices ![0, 0, 0] S1x768x256
  shapeCasts_S1x768x256_S768x256 : S1x768x256.ShapeCasts S768x256
  transposes_S768x256_S256x768_1_0 : S768x256.Transposes [1, 0] S256x768
  slices_S3x768_S1x768_0_0 : S3x768.Slices ![0, 0] S1x768
  shapeCasts_S1x768_S768 : S1x768.ShapeCasts S768
  shapeCasts_S768_S1x768 : S768.ShapeCasts S1x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  slices_S3x8x256x256_S1x8x256x256_1_0_0_0 : S3x8x256x256.Slices ![1, 0, 0, 0] S1x8x256x256
  slices_S3x8x256_S1x8x256_1_0_0 : S3x8x256.Slices ![1, 0, 0] S1x8x256
  slices_S3x768x256_S1x768x256_1_0_0 : S3x768x256.Slices ![1, 0, 0] S1x768x256
  slices_S3x768_S1x768_1_0 : S3x768.Slices ![1, 0] S1x768
  slices_S3x8x256x256_S1x8x256x256_2_0_0_0 : S3x8x256x256.Slices ![2, 0, 0, 0] S1x8x256x256
  slices_S3x8x256_S1x8x256_2_0_0 : S3x8x256.Slices ![2, 0, 0] S1x8x256
  slices_S3x768x256_S1x768x256_2_0_0 : S3x768x256.Slices ![2, 0, 0] S1x768x256
  slices_S3x768_S1x768_2_0 : S3x768.Slices ![2, 0] S1x768
  shapeCasts_S32768x256_S32x1024x256 : S32768x256.ShapeCasts S32x1024x256
  inb_S8x1024x256_S8x1024x256_0_0_0 : ∀ a, (![0, 0, 0] : Fin 3 → Nat) a + S8x1024x256.size a ≤ S8x1024x256.size a
  h_S8x1024x256 : 0 < S8x1024x256.numel
  shapeCasts_S8x1024x256_S8x1024x256 : S8x1024x256.ShapeCasts S8x1024x256
  reduces_S8x1024x256_S8x256 : S8x1024x256.Reduces [1] S8x256
  inb_S8x256_S8x256_0_0 : ∀ a, (![0, 0] : Fin 2 → Nat) a + S8x256.size a ≤ S8x256.size a
  h_S8x256 : 0 < S8x256.numel
  dot_S2048x215_S215x256_S2048x256_1_0_0_1_n_n_wf : DotDims.WF S2048x215 S215x256 S2048x256 [1] [0] [0] [1] [] []
  dot_S1024x256_S256x2048_S1024x2048_1_0_0_1_n_n_wf : DotDims.WF S1024x256 S256x2048 S1024x2048 [1] [0] [0] [1] [] []
  gather_S262144x256_S524288x1_S524288x256_1_0_n_n_0_1_1256_wf : GatherDims.WF S262144x256 S524288x1 S524288x256 [1] [0] [] [0] [] 1 ![1, 256]
  scatter_S32768x256_S524288x1_S524288x256_1_0_0_1_wf : ScatterDims.WF S32768x256 S524288x1 S524288x256 [1] [0] [0] 1
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x215.size a ≤ S32768x215.size a
  hwx0_0 : ∀ i : grid0.Coords, EltTy.bits .f32 = 32 ∨ (Rect.block (s := S32768x215) S2048x215.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S215x256.size a ≤ S215x256.size a
  hwx0_1 : ∀ i : grid0.Coords, EltTy.bits .f32 = 32 ∨ (Rect.block (s := S215x256) S215x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S32768x256.size a
  hwx0_3 : ∀ i : grid0.Coords, EltTy.bits .f32 = 32 ∨ (Rect.block (s := S32768x256) S2048x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .f32 = 32 ∨ (Rect.block (s := S32768x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S256x2048.size a
  hwx1_1 : ∀ i : grid1.Coords, EltTy.bits .f32 = 32 ∨ (Rect.block (s := S256x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S32768x2048.size a
  hwx1_3 : ∀ i : grid1.Coords, EltTy.bits .f32 = 32 ∨ (Rect.block (s := S32768x2048) S1024x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S32768x256.size a
  hwx2_0 : ∀ i : grid2.Coords, EltTy.bits .f32 = 32 ∨ (Rect.block (s := S32768x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S32768x256.size a
  hwx2_1 : ∀ i : grid2.Coords, EltTy.bits .f32 = 32 ∨ (Rect.block (s := S32768x256) S1024x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x768.size a ≤ S256x768.size a
  hwx2_2 : ∀ i : grid2.Coords, EltTy.bits .f32 = 32 ∨ (Rect.block (s := S256x768) S256x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x768.size a ≤ S256x768.size a
  hwx2_3 : ∀ i : grid2.Coords, EltTy.bits .f32 = 32 ∨ (Rect.block (s := S256x768) S256x768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x768.size a ≤ S1x768.size a
  hwx2_4 : ∀ i : grid2.Coords, EltTy.bits .f32 = 32 ∨ (Rect.block (s := S1x768) S1x768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x768.size a ≤ S1x768.size a
  hwx2_5 : ∀ i : grid2.Coords, EltTy.bits .f32 = 32 ∨ (Rect.block (s := S1x768) S1x768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x256.size a ≤ S32768x256.size a
  hwx2_6 : ∀ i : grid2.Coords, EltTy.bits .f32 = 32 ∨ (Rect.block (s := S32768x256) S1024x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S32768x256.size a
  hwx3_0 : ∀ i : grid3.Coords, EltTy.bits .f32 = 32 ∨ (Rect.block (s := S32768x256) S1024x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x2048.size a ≤ S256x2048.size a
  hwx3_1 : ∀ i : grid3.Coords, EltTy.bits .f32 = 32 ∨ (Rect.block (s := S256x2048) S256x2048.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x2048.size a
  hwx3_2 : ∀ i : grid3.Coords, EltTy.bits .f32 = 32 ∨ (Rect.block (s := S1x2048) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x2048.size a ≤ S32768x2048.size a
  hwx3_3 : ∀ i : grid3.Coords, EltTy.bits .f32 = 32 ∨ (Rect.block (s := S32768x2048) S1024x2048.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S32768x256.size a
  hwx4_0 : ∀ i : grid4.Coords, EltTy.bits .f32 = 32 ∨ (Rect.block (s := S32768x256) S1024x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S32768x256.size a
  hwx4_1 : ∀ i : grid4.Coords, EltTy.bits .f32 = 32 ∨ (Rect.block (s := S32768x256) S1024x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x768.size a ≤ S256x768.size a
  hwx4_2 : ∀ i : grid4.Coords, EltTy.bits .f32 = 32 ∨ (Rect.block (s := S256x768) S256x768.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x768.size a ≤ S256x768.size a
  hwx4_3 : ∀ i : grid4.Coords, EltTy.bits .f32 = 32 ∨ (Rect.block (s := S256x768) S256x768.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x768.size a ≤ S1x768.size a
  hwx4_4 : ∀ i : grid4.Coords, EltTy.bits .f32 = 32 ∨ (Rect.block (s := S1x768) S1x768.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x768.size a ≤ S1x768.size a
  hwx4_5 : ∀ i : grid4.Coords, EltTy.bits .f32 = 32 ∨ (Rect.block (s := S1x768) S1x768.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x256.size a ≤ S32768x256.size a
  hwx4_6 : ∀ i : grid4.Coords, EltTy.bits .f32 = 32 ∨ (Rect.block (s := S32768x256) S1024x256.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S32768x256.size a
  hwx5_0 : ∀ i : grid5.Coords, EltTy.bits .f32 = 32 ∨ (Rect.block (s := S32768x256) S1024x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x2048.size a ≤ S256x2048.size a
  hwx5_1 : ∀ i : grid5.Coords, EltTy.bits .f32 = 32 ∨ (Rect.block (s := S256x2048) S256x2048.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x2048.size a ≤ S1x2048.size a
  hwx5_2 : ∀ i : grid5.Coords, EltTy.bits .f32 = 32 ∨ (Rect.block (s := S1x2048) S1x2048.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x2048.size a ≤ S32768x2048.size a
  hwx5_3 : ∀ i : grid5.Coords, EltTy.bits .f32 = 32 ∨ (Rect.block (s := S32768x2048) S1024x2048.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S32768x256.size a
  hwx6_0 : ∀ i : grid6.Coords, EltTy.bits .f32 = 32 ∨ (Rect.block (s := S32768x256) S1024x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x256.size a ≤ S32768x256.size a
  hwx6_1 : ∀ i : grid6.Coords, EltTy.bits .f32 = 32 ∨ (Rect.block (s := S32768x256) S1024x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x768.size a ≤ S256x768.size a
  hwx6_2 : ∀ i : grid6.Coords, EltTy.bits .f32 = 32 ∨ (Rect.block (s := S256x768) S256x768.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x768.size a ≤ S256x768.size a
  hwx6_3 : ∀ i : grid6.Coords, EltTy.bits .f32 = 32 ∨ (Rect.block (s := S256x768) S256x768.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x768.size a ≤ S1x768.size a
  hwx6_4 : ∀ i : grid6.Coords, EltTy.bits .f32 = 32 ∨ (Rect.block (s := S1x768) S1x768.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x768.size a ≤ S1x768.size a
  hwx6_5 : ∀ i : grid6.Coords, EltTy.bits .f32 = 32 ∨ (Rect.block (s := S1x768) S1x768.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1024x256.size a ≤ S32768x256.size a
  hwx6_6 : ∀ i : grid6.Coords, EltTy.bits .f32 = 32 ∨ (Rect.block (s := S32768x256) S1024x256.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8x1024x256.size a ≤ S32x1024x256.size a
  hwx7_0 : ∀ i : grid7.Coords, EltTy.bits .f32 = 32 ∨ (Rect.block (s := S32x1024x256) S8x1024x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8x256.size a ≤ S32x256.size a
  hwx7_1 : ∀ i : grid7.Coords, EltTy.bits .f32 = 32 ∨ (Rect.block (s := S32x256) S8x256.size (cc7_transform_1 i) (hinb7_1 i)).WholeWords (EltTy.packing .f32)

variable [Facts₀]

def dot_S2048x215_S215x256_S2048x256_1_0_0_1_n_n : DotDims S2048x215 S215x256 S2048x256 where
  lhsContracting := [1]
  rhsContracting := [0]
  lhsNonContracting := [0]
  rhsNonContracting := [1]
  lhsBatch := []
  rhsBatch := []
  wf := dot_S2048x215_S215x256_S2048x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def gather_S262144x256_S524288x1_S524288x256_1_0_n_n_0_1_1256 : GatherDims S262144x256 S524288x1 S524288x256 where
  offsetDims := [1]
  collapsedSliceDims := [0]
  operandBatchingDims := []
  startIndicesBatchingDims := []
  startIndexMap := [0]
  indexVectorDim := 1
  sliceSizes := ![1, 256]
  wf := gather_S262144x256_S524288x1_S524288x256_1_0_n_n_0_1_1256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_v0) S2048x215.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S215x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S256x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S256x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S256x768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S1x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S1x768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S1024x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v36) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S256x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x2048.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1024x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v52) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S256x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S256x768.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v64) S1x768.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S1024x256.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v65) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v69) S256x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x2048.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S1024x2048.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v81) S1024x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v65) S1024x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v84) S256x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S256x768.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v90) S1x768.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v93) S1x768.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v94) S1024x256.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v95) S8x1024x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S8x256.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S32x1024x215 : Shape := ⟨3, ![32, 1024, 215]⟩
abbrev S2x524288 : Shape := ⟨2, ![2, 524288]⟩
abbrev S524288 : Shape := ⟨1, ![524288]⟩
abbrev S256x215 : Shape := ⟨2, ![256, 215]⟩
abbrev S256 : Shape := ⟨1, ![256]⟩
abbrev S3x8x256x256 : Shape := ⟨4, ![3, 8, 256, 256]⟩
abbrev S3x8x256 : Shape := ⟨3, ![3, 8, 256]⟩
abbrev S3x768x256 : Shape := ⟨3, ![3, 768, 256]⟩
abbrev S3x768 : Shape := ⟨2, ![3, 768]⟩
abbrev S32768x215 : Shape := ⟨2, ![32768, 215]⟩
abbrev S215x256 : Shape := ⟨2, ![215, 256]⟩
abbrev S32768x256 : Shape := ⟨2, ![32768, 256]⟩
abbrev S1x256 : Shape := ⟨2, ![1, 256]⟩
abbrev S1x524288 : Shape := ⟨2, ![1, 524288]⟩
abbrev S1x8x256x256 : Shape := ⟨4, ![1, 8, 256, 256]⟩
abbrev S8x256x256 : Shape := ⟨3, ![8, 256, 256]⟩
abbrev S32768x8x256 : Shape := ⟨3, ![32768, 8, 256]⟩
abbrev S1x8x256 : Shape := ⟨3, ![1, 8, 256]⟩
abbrev S8x256 : Shape := ⟨2, ![8, 256]⟩
abbrev S_ : Shape := ⟨0, ![]⟩
abbrev S524288x1 : Shape := ⟨2, ![524288, 1]⟩
abbrev S524288x2 : Shape := ⟨2, ![524288, 2]⟩
abbrev S524288x256 : Shape := ⟨2, ![524288, 256]⟩
abbrev S1x768x256 : Shape := ⟨3, ![1, 768, 256]⟩
abbrev S768x256 : Shape := ⟨2, ![768, 256]⟩
abbrev S1x768 : Shape := ⟨2, ![1, 768]⟩
abbrev S768 : Shape := ⟨1, ![768]⟩
abbrev S256x768 : Shape := ⟨2, ![256, 768]⟩
abbrev S32768x768 : Shape := ⟨2, ![32768, 768]⟩
abbrev S32x1024x256 : Shape := ⟨3, ![32, 1024, 256]⟩
abbrev S32x256 : Shape := ⟨2, ![32, 256]⟩

abbrev nBuf : Space → Nat
  | .hbm => 267
  | .vmem => 0
  | .smem => 0
  | _ => 0

abbrev hbmTy0_0 (i : Nat) : BufTy := match i % 128 with
  | 0 => ⟨S32x1024x215, .f32⟩
  | 1 => ⟨S2x524288, .i32⟩
  | 2 => ⟨S524288, .i32⟩
  | 3 => ⟨S256x215, .f32⟩
  | 4 => ⟨S256, .f32⟩
  | 5 => ⟨S3x8x256x256, .f32⟩
  | 6 => ⟨S3x8x256, .f32⟩
  | 7 => ⟨S3x768x256, .f32⟩
  | 8 => ⟨S3x768x256, .f32⟩
  | 9 => ⟨S3x768, .f32⟩
  | 10 => ⟨S3x768, .f32⟩
  | 11 => ⟨S32768x215, .f32⟩
  | 12 => ⟨S215x256, .f32⟩
  | 13 => ⟨S32768x256, .f32⟩
  | 14 => ⟨S1x256, .f32⟩
  | 15 => ⟨S32768x256, .f32⟩
  | 16 => ⟨S32768x256, .f32⟩
  | 17 => ⟨S1x524288, .i32⟩
  | 18 => ⟨S524288, .i32⟩
  | 19 => ⟨S1x524288, .i32⟩
  | 20 => ⟨S524288, .i32⟩
  | 21 => ⟨S1x8x256x256, .f32⟩
  | 22 => ⟨S8x256x256, .f32⟩
  | 23 => ⟨S32768x8x256, .f32⟩
  | 24 => ⟨S1x8x256, .f32⟩
  | 25 => ⟨S8x256, .f32⟩
  | 26 => ⟨S1x8x256, .f32⟩
  | 27 => ⟨S32768x8x256, .f32⟩
  | 28 => ⟨S32768x8x256, .f32⟩
  | 29 => ⟨S_, .i32⟩
  | 30 => ⟨S524288, .i32⟩
  | 31 => ⟨S524288, .i1⟩
  | 32 => ⟨S_, .i32⟩
  | 33 => ⟨S524288, .i32⟩
  | 34 => ⟨S524288, .i32⟩
  | 35 => ⟨S524288, .i32⟩
  | 36 => ⟨S_, .i32⟩
  | 37 => ⟨S524288, .i32⟩
  | 38 => ⟨S524288, .i1⟩
  | 39 => ⟨S_, .i32⟩
  | 40 => ⟨S524288, .i32⟩
  | 41 => ⟨S524288, .i32⟩
  | 42 => ⟨S524288, .i32⟩
  | 43 => ⟨S524288x1, .i32⟩
  | 44 => ⟨S524288x1, .i32⟩
  | 45 => ⟨S524288x2, .i32⟩
  | 46 => ⟨S524288x256, .f32⟩
  | 47 => ⟨S_, .f32⟩
  | 48 => ⟨S32768x256, .f32⟩
  | 49 => ⟨S524288x1, .i32⟩
  | 50 => ⟨S32768x256, .f32⟩
  | 51 => ⟨S1x768x256, .f32⟩
  | 52 => ⟨S768x256, .f32⟩
  | 53 => ⟨S1x768x256, .f32⟩
  | 54 => ⟨S768x256, .f32⟩
  | 55 => ⟨S1x768, .f32⟩
  | 56 => ⟨S768, .f32⟩
  | 57 => ⟨S1x768, .f32⟩
  | 58 => ⟨S768, .f32⟩
  | 59 => ⟨S256x768, .f32⟩
  | 60 => ⟨S32768x768, .f32⟩
  | 61 => ⟨S1x768, .f32⟩
  | 62 => ⟨S32768x768, .f32⟩
  | 63 => ⟨S32768x768, .f32⟩
  | 64 => ⟨S256x768, .f32⟩
  | 65 => ⟨S32768x768, .f32⟩
  | 66 => ⟨S1x768, .f32⟩
  | 67 => ⟨S32768x768, .f32⟩
  | 68 => ⟨S32768x768, .f32⟩
  | 69 => ⟨S32768x256, .f32⟩
  | 70 => ⟨S32768x256, .f32⟩
  | 71 => ⟨S32768x256, .f32⟩
  | 72 => ⟨S32768x256, .f32⟩
  | 73 => ⟨S32768x256, .f32⟩
  | 74 => ⟨S32768x256, .f32⟩
  | 75 => ⟨S32768x256, .f32⟩
  | 76 => ⟨S32768x256, .f32⟩
  | 77 => ⟨S32768x256, .f32⟩
  | 78 => ⟨S_, .f32⟩
  | 79 => ⟨S32768x256, .f32⟩
  | 80 => ⟨S32768x256, .f32⟩
  | 81 => ⟨S_, .f32⟩
  | 82 => ⟨S32768x256, .f32⟩
  | 83 => ⟨S32768x256, .f32⟩
  | 84 => ⟨S32768x256, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S_, .f32⟩
  | 91 => ⟨S32768x256, .f32⟩
  | 92 => ⟨S32768x256, .f32⟩
  | 93 => ⟨S32768x256, .f32⟩
  | 94 => ⟨S32768x256, .f32⟩
  | 95 => ⟨S32768x256, .f32⟩
  | 96 => ⟨S_, .f32⟩
  | 97 => ⟨S32768x256, .f32⟩
  | 98 => ⟨S32768x256, .f32⟩
  | 99 => ⟨S32768x256, .f32⟩
  | 100 => ⟨S32768x256, .f32⟩
  | 101 => ⟨S32768x256, .f32⟩
  | 102 => ⟨S1x8x256x256, .f32⟩
  | 103 => ⟨S8x256x256, .f32⟩
  | 104 => ⟨S32768x8x256, .f32⟩
  | 105 => ⟨S1x8x256, .f32⟩
  | 106 => ⟨S8x256, .f32⟩
  | 107 => ⟨S1x8x256, .f32⟩
  | 108 => ⟨S32768x8x256, .f32⟩
  | 109 => ⟨S32768x8x256, .f32⟩
  | 110 => ⟨S_, .i32⟩
  | 111 => ⟨S524288, .i32⟩
  | 112 => ⟨S524288, .i1⟩
  | 113 => ⟨S_, .i32⟩
  | 114 => ⟨S524288, .i32⟩
  | 115 => ⟨S524288, .i32⟩
  | 116 => ⟨S524288, .i32⟩
  | 117 => ⟨S_, .i32⟩
  | 118 => ⟨S524288, .i32⟩
  | 119 => ⟨S524288, .i1⟩
  | 120 => ⟨S_, .i32⟩
  | 121 => ⟨S524288, .i32⟩
  | 122 => ⟨S524288, .i32⟩
  | 123 => ⟨S524288, .i32⟩
  | 124 => ⟨S524288x1, .i32⟩
  | 125 => ⟨S524288x1, .i32⟩
  | 126 => ⟨S524288x2, .i32⟩
  | 127 => ⟨S524288x256, .f32⟩
  | _ => ⟨S32x1024x215, .f32⟩

abbrev hbmTy0_1 (i : Nat) : BufTy := match i % 128 with
  | 0 => ⟨S_, .f32⟩
  | 1 => ⟨S32768x256, .f32⟩
  | 2 => ⟨S524288x1, .i32⟩
  | 3 => ⟨S32768x256, .f32⟩
  | 4 => ⟨S1x768x256, .f32⟩
  | 5 => ⟨S768x256, .f32⟩
  | 6 => ⟨S1x768x256, .f32⟩
  | 7 => ⟨S768x256, .f32⟩
  | 8 => ⟨S1x768, .f32⟩
  | 9 => ⟨S768, .f32⟩
  | 10 => ⟨S1x768, .f32⟩
  | 11 => ⟨S768, .f32⟩
  | 12 => ⟨S256x768, .f32⟩
  | 13 => ⟨S32768x768, .f32⟩
  | 14 => ⟨S1x768, .f32⟩
  | 15 => ⟨S32768x768, .f32⟩
  | 16 => ⟨S32768x768, .f32⟩
  | 17 => ⟨S256x768, .f32⟩
  | 18 => ⟨S32768x768, .f32⟩
  | 19 => ⟨S1x768, .f32⟩
  | 20 => ⟨S32768x768, .f32⟩
  | 21 => ⟨S32768x768, .f32⟩
  | 22 => ⟨S32768x256, .f32⟩
  | 23 => ⟨S32768x256, .f32⟩
  | 24 => ⟨S32768x256, .f32⟩
  | 25 => ⟨S32768x256, .f32⟩
  | 26 => ⟨S32768x256, .f32⟩
  | 27 => ⟨S32768x256, .f32⟩
  | 28 => ⟨S32768x256, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S_, .f32⟩
  | 35 => ⟨S32768x256, .f32⟩
  | 36 => ⟨S32768x256, .f32⟩
  | 37 => ⟨S32768x256, .f32⟩
  | 38 => ⟨S32768x256, .f32⟩
  | 39 => ⟨S32768x256, .f32⟩
  | 40 => ⟨S_, .f32⟩
  | 41 => ⟨S32768x256, .f32⟩
  | 42 => ⟨S32768x256, .f32⟩
  | 43 => ⟨S_, .f32⟩
  | 44 => ⟨S32768x256, .f32⟩
  | 45 => ⟨S32768x256, .f32⟩
  | 46 => ⟨S32768x256, .f32⟩
  | 47 => ⟨S32768x256, .f32⟩
  | 48 => ⟨S32768x256, .f32⟩
  | 49 => ⟨S_, .f32⟩
  | 50 => ⟨S32768x256, .f32⟩
  | 51 => ⟨S32768x256, .f32⟩
  | 52 => ⟨S32768x256, .f32⟩
  | 53 => ⟨S32768x256, .f32⟩
  | 54 => ⟨S32768x256, .f32⟩
  | 55 => ⟨S1x8x256x256, .f32⟩
  | 56 => ⟨S8x256x256, .f32⟩
  | 57 => ⟨S32768x8x256, .f32⟩
  | 58 => ⟨S1x8x256, .f32⟩
  | 59 => ⟨S8x256, .f32⟩
  | 60 => ⟨S1x8x256, .f32⟩
  | 61 => ⟨S32768x8x256, .f32⟩
  | 62 => ⟨S32768x8x256, .f32⟩
  | 63 => ⟨S_, .i32⟩
  | 64 => ⟨S524288, .i32⟩
  | 65 => ⟨S524288, .i1⟩
  | 66 => ⟨S_, .i32⟩
  | 67 => ⟨S524288, .i32⟩
  | 68 => ⟨S524288, .i32⟩
  | 69 => ⟨S524288, .i32⟩
  | 70 => ⟨S_, .i32⟩
  | 71 => ⟨S524288, .i32⟩
  | 72 => ⟨S524288, .i1⟩
  | 73 => ⟨S_, .i32⟩
  | 74 => ⟨S524288, .i32⟩
  | 75 => ⟨S524288, .i32⟩
  | 76 => ⟨S524288, .i32⟩
  | 77 => ⟨S524288x1, .i32⟩
  | 78 => ⟨S524288x1, .i32⟩
  | 79 => ⟨S524288x2, .i32⟩
  | 80 => ⟨S524288x256, .f32⟩
  | 81 => ⟨S_, .f32⟩
  | 82 => ⟨S32768x256, .f32⟩
  | 83 => ⟨S524288x1, .i32⟩
  | 84 => ⟨S32768x256, .f32⟩
  | 85 => ⟨S1x768x256, .f32⟩
  | 86 => ⟨S768x256, .f32⟩
  | 87 => ⟨S1x768x256, .f32⟩
  | 88 => ⟨S768x256, .f32⟩
  | 89 => ⟨S1x768, .f32⟩
  | 90 => ⟨S768, .f32⟩
  | 91 => ⟨S1x768, .f32⟩
  | 92 => ⟨S768, .f32⟩
  | 93 => ⟨S256x768, .f32⟩
  | 94 => ⟨S32768x768, .f32⟩
  | 95 => ⟨S1x768, .f32⟩
  | 96 => ⟨S32768x768, .f32⟩
  | 97 => ⟨S32768x768, .f32⟩
  | 98 => ⟨S256x768, .f32⟩
  | 99 => ⟨S32768x768, .f32⟩
  | 100 => ⟨S1x768, .f32⟩
  | 101 => ⟨S32768x768, .f32⟩
  | 102 => ⟨S32768x768, .f32⟩
  | 103 => ⟨S32768x256, .f32⟩
  | 104 => ⟨S32768x256, .f32⟩
  | 105 => ⟨S32768x256, .f32⟩
  | 106 => ⟨S32768x256, .f32⟩
  | 107 => ⟨S32768x256, .f32⟩
  | 108 => ⟨S32768x256, .f32⟩
  | 109 => ⟨S32768x256, .f32⟩
  | 110 => ⟨S32768x256, .f32⟩
  | 111 => ⟨S32768x256, .f32⟩
  | 112 => ⟨S_, .f32⟩
  | 113 => ⟨S32768x256, .f32⟩
  | 114 => ⟨S32768x256, .f32⟩
  | 115 => ⟨S_, .f32⟩
  | 116 => ⟨S32768x256, .f32⟩
  | 117 => ⟨S32768x256, .f32⟩
  | 118 => ⟨S32768x256, .f32⟩
  | 119 => ⟨S32768x256, .f32⟩
  | 120 => ⟨S32768x256, .f32⟩
  | 121 => ⟨S_, .f32⟩
  | 122 => ⟨S32768x256, .f32⟩
  | 123 => ⟨S32768x256, .f32⟩
  | 124 => ⟨S_, .f32⟩
  | 125 => ⟨S32768x256, .f32⟩
  | 126 => ⟨S32768x256, .f32⟩
  | 127 => ⟨S32768x256, .f32⟩
  | _ => ⟨S32x1024x215, .f32⟩

abbrev hbmTy0_2 (i : Nat) : BufTy := match i % 128 with
  | 0 => ⟨S32768x256, .f32⟩
  | 1 => ⟨S32768x256, .f32⟩
  | 2 => ⟨S_, .f32⟩
  | 3 => ⟨S32768x256, .f32⟩
  | 4 => ⟨S32768x256, .f32⟩
  | 5 => ⟨S32768x256, .f32⟩
  | 6 => ⟨S32768x256, .f32⟩
  | 7 => ⟨S32768x256, .f32⟩
  | 8 => ⟨S32x1024x256, .f32⟩
  | 9 => ⟨S_, .f32⟩
  | 10 => ⟨S32x256, .f32⟩
  | _ => ⟨S32x1024x215, .f32⟩

abbrev hbmTy (i : Nat) : BufTy := match i / 128 with
  | 0 => hbmTy0_0 i
  | 1 => hbmTy0_1 i
  | 2 => hbmTy0_2 i
  | _ => ⟨S32x1024x215, .f32⟩

abbrev bufTy : (tb : Table) → Fin (tcTables nBuf tb) → BufTy
  | .hbm, ⟨i, _⟩ => hbmTy i
  | _, _ => ⟨S32x1024x215, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_3 : Ref sig .tc := ⟨.hbm, 78, rfl⟩
abbrev main_v62 : Ref sig .tc := ⟨.hbm, 79, rfl⟩
abbrev main_v63 : Ref sig .tc := ⟨.hbm, 80, rfl⟩
abbrev main_cst_4 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_5 : Ref sig .tc := ⟨.hbm, 87, rfl⟩
abbrev main_v69 : Ref sig .tc := ⟨.hbm, 88, rfl⟩
abbrev main_v70 : Ref sig .tc := ⟨.hbm, 89, rfl⟩
abbrev main_cst_6 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_7 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_c_8 : Ref sig .tc := ⟨.hbm, 110, rfl⟩
abbrev main_v89 : Ref sig .tc := ⟨.hbm, 111, rfl⟩
abbrev main_v90 : Ref sig .tc := ⟨.hbm, 112, rfl⟩
abbrev main_c_9 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_c_10 : Ref sig .tc := ⟨.hbm, 117, rfl⟩
abbrev main_v94 : Ref sig .tc := ⟨.hbm, 118, rfl⟩
abbrev main_v95 : Ref sig .tc := ⟨.hbm, 119, rfl⟩
abbrev main_c_11 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_cst_12 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_cst_13 : Ref sig .tc := ⟨.hbm, 159, rfl⟩
abbrev main_v133 : Ref sig .tc := ⟨.hbm, 160, rfl⟩
abbrev main_v134 : Ref sig .tc := ⟨.hbm, 161, rfl⟩
abbrev main_cst_14 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_15 : Ref sig .tc := ⟨.hbm, 168, rfl⟩
abbrev main_v140 : Ref sig .tc := ⟨.hbm, 169, rfl⟩
abbrev main_v141 : Ref sig .tc := ⟨.hbm, 170, rfl⟩
abbrev main_cst_16 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_17 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_c_18 : Ref sig .tc := ⟨.hbm, 191, rfl⟩
abbrev main_v160 : Ref sig .tc := ⟨.hbm, 192, rfl⟩
abbrev main_v161 : Ref sig .tc := ⟨.hbm, 193, rfl⟩
abbrev main_c_19 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_c_20 : Ref sig .tc := ⟨.hbm, 198, rfl⟩
abbrev main_v165 : Ref sig .tc := ⟨.hbm, 199, rfl⟩
abbrev main_v166 : Ref sig .tc := ⟨.hbm, 200, rfl⟩
abbrev main_c_21 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_cst_22 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_cst_23 : Ref sig .tc := ⟨.hbm, 240, rfl⟩
abbrev main_v204 : Ref sig .tc := ⟨.hbm, 241, rfl⟩
abbrev main_v205 : Ref sig .tc := ⟨.hbm, 242, rfl⟩
abbrev main_cst_24 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_cst_25 : Ref sig .tc := ⟨.hbm, 249, rfl⟩
abbrev main_v211 : Ref sig .tc := ⟨.hbm, 250, rfl⟩
abbrev main_v212 : Ref sig .tc := ⟨.hbm, 251, rfl⟩
abbrev main_cst_26 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_cst_27 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_cst_28 : Ref sig .tc := ⟨.hbm, 265, rfl⟩
abbrev main_v224 : Ref sig .tc := ⟨.hbm, 266, rfl⟩

abbrev nD : Nat := 1
abbrev τ : Topo := Topo.v7x

variable {F : FTy → Type} [FloatOps F]

class Facts₀ : Prop where
  shapeCasts_S32x1024x215_S32768x215 : S32x1024x215.ShapeCasts S32768x215
  transposes_S256x215_S215x256_1_0 : S256x215.Transposes [1, 0] S215x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  slices_S2x524288_S1x524288_0_0 : S2x524288.Slices ![0, 0] S1x524288
  shapeCasts_S1x524288_S524288 : S1x524288.ShapeCasts S524288
  slices_S2x524288_S1x524288_1_0 : S2x524288.Slices ![1, 0] S1x524288
  slices_S3x8x256x256_S1x8x256x256_0_0_0_0 : S3x8x256x256.Slices ![0, 0, 0, 0] S1x8x256x256
  shapeCasts_S1x8x256x256_S8x256x256 : S1x8x256x256.ShapeCasts S8x256x256
  slices_S3x8x256_S1x8x256_0_0_0 : S3x8x256.Slices ![0, 0, 0] S1x8x256
  shapeCasts_S1x8x256_S8x256 : S1x8x256.ShapeCasts S8x256
  bcast_S8x256_S1x8x256_1_2 : S8x256.BroadcastsInDim S1x8x256 (![1, 2] : Fin 2 → Fin S1x8x256.rank)
  bcast_S1x8x256_S32768x8x256_0_1_2 : S1x8x256.BroadcastsInDim S32768x8x256 (![0, 1, 2] : Fin 3 → Fin S32768x8x256.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S_S32768x256 : S_.BroadcastsInDim S32768x256 (![] : Fin 0 → Fin S32768x256.rank)
  slices_S3x768x256_S1x768x256_0_0_0 : S3x768x256.Slices ![0, 0, 0] S1x768x256
  shapeCasts_S1x768x256_S768x256 : S1x768x256.ShapeCasts S768x256
  slices_S3x768_S1x768_0_0 : S3x768.Slices ![0, 0] S1x768
  shapeCasts_S1x768_S768 : S1x768.ShapeCasts S768
  transposes_S768x256_S256x768_1_0 : S768x256.Transposes [1, 0] S256x768
  bcast_S768_S1x768_1 : S768.BroadcastsInDim S1x768 (![1] : Fin 1 → Fin S1x768.rank)
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  slices_S3x8x256x256_S1x8x256x256_1_0_0_0 : S3x8x256x256.Slices ![1, 0, 0, 0] S1x8x256x256
  slices_S3x8x256_S1x8x256_1_0_0 : S3x8x256.Slices ![1, 0, 0] S1x8x256
  slices_S3x768x256_S1x768x256_1_0_0 : S3x768x256.Slices ![1, 0, 0] S1x768x256
  slices_S3x768_S1x768_1_0 : S3x768.Slices ![1, 0] S1x768
  slices_S3x8x256x256_S1x8x256x256_2_0_0_0 : S3x8x256x256.Slices ![2, 0, 0, 0] S1x8x256x256
  slices_S3x8x256_S1x8x256_2_0_0 : S3x8x256.Slices ![2, 0, 0] S1x8x256
  slices_S3x768x256_S1x768x256_2_0_0 : S3x768x256.Slices ![2, 0, 0] S1x768x256
  slices_S3x768_S1x768_2_0 : S3x768.Slices ![2, 0] S1x768
  shapeCasts_S32768x256_S32x1024x256 : S32768x256.ShapeCasts S32x1024x256
  reducesTo_S32x1024x256_S32x256_d1 : S32x1024x256.ReducesTo [1] S32x256
  h_S_ : 0 < S_.numel
  dot_S32768x215_S215x256_S32768x256_1_0_0_1_n_n_wf : DotDims.WF S32768x215 S215x256 S32768x256 [1] [0] [0] [1] [] []
  dot_S32768x256_S8x256x256_S32768x8x256_1_2_0_01_n_n_wf : DotDims.WF S32768x256 S8x256x256 S32768x8x256 [1] [2] [0] [0, 1] [] []
  gather_S32768x8x256_S524288x2_S524288x256_1_01_n_n_01_1_11256_wf : GatherDims.WF S32768x8x256 S524288x2 S524288x256 [1] [0, 1] [] [0, 1] [] 1 ![1, 1, 256]
  scatter_S32768x256_S524288x1_S524288x256_1_0_0_1_wf : ScatterDims.WF S32768x256 S524288x1 S524288x256 [1] [0] [0] 1
  dot_S32768x256_S256x768_S32768x768_1_0_0_1_n_n_wf : DotDims.WF S32768x256 S256x768 S32768x768 [1] [0] [0] [1] [] []

variable [Facts₀]

def dot_S32768x215_S215x256_S32768x256_1_0_0_1_n_n : DotDims S32768x215 S215x256 S32768x256 where
  lhsContracting := [1]
  rhsContracting := [0]
  lhsNonContracting := [0]
  rhsNonContracting := [1]
  lhsBatch := []
  rhsBatch := []
  wf := dot_S32768x215_S215x256_S32768x256_1_0_0_1_n_n_wf
def dot_S32768x256_S8x256x256_S32768x8x256_1_2_0_01_n_n : DotDims S32768x256 S8x256x256 S32768x8x256 where
  lhsContracting := [1]
  rhsContracting := [2]
  lhsNonContracting := [0]
  rhsNonContracting := [0, 1]
  lhsBatch := []
  rhsBatch := []
  wf := dot_S32768x256_S8x256x256_S32768x8x256_1_2_0_01_n_n_wf
def gather_S32768x8x256_S524288x2_S524288x256_1_01_n_n_01_1_11256 : GatherDims S32768x8x256 S524288x2 S524288x256 where
  offsetDims := [1]
  collapsedSliceDims := [0, 1]
  operandBatchingDims := []
  startIndicesBatchingDims := []
  startIndexMap := [0, 1]
  indexVectorDim := 1
  sliceSizes := ![1, 1, 256]
  wf := gather_S32768x8x256_S524288x2_S524288x256_1_01_n_n_01_1_11256_wf
def scatter_S32768x256_S524288x1_S524288x256_1_0_0_1 : ScatterDims S32768x256 S524288x1 S524288x256 where
  updateWindowDims := [1]
  insertedWindowDims := [0]
  scatterDimsToOperandDims := [0]
  indexVectorDim := 1
  wf := scatter_S32768x256_S524288x1_S524288x256_1_0_0_1_wf
def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf

class Facts : Prop extends Facts₀ where

variable [Facts]
-- ==== Proof.Spec.lean ====
/-
  The function both programs compute: a gated graph network over 32768 nodes with hidden width 256, eight edge
  types and three propagation layers, read on the extended reals.

  * projection:    h₀(n, j) = Σ_k x(n, k) · Wp(j, k) + bp(j)
  * messages:      Ht(n, t, e) = Σ_d h(n, d) · Wm(t, e, d) + bm(t, e)      (every node, every edge type)
  * per edge:      msg(ε, j) = Ht(src ε, type ε, j)
  * aggregation:   a = scat msg          (the sum of the edges' messages by destination node: one fixed
                                           function of the message array, the same in both programs)
  * gates:         gi(n, g) = Σ_k a(n, k) · Wih(g, k) + bih(g),   gh(n, g) = Σ_k h(n, k) · Whh(g, k) + bhh(g)
  * update:        r = σ(gi_r + gh_r), z = σ(gi_z + gh_z), c = tanh(gi_n + r · gh_n),  h' = (1 − z) · c + z · h
  * readout:       out(b, j) = Σ_{n < 1024} h₃(1024 · b + n, j)

  Everything is curried over literal finite index types; sums are over `Fin k`, so no order of summation is chosen.
-/
import Idealize.ShloMosaic.PureOps.Ideal
import Idealize.ShloMosaic.Lib.ValueIdx

noncomputable section

namespace Cert.GGNN

open Idealize.ShloMosaic Idealize.ShloMosaic.ValueIdx

/-- A hidden state: one extended real per node and feature. -/
abbrev Hid : Type := Fin 32768 → Fin 256 → EReal

/-- The message array as the aggregation takes it: one row of 256 per edge. -/
abbrev EdgeArr : Type := (⟨2, ![524288, 256]⟩ : Shape).Idx → EReal

/-- The word both programs write for the float 1.0 (kept as a word: it is the same word on both sides). -/
abbrev one : EReal := Ideal.ofBits .f32 0x3F800000#32

/-- h₀(n, j) = Σ_k x(n, k) · Wp(j, k) + bp(j). -/
def proj (X : Fin 32768 → Fin 215 → EReal) (Wp : Fin 256 → Fin 215 → EReal) (bp : Fin 256 → EReal) : Hid :=
  fun n j => (∑ k : Fin 215, X n k * Wp j k) + bp j

/-- Ht(n, t, e) = Σ_d h(n, d) · Wm(t, e, d) + bm(t, e). -/
def msg (H : Hid) (Wm : Fin 8 → Fin 256 → Fin 256 → EReal) (bm : Fin 8 → Fin 256 → EReal) :
    Fin 32768 → Fin 8 → Fin 256 → EReal :=
  fun n t e => (∑ d : Fin 256, H n d * Wm t e d) + bm t e

/-- Edge ε's message: the row of `Ht` at its source node and its type. -/
def edgeRow (Ht : Fin 32768 → Fin 8 → Fin 256 → EReal) (sn : Fin 524288 → Fin 32768) (st : Fin 524288 → Fin 8)
    (ε : Fin 524288) (j : Fin 256) : EReal := Ht (sn ε) (st ε) j

/-- The edges' messages as one array. -/
def edgeMsg (Ht : Fin 32768 → Fin 8 → Fin 256 → EReal) (sn : Fin 524288 → Fin 32768) (st : Fin 524288 → Fin 8) : EdgeArr :=
  fun i => edgeRow Ht sn st (i 0) (i 1)

/-- One stacked gate pre-activation: g(n, γ) = Σ_k a(n, k) · W(γ, k) + b(γ), γ over the three stacked gates. -/
def gate (A : Hid) (W : Fin 768 → Fin 256 → EReal) (b : Fin 768 → EReal) : Fin 32768 → Fin 768 → EReal :=
  fun n g => (∑ k : Fin 256, A n k * W g k) + b g

/-- Column j of the reset, update and candidate thirds of the stacked gates. -/
def gR (j : Fin 256) : Fin 768 := ⟨j.val, by omega⟩
def gZ (j : Fin 256) : Fin 768 := ⟨256 + j.val, by omega⟩
def gN (j : Fin 256) : Fin 768 := ⟨512 + j.val, by omega⟩

/-- The gated update h' = (1 − z) · c + z · h with r = σ(gi_r + gh_r), z = σ(gi_z + gh_z), c = tanh(gi_n + r · gh_n). -/
def gru (Gi Gh : Fin 32768 → Fin 768 → EReal) (H : Hid) : Hid := fun n j =>
  (one - Ideal.logistic (Gi n (gZ j) + Gh n (gZ j)))
      * Ideal.tanh (Gi n (gN j) + Ideal.logistic (Gi n (gR j) + Gh n (gR j)) * Gh n (gN j))
    + Ideal.logistic (Gi n (gZ j) + Gh n (gZ j)) * H n j

/-- One propagation layer. `scat` is the aggregation by destination node. -/
def layer (scat : EdgeArr → Hid) (sn : Fin 524288 → Fin 32768) (st : Fin 524288 → Fin 8)
    (Wm : Fin 8 → Fin 256 → Fin 256 → EReal) (bm : Fin 8 → Fin 256 → EReal)
    (Wih Whh : Fin 768 → Fin 256 → EReal) (bih bhh : Fin 768 → EReal) (H : Hid) : Hid :=
  gru (gate (scat (edgeMsg (msg H Wm bm) sn st)) Wih bih) (gate H Whh bhh) H

/-- out(b, j) = Σ_{n < 1024} h(1024 · b + n, j): each graph's block of 1024 nodes summed. -/
def readout (H : Hid) : Fin 32 → Fin 256 → EReal :=
  fun b j => ∑ n : Fin 1024, H ⟨b.val * 1024 + n.val, by omega⟩ j

/-- The whole network: projection, three layers (layer ℓ with the ℓ-th slice of every stacked parameter), readout. -/
def out (scat : EdgeArr → Hid) (sn : Fin 524288 → Fin 32768) (st : Fin 524288 → Fin 8)
    (X : Fin 32768 → Fin 215 → EReal) (Wp : Fin 256 → Fin 215 → EReal) (bp : Fin 256 → EReal)
    (Wm : Fin 3 → Fin 8 → Fin 256 → Fin 256 → EReal) (bm : Fin 3 → Fin 8 → Fin 256 → EReal)
    (Wih Whh : Fin 3 → Fin 768 → Fin 256 → EReal) (bih bhh : Fin 3 → Fin 768 → EReal) : Fin 32 → Fin 256 → EReal :=
  readout
    (layer scat sn st (Wm 2) (bm 2) (Wih 2) (Whh 2) (bih 2) (bhh 2)
      (layer scat sn st (Wm 1) (bm 1) (Wih 1) (Whh 1) (bih 1) (bhh 1)
        (layer scat sn st (Wm 0) (bm 0) (Wih 0) (Whh 0) (bih 0) (bhh 0)
          (proj X Wp bp))))

end Cert.GGNN

end
-- ==== Proof.KArgs.lean ====
/-
  The kernel program's launch arrays read as the curried parameter functions of the network (Spec.lean), and the
  aggregation by destination node as the kernel program spells it: the float scatter-add of the edges' message
  rows into a zero array along the column of destination words (row 1 of the edge list).
-/
import proofs.«408314_j22325240004845_1_alg».proof.Proof.Gen.KernelIdeal
import proofs.«408314_j22325240004845_1_alg».proof.Proof.Spec

noncomputable section

namespace Cert.KernelIdeal.KVal

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-- The eleven launch arrays, each at its literal type. -/
abbrev aX : FVec Ideal S32x1024x215 .f32 := m ((c.tc : Thread nD τ).loc main_arg0)
abbrev aE : IVec S2x524288 32 := m ((c.tc : Thread nD τ).loc main_arg1)
abbrev aT : IVec S524288 32 := m ((c.tc : Thread nD τ).loc main_arg2)
abbrev aWp : FVec Ideal S256x215 .f32 := m ((c.tc : Thread nD τ).loc main_arg3)
abbrev aBp : FVec Ideal S256 .f32 := m ((c.tc : Thread nD τ).loc main_arg4)
abbrev aWm : FVec Ideal S3x8x256x256 .f32 := m ((c.tc : Thread nD τ).loc main_arg5)
abbrev aBm : FVec Ideal S3x8x256 .f32 := m ((c.tc : Thread nD τ).loc main_arg6)
abbrev aWih : FVec Ideal S3x768x256 .f32 := m ((c.tc : Thread nD τ).loc main_arg7)
abbrev aWhh : FVec Ideal S3x768x256 .f32 := m ((c.tc : Thread nD τ).loc main_arg8)
abbrev aBih : FVec Ideal S3x768 .f32 := m ((c.tc : Thread nD τ).loc main_arg9)
abbrev aBhh : FVec Ideal S3x768 .f32 := m ((c.tc : Thread nD τ).loc main_arg10)

/-- Node n's feature row: node n is node n mod 1024 of graph n / 1024. -/
def X : Fin 32768 → Fin 215 → EReal :=
  fun n k => aX m c (ix3 (⟨n.val / 1024, by omega⟩ : Fin 32) (⟨n.val % 1024, by omega⟩ : Fin 1024) k)
def Wp : Fin 256 → Fin 215 → EReal := fun j k => aWp m c (ix2 j k)
def bp : Fin 256 → EReal := fun j => aBp m c (ix1 j)
def Wm : Fin 3 → Fin 8 → Fin 256 → Fin 256 → EReal := fun l t e d => aWm m c (ix4 l t e d)
def bm : Fin 3 → Fin 8 → Fin 256 → EReal := fun l t e => aBm m c (ix3 l t e)
def Wih : Fin 3 → Fin 768 → Fin 256 → EReal := fun l g k => aWih m c (ix3 l g k)
def Whh : Fin 3 → Fin 768 → Fin 256 → EReal := fun l g k => aWhh m c (ix3 l g k)
def bih : Fin 3 → Fin 768 → EReal := fun l g => aBih m c (ix2 l g)
def bhh : Fin 3 → Fin 768 → EReal := fun l g => aBhh m c (ix2 l g)

/-- The destination words as the scatter takes them: row 1 of the edge list, as a column. -/
def dstCol : IVec S524288x1 32 :=
  broadcastInDim S524288x1 ![0] bcast_S524288_S524288x1_0
    (shapeCast S524288 (extractStridedSlice S1x524288 ![1, 0] (aE m c) slices_S2x524288_S1x524288_1_0) shapeCasts_S1x524288_S524288)

/-- The zero array the aggregation adds into. -/
def zeroHid : FVec Ideal S32768x256 .f32 :=
  broadcastInDim S32768x256 ![] bcast_S_S32768x256 (constant (F := Ideal) S_ .f32 0x00000000#32)

/-- The aggregation as an array operation: the edges' message rows added into the zero array at their destination rows. -/
def scatArr (u : FVec Ideal S524288x256 .f32) : FVec Ideal S32768x256 .f32 :=
  Host.scatterAdd scatter_S32768x256_S524288x1_S524288x256_1_0_0_1 (zeroHid) (dstCol m c) u

/-- The aggregation, curried: what Spec.lean's `layer` takes as `scat`. -/
def kscat : Cert.GGNN.EdgeArr → Cert.GGNN.Hid := fun u n k => scatArr m c u (ix2 n k)

end Cert.KernelIdeal.KVal

end
-- ==== Proof.LibPlainMatmul.lean ====
/-
  A plain matrix product into a zero accumulator, read at one entry over the extended reals.

  For `a : [M, K]` and `b : [K, N]` under the dimension numbers "contract the left operand's axis 1 with the right
  operand's axis 0, no batch axis" (`DotDims.plain M K N`), the product accumulated into the zero splat is, at entry
  `(i, l)`, the sum over the contracted coordinate `k` of `a (i, k) * b (k, l)`: the contraction index of these
  dimension numbers has one axis of extent `K`, so the sum over it is re-indexed by its one coordinate, and the operand
  indices at `(i, l)` and `k` are `(i, k)` and `(k, l)`. Nothing is assumed of the entries (they may be infinite).
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand is read on row `i` of the output entry, -/
theorem lhs_row (j : (⟨2, ![M, N]⟩ : Shape).Idx) (q : (DotDims.plain M K N).contr.Idx) :
    ((DotDims.plain M K N).lhsIdx j q 0).val = (j 0).val := rfl
/-- at the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate, -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- on column `l` of the output entry. -/
theorem rhs_col (j : (⟨2, ![M, N]⟩ : Shape).Idx) (q : (DotDims.plain M K N).contr.Idx) :
    ((DotDims.plain M K N).rhsIdx j q 1).val = (j 1).val := rfl

/-- THE PRODUCT AT AN ENTRY: `(a · b) (i, l) = ∑ k, a (i, k) * b (k, l)`, into the zero accumulator. -/
theorem matmul_zero_apply {φ₁ φ₂ : FTy} (prec : Option ContractPrecision)
    (a : FVec Ideal ⟨2, ![M, K]⟩ φ₁) (b : FVec Ideal ⟨2, ![K, N]⟩ φ₂) (i : Fin M) (l : Fin N) :
    FloatOps.matmul (DotDims.plain M K N) prec a b (constant (F := Ideal) ⟨2, ![M, N]⟩ .f32 0x00000000#32) (ix2 i l)
      = ∑ k : Fin K, a (ix2 i k) * b (ix2 k l) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i l) ((contrEquiv1 (DotDims.plain M K N) K rfl rfl).symm k) = ix2 i k :=
    funext fun c => Fin.ext (by
      match c with
      | ⟨0, _⟩ => exact lhs_row M K N _ _
      | ⟨1, _⟩ => exact (lhs_col M K N _ _).trans hk)
  have er : (DotDims.plain M K N).rhsIdx (ix2 i l) ((contrEquiv1 (DotDims.plain M K N) K rfl rfl).symm k) = ix2 k l :=
    funext fun c => Fin.ext (by
      match c with
      | ⟨0, _⟩ => exact (rhs_row M K N _ _).trans hk
      | ⟨1, _⟩ => exact rhs_col M K N _ _)
  rw [el, er]

end Idealize.ShloMosaic.PlainMatmul

end
-- ==== Proof.KProj.lean ====
/-
  The projection, as the first pipelined region leaves it in its output array.

  The region walks 16 row blocks of 2048 nodes. At block t it reads rows 2048·t … 2048·t + 2047 of the feature array
  x, the whole weight array w and the whole one-row bias array b, and stores, at row p and column j of its block,

      Σ_k x(2048·t + p, k) · w(k, j)  +  b(0, j)

  (both operands pass through a narrower float format first, which on the extended reals changes nothing; the product
  is accumulated into zero). Row n of the output array lies in block n / 2048, the 16 blocks tile the array, and so the
  array ends holding, at (n, j), the sum Σ_k x(n, k) · w(k, j) + b(0, j): one function of the three input arrays.
-/
import proofs.«408314_j22325240004845_1_alg».proof.Proof.Gen.KernelIdeal.Frame
import proofs.«408314_j22325240004845_1_alg».proof.Proof.LibPlainMatmul
import Idealize.ShloMosaic.Lib.Pipeline.Value
import Idealize.ShloMosaic.Lib.ValueIdx
import Idealize.ShloMosaic.Lib.ValueLayout

noncomputable section

namespace Cert.KernelIdeal.KVal.Proj

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-! ## The region's arrays and blocks, each named once at its literal type -/

/-- The feature array, one row of 215 per node. -/
abbrev xs (c : Dev nD) : Vec Ideal S32768x215 .f32 := V c (Pipeline.arrRef spec0 0)
/-- The weight array, 215 by 256. -/
abbrev ws (c : Dev nD) : Vec Ideal S215x256 .f32 := V c (Pipeline.arrRef spec0 1)
/-- The bias, as one row of 256. -/
abbrev bs (c : Dev nD) : Vec Ideal S1x256 .f32 := V c (Pipeline.arrRef spec0 2)

/-- Block t of the features: 2048 rows. -/
abbrev xblk (c : Dev nD) (t : Fin cfg0.N) : Vec Ideal S2048x215 .f32 := iblk0 V c 0 t
/-- The weights' one block. -/
abbrev wblk (c : Dev nD) (t : Fin cfg0.N) : Vec Ideal S215x256 .f32 := iblk0 V c 1 t
/-- The bias row's one block. -/
abbrev bblk (c : Dev nD) (t : Fin cfg0.N) : Vec Ideal S1x256 .f32 := iblk0 V c 2 t

/-! ## The function the output array ends holding -/

/-- Entry (n, j) of X · W + b: the row of X against the column of W, plus the bias at that column. -/
abbrev affine (X : Vec Ideal S32768x215 .f32) (W : Vec Ideal S215x256 .f32) (B : Vec Ideal S1x256 .f32)
    (n : Fin 32768) (j : Fin 256) : Elt Ideal .f32 :=
  (∑ k : Fin 215, X (ix2 n k) * W (ix2 k j)) + B (ix2 (0 : Fin 1) j)

/-- The whole output array as that function of the three input arrays. -/
abbrev projArr (c : Dev nD) : Vec Ideal S32768x256 .f32 :=
  fun i => affine (xs V c) (ws V c) (bs V c) (i 0) (i 1)

/-! ## What one block's body stores, entry by entry -/

/-- The product of a 2048×215 block with the 215×256 weights into a zero accumulator, at (p, j). -/
theorem mm_apply (a : FVec Ideal S2048x215 .bf16) (b : FVec Ideal S215x256 .bf16) (p : Fin 2048) (j : Fin 256) :
    matmul (F := Ideal) dot_S2048x215_S215x256_S2048x256_1_0_0_1_n_n none a b
        (constant (F := Ideal) S2048x256 .f32 0x00000000#32) (ix2 p j)
      = ∑ k : Fin 215, a (ix2 p k) * b (ix2 k j) :=
  PlainMatmul.matmul_zero_apply 2048 215 256 none a b p j

/-- The stored value at row p, column j of a block: the block's row p against column j of the weights, plus the
    bias at column j. The two format changes are the identity on the extended reals and the casts are between equal
    shapes. -/
theorem pay_apply (x0 : Vec Ideal S2048x215 .f32) (x1 : Vec Ideal S215x256 .f32) (x2 : Vec Ideal S1x256 .f32)
    (p : Fin 2048) (j : Fin 256) :
    k0_pay1 (F := Ideal) x0 x1 x2 (ix2 p j)
      = (∑ k : Fin 215, x0 (ix2 p k) * x1 (ix2 k j)) + x2 (ix2 (0 : Fin 1) j) := by
  unfold k0_pay1
  simp only [shapeCast_self]
  refine (addf_apply _ _ _).trans ?_
  exact congrArg₂ (· + ·) ((mm_apply _ _ p j).trans rfl) (broadcastTo_1b_ab_apply x2 _ p j)

/-- The same with the block's rows identified as rows of the whole arrays: if row p of the block is row n of X, and
    the other two blocks agree with W and B where they are read, the stored value is entry (n, j) of X · W + b. -/
theorem pay_affine (X : Vec Ideal S32768x215 .f32) (W : Vec Ideal S215x256 .f32) (B : Vec Ideal S1x256 .f32)
    (x0 : Vec Ideal S2048x215 .f32) (x1 : Vec Ideal S215x256 .f32) (x2 : Vec Ideal S1x256 .f32)
    (p : Fin 2048) (j : Fin 256) (n : Fin 32768)
    (h0 : ∀ k : Fin 215, x0 (ix2 p k) = X (ix2 n k))
    (h1 : ∀ k : Fin 215, x1 (ix2 k j) = W (ix2 k j))
    (h2 : x2 (ix2 (0 : Fin 1) j) = B (ix2 (0 : Fin 1) j)) :
    k0_pay1 (F := Ideal) x0 x1 x2 (ix2 p j) = affine X W B n j := by
  rw [pay_apply, h2]
  exact congrArg (· + B (ix2 (0 : Fin 1) j)) (Finset.sum_congr rfl fun k _ => by rw [h0 k, h1 k])

/-! ## Where the blocks sit in their arrays -/

theorem hz : (![0, 0] : Fin 2 → Nat) = fun _ => 0 := funext fun a => by fin_cases a <;> rfl

/-- The block indices over the grid: the features and the output move one block of rows per point, the weights and
    the bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block t is row 2048·t + p of the feature array. -/
theorem xblk_apply (c : Dev nD) (t : Fin cfg0.N) (p : Fin 2048) (k : Fin 215) (n : Fin 32768)
    (hn : n.val = t.val * 2048 + p.val) : xblk V c t (ix2 p k) = xs V c (ix2 n k) := by
  obtain ⟨e0, e1, -⟩ := idx_facts t
  show xs V c (((cfg0.win 0).blk t).view.emb (ix2 p k)) = xs V c (ix2 n k)
  refine congrArg (xs V c) (funext fun a => Fin.ext ?_)
  match a with
  | ⟨0, _⟩ => show win0_0.index t (0 : Fin 2) * 2048 + 1 * p.val = n.val; omega
  | ⟨1, _⟩ => show win0_0.index t (1 : Fin 2) * 215 + 1 * k.val = k.val; omega

/-- The weights' block is the weight array. -/
theorem wblk_apply (c : Dev nD) (t : Fin cfg0.N) (k : Fin 215) (j : Fin 256) :
    wblk V c t (ix2 k j) = ws V c (ix2 k j) := by
  obtain ⟨-, -, e0, e1, -⟩ := idx_facts t
  show ws V c (((cfg0.win 1).blk t).view.emb (ix2 k j)) = ws V c (ix2 k j)
  refine congrArg (ws V c) (funext fun a => Fin.ext ?_)
  match a with
  | ⟨0, _⟩ => show win0_1.index t (0 : Fin 2) * 215 + 1 * k.val = k.val; omega
  | ⟨1, _⟩ => show win0_1.index t (1 : Fin 2) * 256 + 1 * j.val = j.val; omega

/-- The bias row's block is the bias row. -/
theorem bblk_apply (c : Dev nD) (t : Fin cfg0.N) (j : Fin 256) :
    bblk V c t (ix2 (0 : Fin 1) j) = bs V c (ix2 (0 : Fin 1) j) := by
  obtain ⟨-, -, -, -, e0, e1, -⟩ := idx_facts t
  show bs V c (((cfg0.win 2).blk t).view.emb (ix2 (0 : Fin 1) j)) = bs V c (ix2 (0 : Fin 1) j)
  refine congrArg (bs V c) (funext fun a => Fin.ext ?_)
  match a with
  | ⟨0, _⟩ => show win0_2.index t (0 : Fin 2) * 1 + 1 * 0 = 0; omega
  | ⟨1, _⟩ => show win0_2.index t (1 : Fin 2) * 256 + 1 * j.val = j.val; omega

/-! ## What each point writes back, and the array after the last point -/

/-- Point t writes back block t of `projArr`: entry (p, j) of its block is entry (2048·t + p, j) of X · W + b. -/
theorem flushed_eq (c : Dev nD) (t : Fin cfg0.N) :
    (dat0 (F := Ideal) V c).flushed 3 t = ((cfg0.win 3).blk t).view.read (Elt Ideal) (projArr V c) := by
  show (cfg0.win 3).cut (grid0.coords t) ((dat0 (F := Ideal) V c).after 3 t) = _
  rw [after0_3]
  unfold out0_3
  rw [View.canon_unit_zero hz]
  simp only [View.ld_unit_zero (S := S2048x215) hz, View.ld_unit_zero (S := S215x256) hz,
    View.ld_unit_zero (S := S1x256) hz]
  obtain ⟨-, -, -, -, -, -, e0, e1⟩ := idx_facts t
  have hN : cfg0.N = 16 := N_0
  refine funext fun (y : S2048x256.Idx) => ?_
  obtain ⟨p, j, rfl⟩ : ∃ (p : Fin 2048) (j : Fin 256), y = ix2 p j := ⟨y 0, y 1, eq_ix2 y⟩
  have hp : p.val < 2048 := p.isLt
  have ht : t.val < cfg0.N := t.isLt
  obtain ⟨n, hn⟩ : ∃ n : Fin 32768, n.val = t.val * 2048 + p.val := ⟨⟨t.val * 2048 + p.val, by omega⟩, rfl⟩
  have hemb : ((cfg0.win 3).blk t).view.emb (ix2 p j) = ix2 n j := by
    funext a; apply Fin.ext
    match a with
    | ⟨0, _⟩ => show win0_3.index t (0 : Fin 2) * 2048 + 1 * p.val = n.val; omega
    | ⟨1, _⟩ => show win0_3.index t (1 : Fin 2) * 256 + 1 * j.val = j.val; omega
  show k0_pay1 (F := Ideal) (xblk V c t) (wblk V c t) (bblk V c t) (ix2 p j)
      = projArr V c (((cfg0.win 3).blk t).view.emb (ix2 p j))
  rw [hemb]
  exact pay_affine (xs V c) (ws V c) (bs V c) (xblk V c t) (wblk V c t) (bblk V c t) p j n
    (fun k => xblk_apply V c t p k n hn) (fun k => wblk_apply V c t k j) (bblk_apply V c t j)

/-- An index of the output array is in point t's block iff each coordinate is in the block's range on its axis. -/
theorem mem_oblk (t : Fin cfg0.N) (i : S32768x256.Idx) :
    i ∈ ((cfg0.win 3).blk t).view.set
      ↔ ∀ a : Fin 2, win0_3.index t a * S2048x256.size a ≤ (i a).val
          ∧ (i a).val < win0_3.index t a * S2048x256.size a + S2048x256.size a := by
  show i ∈ ((View.whole main_v3).slice (win0_3.rect t)).set ↔ _
  rw [View.set_slice_whole, Rect.mem_set_unit]
  exact Iff.rfl

/-- Every entry of the output array is written back by some point: row r by point r / 2048. -/
theorem cover (i : S32768x256.Idx) :
    ∃ t : Fin cfg0.N, (cfg0.win 3).flush t = true ∧ i ∈ ((cfg0.win 3).blk t).view.set := by
  have hN : cfg0.N = 16 := N_0
  have h0 : (i 0).val < 32768 := (i 0).isLt
  have h1 : (i 1).val < 256 := (i 1).isLt
  obtain ⟨t, ht⟩ : ∃ t : Fin cfg0.N, t.val = (i 0).val / 2048 := ⟨⟨(i 0).val / 2048, by omega⟩, rfl⟩
  obtain ⟨-, -, -, -, -, -, e0, e1⟩ := idx_facts t
  refine ⟨t, flush0_3 t, ?_⟩
  rw [mem_oblk]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 256 ≤ (i 1).val ∧ (i 1).val < win0_3.index t (1 : Fin 2) * 256 + 256
    omega

/-- The output array after the last point is `projArr` of the region's input arrays. -/
theorem final (c : Dev nD) : (dat0 (F := Ideal) V c).arrAt 3 cfg0.N = projArr V c :=
  (dat0 (F := Ideal) V c).arrAt_eq_of_cover 3 (projArr V c) (fun t _ => flushed_eq V c t) cover

/-- THE PROJECTION: entry (n, j) of the region's output array is Σ_k x(n, k) · w(k, j) + b(0, j). -/
theorem proj_arr (c : Dev nD) (n : Fin 32768) (j : Fin 256) :
    (Gen.dat0 (F := Ideal) V c).arrAt 3 cfg0.N (ix2 n j)
      = (∑ k : Fin 215, xs V c (ix2 n k) * ws V c (ix2 k j)) + bs V c (ix2 (0 : Fin 1) j) :=
  congrFun (final V c) (ix2 n j)

end Cert.KernelIdeal.KVal.Proj

end
-- ==== Proof.KFirst.lean ====
/-
  The projection: at the first region's exit the state buffer holds h₀(n, j) = Σ_k x(n, k) · Wp(j, k) + bp(j).
  The region's three input arrays are written by the first host stretch: the node features flattened to one row
  per node, the projection matrix transposed, and the bias as one row.
-/
import proofs.«408314_j22325240004845_1_alg».proof.Proof.Gen.KernelIdeal.Frame
import proofs.«408314_j22325240004845_1_alg».proof.Proof.KArgs
import proofs.«408314_j22325240004845_1_alg».proof.Proof.KProj
import Idealize.ShloMosaic.Lib.ValueLayout
import Idealize.ShloMosaic.Lib.Pipeline.Value
import Idealize.ShloMosaic.Lib.StableHlo.Run

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The flattened features: row n is node n mod 1024 of graph n / 1024. -/
theorem first_x (n : Fin 32768) (k : Fin 215) :
    Proj.xs (V1 m ρ) c (ix2 n k) = X m c n k := by
  have e : Proj.xs (V1 m ρ) c
      = shapeCast S32768x215 (aX m c) shapeCasts_S32x1024x215_S32768x215 := by
    show StableHlo.after hostOps0 (W0 m ρ c) (Proc.devRef .tc main_v0) = _
    after_results; all_goals rfl
  rw [e]; unfold X
  refine shapeCast_apply (aX m c) shapeCasts_S32x1024x215_S32768x215 (ix2 n k)
    (ix3 (⟨n.val / 1024, by omega⟩ : Fin 32) (⟨n.val % 1024, by omega⟩ : Fin 1024) k) ?_
  rw [Shape.rowMajor_val_three, Shape.rowMajor_val_two]
  show (n.val / 1024 * 1024 + n.val % 1024) * 215 + k.val = n.val * 215 + k.val
  omega

/-- The projection matrix transposed. -/
theorem first_w (k : Fin 215) (j : Fin 256) :
    Proj.ws (V1 m ρ) c (ix2 k j) = Wp m c j k := by
  have e : Proj.ws (V1 m ρ) c
      = transpose S215x256 [1, 0] (aWp m c) transposes_S256x215_S215x256_1_0 := by
    show StableHlo.after hostOps0 (W0 m ρ c) (Proc.devRef .tc main_v1) = _
    after_results; all_goals rfl
  rw [e]; unfold Wp
  exact transpose_ix2_apply (aWp m c) transposes_S256x215_S215x256_1_0 k j

/-- The bias as one row. -/
theorem first_b (j : Fin 256) :
    Proj.bs (V1 m ρ) c (ix2 (0 : Fin 1) j) = bp m c j := by
  have e : Proj.bs (V1 m ρ) c = shapeCast S1x256 (aBp m c) shapeCasts_S256_S1x256 := by
    show StableHlo.after hostOps0 (W0 m ρ c) (Proc.devRef .tc main_v2) = _
    after_results; all_goals rfl
  rw [e]; unfold bp
  exact shapeCast_a_1a_apply (aBp m c) shapeCasts_S256_S1x256 0 j

/-- The state buffer at the projection region's exit, at its literal type. -/
abbrev hbuf0 : FVec Ideal S32768x256 .f32 := W2 m ρ c (Proc.devRef .tc main_v3)

/-- The state after the projection region: the region's output array is its pipeline's written-back array, and its
    three input arrays are the host stretch's. -/
theorem first_step (n : Fin 32768) (j : Fin 256) :
    hbuf0 m ρ c (ix2 n j) = Cert.GGNN.proj (X m c) (Wp m c) (bp m c) n j := by
  have hw : hbuf0 m ρ c = (dat0 (F := Ideal) (V1 m ρ) c).arrAt 3 cfg0.N := W2_arr m ρ c 3
  rw [hw, Proj.proj_arr (V1 m ρ) c n j]
  unfold Cert.GGNN.proj
  rw [first_b m ρ c j]
  congr 1
  refine Finset.sum_congr rfl fun k _ => ?_
  rw [first_x m ρ c n k, first_w m ρ c k j]

end Cert.KernelIdeal.KVal

end
-- ==== Proof.KReadout.lean ====
/-
  The readout region. Its input array holds the hidden states as one 1024 × 256 slab per graph, 32 graphs; its result
  array holds one row of 256 features per graph. The grid has four points. Point t stages the slabs of graphs
  8t … 8t + 7 and stores, for each of these eight graphs and each feature j, the sum over the graph's 1024 nodes of
  feature j. So what every point writes back is its own eight rows of ONE function of the input array,

      S(b, j) = Σ_{n < 1024} h(b, n, j),

  and the four blocks of eight rows tile the 32 rows: the result array ends holding S.
-/
import proofs.«408314_j22325240004845_1_alg».proof.Proof.Gen.KernelIdeal.Frame
import Idealize.ShloMosaic.PureOps.Ideal.Laws
import Idealize.ShloMosaic.Lib.Pipeline.Value
import Idealize.ShloMosaic.Lib.ValueIdx

noncomputable section

open Idealize.ShloMosaic Idealize.ShloMosaic.TcCoe Idealize.SL.Sem Idealize.ShloMosaic.ValueIdx Cert.KernelIdeal Cert.KernelIdeal.Gen

namespace Cert.KernelIdeal.KVal.Readout

variable (V : (c : Dev nD) → (b : Ref sig .tc) → Buf (Elt Ideal) ((c : Thread nD τ).loc b))

/-- The hidden states as the readout finds them: h(b, n, j), graph b, node n of the graph, feature j. -/
abbrev hs7 (c : Dev nD) : Vec Ideal S32x1024x256 .f32 := V c (Pipeline.arrRef spec7 0)

/-- The eight slabs point t stages. -/
abbrev hblk7 (c : Dev nD) (t : Fin cfg7.N) : Vec Ideal S8x1024x256 .f32 := iblk7 V c 0 t

/-- S(b, j): graph b's feature j summed over its 1024 nodes. -/
def readoutSum (h : Vec Ideal S32x1024x256 .f32) (b : Fin 32) (j : Fin 256) : EReal :=
  ∑ n : Fin 1024, h (ix3 b n j)

/-- The array of all the graphs' node sums. -/
def readoutSums (h : Vec Ideal S32x1024x256 .f32) : Vec Ideal S32x256 .f32 := fun i => readoutSum h (i 0) (i 1)

theorem readout_zeros3 : (![0, 0, 0] : Fin 3 → Nat) = fun _ => 0 := funext fun a => by fin_cases a <;> rfl
theorem readout_zeros2 : (![0, 0] : Fin 2 → Nat) = fun _ => 0 := funext fun a => by fin_cases a <;> rfl

/-! ## The body's result at an index -/

/-- Row p, feature j of what the body stores: slab p of its block summed over the slab's 1024 nodes (a sum over the
    middle axis into a zero accumulator). -/
theorem readout_pay_apply (x : Vec Ideal S8x1024x256 .f32) (p : Fin 8) (j : Fin 256) :
    k7_pay1 (F := Ideal) x (ix2 p j) = ∑ n : Fin 1024, x (ix3 p n j) := by
  unfold k7_pay1
  refine (Ideal.multiReduction_add_single _ 0x00000000#32 reduces_S8x1024x256_S8x256 (.inl rfl) rfl (ix2 p j)).trans ?_
  refine Finset.sum_congr rfl fun n _ => ?_
  refine (congrFun (shapeCast_self x shapeCasts_S8x1024x256_S8x1024x256) _).trans ?_
  exact congrArg x (funext fun a => Fin.ext (by match a with | ⟨0, _⟩ => rfl | ⟨1, _⟩ => rfl | ⟨2, _⟩ => rfl))

/-! ## The blocks' places in their arrays -/

/-- The two windows' index maps, decided over the four grid points: point t's input block is block (t, 0, 0), its
    output block is block (t, 0). -/
theorem readout_idx_facts : ∀ t : Fin cfg7.N,
    win7_0.index t (0 : Fin 3) = t.val ∧ win7_0.index t (1 : Fin 3) = 0 ∧ win7_0.index t (2 : Fin 3) = 0
    ∧ win7_1.index t (0 : Fin 2) = t.val ∧ win7_1.index t (1 : Fin 2) = 0 :=
  (by decide +kernel : ∀ t : Fin grid7.N, _)

/-- Slab p of point t's input block is graph 8t + p of the hidden states. -/
theorem hblk7_apply (c : Dev nD) (t : Fin cfg7.N) (p : Fin 8) (n : Fin 1024) (j : Fin 256) (b : Fin 32)
    (hb : b.val = t.val * 8 + p.val) :
    hblk7 V c t (ix3 p n j) = hs7 V c (ix3 b n j) := by
  obtain ⟨e0, e1, e2, -, -⟩ := readout_idx_facts t
  unfold hblk7 iblk7
  rw [View.read_apply]
  show V c (Pipeline.arrRef spec7 0) _ = V c (Pipeline.arrRef spec7 0) _
  congr 1
  funext a
  apply Fin.ext
  match a with
  | ⟨0, _⟩ => show win7_0.index t (0 : Fin 3) * 8 + 1 * p.val = b.val; rw [e0, hb]; omega
  | ⟨1, _⟩ => show win7_0.index t (1 : Fin 3) * 1024 + 1 * n.val = n.val; rw [e1]; omega
  | ⟨2, _⟩ => show win7_0.index t (2 : Fin 3) * 256 + 1 * j.val = j.val; rw [e2]; omega

/-- Row p of point t's output block is row 8t + p of the result array. -/
theorem readout_out_emb (t : Fin cfg7.N) (p : Fin 8) (j : Fin 256) (b : Fin 32) (hb : b.val = t.val * 8 + p.val) :
    ((cfg7.win 1).blk t).view.emb (ix2 p j) = (ix2 b j : S32x256.Idx) := by
  obtain ⟨-, -, -, e3, e4⟩ := readout_idx_facts t
  funext a
  apply Fin.ext
  match a with
  | ⟨0, _⟩ => show win7_1.index t (0 : Fin 2) * 8 + 1 * p.val = b.val; rw [e3, hb]; omega
  | ⟨1, _⟩ => show win7_1.index t (1 : Fin 2) * 256 + 1 * j.val = j.val; rw [e4]; omega

/-! ## What a point writes back -/

/-- What point t writes back is its block of the node sums of the hidden states. -/
theorem readout_flushed_eq (c : Dev nD) (t : Fin cfg7.N) :
    (dat7 (F := Ideal) V c).flushed 1 t = ((cfg7.win 1).blk t).view.read (Elt Ideal) (readoutSums (hs7 V c)) := by
  show (cfg7.win 1).cut (grid7.coords t) ((dat7 (F := Ideal) V c).after 1 t) = _
  rw [after7_1]
  unfold out7_1
  rw [View.canon_unit_zero readout_zeros2]
  simp only [View.ld_unit_zero (S := S8x1024x256) readout_zeros3]
  funext y
  obtain ⟨p, j, rfl⟩ : ∃ (p : Fin 8) (j : Fin 256), y = ix2 p j := ⟨y 0, y 1, eq_ix2 (n0 := 8) (n1 := 256) y⟩
  show k7_pay1 (F := Ideal) (hblk7 V c t) (ix2 p j) = readoutSums (hs7 V c) (((cfg7.win 1).blk t).view.emb (ix2 p j))
  have hN : cfg7.N = 4 := N_7
  have hlt : t.val * 8 + p.val < 32 := by have := t.isLt; omega
  refine (readout_pay_apply (hblk7 V c t) p j).trans ?_
  refine Eq.trans ?_ (congrArg (readoutSums (hs7 V c)) (readout_out_emb t p j ⟨t.val * 8 + p.val, hlt⟩ rfl)).symm
  show ∑ n : Fin 1024, hblk7 V c t (ix3 p n j) = ∑ n : Fin 1024, hs7 V c (ix3 ⟨t.val * 8 + p.val, hlt⟩ n j)
  exact Finset.sum_congr rfl fun n _ => hblk7_apply V c t p n j _ rfl

/-! ## The blocks tile the result array -/

/-- An index of the result array is in point t's block iff each coordinate is in the block's range on its axis. -/
theorem readout_mem_blk (t : Fin cfg7.N) (i : S32x256.Idx) :
    i ∈ ((cfg7.win 1).blk t).view.set ↔ ∀ a : Fin 2, win7_1.index t a * S8x256.size a ≤ (i a).val ∧ (i a).val < win7_1.index t a * S8x256.size a + S8x256.size a := by
  show i ∈ ((View.whole main_v96).slice (win7_1.rect t)).set ↔ _
  rw [View.set_slice_whole, Rect.mem_set_unit]
  exact Iff.rfl

/-- Row r of the result array is in the block of point r / 8. -/
theorem readout_cover (i : S32x256.Idx) :
    ∃ t : Fin cfg7.N, (cfg7.win 1).flush t = true ∧ i ∈ ((cfg7.win 1).blk t).view.set := by
  have hN : cfg7.N = 4 := N_7
  have hi0 : (i 0).val < 32 := (i 0).isLt
  have hi1 : (i 1).val < 256 := (i 1).isLt
  obtain ⟨t, ht⟩ : ∃ t : Fin cfg7.N, t.val = (i 0).val / 8 := ⟨⟨(i 0).val / 8, by omega⟩, rfl⟩
  obtain ⟨-, -, -, e3, e4⟩ := readout_idx_facts t
  refine ⟨t, flush7_1 t, ?_⟩
  rw [readout_mem_blk]
  intro a
  match a with
  | ⟨0, _⟩ => show win7_1.index t (0 : Fin 2) * 8 ≤ (i 0).val ∧ (i 0).val < win7_1.index t (0 : Fin 2) * 8 + 8; omega
  | ⟨1, _⟩ => show win7_1.index t (1 : Fin 2) * 256 ≤ (i 1).val ∧ (i 1).val < win7_1.index t (1 : Fin 2) * 256 + 256; omega

/-! ## The result array -/

/-- After the region the result array holds the node sums of the hidden states the region found. -/
theorem readout_sums (c : Dev nD) : (dat7 (F := Ideal) V c).arrAt 1 cfg7.N = readoutSums (hs7 V c) :=
  (dat7 (F := Ideal) V c).arrAt_eq_of_cover 1 (readoutSums (hs7 V c)) (fun t _ => readout_flushed_eq V c t) readout_cover

/-- Entry (b, j) of the result array: graph b's feature j summed over the graph's 1024 nodes. -/
theorem readout_arr (c : Dev nD) (b : Fin 32) (j : Fin 256) :
    (Gen.dat7 (F := Ideal) V c).arrAt 1 cfg7.N (ix2 b j) = ∑ n : Fin 1024, hs7 V c (ix3 b n j) := by
  rw [readout_sums]
  rfl

end Cert.KernelIdeal.KVal.Readout

end
-- ==== Proof.KLast.lean ====
/-
  The readout: the last host stretch regroups the final state as 32 graphs of 1024 nodes, and the readout region
  sums each graph's nodes: out(b, j) = Σ_{n < 1024} h₃(1024 · b + n, j).
-/
import proofs.«408314_j22325240004845_1_alg».proof.Proof.Gen.KernelIdeal.Frame
import proofs.«408314_j22325240004845_1_alg».proof.Proof.Spec
import proofs.«408314_j22325240004845_1_alg».proof.Proof.KReadout
import Idealize.ShloMosaic.Lib.ValueLayout
import Idealize.ShloMosaic.Lib.Pipeline.Value
import Idealize.ShloMosaic.Lib.StableHlo.Run

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The final state buffer (the last GRU region's output, at the last host stretch's entry) and the result buffer,
    at their literal types. -/
abbrev hbuf3 : FVec Ideal S32768x256 .f32 := W20 m ρ c (Proc.devRef .tc main_v94)
abbrev outbuf : FVec Ideal S32x256 .f32 := W22 m ρ c (Proc.devRef .tc main_v96)

/-- The regrouped state: graph b's node n is global node 1024 · b + n. -/
theorem last_h (b : Fin 32) (n : Fin 1024) (j : Fin 256) :
    Readout.hs7 (V21 m ρ) c (ix3 b n j) = hbuf3 m ρ c (ix2 (⟨b.val * 1024 + n.val, by omega⟩ : Fin 32768) j) := by
  have e : Readout.hs7 (V21 m ρ) c = shapeCast S32x1024x256 (hbuf3 m ρ c) shapeCasts_S32768x256_S32x1024x256 := by
    show StableHlo.after hostOps7 (W20 m ρ c) (Proc.devRef .tc main_v95) = _
    after_results; all_goals rfl
  rw [e]
  refine shapeCast_apply (hbuf3 m ρ c) shapeCasts_S32768x256_S32x1024x256
    (ix3 b n j) (ix2 (⟨b.val * 1024 + n.val, by omega⟩ : Fin 32768) j) ?_
  rw [Shape.rowMajor_val_two, Shape.rowMajor_val_three]
  rfl

/-- The result buffer after the readout region. -/
theorem last_step (H : Cert.GGNN.Hid) (hH : ∀ (n : Fin 32768) (j : Fin 256), hbuf3 m ρ c (ix2 n j) = H n j)
    (b : Fin 32) (j : Fin 256) : outbuf m ρ c (ix2 b j) = Cert.GGNN.readout H b j := by
  have hw : outbuf m ρ c = (dat7 (F := Ideal) (V21 m ρ) c).arrAt 1 cfg7.N := W22_arr m ρ c 1
  rw [hw, Readout.readout_arr (V21 m ρ) c b j]
  unfold Cert.GGNN.readout
  refine Finset.sum_congr rfl fun n _ => ?_
  rw [last_h m ρ c b n j, hH]

end Cert.KernelIdeal.KVal

end
-- ==== Proof.KMsg1.lean ====
/-
  Region 1 of the program: the messages of every node under every edge type, as one array.

  The region reads the hidden state h, an array [32768, 256], the stacked message weights w, [256, 2048] (the eight
  edge types' 256 output columns side by side), and the stacked bias, one row [1, 2048]; it writes an array
  [32768, 2048]. Its grid has 32 points. Point t stages rows 1024·t … 1024·t + 1023 of h, the whole of w and the bias
  row, and writes back rows 1024·t … 1024·t + 1023 of the result. What the body leaves at entry (p, g) of its block is
      Σ_d hblock(p, d) · w(d, g) + bias(0, g):
  the product is accumulated into the zero array, narrowing an operand's format is the identity on the extended reals,
  and the bias row is repeated down the rows. Row p of point t's block of h is row 1024·t + p of h, so what point t
  writes back is block t of ONE function of the three arrays, `msgArr1`; the 32 blocks tile the result (the point that
  covers row r is r / 1024), so the result array ends holding `msgArr1`.
-/
import proofs.«408314_j22325240004845_1_alg».proof.Proof.Gen.KernelIdeal.Frame
import proofs.«408314_j22325240004845_1_alg».proof.Proof.LibPlainMatmul
import Idealize.ShloMosaic.Lib.ValueLayout
import Idealize.ShloMosaic.Lib.Pipeline.Value

noncomputable section

namespace Cert.KernelIdeal.KVal.Msg1

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The hidden state as the region finds it: one row of 256 per node. -/
abbrev hs1 (c : Dev nD) : Vec Ideal S32768x256 .f32 := V c (Pipeline.arrRef spec1 0)
/-- The stacked message weights as the region finds them: row d, column g. -/
abbrev ws1 (c : Dev nD) : Vec Ideal S256x2048 .f32 := V c (Pipeline.arrRef spec1 1)
/-- The stacked message bias as the region finds it: one row. -/
abbrev bs1 (c : Dev nD) : Vec Ideal S1x2048 .f32 := V c (Pipeline.arrRef spec1 2)

/-! ## The body's arithmetic at one entry of its block -/

/-- The product's dimension numbers are the plain ones: rows by columns, the left operand's second axis contracted
    with the right operand's first. -/
theorem dot1_plain : dot_S1024x256_S256x2048_S1024x2048_1_0_0_1_n_n = DotDims.plain 1024 256 2048 := rfl

/-- Entry (p, g) of what the body stores: row p of the first block against column g of the second, plus the third's
    one row at g. -/
theorem pay1_apply (x0 : Vec Ideal S1024x256 .f32) (x1 : Vec Ideal S256x2048 .f32) (x2 : Vec Ideal S1x2048 .f32)
    (p : Fin 1024) (g : Fin 2048) :
    (k1_pay1 (F := Ideal) x0 x1 x2) (ix2 p g) = (∑ d : Fin 256, x0 (ix2 p d) * x1 (ix2 d g)) + x2 (ix2 (0 : Fin 1) g) := by
  unfold k1_pay1
  refine (addf_apply _ _ _).trans ?_
  refine congrArg₂ (· + ·) ?_ ?_
  · refine (PlainMatmul.matmul_zero_apply 1024 256 2048 none _ _ p g).trans ?_
    refine Finset.sum_congr rfl fun d _ => ?_
    refine congrArg₂ (· * ·) ?_ ?_
    · exact congrFun (shapeCast_self x0 shapeCasts_S1024x256_S1024x256) (ix2 p d)
    · exact congrFun (shapeCast_self x1 shapeCasts_S256x2048_S256x2048) (ix2 d g)
  · refine (broadcastTo_1b_ab_apply _ _ p g).trans ?_
    exact congrFun (shapeCast_self x2 shapeCasts_S1x2048_S1x2048) (ix2 (0 : Fin 1) g)

/-! ## The whole result as one function of the three arrays -/

/-- Entry (n, g) of the result: node n's row against column g of the weights, plus the bias at g. -/
def msgAt1 (h : Vec Ideal S32768x256 .f32) (w : Vec Ideal S256x2048 .f32) (b : Vec Ideal S1x2048 .f32)
    (n : Fin 32768) (g : Fin 2048) : EReal :=
  (∑ d : Fin 256, h (ix2 n d) * w (ix2 d g)) + b (ix2 (0 : Fin 1) g)

/-- The result array. -/
def msgArr1 (h : Vec Ideal S32768x256 .f32) (w : Vec Ideal S256x2048 .f32) (b : Vec Ideal S1x2048 .f32) :
    Vec Ideal S32768x2048 .f32 := fun i => msgAt1 h w b (i 0) (i 1)

/-! ## The blocks a point stages, as parts of the arrays -/

theorem hz1 : (![0, 0] : Fin 2 → Nat) = fun _ => 0 := funext fun a => by fin_cases a <;> rfl

/-- The printed index maps over the grid: the hidden state's and the result's block index is the point on the rows
    and 0 on the columns; the weights' and the bias's is 0 on both axes. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of the hidden state is row 1024·t + p of the array. -/
theorem hblk1_apply (c : Dev nD) (t : Fin cfg1.N) (p : Fin 1024) (d : Fin 256) (n : Fin 32768)
    (hn : n.val = t.val * 1024 + p.val) :
    (iblk1 V c 0 t : Vec Ideal S1024x256 .f32) (ix2 p d) = hs1 V c (ix2 n d) := by
  obtain ⟨e0, e1, -⟩ := idx_facts1 t
  unfold iblk1
  show V c (Pipeline.arrRef spec1 0) (((cfg1.win 0).blk t).view.emb (ix2 p d)) = V c (Pipeline.arrRef spec1 0) (ix2 n d)
  refine congrArg _ (funext fun a => Fin.ext ?_)
  match a with
  | ⟨0, _⟩ => show win1_0.index t (0 : Fin 2) * 1024 + 1 * p.val = n.val; omega
  | ⟨1, _⟩ => show win1_0.index t (1 : Fin 2) * 256 + 1 * d.val = d.val; omega

/-- Every point's block of the weights is the whole array. -/
theorem wblk1_apply (c : Dev nD) (t : Fin cfg1.N) (d : Fin 256) (g : Fin 2048) :
    (iblk1 V c 1 t : Vec Ideal S256x2048 .f32) (ix2 d g) = ws1 V c (ix2 d g) := by
  obtain ⟨-, -, e0, e1, -⟩ := idx_facts1 t
  unfold iblk1
  show V c (Pipeline.arrRef spec1 1) (((cfg1.win 1).blk t).view.emb (ix2 d g)) = V c (Pipeline.arrRef spec1 1) (ix2 d g)
  refine congrArg _ (funext fun a => Fin.ext ?_)
  match a with
  | ⟨0, _⟩ => show win1_1.index t (0 : Fin 2) * 256 + 1 * d.val = d.val; omega
  | ⟨1, _⟩ => show win1_1.index t (1 : Fin 2) * 2048 + 1 * g.val = g.val; omega

/-- Every point's block of the bias is the whole row. -/
theorem bblk1_apply (c : Dev nD) (t : Fin cfg1.N) (g : Fin 2048) :
    (iblk1 V c 2 t : Vec Ideal S1x2048 .f32) (ix2 (0 : Fin 1) g) = bs1 V c (ix2 (0 : Fin 1) g) := by
  obtain ⟨-, -, -, -, e0, e1, -⟩ := idx_facts1 t
  unfold iblk1
  show V c (Pipeline.arrRef spec1 2) (((cfg1.win 2).blk t).view.emb (ix2 (0 : Fin 1) g)) = V c (Pipeline.arrRef spec1 2) (ix2 (0 : Fin 1) g)
  refine congrArg _ (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 2048 + 1 * g.val = g.val; omega

/-- What the body leaves at (p, g) of point t's block is the result's entry at row 1024·t + p. -/
theorem point1_apply (c : Dev nD) (t : Fin cfg1.N) (p : Fin 1024) (g : Fin 2048) (n : Fin 32768)
    (hn : n.val = t.val * 1024 + p.val) :
    (k1_pay1 (F := Ideal) (iblk1 V c 0 t) (iblk1 V c 1 t) (iblk1 V c 2 t)) (ix2 p g)
      = msgAt1 (hs1 V c) (ws1 V c) (bs1 V c) n g := by
  refine (pay1_apply (iblk1 V c 0 t) (iblk1 V c 1 t) (iblk1 V c 2 t) p g).trans ?_
  unfold msgAt1
  refine congrArg₂ (· + ·) (Finset.sum_congr rfl fun d _ => congrArg₂ (· * ·) ?_ ?_) ?_
  · exact hblk1_apply V c t p d n hn
  · exact wblk1_apply V c t d g
  · exact bblk1_apply V c t g

/-! ## From the blocks to the array -/

/-- What point t writes back is block t of `msgArr1` of the arrays as the region finds them. -/
theorem flushed1_eq (c : Dev nD) (t : Fin cfg1.N) :
    (dat1 (F := Ideal) V c).flushed 3 t
      = ((cfg1.win 3).blk t).view.read (Elt Ideal) (msgArr1 (hs1 V c) (ws1 V c) (bs1 V c)) := by
  show (cfg1.win 3).cut (grid1.coords t) ((dat1 (F := Ideal) V c).after 3 t) = _
  rw [after1_3]
  unfold out1_3
  rw [View.canon_unit_zero hz1]
  simp only [View.ld_unit_zero (S := S1024x256) hz1, View.ld_unit_zero (S := S256x2048) hz1, View.ld_unit_zero (S := S1x2048) hz1]
  obtain ⟨-, -, -, -, -, -, e0, e1⟩ := idx_facts1 t
  funext j
  obtain ⟨p, q, rfl⟩ : ∃ (p : Fin 1024) (q : Fin 2048), j = ix2 p q := ⟨j 0, j 1, eq_ix2 j⟩
  show (k1_pay1 (F := Ideal) (iblk1 V c 0 t) (iblk1 V c 1 t) (iblk1 V c 2 t)) (ix2 p q)
    = msgArr1 (hs1 V c) (ws1 V c) (bs1 V c) (((cfg1.win 3).blk t).view.emb (ix2 p q))
  have hp : p.val < 1024 := p.isLt
  have ht : t.val < 32 := lt_of_lt_of_eq t.isLt N_1
  refine (point1_apply V c t p q ⟨t.val * 1024 + p.val, by omega⟩ rfl).trans ?_
  unfold msgArr1
  refine congrArg₂ (msgAt1 (hs1 V c) (ws1 V c) (bs1 V c)) (Fin.ext ?_) (Fin.ext ?_)
  · show t.val * 1024 + p.val = win1_3.index t (0 : Fin 2) * 1024 + 1 * p.val; omega
  · show q.val = win1_3.index t (1 : Fin 2) * 2048 + 1 * q.val; omega

/-- An index of the result is in point t's block iff each coordinate is in the block's range on its axis. -/
theorem mem_blk1 (t : Fin cfg1.N) (i : S32768x2048.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v15).slice (win1_3.rect t)).set ↔ _
  rw [View.set_slice_whole, Rect.mem_set_unit]
  exact Iff.rfl

/-- Every index of the result is in the block of the point its row falls to. -/
theorem cover1 (i : S32768x2048.Idx) :
    ∃ t : Fin cfg1.N, (cfg1.win 3).flush t = true ∧ i ∈ ((cfg1.win 3).blk t).view.set := by
  have hi0 : (i 0).val < 32768 := idx2_lt0 i
  have hi1 : (i 1).val < 2048 := idx2_lt1 i
  obtain ⟨t, ht⟩ : ∃ t : Fin cfg1.N, t.val = (i 0).val / 1024 :=
    ⟨⟨(i 0).val / 1024, by rw [show cfg1.N = 32 from N_1]; omega⟩, rfl⟩
  obtain ⟨-, -, -, -, -, -, e0, e1⟩ := idx_facts1 t
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- The result array after the region is `msgArr1` of the arrays the region found. -/
theorem final1 (c : Dev nD) :
    (dat1 (F := Ideal) V c).arrAt 3 cfg1.N = msgArr1 (hs1 V c) (ws1 V c) (bs1 V c) :=
  (dat1 (F := Ideal) V c).arrAt_eq_of_cover 3 (msgArr1 (hs1 V c) (ws1 V c) (bs1 V c)) (fun t _ => flushed1_eq V c t) cover1

/-- THE RESULT AT AN ENTRY: node n's row of the hidden state against column g of the weights, plus the bias at g. -/
theorem msg_arr1 (c : Dev nD) (n : Fin 32768) (g : Fin 2048) :
    (dat1 (F := Ideal) V c).arrAt 3 cfg1.N (ix2 n g)
      = (∑ d : Fin 256, hs1 V c (ix2 n d) * ws1 V c (ix2 d g)) + bs1 V c (ix2 (0 : Fin 1) g) := by
  rw [final1 V c]
  rfl

end Cert.KernelIdeal.KVal.Msg1

end
-- ==== Proof.KGru2.lean ====
/-
  The gated recurrent update of one propagation layer, read off the result array of the tiled call that computes it.

  The call walks the 32768 nodes in 32 row blocks of 1024. At row block t it holds rows 1024·t … 1024·t + 1023 of the
  aggregated messages m and of the hidden state h, and the whole of the two stacked weight arrays (256 × 768) and of the two
  stacked bias rows (1 × 768). It forms the two stacked pre-activations

      gi(n, γ) = Σ_k m(n, k) · Wih(k, γ) + bih(γ),      gh(n, γ) = Σ_k h(n, k) · Whh(k, γ) + bhh(γ)

  (a change of float format is the identity on the extended reals; a product accumulated into the zero array is the plain
  sum over the contracted coordinate), cuts each into its three column thirds γ = j, 256 + j, 512 + j (reset, update,
  candidate), and writes back

      h'(n, j) = (1 − z) · c + z · h(n, j),   r = σ(gi_r + gh_r),  z = σ(gi_z + gh_z),  c = tanh(gi_n + r · gh_n).

  Every entry (n, j) of the result depends only on row n of m and h, so what block t writes is the restriction to rows
  1024·t … of ONE function of the whole arrays, and the 32 blocks cover all rows: row n lies in block n / 1024. Hence the
  result array is that function, which is the specification's gated update of the two pre-activations.
-/
import proofs.«408314_j22325240004845_1_alg».proof.Proof.Gen.KernelIdeal.Frame
import proofs.«408314_j22325240004845_1_alg».proof.Proof.Spec
import proofs.«408314_j22325240004845_1_alg».proof.Proof.LibPlainMatmul
import Idealize.ShloMosaic.Lib.Pipeline.Value
import Idealize.ShloMosaic.Lib.ValueIdx

noncomputable section

namespace Cert.KernelIdeal.KVal.Gru2

open Idealize.ShloMosaic Idealize.ShloMosaic.TcCoe Idealize.SL.Sem Idealize.ShloMosaic.ValueIdx Cert.KernelIdeal Cert.KernelIdeal.Gen

/-! ## The update at one entry -/

/-- The gated update at one entry, from the two stacked pre-activation rows of its node and the old state's entry:
    h' = (1 − z) · c + z · h with r = σ(gi_r + gh_r), z = σ(gi_z + gh_z), c = tanh(gi_n + r · gh_n). -/
def gru2_cell (gi gh : Fin 768 → EReal) (h : EReal) (j : Fin 256) : EReal :=
  (Cert.GGNN.one - Ideal.logistic (gi (Cert.GGNN.gZ j) + gh (Cert.GGNN.gZ j)))
      * Ideal.tanh (gi (Cert.GGNN.gN j) + Ideal.logistic (gi (Cert.GGNN.gR j) + gh (Cert.GGNN.gR j)) * gh (Cert.GGNN.gN j))
    + Ideal.logistic (gi (Cert.GGNN.gZ j) + gh (Cert.GGNN.gZ j)) * h

/-- The specification's update of a whole hidden state is that entry update, node by node. -/
theorem gru2_spec_eq_cell (Gi Gh : Fin 32768 → Fin 768 → EReal) (H : Cert.GGNN.Hid) (n : Fin 32768) (j : Fin 256) :
    Cert.GGNN.gru Gi Gh H n j = gru2_cell (Gi n) (Gh n) (H n j) j := rfl

/-! ## The body's operations at an entry of a row block -/

/-- The logistic function of a vector acts entry by entry … -/
theorem gru2_logistic_apply {s : Shape} {φ : FTy} (a : FVec Ideal s φ) (i : s.Idx) :
    logistic a i = Ideal.logistic (a i) := rfl
/-- … and so does the hyperbolic tangent. -/
theorem gru2_tanh_apply {s : Shape} {φ : FTy} (a : FVec Ideal s φ) (i : s.Idx) :
    Idealize.ShloMosaic.tanh a i = Ideal.tanh (a i) := rfl

/-- The product of a row block by a whole weight array, into the zero accumulator, at entry (p, γ): the sum over the
    256 contracted coordinates. -/
theorem gru2_mm_apply (a : FVec Ideal S1024x256 .f32) (w : FVec Ideal S256x768 .f32)
    (hlt : FTy.bits .bf16 < FTy.bits .f32) (p : Fin 1024) (g : Fin 768) :
    matmul dot_S1024x256_S256x768_S1024x768_1_0_0_1_n_n none (truncf .bf16 a hlt) (truncf .bf16 w hlt)
        (constant S1024x768 .f32 0x00000000#32) (ix2 p g)
      = ∑ k : Fin 256, a (ix2 p k) * w (ix2 k g) :=
  PlainMatmul.matmul_zero_apply 1024 256 768 none _ _ p g

/-- The bias row spread over the block's rows, at entry (p, γ): the row's entry γ. -/
theorem gru2_bias_apply (b : FVec Ideal S1x768 .f32) (hbr : S1x768.Broadcasts S1024x768) (p : Fin 1024) (g : Fin 768) :
    broadcastTo S1024x768 b hbr (ix2 p g) = b (ix2 (0 : Fin 1) g) :=
  broadcastTo_apply _ _ _ _ (fun c => by match c with | ⟨0, _⟩ => rfl | ⟨1, _⟩ => rfl)

/-- The reset third of the stacked columns: column j. -/
theorem gru2_thirdR_apply (x : FVec Ideal S1024x768 .f32) (hs : S1024x768.Slices ![0, 0] S1024x256) (p : Fin 1024)
    (q : Fin 256) : extractStridedSlice S1024x256 ![0, 0] x hs (ix2 p q) = x (ix2 p (Cert.GGNN.gR q)) :=
  extractStridedSlice_apply _ _ _ _ _
    (fun c => by match c with | ⟨0, _⟩ => exact (Nat.zero_add _).symm | ⟨1, _⟩ => exact (Nat.zero_add _).symm)
/-- The update third: column 256 + j. -/
theorem gru2_thirdZ_apply (x : FVec Ideal S1024x768 .f32) (hs : S1024x768.Slices ![0, 256] S1024x256) (p : Fin 1024)
    (q : Fin 256) : extractStridedSlice S1024x256 ![0, 256] x hs (ix2 p q) = x (ix2 p (Cert.GGNN.gZ q)) :=
  extractStridedSlice_apply _ _ _ _ _
    (fun c => by match c with | ⟨0, _⟩ => exact (Nat.zero_add _).symm | ⟨1, _⟩ => rfl)
/-- The candidate third: column 512 + j. -/
theorem gru2_thirdN_apply (x : FVec Ideal S1024x768 .f32) (hs : S1024x768.Slices ![0, 512] S1024x256) (p : Fin 1024)
    (q : Fin 256) : extractStridedSlice S1024x256 ![0, 512] x hs (ix2 p q) = x (ix2 p (Cert.GGNN.gN q)) :=
  extractStridedSlice_apply _ _ _ _ _
    (fun c => by match c with | ⟨0, _⟩ => exact (Nat.zero_add _).symm | ⟨1, _⟩ => rfl)

/-- THE BODY'S RESULT AT ENTRY (p, q) OF A ROW BLOCK: the entry update of row p's two pre-activation rows, formed from
    the block's rows of m and h, the whole weights and the bias rows. -/
theorem gru2_pay_apply (v0 v3 : Vec Ideal S1024x256 .f32) (v6 v9 : Vec Ideal S256x768 .f32) (v13 v18 : Vec Ideal S1x768 .f32)
    (v35 : Vec Ideal S1024x256 .f32) (p : Fin 1024) (q : Fin 256) :
    (k2_pay1 (F := Ideal) v0 v3 v6 v9 v13 v18 v35) (ix2 p q)
      = gru2_cell (fun g => (∑ k : Fin 256, v0 (ix2 p k) * v6 (ix2 k g)) + v13 (ix2 (0 : Fin 1) g))
             (fun g => (∑ k : Fin 256, v3 (ix2 p k) * v9 (ix2 k g)) + v18 (ix2 (0 : Fin 1) g))
             (v35 (ix2 p q)) q := by
  unfold k2_pay1 gru2_cell
  simp only [addf_apply, mulf_apply, subf_apply, broadcast_apply, gru2_logistic_apply, gru2_tanh_apply,
    gru2_thirdR_apply, gru2_thirdZ_apply, gru2_thirdN_apply, shapeCast_self, gru2_mm_apply, gru2_bias_apply]
  rfl

/-! ## The region's arrays, and its result as one function of them -/

-- the core's buffer contents when the region is entered
variable (V : (c : Dev nD) → (b : Ref sig .tc) → Buf (Elt Ideal) ((c : Thread nD τ).loc b))

/-- The aggregated messages m, one row of 256 per node. -/
abbrev ms2 (c : Dev nD) : Vec Ideal S32768x256 .f32 := V c (Pipeline.arrRef spec2 0)
/-- The hidden state h before the update. -/
abbrev hs2 (c : Dev nD) : Vec Ideal S32768x256 .f32 := V c (Pipeline.arrRef spec2 1)
/-- The stacked input weights, 256 × 768. -/
abbrev wi2 (c : Dev nD) : Vec Ideal S256x768 .f32 := V c (Pipeline.arrRef spec2 2)
/-- The stacked hidden weights, 256 × 768. -/
abbrev wh2 (c : Dev nD) : Vec Ideal S256x768 .f32 := V c (Pipeline.arrRef spec2 3)
/-- The stacked input bias, one row of 768. -/
abbrev bi2 (c : Dev nD) : Vec Ideal S1x768 .f32 := V c (Pipeline.arrRef spec2 4)
/-- The stacked hidden bias, one row of 768. -/
abbrev bh2 (c : Dev nD) : Vec Ideal S1x768 .f32 := V c (Pipeline.arrRef spec2 5)

/-- The updated hidden state as ONE function of the region's arrays: the specification's gated update of the two
    stacked pre-activations. -/
def gru2_G (c : Dev nD) : Vec Ideal S32768x256 .f32 := fun i =>
  Cert.GGNN.gru
    (fun n g => (∑ k : Fin 256, ms2 V c (ix2 n k) * wi2 V c (ix2 k g)) + bi2 V c (ix2 (0 : Fin 1) g))
    (fun n g => (∑ k : Fin 256, hs2 V c (ix2 n k) * wh2 V c (ix2 k g)) + bh2 V c (ix2 (0 : Fin 1) g))
    (fun n j => hs2 V c (ix2 n j)) (i 0) (i 1)

/-! ## The blocks a grid point holds -/

/-- Row p of row block t is node 1024 · t + p. -/
def gru2_row (t : Fin cfg2.N) (p : Fin 1024) : Fin 32768 :=
  ⟨t.val * 1024 + p.val, by have hN : cfg2.N = 32 := N_2; have := t.isLt; have := p.isLt; omega⟩

/-- Point t's rows of m, … -/
abbrev gru2_mblk (c : Dev nD) (t : Fin cfg2.N) : Vec Ideal S1024x256 .f32 := iblk2 V c 0 t
/-- … its rows of h, … -/
abbrev gru2_hblk (c : Dev nD) (t : Fin cfg2.N) : Vec Ideal S1024x256 .f32 := iblk2 V c 1 t
/-- … and the four whole parameter arrays as it holds them. -/
abbrev gru2_wiblk (c : Dev nD) (t : Fin cfg2.N) : Vec Ideal S256x768 .f32 := iblk2 V c 2 t
abbrev gru2_whblk (c : Dev nD) (t : Fin cfg2.N) : Vec Ideal S256x768 .f32 := iblk2 V c 3 t
abbrev gru2_biblk (c : Dev nD) (t : Fin cfg2.N) : Vec Ideal S1x768 .f32 := iblk2 V c 4 t
abbrev gru2_bhblk (c : Dev nD) (t : Fin cfg2.N) : Vec Ideal S1x768 .f32 := iblk2 V c 5 t

theorem gru2_hz : (![0, 0] : Fin 2 → Nat) = fun _ => 0 := funext fun a => by fin_cases a <;> rfl

/-- The printed index maps over the grid: the two row-blocked inputs and the output sit at block (t, 0); the four
    parameter arrays at block (0, 0). -/
theorem gru2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Point t's block of m is rows 1024 · t … of the array. -/
theorem gru2_mblk_apply (c : Dev nD) (t : Fin cfg2.N) (p : Fin 1024) (q : Fin 256) :
    gru2_mblk V c t (ix2 p q) = ms2 V c (ix2 (gru2_row t p) q) := by
  obtain ⟨e0, e1, -⟩ := gru2_idx t
  show ((cfg2.win 0).blk t).view.read (Elt Ideal) (V c (Pipeline.arrRef spec2 0)) (ix2 p q) = _
  rw [View.read_apply]
  show V c (Pipeline.arrRef spec2 0) _ = V c (Pipeline.arrRef spec2 0) _
  congr 1
  funext a
  apply Fin.ext
  match a with
  | ⟨0, _⟩ => show win2_0.index t (0 : Fin 2) * 1024 + 1 * p.val = t.val * 1024 + p.val; rw [e0]; omega
  | ⟨1, _⟩ => show win2_0.index t (1 : Fin 2) * 256 + 1 * q.val = q.val; rw [e1]; omega

/-- Point t's block of h is rows 1024 · t … of the array. -/
theorem gru2_hblk_apply (c : Dev nD) (t : Fin cfg2.N) (p : Fin 1024) (q : Fin 256) :
    gru2_hblk V c t (ix2 p q) = hs2 V c (ix2 (gru2_row t p) q) := by
  obtain ⟨e00, e01, e10, e11, e20, e21, e30, e31, e40, e41, e50, e51, e60, e61⟩ := gru2_idx t
  show ((cfg2.win 1).blk t).view.read (Elt Ideal) (V c (Pipeline.arrRef spec2 1)) (ix2 p q) = _
  rw [View.read_apply]
  show V c (Pipeline.arrRef spec2 1) _ = V c (Pipeline.arrRef spec2 1) _
  congr 1
  funext a
  apply Fin.ext
  match a with
  | ⟨0, _⟩ => show win2_1.index t (0 : Fin 2) * 1024 + 1 * p.val = t.val * 1024 + p.val; rw [e10]; omega
  | ⟨1, _⟩ => show win2_1.index t (1 : Fin 2) * 256 + 1 * q.val = q.val; rw [e11]; omega

/-- The stacked input weights are held whole at every point, … -/
theorem gru2_wiblk_apply (c : Dev nD) (t : Fin cfg2.N) (k : Fin 256) (g : Fin 768) :
    gru2_wiblk V c t (ix2 k g) = wi2 V c (ix2 k g) := by
  obtain ⟨e00, e01, e10, e11, e20, e21, e30, e31, e40, e41, e50, e51, e60, e61⟩ := gru2_idx t
  show ((cfg2.win 2).blk t).view.read (Elt Ideal) (V c (Pipeline.arrRef spec2 2)) (ix2 k g) = _
  rw [View.read_apply]
  show V c (Pipeline.arrRef spec2 2) _ = V c (Pipeline.arrRef spec2 2) _
  congr 1
  funext a
  apply Fin.ext
  match a with
  | ⟨0, _⟩ => show win2_2.index t (0 : Fin 2) * 256 + 1 * k.val = k.val; rw [e20]; omega
  | ⟨1, _⟩ => show win2_2.index t (1 : Fin 2) * 768 + 1 * g.val = g.val; rw [e21]; omega

/-- … the stacked hidden weights too, … -/
theorem gru2_whblk_apply (c : Dev nD) (t : Fin cfg2.N) (k : Fin 256) (g : Fin 768) :
    gru2_whblk V c t (ix2 k g) = wh2 V c (ix2 k g) := by
  obtain ⟨e00, e01, e10, e11, e20, e21, e30, e31, e40, e41, e50, e51, e60, e61⟩ := gru2_idx t
  show ((cfg2.win 3).blk t).view.read (Elt Ideal) (V c (Pipeline.arrRef spec2 3)) (ix2 k g) = _
  rw [View.read_apply]
  show V c (Pipeline.arrRef spec2 3) _ = V c (Pipeline.arrRef spec2 3) _
  congr 1
  funext a
  apply Fin.ext
  match a with
  | ⟨0, _⟩ => show win2_3.index t (0 : Fin 2) * 256 + 1 * k.val = k.val; rw [e30]; omega
  | ⟨1, _⟩ => show win2_3.index t (1 : Fin 2) * 768 + 1 * g.val = g.val; rw [e31]; omega

/-- … and the two bias rows. -/
theorem gru2_biblk_apply (c : Dev nD) (t : Fin cfg2.N) (g : Fin 768) :
    gru2_biblk V c t (ix2 (0 : Fin 1) g) = bi2 V c (ix2 (0 : Fin 1) g) := by
  obtain ⟨e00, e01, e10, e11, e20, e21, e30, e31, e40, e41, e50, e51, e60, e61⟩ := gru2_idx t
  show ((cfg2.win 4).blk t).view.read (Elt Ideal) (V c (Pipeline.arrRef spec2 4)) (ix2 (0 : Fin 1) g) = _
  rw [View.read_apply]
  show V c (Pipeline.arrRef spec2 4) _ = V c (Pipeline.arrRef spec2 4) _
  congr 1
  funext a
  apply Fin.ext
  match a with
  | ⟨0, _⟩ => show win2_4.index t (0 : Fin 2) * 1 + 1 * (0 : Fin 1).val = (0 : Fin 1).val; rw [e40]; rfl
  | ⟨1, _⟩ => show win2_4.index t (1 : Fin 2) * 768 + 1 * g.val = g.val; rw [e41]; omega

theorem gru2_bhblk_apply (c : Dev nD) (t : Fin cfg2.N) (g : Fin 768) :
    gru2_bhblk V c t (ix2 (0 : Fin 1) g) = bh2 V c (ix2 (0 : Fin 1) g) := by
  obtain ⟨e00, e01, e10, e11, e20, e21, e30, e31, e40, e41, e50, e51, e60, e61⟩ := gru2_idx t
  show ((cfg2.win 5).blk t).view.read (Elt Ideal) (V c (Pipeline.arrRef spec2 5)) (ix2 (0 : Fin 1) g) = _
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (0 : Fin 1).val = (0 : Fin 1).val; rw [e50]; rfl
  | ⟨1, _⟩ => show win2_5.index t (1 : Fin 2) * 768 + 1 * g.val = g.val; rw [e51]; omega

/-! ## From the row blocks to the array -/

/-- The one function at node n, feature j: the entry update of node n's two pre-activation rows. -/
theorem gru2_G_apply (c : Dev nD) (n : Fin 32768) (j : Fin 256) :
    gru2_G V c (ix2 n j)
      = gru2_cell (fun g => (∑ k : Fin 256, ms2 V c (ix2 n k) * wi2 V c (ix2 k g)) + bi2 V c (ix2 (0 : Fin 1) g))
          (fun g => (∑ k : Fin 256, hs2 V c (ix2 n k) * wh2 V c (ix2 k g)) + bh2 V c (ix2 (0 : Fin 1) g))
          (hs2 V c (ix2 n j)) j := rfl

/-- Two row blocks are equal when they agree at every entry (p, q). -/
theorem gru2_blk_ext (X Y : Vec Ideal S1024x256 .f32)
    (h : ∀ (p : Fin 1024) (q : Fin 256), X (ix2 p q) = Y (ix2 p q)) : X = Y :=
  funext fun y => by rw [eq_ix2 y]; exact h _ _

/-- WHAT POINT t WRITES BACK is rows 1024 · t … of the one function: the body's result at (p, q) is the entry update
    of the block's rows, which are the arrays' rows at node 1024 · t + p. -/
theorem gru2_flushed_eq (c : Dev nD) (t : Fin cfg2.N) :
    (dat2 V c).flushed 6 t = ((cfg2.win 6).blk t).view.read (Elt Ideal) (gru2_G V c) := by
  show (cfg2.win 6).cut (grid2.coords t) ((dat2 V c).after 6 t) = _
  rw [after2_6]
  unfold out2_6
  rw [View.canon_unit_zero gru2_hz]
  simp only [View.ld_unit_zero (S := S1024x256) gru2_hz, View.ld_unit_zero (S := S256x768) gru2_hz,
    View.ld_unit_zero (S := S1x768) gru2_hz]
  refine gru2_blk_ext _ _ (fun p q => ?_)
  obtain ⟨e00, e01, e10, e11, e20, e21, e30, e31, e40, e41, e50, e51, e60, e61⟩ := gru2_idx t
  show k2_pay1 (F := Ideal) (gru2_mblk V c t) (gru2_hblk V c t) (gru2_wiblk V c t) (gru2_whblk V c t)
        (gru2_biblk V c t) (gru2_bhblk V c t) (gru2_hblk V c t) (ix2 p q)
      = gru2_G V c (((cfg2.win 6).blk t).view.emb (ix2 p q))
  have hemb : ((cfg2.win 6).blk t).view.emb (ix2 p q) = ix2 (gru2_row t p) q := by
    funext a
    apply Fin.ext
    match a with
    | ⟨0, _⟩ => show win2_6.index t (0 : Fin 2) * 1024 + 1 * p.val = t.val * 1024 + p.val; rw [e60]; omega
    | ⟨1, _⟩ => show win2_6.index t (1 : Fin 2) * 256 + 1 * q.val = q.val; rw [e61]; omega
  rw [hemb, gru2_G_apply]
  refine (gru2_pay_apply (gru2_mblk V c t) (gru2_hblk V c t) (gru2_wiblk V c t) (gru2_whblk V c t)
    (gru2_biblk V c t) (gru2_bhblk V c t) (gru2_hblk V c t) p q).trans ?_
  simp only [gru2_mblk_apply, gru2_hblk_apply, gru2_wiblk_apply, gru2_whblk_apply, gru2_biblk_apply, gru2_bhblk_apply]

/-- An index of the result array is in point t's block iff each coordinate is in the block's range on its axis. -/
theorem gru2_mem_blk (t : Fin cfg2.N) (i : S32768x256.Idx) :
    i ∈ ((cfg2.win 6).blk t).view.set ↔ ∀ a : Fin 2, win2_6.index t a * S1024x256.size a ≤ (i a).val
      ∧ (i a).val < win2_6.index t a * S1024x256.size a + S1024x256.size a := by
  show i ∈ ((View.whole (Pipeline.arrRef spec2 6)).slice (win2_6.rect t)).set ↔ _
  rw [View.set_slice_whole, Rect.mem_set_unit]
  exact Iff.rfl

/-- THE BLOCKS COVER THE ARRAY: row n lies in the block of point n / 1024, and every point writes back. -/
theorem gru2_cover (i : S32768x256.Idx) :
    ∃ t : Fin cfg2.N, (cfg2.win 6).flush t = true ∧ i ∈ ((cfg2.win 6).blk t).view.set := by
  have hN : cfg2.N = 32 := N_2
  have hi0 : (i 0).val < 32768 := (i 0).isLt
  have hi1 : (i 1).val < 256 := (i 1).isLt
  obtain ⟨t, ht⟩ : ∃ t : Fin cfg2.N, t.val = (i 0).val / 1024 := ⟨⟨(i 0).val / 1024, by omega⟩, rfl⟩
  obtain ⟨e00, e01, e10, e11, e20, e21, e30, e31, e40, e41, e50, e51, e60, e61⟩ := gru2_idx t
  refine ⟨t, flush2_6 t, ?_⟩
  rw [gru2_mem_blk]
  intro a
  match a with
  | ⟨0, _⟩ =>
    show win2_6.index t (0 : Fin 2) * 1024 ≤ (i 0).val ∧ (i 0).val < win2_6.index t (0 : Fin 2) * 1024 + 1024
    rw [e60, ht]; omega
  | ⟨1, _⟩ =>
    show win2_6.index t (1 : Fin 2) * 256 ≤ (i 1).val ∧ (i 1).val < win2_6.index t (1 : Fin 2) * 256 + 256
    rw [e61]; omega

/-- THE RESULT ARRAY after the region is the one function of the region's arrays. -/
theorem gru2_final (c : Dev nD) : (dat2 V c).arrAt 6 cfg2.N = gru2_G V c :=
  (dat2 V c).arrAt_eq_of_cover 6 (gru2_G V c) (fun t _ => gru2_flushed_eq V c t) gru2_cover

/-- THE UPDATED HIDDEN STATE: entry (n, j) of the result array is the specification's gated update of the two stacked
    pre-activations of m and h, at node n and feature j. -/
theorem gru_arr2 (c : Dev nD) (n : Fin 32768) (j : Fin 256) :
    (Gen.dat2 (F := Ideal) V c).arrAt 6 cfg2.N (ix2 n j)
      = Cert.GGNN.gru
          (fun n g => (∑ k : Fin 256, ms2 V c (ix2 n k) * wi2 V c (ix2 k g)) + bi2 V c (ix2 (0 : Fin 1) g))
          (fun n g => (∑ k : Fin 256, hs2 V c (ix2 n k) * wh2 V c (ix2 k g)) + bh2 V c (ix2 (0 : Fin 1) g))
          (fun n j => hs2 V c (ix2 n j)) n j :=
  congrFun (gru2_final V c) (ix2 n j)

end Cert.KernelIdeal.KVal.Gru2

end
-- ==== Proof.KLayer0.lean ====
/-
  Layer 0 of the network on the kernel program's side: from the projection region's exit to the first update
  region's exit. The state h enters as one array; the message region multiplies it by the layer's eight message
  matrices laid side by side (column 256·t + e is edge type t, feature e); a reshape makes row 8·n + t of a
  [262144, 256] array the message of node n under edge type t; each edge takes the row 8·src + type; the rows are
  added by destination node; and the update region applies the gated update to the aggregate and the state.
  Every host stretch is read at an index as the layer's slice of a launch array.
-/
import proofs.«408314_j22325240004845_1_alg».proof.Proof.Gen.KernelIdeal.Frame
import proofs.«408314_j22325240004845_1_alg».proof.Proof.KArgs
import proofs.«408314_j22325240004845_1_alg».proof.Proof.KMsg1
import proofs.«408314_j22325240004845_1_alg».proof.Proof.KGru2
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.KVal.Layer0

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-! ## What each host stretch leaves alone -/

/-- The references the stretches write, in order. -/
abbrev wr0 : List (Ref sig .tc) := [main_v0, main_v1, main_v2]
abbrev wr1 : List (Ref sig .tc) :=
  [main_v4, main_v5, main_v6, main_v7, main_v8, main_v9, main_v10, main_v11, main_v12, main_v13, main_v14]
abbrev wr2 : List (Ref sig .tc) := [main_v16, main_c, main_v17, main_v18, main_v19]
abbrev wr2_1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v20]
abbrev wr2_2 : List (Ref sig .tc) :=
  [main_cst, main_v21, main_v22, main_v23, main_v24, main_v25, main_v26, main_v27, main_v28, main_v29, main_v30, main_v31,
   main_v32, main_v33, main_v34, main_v35]

/-- A reference outside a stretch's list holds after the stretch what it held before. -/
theorem keep0 (V : Valuation τ sig (Elt Ideal)) (r : Ref sig .tc) (hr : r ∉ wr0) :
    StableHlo.after hostOps0 V (Proc.devRef .tc r) = V (Proc.devRef .tc r) :=
  StableHlo.after_of_writes_sub hostOps0 V (W := wr0) (by
    simp only [hostOps0, List.Forall, nullary_writes, unary_writes, binary_writes, ternary_writes, reshape_writes,
      Finset.singleton_subset_iff, List.mem_toFinset]
    repeat' apply And.intro
    all_goals exact List.mem_map_of_mem (by decide)) hr
theorem keep1 (V : Valuation τ sig (Elt Ideal)) (r : Ref sig .tc) (hr : r ∉ wr1) :
    StableHlo.after hostOps1 V (Proc.devRef .tc r) = V (Proc.devRef .tc r) :=
  StableHlo.after_of_writes_sub hostOps1 V (W := wr1) (by
    simp only [hostOps1, List.Forall, nullary_writes, unary_writes, binary_writes, ternary_writes, reshape_writes,
      Finset.singleton_subset_iff, List.mem_toFinset]
    repeat' apply And.intro
    all_goals exact List.mem_map_of_mem (by decide)) hr
theorem keep2 (V : Valuation τ sig (Elt Ideal)) (r : Ref sig .tc) (hr : r ∉ wr2) :
    StableHlo.after hostOps2 V (Proc.devRef .tc r) = V (Proc.devRef .tc r) :=
  StableHlo.after_of_writes_sub hostOps2 V (W := wr2) (by
    simp only [hostOps2, List.Forall, nullary_writes, unary_writes, binary_writes, ternary_writes, reshape_writes,
      Finset.singleton_subset_iff, List.mem_toFinset]
    repeat' apply And.intro
    all_goals exact List.mem_map_of_mem (by decide)) hr
theorem keep2_1 (V : Valuation τ sig (Elt Ideal)) (r : Ref sig .tc) (hr : r ∉ wr2_1) :
    StableHlo.after hostOps2_1 V (Proc.devRef .tc r) = V (Proc.devRef .tc r) :=
  StableHlo.after_of_writes_sub hostOps2_1 V (W := wr2_1) (by
    simp only [hostOps2_1, List.Forall, nullary_writes, unary_writes, binary_writes, ternary_writes, reshape_writes,
      Finset.singleton_subset_iff, List.mem_toFinset]
    repeat' apply And.intro
    all_goals exact List.mem_map_of_mem (by decide)) hr
theorem keep2_2 (V : Valuation τ sig (Elt Ideal)) (r : Ref sig .tc) (hr : r ∉ wr2_2) :
    StableHlo.after hostOps2_2 V (Proc.devRef .tc r) = V (Proc.devRef .tc r) :=
  StableHlo.after_of_writes_sub hostOps2_2 V (W := wr2_2) (by
    simp only [hostOps2_2, List.Forall, nullary_writes, unary_writes, binary_writes, ternary_writes, reshape_writes,
      Finset.singleton_subset_iff, List.mem_toFinset]
    repeat' apply And.intro
    all_goals exact List.mem_map_of_mem (by decide)) hr

/-! ## The launch arrays and the state at the boundaries

A launch array is written by no stretch and is no region's output, so every boundary holds the launch memory there. -/

/-- At the projection region's exit. -/
theorem W2_launch (r : Ref sig .tc) (h0 : r ∉ wr0) (hs : ∀ w, Pipeline.arrRef spec0 w ≠ r) :
    W2 m ρ c (Proc.devRef .tc r) = m ((c : Thread nD τ).loc r) :=
  (W2_of_ne m ρ c r hs).trans (keep0 (W0 m ρ c) r h0)
/-- At the message region's entry. -/
theorem W3_launch (r : Ref sig .tc) (h0 : r ∉ wr0) (hs : ∀ w, Pipeline.arrRef spec0 w ≠ r) (h1 : r ∉ wr1) :
    W3 m ρ c (Proc.devRef .tc r) = m ((c : Thread nD τ).loc r) :=
  (keep1 (W2 m ρ c) r h1).trans (W2_launch m ρ c r h0 hs)
/-- At the message region's exit. -/
theorem W4_launch (r : Ref sig .tc) (h0 : r ∉ wr0) (hs : ∀ w, Pipeline.arrRef spec0 w ≠ r) (h1 : r ∉ wr1)
    (hs1 : ∀ w, Pipeline.arrRef spec1 w ≠ r) : W4 m ρ c (Proc.devRef .tc r) = m ((c : Thread nD τ).loc r) :=
  (W4_of_ne m ρ c r hs1).trans (W3_launch m ρ c r h0 hs h1)
/-- After the take. -/
theorem W6_launch (r : Ref sig .tc) (h0 : r ∉ wr0) (hs : ∀ w, Pipeline.arrRef spec0 w ≠ r) (h1 : r ∉ wr1)
    (hs1 : ∀ w, Pipeline.arrRef spec1 w ≠ r) (h2 : r ∉ wr2) (h21 : r ∉ wr2_1) :
    W6 m ρ c (Proc.devRef .tc r) = m ((c : Thread nD τ).loc r) :=
  (keep2_1 (W5 m ρ c) r h21).trans ((keep2 (W4 m ρ c) r h2).trans (W4_launch m ρ c r h0 hs h1 hs1))

/-- The state array is written by nothing between the projection region's exit and the update region's entry. -/
theorem W3_state : W3 m ρ c (Proc.devRef .tc main_v3) = W2 m ρ c (Proc.devRef .tc main_v3) :=
  keep1 (W2 m ρ c) main_v3 (by decide)
/-- The message region reads the state and never writes it back. -/
theorem W4_state : W4 m ρ c (Proc.devRef .tc main_v3) = W2 m ρ c (Proc.devRef .tc main_v3) := by
  have h1 : W4 m ρ c (Proc.devRef .tc main_v3) = (dat1 (F := Ideal) (V3 m ρ) c).arrAt 0 cfg1.N := W4_arr m ρ c 0
  have h2 : (dat1 (F := Ideal) (V3 m ρ) c).arrAt 0 cfg1.N = (dat1 (F := Ideal) (V3 m ρ) c).A 0 :=
    (dat1 (F := Ideal) (V3 m ρ) c).arrAt_in 0 (by decide) cfg1.N
  have h3 : (dat1 (F := Ideal) (V3 m ρ) c).A 0 = V3 m ρ c (Pipeline.arrRef spec1 0) := A_eq1 (V3 m ρ) c 0
  exact h1.trans (h2.trans (h3.trans (W3_state m ρ c)))
theorem W7_state : W7 m ρ c (Proc.devRef .tc main_v3) = W2 m ρ c (Proc.devRef .tc main_v3) :=
  (keep2_2 (W6 m ρ c) main_v3 (by decide)).trans ((keep2_1 (W5 m ρ c) main_v3 (by decide)).trans
    ((keep2 (W4 m ρ c) main_v3 (by decide)).trans (W4_state m ρ c)))

/-! ## The layer's first stretch: the edge list's two rows, the message weights and the message bias

Each result is first read as the operations' term over any contents, then at coordinates. -/

theorem h1_v5 (V : Valuation τ sig (Elt Ideal)) :
    (StableHlo.after hostOps1 V (Proc.devRef .tc main_v5) : IVec S524288 32)
      = shapeCast S524288 (extractStridedSlice S1x524288 ![0, 0] (V (Proc.devRef .tc main_arg1) : IVec S2x524288 32)
          slices_S2x524288_S1x524288_0_0) shapeCasts_S1x524288_S524288 := by
  after_results; all_goals rfl
theorem h1_v7 (V : Valuation τ sig (Elt Ideal)) :
    (StableHlo.after hostOps1 V (Proc.devRef .tc main_v7) : IVec S524288 32)
      = shapeCast S524288 (extractStridedSlice S1x524288 ![1, 0] (V (Proc.devRef .tc main_arg1) : IVec S2x524288 32)
          slices_S2x524288_S1x524288_1_0) shapeCasts_S1x524288_S524288 := by
  after_results; all_goals rfl
theorem h1_v11 (V : Valuation τ sig (Elt Ideal)) :
    (StableHlo.after hostOps1 V (Proc.devRef .tc main_v11) : FVec Ideal S256x2048 .f32)
      = transpose S256x2048 [1, 0] (shapeCast S2048x256 (shapeCast S8x256x256
          (extractStridedSlice S1x8x256x256 ![0, 0, 0, 0] (V (Proc.devRef .tc main_arg5) : FVec Ideal S3x8x256x256 .f32)
            slices_S3x8x256x256_S1x8x256x256_0_0_0_0) shapeCasts_S1x8x256x256_S8x256x256) shapeCasts_S8x256x256_S2048x256)
          transposes_S2048x256_S256x2048_1_0 := by
  after_results; all_goals rfl
theorem h1_v14 (V : Valuation τ sig (Elt Ideal)) :
    (StableHlo.after hostOps1 V (Proc.devRef .tc main_v14) : FVec Ideal S1x2048 .f32)
      = shapeCast S1x2048 (shapeCast S8x256
          (extractStridedSlice S1x8x256 ![0, 0, 0] (V (Proc.devRef .tc main_arg6) : FVec Ideal S3x8x256 .f32)
            slices_S3x8x256_S1x8x256_0_0_0) shapeCasts_S1x8x256_S8x256) shapeCasts_S8x256_S1x2048 := by
  after_results; all_goals rfl

/-- The source words: row 0 of the edge list. -/
theorem src_at (ε : Fin 524288) :
    (W3 m ρ c (Proc.devRef .tc main_v5) : IVec S524288 32) (ix1 ε) = aE m c (ix2 (0 : Fin 2) ε) := by
  have e : (W3 m ρ c (Proc.devRef .tc main_v5) : IVec S524288 32)
      = shapeCast S524288 (extractStridedSlice S1x524288 ![0, 0] (aE m c) slices_S2x524288_S1x524288_0_0)
          shapeCasts_S1x524288_S524288 := by
    have h := h1_v5 (W2 m ρ c)
    rw [W2_launch m ρ c main_arg1 (by decide) (by decide)] at h
    exact h
  rw [e]
  refine (shapeCast_1a_a_apply _ shapeCasts_S1x524288_S524288 ε).trans ?_
  exact slice2_axis0_apply 0 (aE m c) slices_S2x524288_S1x524288_0_0 (0 : Fin 1) ε (0 : Fin 2) rfl

/-- The destination words as an array: row 1 of the edge list, as `dstCol` takes it before its broadcast. -/
theorem dst_eq : (W3 m ρ c (Proc.devRef .tc main_v7) : IVec S524288 32)
    = shapeCast S524288 (extractStridedSlice S1x524288 ![1, 0] (aE m c) slices_S2x524288_S1x524288_1_0)
        shapeCasts_S1x524288_S524288 := by
  have h := h1_v7 (W2 m ρ c)
  rw [W2_launch m ρ c main_arg1 (by decide) (by decide)] at h
  exact h

/-- The message weights: entry (d, 256·t + e) of the region's matrix is W_m(t, e, d) of the layer's slice. -/
theorem wmsg_at (d : Fin 256) (t : Fin 8) (e : Fin 256) :
    (W3 m ρ c (Proc.devRef .tc main_v11) : FVec Ideal S256x2048 .f32) (ix2 d (⟨256 * t.val + e.val, by omega⟩ : Fin 2048))
      = Wm m c 0 t e d := by
  have h := h1_v11 (W2 m ρ c)
  rw [W2_launch m ρ c main_arg5 (by decide) (by decide)] at h
  have e1 : (W3 m ρ c (Proc.devRef .tc main_v11) : FVec Ideal S256x2048 .f32) = _ := h
  rw [e1]; unfold Wm
  refine (transpose_ix2_apply _ transposes_S2048x256_S256x2048_1_0 d (⟨256 * t.val + e.val, by omega⟩ : Fin 2048)).trans ?_
  refine (shapeCast_apply _ shapeCasts_S8x256x256_S2048x256 (ix2 (⟨256 * t.val + e.val, by omega⟩ : Fin 2048) d) (ix3 t e d) ?_).trans ?_
  · rw [Shape.rowMajor_val_three, Shape.rowMajor_val_two]
    show (t.val * 256 + e.val) * 256 + d.val = (256 * t.val + e.val) * 256 + d.val
    omega
  refine (shapeCast_1abc_abc_apply _ shapeCasts_S1x8x256x256_S8x256x256 t e d).trans ?_
  exact extractStridedSlice_apply _ (aWm m c) slices_S3x8x256x256_S1x8x256x256_0_0_0_0 (ix4 (0 : Fin 1) t e d) (ix4 (0 : Fin 3) t e d)
    (fun a => match a with
      | ⟨0, _⟩ => rfl
      | ⟨1, _⟩ => (Nat.zero_add _).symm
      | ⟨2, _⟩ => (Nat.zero_add _).symm
      | ⟨3, _⟩ => (Nat.zero_add _).symm)

/-- The message bias: entry (0, 256·t + e) of the region's row is b_m(t, e) of the layer's slice. -/
theorem bmsg_at (t : Fin 8) (e : Fin 256) :
    (W3 m ρ c (Proc.devRef .tc main_v14) : FVec Ideal S1x2048 .f32) (ix2 (0 : Fin 1) (⟨256 * t.val + e.val, by omega⟩ : Fin 2048))
      = bm m c 0 t e := by
  have h := h1_v14 (W2 m ρ c)
  rw [W2_launch m ρ c main_arg6 (by decide) (by decide)] at h
  have e1 : (W3 m ρ c (Proc.devRef .tc main_v14) : FVec Ideal S1x2048 .f32) = _ := h
  rw [e1]; unfold bm
  refine (shapeCast_apply _ shapeCasts_S8x256_S1x2048 (ix2 (0 : Fin 1) (⟨256 * t.val + e.val, by omega⟩ : Fin 2048)) (ix2 t e) ?_).trans ?_
  · rw [Shape.rowMajor_val_two, Shape.rowMajor_val_two]
    show t.val * 256 + e.val = 0 * 2048 + (256 * t.val + e.val)
    omega
  refine (shapeCast_1ab_ab_apply _ shapeCasts_S1x8x256_S8x256 t e).trans ?_
  exact extractStridedSlice_apply _ (aBm m c) slices_S3x8x256_S1x8x256_0_0_0 (ix3 (0 : Fin 1) t e) (ix3 (0 : Fin 3) t e)
    (fun a => match a with
      | ⟨0, _⟩ => rfl
      | ⟨1, _⟩ => (Nat.zero_add _).symm
      | ⟨2, _⟩ => (Nat.zero_add _).symm)

/-! ## The arrays the two regions and the take read, each at its literal type -/

/-- The state at the projection region's exit. -/
abbrev h2 : FVec Ideal S32768x256 .f32 := W2 m ρ c (Proc.devRef .tc main_v3)
/-- The message region's three input arrays at its entry: the state, the weights, the bias row. -/
abbrev hs1 : FVec Ideal S32768x256 .f32 := V3 m ρ c (Pipeline.arrRef spec1 0)
abbrev ws1 : FVec Ideal S256x2048 .f32 := V3 m ρ c (Pipeline.arrRef spec1 1)
abbrev bs1 : FVec Ideal S1x2048 .f32 := V3 m ρ c (Pipeline.arrRef spec1 2)
/-- The take's index words, the rows it reads from, and its result. -/
abbrev idx5 : IVec S524288 32 := W5 m ρ c (Proc.devRef .tc main_v19)
abbrev rows5 : FVec Ideal S262144x256 .f32 := W5 m ρ c (Proc.devRef .tc main_v16)
abbrev take6 : FVec Ideal S524288x256 .f32 := StableHlo.after hostOps2_1 (W5 m ρ c) (Proc.devRef .tc main_v20)
/-- The update region's six input arrays at its entry: the aggregate, the state, the two gate matrices, the two bias rows. -/
abbrev ms2 : FVec Ideal S32768x256 .f32 := V7 m ρ c (Pipeline.arrRef spec2 0)
abbrev hs2 : FVec Ideal S32768x256 .f32 := V7 m ρ c (Pipeline.arrRef spec2 1)
abbrev wi2 : FVec Ideal S256x768 .f32 := V7 m ρ c (Pipeline.arrRef spec2 2)
abbrev wh2 : FVec Ideal S256x768 .f32 := V7 m ρ c (Pipeline.arrRef spec2 3)
abbrev bi2 : FVec Ideal S1x768 .f32 := V7 m ρ c (Pipeline.arrRef spec2 4)
abbrev bh2 : FVec Ideal S1x768 .f32 := V7 m ρ c (Pipeline.arrRef spec2 5)
/-- The state at the update region's exit. -/
abbrev h8 : FVec Ideal S32768x256 .f32 := W8 m ρ c (Proc.devRef .tc main_v36)

/-! ## The message region: column 256·t + e of row n is the message of node n under edge type t, feature e -/

theorem msg_at
    (hmsg : ∀ (n : Fin 32768) (g : Fin 2048), (dat1 (F := Ideal) (V3 m ρ) c).arrAt 3 cfg1.N (ix2 n g)
        = (∑ d : Fin 256, hs1 m ρ c (ix2 n d) * ws1 m ρ c (ix2 d g)) + bs1 m ρ c (ix2 (0 : Fin 1) g))
    (H : Cert.GGNN.Hid) (hH : ∀ (n : Fin 32768) (j : Fin 256), h2 m ρ c (ix2 n j) = H n j)
    (n : Fin 32768) (t : Fin 8) (e : Fin 256) :
    (W4 m ρ c (Proc.devRef .tc main_v15) : FVec Ideal S32768x2048 .f32) (ix2 n (⟨256 * t.val + e.val, by omega⟩ : Fin 2048))
      = Cert.GGNN.msg H (Wm m c 0) (bm m c 0) n t e := by
  have hw : (W4 m ρ c (Proc.devRef .tc main_v15) : FVec Ideal S32768x2048 .f32)
      = (dat1 (F := Ideal) (V3 m ρ) c).arrAt 3 cfg1.N := W4_arr m ρ c 3
  rw [hw, hmsg n _]
  unfold Cert.GGNN.msg
  have hb : bs1 m ρ c (ix2 (0 : Fin 1) (⟨256 * t.val + e.val, by omega⟩ : Fin 2048)) = bm m c 0 t e := bmsg_at m ρ c t e
  rw [hb]
  congr 1
  refine Finset.sum_congr rfl fun d _ => ?_
  have hs : hs1 m ρ c = h2 m ρ c := W3_state m ρ c
  have hx : hs1 m ρ c (ix2 n d) = H n d := by rw [hs]; exact hH n d
  have hww : ws1 m ρ c (ix2 d (⟨256 * t.val + e.val, by omega⟩ : Fin 2048)) = Wm m c 0 t e d := wmsg_at m ρ c d t e
  rw [hx, hww]

/-! ## The second stretch: the messages as one row per (node, edge type), and each edge's row number -/

theorem h2_v16 (V : Valuation τ sig (Elt Ideal)) :
    (StableHlo.after hostOps2 V (Proc.devRef .tc main_v16) : FVec Ideal S262144x256 .f32)
      = shapeCast S262144x256 (V (Proc.devRef .tc main_v15) : FVec Ideal S32768x2048 .f32) shapeCasts_S32768x2048_S262144x256 := by
  after_results; all_goals rfl
theorem h2_v19 (V : Valuation τ sig (Elt Ideal)) :
    (StableHlo.after hostOps2 V (Proc.devRef .tc main_v19) : IVec S524288 32)
      = addi (muli (V (Proc.devRef .tc main_v5) : IVec S524288 32) (broadcastInDim S524288 ![] bcast_S_S524288 (constantI S_ 32 8#32)))
          (V (Proc.devRef .tc main_arg2) : IVec S524288 32) := by
  after_results; all_goals rfl

/-- Row 8·n + t of the reshaped array is columns 256·t … 256·t + 255 of row n. -/
theorem row_at (n : Fin 32768) (t : Fin 8) (e : Fin 256) :
    rows5 m ρ c (ix2 (⟨8 * n.val + t.val, by omega⟩ : Fin 262144) e)
      = (W4 m ρ c (Proc.devRef .tc main_v15) : FVec Ideal S32768x2048 .f32) (ix2 n (⟨256 * t.val + e.val, by omega⟩ : Fin 2048)) := by
  have e1 : rows5 m ρ c = _ := h2_v16 (W4 m ρ c)
  rw [e1]
  refine shapeCast_apply _ shapeCasts_S32768x2048_S262144x256 (ix2 (⟨8 * n.val + t.val, by omega⟩ : Fin 262144) e)
    (ix2 n (⟨256 * t.val + e.val, by omega⟩ : Fin 2048)) ?_
  rw [Shape.rowMajor_val_two, Shape.rowMajor_val_two]
  show n.val * 2048 + (256 * t.val + e.val) = (8 * n.val + t.val) * 256 + e.val
  omega

/-- Word arithmetic without wrap: 8 · s + t on words, for a node number s and an edge type t. -/
theorem word_idx (s : Fin 32768) (t : Fin 8) :
    IntOp.addi (IntOp.muli (BitVec.ofNat 32 s.val) 8#32) (BitVec.ofNat 32 t.val) = BitVec.ofNat 32 (8 * s.val + t.val) := by
  apply BitVec.eq_of_toNat_eq
  have hs := s.isLt
  have ht := t.isLt
  simp only [IntOp.addi, IntOp.muli, BitVec.toNat_add, BitVec.toNat_mul, BitVec.toNat_ofNat]
  omega

/-- Edge ε's row number is the word 8 · src ε + type ε. -/
theorem idx_at (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val) (ε : Fin 524288) :
    idx5 m ρ c (ix1 ε) = BitVec.ofNat 32 (8 * (sn ε).val + (st ε).val) := by
  have h := h2_v19 (W4 m ρ c)
  rw [W4_launch m ρ c main_arg2 (by decide) (by decide) (by decide) (by decide),
    (W4_of_ne m ρ c main_v5 (by decide) : W4 m ρ c (Proc.devRef .tc main_v5) = W3 m ρ c (Proc.devRef .tc main_v5))] at h
  have e1 : idx5 m ρ c = _ := h
  rw [e1]
  show IntOp.addi (IntOp.muli ((W3 m ρ c (Proc.devRef .tc main_v5) : IVec S524288 32) (ix1 ε)) 8#32) (aT m c (ix1 ε)) = _
  rw [src_at m ρ c ε, hsn ε, hst ε]
  exact word_idx (sn ε) (st ε)

/-! ## The take: each edge's row is its source node's message under its type -/

theorem take_eq
    (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (hmsg : ∀ (n : Fin 32768) (g : Fin 2048), (dat1 (F := Ideal) (V3 m ρ) c).arrAt 3 cfg1.N (ix2 n g)
        = (∑ d : Fin 256, hs1 m ρ c (ix2 n d) * ws1 m ρ c (ix2 d g)) + bs1 m ρ c (ix2 (0 : Fin 1) g))
    (htake : ∀ (r : Fin 524288 → Fin 262144), (∀ ε : Fin 524288, idx5 m ρ c (ix1 ε) = BitVec.ofNat 32 (r ε).val) →
        ∀ (ε : Fin 524288) (j : Fin 256), take6 m ρ c (ix2 ε j) = rows5 m ρ c (ix2 (r ε) j))
    (H : Cert.GGNN.Hid) (hH : ∀ (n : Fin 32768) (j : Fin 256), h2 m ρ c (ix2 n j) = H n j) :
    take6 m ρ c = Cert.GGNN.edgeMsg (Cert.GGNN.msg H (Wm m c 0) (bm m c 0)) sn st := by
  funext i
  obtain ⟨ε, j, rfl⟩ : ∃ (ε : Fin 524288) (j : Fin 256), i = ix2 ε j := ⟨i 0, i 1, eq_ix2 i⟩
  show take6 m ρ c (ix2 ε j) = Cert.GGNN.msg H (Wm m c 0) (bm m c 0) (sn ε) (st ε) j
  rw [htake (fun ε => (⟨8 * (sn ε).val + (st ε).val, by have := (sn ε).isLt; have := (st ε).isLt; omega⟩ : Fin 262144))
    (fun ε => idx_at m ρ c sn st hsn hst ε) ε j]
  exact (row_at m ρ c (sn ε) (st ε) j).trans (msg_at m ρ c hmsg H hH (sn ε) (st ε) j)

/-! ## The third stretch: the aggregation, the gate matrices and the gate bias rows -/

theorem h22_v23 (V : Valuation τ sig (Elt Ideal)) :
    (StableHlo.after hostOps2_2 V (Proc.devRef .tc main_v23) : FVec Ideal S32768x256 .f32)
      = Host.scatterAdd scatter_S32768x256_S524288x1_S524288x256_1_0_0_1
          (broadcastInDim S32768x256 ![] bcast_S_S32768x256 (constant (F := Ideal) S_ .f32 0x00000000#32))
          (broadcastInDim S524288x1 ![0] bcast_S524288_S524288x1_0 (V (Proc.devRef .tc main_v7) : IVec S524288 32))
          (V (Proc.devRef .tc main_v20) : FVec Ideal S524288x256 .f32) := by
  after_results; all_goals rfl
theorem h22_v26 (V : Valuation τ sig (Elt Ideal)) :
    (StableHlo.after hostOps2_2 V (Proc.devRef .tc main_v26) : FVec Ideal S256x768 .f32)
      = transpose S256x768 [1, 0] (shapeCast S768x256
          (extractStridedSlice S1x768x256 ![0, 0, 0] (V (Proc.devRef .tc main_arg7) : FVec Ideal S3x768x256 .f32)
            slices_S3x768x256_S1x768x256_0_0_0) shapeCasts_S1x768x256_S768x256) transposes_S768x256_S256x768_1_0 := by
  after_results; all_goals rfl
theorem h22_v29 (V : Valuation τ sig (Elt Ideal)) :
    (StableHlo.after hostOps2_2 V (Proc.devRef .tc main_v29) : FVec Ideal S256x768 .f32)
      = transpose S256x768 [1, 0] (shapeCast S768x256
          (extractStridedSlice S1x768x256 ![0, 0, 0] (V (Proc.devRef .tc main_arg8) : FVec Ideal S3x768x256 .f32)
            slices_S3x768x256_S1x768x256_0_0_0) shapeCasts_S1x768x256_S768x256) transposes_S768x256_S256x768_1_0 := by
  after_results; all_goals rfl
theorem h22_v32 (V : Valuation τ sig (Elt Ideal)) :
    (StableHlo.after hostOps2_2 V (Proc.devRef .tc main_v32) : FVec Ideal S1x768 .f32)
      = shapeCast S1x768 (shapeCast S768
          (extractStridedSlice S1x768 ![0, 0] (V (Proc.devRef .tc main_arg9) : FVec Ideal S3x768 .f32) slices_S3x768_S1x768_0_0)
          shapeCasts_S1x768_S768) shapeCasts_S768_S1x768 := by
  after_results; all_goals rfl
theorem h22_v35 (V : Valuation τ sig (Elt Ideal)) :
    (StableHlo.after hostOps2_2 V (Proc.devRef .tc main_v35) : FVec Ideal S1x768 .f32)
      = shapeCast S1x768 (shapeCast S768
          (extractStridedSlice S1x768 ![0, 0] (V (Proc.devRef .tc main_arg10) : FVec Ideal S3x768 .f32) slices_S3x768_S1x768_0_0)
          shapeCasts_S1x768_S768) shapeCasts_S768_S1x768 := by
  after_results; all_goals rfl

/-- The destination row of the edge list, still where the first stretch wrote it. -/
theorem W6_dst : (W6 m ρ c (Proc.devRef .tc main_v7) : IVec S524288 32)
    = shapeCast S524288 (extractStridedSlice S1x524288 ![1, 0] (aE m c) slices_S2x524288_S1x524288_1_0)
        shapeCasts_S1x524288_S524288 :=
  (keep2_1 (W5 m ρ c) main_v7 (by decide)).trans ((keep2 (W4 m ρ c) main_v7 (by decide)).trans
    ((W4_of_ne m ρ c main_v7 (by decide)).trans (dst_eq m ρ c)))

/-- The aggregate: the edges' rows added by destination node, as one function of the taken array. -/
theorem agg_eq : ms2 m ρ c = scatArr m c (take6 m ρ c) := by
  have h := h22_v23 (W6 m ρ c)
  rw [W6_dst m ρ c] at h
  unfold scatArr zeroHid dstCol
  exact h

/-- A gate matrix: entry (k, g) of the region's matrix is W(g, k) of the layer's slice. -/
theorem gate_w_at (A : FVec Ideal S3x768x256 .f32) (k : Fin 256) (g : Fin 768) :
    transpose S256x768 [1, 0] (shapeCast S768x256 (extractStridedSlice S1x768x256 ![0, 0, 0] A slices_S3x768x256_S1x768x256_0_0_0)
        shapeCasts_S1x768x256_S768x256) transposes_S768x256_S256x768_1_0 (ix2 k g) = A (ix3 (0 : Fin 3) g k) := by
  refine (transpose_ix2_apply _ transposes_S768x256_S256x768_1_0 k g).trans ?_
  refine (shapeCast_1ab_ab_apply _ shapeCasts_S1x768x256_S768x256 g k).trans ?_
  exact extractStridedSlice_apply _ A slices_S3x768x256_S1x768x256_0_0_0 (ix3 (0 : Fin 1) g k) (ix3 (0 : Fin 3) g k)
    (fun a => match a with
      | ⟨0, _⟩ => rfl
      | ⟨1, _⟩ => (Nat.zero_add _).symm
      | ⟨2, _⟩ => (Nat.zero_add _).symm)
/-- A gate bias row: entry (0, g) of the region's row is b(g) of the layer's slice. -/
theorem gate_b_at (A : FVec Ideal S3x768 .f32) (g : Fin 768) :
    shapeCast S1x768 (shapeCast S768 (extractStridedSlice S1x768 ![0, 0] A slices_S3x768_S1x768_0_0) shapeCasts_S1x768_S768)
        shapeCasts_S768_S1x768 (ix2 (0 : Fin 1) g) = A (ix2 (0 : Fin 3) g) := by
  refine (shapeCast_a_1a_apply _ shapeCasts_S768_S1x768 0 g).trans ?_
  refine (shapeCast_1a_a_apply _ shapeCasts_S1x768_S768 g).trans ?_
  exact slice2_axis0_apply 0 A slices_S3x768_S1x768_0_0 (0 : Fin 1) g (0 : Fin 3) rfl

theorem wih_at (k : Fin 256) (g : Fin 768) : wi2 m ρ c (ix2 k g) = Wih m c 0 g k := by
  have h := h22_v26 (W6 m ρ c)
  rw [W6_launch m ρ c main_arg7 (by decide) (by decide) (by decide) (by decide) (by decide) (by decide)] at h
  have e1 : wi2 m ρ c = _ := h
  rw [e1]; exact gate_w_at (aWih m c) k g
theorem whh_at (k : Fin 256) (g : Fin 768) : wh2 m ρ c (ix2 k g) = Whh m c 0 g k := by
  have h := h22_v29 (W6 m ρ c)
  rw [W6_launch m ρ c main_arg8 (by decide) (by decide) (by decide) (by decide) (by decide) (by decide)] at h
  have e1 : wh2 m ρ c = _ := h
  rw [e1]; exact gate_w_at (aWhh m c) k g
theorem bih_at (g : Fin 768) : bi2 m ρ c (ix2 (0 : Fin 1) g) = bih m c 0 g := by
  have h := h22_v32 (W6 m ρ c)
  rw [W6_launch m ρ c main_arg9 (by decide) (by decide) (by decide) (by decide) (by decide) (by decide)] at h
  have e1 : bi2 m ρ c = _ := h
  rw [e1]; exact gate_b_at (aBih m c) g
theorem bhh_at (g : Fin 768) : bh2 m ρ c (ix2 (0 : Fin 1) g) = bhh m c 0 g := by
  have h := h22_v35 (W6 m ρ c)
  rw [W6_launch m ρ c main_arg10 (by decide) (by decide) (by decide) (by decide) (by decide) (by decide)] at h
  have e1 : bh2 m ρ c = _ := h
  rw [e1]; exact gate_b_at (aBhh m c) g

/-! ## The layer -/

/-- The gated update depends only on its three arguments. -/
theorem gru_congr {Gi Gi' Gh Gh' : Fin 32768 → Fin 768 → EReal} {H H' : Cert.GGNN.Hid}
    (h1 : Gi = Gi') (h2 : Gh = Gh') (h3 : H = H') (n : Fin 32768) (j : Fin 256) :
    Cert.GGNN.gru Gi Gh H n j = Cert.GGNN.gru Gi' Gh' H' n j := by rw [h1, h2, h3]

/-- LAYER 0: if the state at the projection region's exit is `H`, the state at the update region's exit is the
    network's layer applied to `H` with the layer's slices of the parameters and the kernel program's aggregation. -/
theorem layer0_step
    (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idx5 m ρ c (ix1 ε) = BitVec.ofNat 32 (r ε).val) →
        ∀ (ε : Fin 524288) (j : Fin 256), take6 m ρ c (ix2 ε j) = rows5 m ρ c (ix2 (r ε) j))
    (H : Cert.GGNN.Hid) (hH : ∀ (n : Fin 32768) (j : Fin 256), h2 m ρ c (ix2 n j) = H n j) :
    ∀ (n : Fin 32768) (j : Fin 256), h8 m ρ c (ix2 n j)
      = Cert.GGNN.layer (kscat m c) sn st (Wm m c 0) (bm m c 0) (Wih m c 0) (Whh m c 0) (bih m c 0) (bhh m c 0) H n j := by
  intro n j
  have hw : h8 m ρ c = (dat2 (F := Ideal) (V7 m ρ) c).arrAt 6 cfg2.N := W8_arr m ρ c 6
  rw [hw]
  refine (Gru2.gru_arr2 (V7 m ρ) c n j).trans ?_
  unfold Cert.GGNN.layer
  have hs : hs2 m ρ c = h2 m ρ c := W7_state m ρ c
  have hst2 : ∀ (n : Fin 32768) (k : Fin 256), hs2 m ρ c (ix2 n k) = H n k := fun n k => by rw [hs]; exact hH n k
  have hag : ∀ (n : Fin 32768) (k : Fin 256), ms2 m ρ c (ix2 n k)
      = kscat m c (Cert.GGNN.edgeMsg (Cert.GGNN.msg H (Wm m c 0) (bm m c 0)) sn st) n k := fun n k => by
    rw [agg_eq m ρ c, take_eq m ρ c sn st hsn hst (fun n g => Msg1.msg_arr1 (V3 m ρ) c n g) htake H hH]
    rfl
  have e1 : (fun (n : Fin 32768) (g : Fin 768) => (∑ k : Fin 256, ms2 m ρ c (ix2 n k) * wi2 m ρ c (ix2 k g)) + bi2 m ρ c (ix2 (0 : Fin 1) g))
      = Cert.GGNN.gate (kscat m c (Cert.GGNN.edgeMsg (Cert.GGNN.msg H (Wm m c 0) (bm m c 0)) sn st)) (Wih m c 0) (bih m c 0) := by
    funext n g
    unfold Cert.GGNN.gate
    have hsum : (∑ k : Fin 256, ms2 m ρ c (ix2 n k) * wi2 m ρ c (ix2 k g))
        = ∑ k : Fin 256, kscat m c (Cert.GGNN.edgeMsg (Cert.GGNN.msg H (Wm m c 0) (bm m c 0)) sn st) n k * Wih m c 0 g k :=
      Finset.sum_congr rfl fun k _ => by rw [hag n k, wih_at m ρ c k g]
    rw [hsum, bih_at m ρ c g]
  have e2 : (fun (n : Fin 32768) (g : Fin 768) => (∑ k : Fin 256, hs2 m ρ c (ix2 n k) * wh2 m ρ c (ix2 k g)) + bh2 m ρ c (ix2 (0 : Fin 1) g))
      = Cert.GGNN.gate H (Whh m c 0) (bhh m c 0) := by
    funext n g
    unfold Cert.GGNN.gate
    have hsum : (∑ k : Fin 256, hs2 m ρ c (ix2 n k) * wh2 m ρ c (ix2 k g)) = ∑ k : Fin 256, H n k * Whh m c 0 g k :=
      Finset.sum_congr rfl fun k _ => by rw [hst2 n k, whh_at m ρ c k g]
    rw [hsum, bhh_at m ρ c g]
  have e3 : (fun (n : Fin 32768) (j : Fin 256) => hs2 m ρ c (ix2 n j)) = H := by
    funext n j
    exact hst2 n j
  exact gru_congr e1 e2 e3 n j

end Cert.KernelIdeal.KVal.Layer0

end
-- ==== Proof.KMsg3.lean ====
/-
  Region 3 of the program: the messages of every node under every edge type, as one array.

  The region reads the hidden state h, an array [32768, 256], the stacked message weights w, [256, 2048] (the eight
  edge types' 256 output columns side by side), and the stacked bias, one row [1, 2048]; it writes an array
  [32768, 2048]. Its grid has 32 points. Point t stages rows 1024·t … 1024·t + 1023 of h, the whole of w and the bias
  row, and writes back rows 1024·t … 1024·t + 1023 of the result. What the body leaves at entry (p, g) of its block is
      Σ_d hblock(p, d) · w(d, g) + bias(0, g):
  the product is accumulated into the zero array, narrowing an operand's format is the identity on the extended reals,
  and the bias row is repeated down the rows. Row p of point t's block of h is row 1024·t + p of h, so what point t
  writes back is block t of ONE function of the three arrays, `msgArr3`; the 32 blocks tile the result (the point that
  covers row r is r / 1024), so the result array ends holding `msgArr3`.
-/
import proofs.«408314_j22325240004845_1_alg».proof.Proof.Gen.KernelIdeal.Frame
import proofs.«408314_j22325240004845_1_alg».proof.Proof.LibPlainMatmul
import Idealize.ShloMosaic.Lib.ValueLayout
import Idealize.ShloMosaic.Lib.Pipeline.Value

noncomputable section

namespace Cert.KernelIdeal.KVal.Msg3

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The hidden state as the region finds it: one row of 256 per node. -/
abbrev hs3 (c : Dev nD) : Vec Ideal S32768x256 .f32 := V c (Pipeline.arrRef spec3 0)
/-- The stacked message weights as the region finds them: row d, column g. -/
abbrev ws3 (c : Dev nD) : Vec Ideal S256x2048 .f32 := V c (Pipeline.arrRef spec3 1)
/-- The stacked message bias as the region finds it: one row. -/
abbrev bs3 (c : Dev nD) : Vec Ideal S1x2048 .f32 := V c (Pipeline.arrRef spec3 2)

/-! ## The body's arithmetic at one entry of its block -/

/-- The product's dimension numbers are the plain ones: rows by columns, the left operand's second axis contracted
    with the right operand's first. -/
theorem dot3_plain : dot_S1024x256_S256x2048_S1024x2048_1_0_0_1_n_n = DotDims.plain 1024 256 2048 := rfl

/-- Entry (p, g) of what the body stores: row p of the first block against column g of the second, plus the third's
    one row at g. -/
theorem pay3_apply (x0 : Vec Ideal S1024x256 .f32) (x1 : Vec Ideal S256x2048 .f32) (x2 : Vec Ideal S1x2048 .f32)
    (p : Fin 1024) (g : Fin 2048) :
    (k3_pay1 (F := Ideal) x0 x1 x2) (ix2 p g) = (∑ d : Fin 256, x0 (ix2 p d) * x1 (ix2 d g)) + x2 (ix2 (0 : Fin 1) g) := by
  unfold k3_pay1
  refine (addf_apply _ _ _).trans ?_
  refine congrArg₂ (· + ·) ?_ ?_
  · refine (PlainMatmul.matmul_zero_apply 1024 256 2048 none _ _ p g).trans ?_
    refine Finset.sum_congr rfl fun d _ => ?_
    refine congrArg₂ (· * ·) ?_ ?_
    · exact congrFun (shapeCast_self x0 shapeCasts_S1024x256_S1024x256) (ix2 p d)
    · exact congrFun (shapeCast_self x1 shapeCasts_S256x2048_S256x2048) (ix2 d g)
  · refine (broadcastTo_1b_ab_apply _ _ p g).trans ?_
    exact congrFun (shapeCast_self x2 shapeCasts_S1x2048_S1x2048) (ix2 (0 : Fin 1) g)

/-! ## The whole result as one function of the three arrays -/

/-- Entry (n, g) of the result: node n's row against column g of the weights, plus the bias at g. -/
def msgAt3 (h : Vec Ideal S32768x256 .f32) (w : Vec Ideal S256x2048 .f32) (b : Vec Ideal S1x2048 .f32)
    (n : Fin 32768) (g : Fin 2048) : EReal :=
  (∑ d : Fin 256, h (ix2 n d) * w (ix2 d g)) + b (ix2 (0 : Fin 1) g)

/-- The result array. -/
def msgArr3 (h : Vec Ideal S32768x256 .f32) (w : Vec Ideal S256x2048 .f32) (b : Vec Ideal S1x2048 .f32) :
    Vec Ideal S32768x2048 .f32 := fun i => msgAt3 h w b (i 0) (i 1)

/-! ## The blocks a point stages, as parts of the arrays -/

theorem hz3 : (![0, 0] : Fin 2 → Nat) = fun _ => 0 := funext fun a => by fin_cases a <;> rfl

/-- The printed index maps over the grid: the hidden state's and the result's block index is the point on the rows
    and 0 on the columns; the weights' and the bias's is 0 on both axes. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of point t's block of the hidden state is row 1024·t + p of the array. -/
theorem hblk3_apply (c : Dev nD) (t : Fin cfg3.N) (p : Fin 1024) (d : Fin 256) (n : Fin 32768)
    (hn : n.val = t.val * 1024 + p.val) :
    (iblk3 V c 0 t : Vec Ideal S1024x256 .f32) (ix2 p d) = hs3 V c (ix2 n d) := by
  obtain ⟨e0, e1, -⟩ := idx_facts3 t
  unfold iblk3
  show V c (Pipeline.arrRef spec3 0) (((cfg3.win 0).blk t).view.emb (ix2 p d)) = V c (Pipeline.arrRef spec3 0) (ix2 n d)
  refine congrArg _ (funext fun a => Fin.ext ?_)
  match a with
  | ⟨0, _⟩ => show win3_0.index t (0 : Fin 2) * 1024 + 1 * p.val = n.val; omega
  | ⟨1, _⟩ => show win3_0.index t (1 : Fin 2) * 256 + 1 * d.val = d.val; omega

/-- Every point's block of the weights is the whole array. -/
theorem wblk3_apply (c : Dev nD) (t : Fin cfg3.N) (d : Fin 256) (g : Fin 2048) :
    (iblk3 V c 1 t : Vec Ideal S256x2048 .f32) (ix2 d g) = ws3 V c (ix2 d g) := by
  obtain ⟨-, -, e0, e1, -⟩ := idx_facts3 t
  unfold iblk3
  show V c (Pipeline.arrRef spec3 1) (((cfg3.win 1).blk t).view.emb (ix2 d g)) = V c (Pipeline.arrRef spec3 1) (ix2 d g)
  refine congrArg _ (funext fun a => Fin.ext ?_)
  match a with
  | ⟨0, _⟩ => show win3_1.index t (0 : Fin 2) * 256 + 1 * d.val = d.val; omega
  | ⟨1, _⟩ => show win3_1.index t (1 : Fin 2) * 2048 + 1 * g.val = g.val; omega

/-- Every point's block of the bias is the whole row. -/
theorem bblk3_apply (c : Dev nD) (t : Fin cfg3.N) (g : Fin 2048) :
    (iblk3 V c 2 t : Vec Ideal S1x2048 .f32) (ix2 (0 : Fin 1) g) = bs3 V c (ix2 (0 : Fin 1) g) := by
  obtain ⟨-, -, -, -, e0, e1, -⟩ := idx_facts3 t
  unfold iblk3
  show V c (Pipeline.arrRef spec3 2) (((cfg3.win 2).blk t).view.emb (ix2 (0 : Fin 1) g)) = V c (Pipeline.arrRef spec3 2) (ix2 (0 : Fin 1) g)
  refine congrArg _ (funext fun a => Fin.ext ?_)
  match a with
  | ⟨0, _⟩ => show win3_2.index t (0 : Fin 2) * 1 + 1 * (0 : Fin 1).val = (0 : Fin 1).val; omega
  | ⟨1, _⟩ => show win3_2.index t (1 : Fin 2) * 2048 + 1 * g.val = g.val; omega

/-- What the body leaves at (p, g) of point t's block is the result's entry at row 1024·t + p. -/
theorem point3_apply (c : Dev nD) (t : Fin cfg3.N) (p : Fin 1024) (g : Fin 2048) (n : Fin 32768)
    (hn : n.val = t.val * 1024 + p.val) :
    (k3_pay1 (F := Ideal) (iblk3 V c 0 t) (iblk3 V c 1 t) (iblk3 V c 2 t)) (ix2 p g)
      = msgAt3 (hs3 V c) (ws3 V c) (bs3 V c) n g := by
  refine (pay3_apply (iblk3 V c 0 t) (iblk3 V c 1 t) (iblk3 V c 2 t) p g).trans ?_
  unfold msgAt3
  refine congrArg₂ (· + ·) (Finset.sum_congr rfl fun d _ => congrArg₂ (· * ·) ?_ ?_) ?_
  · exact hblk3_apply V c t p d n hn
  · exact wblk3_apply V c t d g
  · exact bblk3_apply V c t g

/-! ## From the blocks to the array -/

/-- What point t writes back is block t of `msgArr3` of the arrays as the region finds them. -/
theorem flushed3_eq (c : Dev nD) (t : Fin cfg3.N) :
    (dat3 (F := Ideal) V c).flushed 3 t
      = ((cfg3.win 3).blk t).view.read (Elt Ideal) (msgArr3 (hs3 V c) (ws3 V c) (bs3 V c)) := by
  show (cfg3.win 3).cut (grid3.coords t) ((dat3 (F := Ideal) V c).after 3 t) = _
  rw [after3_3]
  unfold out3_3
  rw [View.canon_unit_zero hz3]
  simp only [View.ld_unit_zero (S := S1024x256) hz3, View.ld_unit_zero (S := S256x2048) hz3, View.ld_unit_zero (S := S1x2048) hz3]
  obtain ⟨-, -, -, -, -, -, e0, e1⟩ := idx_facts3 t
  funext j
  obtain ⟨p, q, rfl⟩ : ∃ (p : Fin 1024) (q : Fin 2048), j = ix2 p q := ⟨j 0, j 1, eq_ix2 j⟩
  show (k3_pay1 (F := Ideal) (iblk3 V c 0 t) (iblk3 V c 1 t) (iblk3 V c 2 t)) (ix2 p q)
    = msgArr3 (hs3 V c) (ws3 V c) (bs3 V c) (((cfg3.win 3).blk t).view.emb (ix2 p q))
  have hp : p.val < 1024 := p.isLt
  have ht : t.val < 32 := lt_of_lt_of_eq t.isLt N_3
  refine (point3_apply V c t p q ⟨t.val * 1024 + p.val, by omega⟩ rfl).trans ?_
  unfold msgArr3
  refine congrArg₂ (msgAt3 (hs3 V c) (ws3 V c) (bs3 V c)) (Fin.ext ?_) (Fin.ext ?_)
  · show t.val * 1024 + p.val = win3_3.index t (0 : Fin 2) * 1024 + 1 * p.val; omega
  · show q.val = win3_3.index t (1 : Fin 2) * 2048 + 1 * q.val; omega

/-- An index of the result is in point t's block iff each coordinate is in the block's range on its axis. -/
theorem mem_blk3 (t : Fin cfg3.N) (i : S32768x2048.Idx) :
    i ∈ ((cfg3.win 3).blk t).view.set ↔ ∀ a : Fin 2, win3_3.index t a * S1024x2048.size a ≤ (i a).val ∧ (i a).val < win3_3.index t a * S1024x2048.size a + S1024x2048.size a := by
  show i ∈ ((View.whole main_v44).slice (win3_3.rect t)).set ↔ _
  rw [View.set_slice_whole, Rect.mem_set_unit]
  exact Iff.rfl

/-- Every index of the result is in the block of the point its row falls to. -/
theorem cover3 (i : S32768x2048.Idx) :
    ∃ t : Fin cfg3.N, (cfg3.win 3).flush t = true ∧ i ∈ ((cfg3.win 3).blk t).view.set := by
  have hi0 : (i 0).val < 32768 := idx2_lt0 i
  have hi1 : (i 1).val < 2048 := idx2_lt1 i
  obtain ⟨t, ht⟩ : ∃ t : Fin cfg3.N, t.val = (i 0).val / 1024 :=
    ⟨⟨(i 0).val / 1024, by rw [show cfg3.N = 32 from N_3]; omega⟩, rfl⟩
  obtain ⟨-, -, -, -, -, -, e0, e1⟩ := idx_facts3 t
  refine ⟨t, flush3_3 t, ?_⟩
  rw [mem_blk3]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 2048 ≤ (i 1).val ∧ (i 1).val < win3_3.index t (1 : Fin 2) * 2048 + 2048; omega

/-- The result array after the region is `msgArr3` of the arrays the region found. -/
theorem final3 (c : Dev nD) :
    (dat3 (F := Ideal) V c).arrAt 3 cfg3.N = msgArr3 (hs3 V c) (ws3 V c) (bs3 V c) :=
  (dat3 (F := Ideal) V c).arrAt_eq_of_cover 3 (msgArr3 (hs3 V c) (ws3 V c) (bs3 V c)) (fun t _ => flushed3_eq V c t) cover3

/-- THE RESULT AT AN ENTRY: node n's row of the hidden state against column g of the weights, plus the bias at g. -/
theorem msg_arr3 (c : Dev nD) (n : Fin 32768) (g : Fin 2048) :
    (dat3 (F := Ideal) V c).arrAt 3 cfg3.N (ix2 n g)
      = (∑ d : Fin 256, hs3 V c (ix2 n d) * ws3 V c (ix2 d g)) + bs3 V c (ix2 (0 : Fin 1) g) := by
  rw [final3 V c]
  rfl

end Cert.KernelIdeal.KVal.Msg3

end
-- ==== Proof.KGru4.lean ====
/-
  The gated recurrent update of one propagation layer, read off the result array of the tiled call that computes it.

  The call walks the 32768 nodes in 32 row blocks of 1024. At row block t it holds rows 1024·t … 1024·t + 1023 of the
  aggregated messages m and of the hidden state h, and the whole of the two stacked weight arrays (256 × 768) and of the two
  stacked bias rows (1 × 768). It forms the two stacked pre-activations

      gi(n, γ) = Σ_k m(n, k) · Wih(k, γ) + bih(γ),      gh(n, γ) = Σ_k h(n, k) · Whh(k, γ) + bhh(γ)

  (a change of float format is the identity on the extended reals; a product accumulated into the zero array is the plain
  sum over the contracted coordinate), cuts each into its three column thirds γ = j, 256 + j, 512 + j (reset, update,
  candidate), and writes back

      h'(n, j) = (1 − z) · c + z · h(n, j),   r = σ(gi_r + gh_r),  z = σ(gi_z + gh_z),  c = tanh(gi_n + r · gh_n).

  Every entry (n, j) of the result depends only on row n of m and h, so what block t writes is the restriction to rows
  1024·t … of ONE function of the whole arrays, and the 32 blocks cover all rows: row n lies in block n / 1024. Hence the
  result array is that function, which is the specification's gated update of the two pre-activations.
-/
import proofs.«408314_j22325240004845_1_alg».proof.Proof.Gen.KernelIdeal.Frame
import proofs.«408314_j22325240004845_1_alg».proof.Proof.Spec
import proofs.«408314_j22325240004845_1_alg».proof.Proof.LibPlainMatmul
import Idealize.ShloMosaic.Lib.Pipeline.Value
import Idealize.ShloMosaic.Lib.ValueIdx

noncomputable section

namespace Cert.KernelIdeal.KVal.Gru4

open Idealize.ShloMosaic Idealize.ShloMosaic.TcCoe Idealize.SL.Sem Idealize.ShloMosaic.ValueIdx Cert.KernelIdeal Cert.KernelIdeal.Gen

/-! ## The update at one entry -/

/-- The gated update at one entry, from the two stacked pre-activation rows of its node and the old state's entry:
    h' = (1 − z) · c + z · h with r = σ(gi_r + gh_r), z = σ(gi_z + gh_z), c = tanh(gi_n + r · gh_n). -/
def gru4_cell (gi gh : Fin 768 → EReal) (h : EReal) (j : Fin 256) : EReal :=
  (Cert.GGNN.one - Ideal.logistic (gi (Cert.GGNN.gZ j) + gh (Cert.GGNN.gZ j)))
      * Ideal.tanh (gi (Cert.GGNN.gN j) + Ideal.logistic (gi (Cert.GGNN.gR j) + gh (Cert.GGNN.gR j)) * gh (Cert.GGNN.gN j))
    + Ideal.logistic (gi (Cert.GGNN.gZ j) + gh (Cert.GGNN.gZ j)) * h

/-- The specification's update of a whole hidden state is that entry update, node by node. -/
theorem gru4_spec_eq_cell (Gi Gh : Fin 32768 → Fin 768 → EReal) (H : Cert.GGNN.Hid) (n : Fin 32768) (j : Fin 256) :
    Cert.GGNN.gru Gi Gh H n j = gru4_cell (Gi n) (Gh n) (H n j) j := rfl

/-! ## The body's operations at an entry of a row block -/

/-- The logistic function of a vector acts entry by entry … -/
theorem gru4_logistic_apply {s : Shape} {φ : FTy} (a : FVec Ideal s φ) (i : s.Idx) :
    logistic a i = Ideal.logistic (a i) := rfl
/-- … and so does the hyperbolic tangent. -/
theorem gru4_tanh_apply {s : Shape} {φ : FTy} (a : FVec Ideal s φ) (i : s.Idx) :
    Idealize.ShloMosaic.tanh a i = Ideal.tanh (a i) := rfl

/-- The product of a row block by a whole weight array, into the zero accumulator, at entry (p, γ): the sum over the
    256 contracted coordinates. -/
theorem gru4_mm_apply (a : FVec Ideal S1024x256 .f32) (w : FVec Ideal S256x768 .f32)
    (hlt : FTy.bits .bf16 < FTy.bits .f32) (p : Fin 1024) (g : Fin 768) :
    matmul dot_S1024x256_S256x768_S1024x768_1_0_0_1_n_n none (truncf .bf16 a hlt) (truncf .bf16 w hlt)
        (constant S1024x768 .f32 0x00000000#32) (ix2 p g)
      = ∑ k : Fin 256, a (ix2 p k) * w (ix2 k g) :=
  PlainMatmul.matmul_zero_apply 1024 256 768 none _ _ p g

/-- The bias row spread over the block's rows, at entry (p, γ): the row's entry γ. -/
theorem gru4_bias_apply (b : FVec Ideal S1x768 .f32) (hbr : S1x768.Broadcasts S1024x768) (p : Fin 1024) (g : Fin 768) :
    broadcastTo S1024x768 b hbr (ix2 p g) = b (ix2 (0 : Fin 1) g) :=
  broadcastTo_apply _ _ _ _ (fun c => by match c with | ⟨0, _⟩ => rfl | ⟨1, _⟩ => rfl)

/-- The reset third of the stacked columns: column j. -/
theorem gru4_thirdR_apply (x : FVec Ideal S1024x768 .f32) (hs : S1024x768.Slices ![0, 0] S1024x256) (p : Fin 1024)
    (q : Fin 256) : extractStridedSlice S1024x256 ![0, 0] x hs (ix2 p q) = x (ix2 p (Cert.GGNN.gR q)) :=
  extractStridedSlice_apply _ _ _ _ _
    (fun c => by match c with | ⟨0, _⟩ => exact (Nat.zero_add _).symm | ⟨1, _⟩ => exact (Nat.zero_add _).symm)
/-- The update third: column 256 + j. -/
theorem gru4_thirdZ_apply (x : FVec Ideal S1024x768 .f32) (hs : S1024x768.Slices ![0, 256] S1024x256) (p : Fin 1024)
    (q : Fin 256) : extractStridedSlice S1024x256 ![0, 256] x hs (ix2 p q) = x (ix2 p (Cert.GGNN.gZ q)) :=
  extractStridedSlice_apply _ _ _ _ _
    (fun c => by match c with | ⟨0, _⟩ => exact (Nat.zero_add _).symm | ⟨1, _⟩ => rfl)
/-- The candidate third: column 512 + j. -/
theorem gru4_thirdN_apply (x : FVec Ideal S1024x768 .f32) (hs : S1024x768.Slices ![0, 512] S1024x256) (p : Fin 1024)
    (q : Fin 256) : extractStridedSlice S1024x256 ![0, 512] x hs (ix2 p q) = x (ix2 p (Cert.GGNN.gN q)) :=
  extractStridedSlice_apply _ _ _ _ _
    (fun c => by match c with | ⟨0, _⟩ => exact (Nat.zero_add _).symm | ⟨1, _⟩ => rfl)

/-- THE BODY'S RESULT AT ENTRY (p, q) OF A ROW BLOCK: the entry update of row p's two pre-activation rows, formed from
    the block's rows of m and h, the whole weights and the bias rows. -/
theorem gru4_pay_apply (v0 v3 : Vec Ideal S1024x256 .f32) (v6 v9 : Vec Ideal S256x768 .f32) (v13 v18 : Vec Ideal S1x768 .f32)
    (v35 : Vec Ideal S1024x256 .f32) (p : Fin 1024) (q : Fin 256) :
    (k4_pay1 (F := Ideal) v0 v3 v6 v9 v13 v18 v35) (ix2 p q)
      = gru4_cell (fun g => (∑ k : Fin 256, v0 (ix2 p k) * v6 (ix2 k g)) + v13 (ix2 (0 : Fin 1) g))
             (fun g => (∑ k : Fin 256, v3 (ix2 p k) * v9 (ix2 k g)) + v18 (ix2 (0 : Fin 1) g))
             (v35 (ix2 p q)) q := by
  unfold k4_pay1 gru4_cell
  simp only [addf_apply, mulf_apply, subf_apply, broadcast_apply, gru4_logistic_apply, gru4_tanh_apply,
    gru4_thirdR_apply, gru4_thirdZ_apply, gru4_thirdN_apply, shapeCast_self, gru4_mm_apply, gru4_bias_apply]
  rfl

/-! ## The region's arrays, and its result as one function of them -/

-- the core's buffer contents when the region is entered
variable (V : (c : Dev nD) → (b : Ref sig .tc) → Buf (Elt Ideal) ((c : Thread nD τ).loc b))

/-- The aggregated messages m, one row of 256 per node. -/
abbrev ms4 (c : Dev nD) : Vec Ideal S32768x256 .f32 := V c (Pipeline.arrRef spec4 0)
/-- The hidden state h before the update. -/
abbrev hs4 (c : Dev nD) : Vec Ideal S32768x256 .f32 := V c (Pipeline.arrRef spec4 1)
/-- The stacked input weights, 256 × 768. -/
abbrev wi4 (c : Dev nD) : Vec Ideal S256x768 .f32 := V c (Pipeline.arrRef spec4 2)
/-- The stacked hidden weights, 256 × 768. -/
abbrev wh4 (c : Dev nD) : Vec Ideal S256x768 .f32 := V c (Pipeline.arrRef spec4 3)
/-- The stacked input bias, one row of 768. -/
abbrev bi4 (c : Dev nD) : Vec Ideal S1x768 .f32 := V c (Pipeline.arrRef spec4 4)
/-- The stacked hidden bias, one row of 768. -/
abbrev bh4 (c : Dev nD) : Vec Ideal S1x768 .f32 := V c (Pipeline.arrRef spec4 5)

/-- The updated hidden state as ONE function of the region's arrays: the specification's gated update of the two
    stacked pre-activations. -/
def gru4_G (c : Dev nD) : Vec Ideal S32768x256 .f32 := fun i =>
  Cert.GGNN.gru
    (fun n g => (∑ k : Fin 256, ms4 V c (ix2 n k) * wi4 V c (ix2 k g)) + bi4 V c (ix2 (0 : Fin 1) g))
    (fun n g => (∑ k : Fin 256, hs4 V c (ix2 n k) * wh4 V c (ix2 k g)) + bh4 V c (ix2 (0 : Fin 1) g))
    (fun n j => hs4 V c (ix2 n j)) (i 0) (i 1)

/-! ## The blocks a grid point holds -/

/-- Row p of row block t is node 1024 · t + p. -/
def gru4_row (t : Fin cfg4.N) (p : Fin 1024) : Fin 32768 :=
  ⟨t.val * 1024 + p.val, by have hN : cfg4.N = 32 := N_4; have := t.isLt; have := p.isLt; omega⟩

/-- Point t's rows of m, … -/
abbrev gru4_mblk (c : Dev nD) (t : Fin cfg4.N) : Vec Ideal S1024x256 .f32 := iblk4 V c 0 t
/-- … its rows of h, … -/
abbrev gru4_hblk (c : Dev nD) (t : Fin cfg4.N) : Vec Ideal S1024x256 .f32 := iblk4 V c 1 t
/-- … and the four whole parameter arrays as it holds them. -/
abbrev gru4_wiblk (c : Dev nD) (t : Fin cfg4.N) : Vec Ideal S256x768 .f32 := iblk4 V c 2 t
abbrev gru4_whblk (c : Dev nD) (t : Fin cfg4.N) : Vec Ideal S256x768 .f32 := iblk4 V c 3 t
abbrev gru4_biblk (c : Dev nD) (t : Fin cfg4.N) : Vec Ideal S1x768 .f32 := iblk4 V c 4 t
abbrev gru4_bhblk (c : Dev nD) (t : Fin cfg4.N) : Vec Ideal S1x768 .f32 := iblk4 V c 5 t

theorem gru4_hz : (![0, 0] : Fin 2 → Nat) = fun _ => 0 := funext fun a => by fin_cases a <;> rfl

/-- The printed index maps over the grid: the two row-blocked inputs and the output sit at block (t, 0); the four
    parameter arrays at block (0, 0). -/
theorem gru4_idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Point t's block of m is rows 1024 · t … of the array. -/
theorem gru4_mblk_apply (c : Dev nD) (t : Fin cfg4.N) (p : Fin 1024) (q : Fin 256) :
    gru4_mblk V c t (ix2 p q) = ms4 V c (ix2 (gru4_row t p) q) := by
  obtain ⟨e0, e1, -⟩ := gru4_idx t
  show ((cfg4.win 0).blk t).view.read (Elt Ideal) (V c (Pipeline.arrRef spec4 0)) (ix2 p q) = _
  rw [View.read_apply]
  show V c (Pipeline.arrRef spec4 0) _ = V c (Pipeline.arrRef spec4 0) _
  congr 1
  funext a
  apply Fin.ext
  match a with
  | ⟨0, _⟩ => show win4_0.index t (0 : Fin 2) * 1024 + 1 * p.val = t.val * 1024 + p.val; rw [e0]; omega
  | ⟨1, _⟩ => show win4_0.index t (1 : Fin 2) * 256 + 1 * q.val = q.val; rw [e1]; omega

/-- Point t's block of h is rows 1024 · t … of the array. -/
theorem gru4_hblk_apply (c : Dev nD) (t : Fin cfg4.N) (p : Fin 1024) (q : Fin 256) :
    gru4_hblk V c t (ix2 p q) = hs4 V c (ix2 (gru4_row t p) q) := by
  obtain ⟨e00, e01, e10, e11, e20, e21, e30, e31, e40, e41, e50, e51, e60, e61⟩ := gru4_idx t
  show ((cfg4.win 1).blk t).view.read (Elt Ideal) (V c (Pipeline.arrRef spec4 1)) (ix2 p q) = _
  rw [View.read_apply]
  show V c (Pipeline.arrRef spec4 1) _ = V c (Pipeline.arrRef spec4 1) _
  congr 1
  funext a
  apply Fin.ext
  match a with
  | ⟨0, _⟩ => show win4_1.index t (0 : Fin 2) * 1024 + 1 * p.val = t.val * 1024 + p.val; rw [e10]; omega
  | ⟨1, _⟩ => show win4_1.index t (1 : Fin 2) * 256 + 1 * q.val = q.val; rw [e11]; omega

/-- The stacked input weights are held whole at every point, … -/
theorem gru4_wiblk_apply (c : Dev nD) (t : Fin cfg4.N) (k : Fin 256) (g : Fin 768) :
    gru4_wiblk V c t (ix2 k g) = wi4 V c (ix2 k g) := by
  obtain ⟨e00, e01, e10, e11, e20, e21, e30, e31, e40, e41, e50, e51, e60, e61⟩ := gru4_idx t
  show ((cfg4.win 2).blk t).view.read (Elt Ideal) (V c (Pipeline.arrRef spec4 2)) (ix2 k g) = _
  rw [View.read_apply]
  show V c (Pipeline.arrRef spec4 2) _ = V c (Pipeline.arrRef spec4 2) _
  congr 1
  funext a
  apply Fin.ext
  match a with
  | ⟨0, _⟩ => show win4_2.index t (0 : Fin 2) * 256 + 1 * k.val = k.val; rw [e20]; omega
  | ⟨1, _⟩ => show win4_2.index t (1 : Fin 2) * 768 + 1 * g.val = g.val; rw [e21]; omega

/-- … the stacked hidden weights too, … -/
theorem gru4_whblk_apply (c : Dev nD) (t : Fin cfg4.N) (k : Fin 256) (g : Fin 768) :
    gru4_whblk V c t (ix2 k g) = wh4 V c (ix2 k g) := by
  obtain ⟨e00, e01, e10, e11, e20, e21, e30, e31, e40, e41, e50, e51, e60, e61⟩ := gru4_idx t
  show ((cfg4.win 3).blk t).view.read (Elt Ideal) (V c (Pipeline.arrRef spec4 3)) (ix2 k g) = _
  rw [View.read_apply]
  show V c (Pipeline.arrRef spec4 3) _ = V c (Pipeline.arrRef spec4 3) _
  congr 1
  funext a
  apply Fin.ext
  match a with
  | ⟨0, _⟩ => show win4_3.index t (0 : Fin 2) * 256 + 1 * k.val = k.val; rw [e30]; omega
  | ⟨1, _⟩ => show win4_3.index t (1 : Fin 2) * 768 + 1 * g.val = g.val; rw [e31]; omega

/-- … and the two bias rows. -/
theorem gru4_biblk_apply (c : Dev nD) (t : Fin cfg4.N) (g : Fin 768) :
    gru4_biblk V c t (ix2 (0 : Fin 1) g) = bi4 V c (ix2 (0 : Fin 1) g) := by
  obtain ⟨e00, e01, e10, e11, e20, e21, e30, e31, e40, e41, e50, e51, e60, e61⟩ := gru4_idx t
  show ((cfg4.win 4).blk t).view.read (Elt Ideal) (V c (Pipeline.arrRef spec4 4)) (ix2 (0 : Fin 1) g) = _
  rw [View.read_apply]
  show V c (Pipeline.arrRef spec4 4) _ = V c (Pipeline.arrRef spec4 4) _
  congr 1
  funext a
  apply Fin.ext
  match a with
  | ⟨0, _⟩ => show win4_4.index t (0 : Fin 2) * 1 + 1 * (0 : Fin 1).val = (0 : Fin 1).val; rw [e40]; rfl
  | ⟨1, _⟩ => show win4_4.index t (1 : Fin 2) * 768 + 1 * g.val = g.val; rw [e41]; omega

theorem gru4_bhblk_apply (c : Dev nD) (t : Fin cfg4.N) (g : Fin 768) :
    gru4_bhblk V c t (ix2 (0 : Fin 1) g) = bh4 V c (ix2 (0 : Fin 1) g) := by
  obtain ⟨e00, e01, e10, e11, e20, e21, e30, e31, e40, e41, e50, e51, e60, e61⟩ := gru4_idx t
  show ((cfg4.win 5).blk t).view.read (Elt Ideal) (V c (Pipeline.arrRef spec4 5)) (ix2 (0 : Fin 1) g) = _
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * (0 : Fin 1).val = (0 : Fin 1).val; rw [e50]; rfl
  | ⟨1, _⟩ => show win4_5.index t (1 : Fin 2) * 768 + 1 * g.val = g.val; rw [e51]; omega

/-! ## From the row blocks to the array -/

/-- The one function at node n, feature j: the entry update of node n's two pre-activation rows. -/
theorem gru4_G_apply (c : Dev nD) (n : Fin 32768) (j : Fin 256) :
    gru4_G V c (ix2 n j)
      = gru4_cell (fun g => (∑ k : Fin 256, ms4 V c (ix2 n k) * wi4 V c (ix2 k g)) + bi4 V c (ix2 (0 : Fin 1) g))
          (fun g => (∑ k : Fin 256, hs4 V c (ix2 n k) * wh4 V c (ix2 k g)) + bh4 V c (ix2 (0 : Fin 1) g))
          (hs4 V c (ix2 n j)) j := rfl

/-- Two row blocks are equal when they agree at every entry (p, q). -/
theorem gru4_blk_ext (X Y : Vec Ideal S1024x256 .f32)
    (h : ∀ (p : Fin 1024) (q : Fin 256), X (ix2 p q) = Y (ix2 p q)) : X = Y :=
  funext fun y => by rw [eq_ix2 y]; exact h _ _

/-- WHAT POINT t WRITES BACK is rows 1024 · t … of the one function: the body's result at (p, q) is the entry update
    of the block's rows, which are the arrays' rows at node 1024 · t + p. -/
theorem gru4_flushed_eq (c : Dev nD) (t : Fin cfg4.N) :
    (dat4 V c).flushed 6 t = ((cfg4.win 6).blk t).view.read (Elt Ideal) (gru4_G V c) := by
  show (cfg4.win 6).cut (grid4.coords t) ((dat4 V c).after 6 t) = _
  rw [after4_6]
  unfold out4_6
  rw [View.canon_unit_zero gru4_hz]
  simp only [View.ld_unit_zero (S := S1024x256) gru4_hz, View.ld_unit_zero (S := S256x768) gru4_hz,
    View.ld_unit_zero (S := S1x768) gru4_hz]
  refine gru4_blk_ext _ _ (fun p q => ?_)
  obtain ⟨e00, e01, e10, e11, e20, e21, e30, e31, e40, e41, e50, e51, e60, e61⟩ := gru4_idx t
  show k4_pay1 (F := Ideal) (gru4_mblk V c t) (gru4_hblk V c t) (gru4_wiblk V c t) (gru4_whblk V c t)
        (gru4_biblk V c t) (gru4_bhblk V c t) (gru4_hblk V c t) (ix2 p q)
      = gru4_G V c (((cfg4.win 6).blk t).view.emb (ix2 p q))
  have hemb : ((cfg4.win 6).blk t).view.emb (ix2 p q) = ix2 (gru4_row t p) q := by
    funext a
    apply Fin.ext
    match a with
    | ⟨0, _⟩ => show win4_6.index t (0 : Fin 2) * 1024 + 1 * p.val = t.val * 1024 + p.val; rw [e60]; omega
    | ⟨1, _⟩ => show win4_6.index t (1 : Fin 2) * 256 + 1 * q.val = q.val; rw [e61]; omega
  rw [hemb, gru4_G_apply]
  refine (gru4_pay_apply (gru4_mblk V c t) (gru4_hblk V c t) (gru4_wiblk V c t) (gru4_whblk V c t)
    (gru4_biblk V c t) (gru4_bhblk V c t) (gru4_hblk V c t) p q).trans ?_
  simp only [gru4_mblk_apply, gru4_hblk_apply, gru4_wiblk_apply, gru4_whblk_apply, gru4_biblk_apply, gru4_bhblk_apply]

/-- An index of the result array is in point t's block iff each coordinate is in the block's range on its axis. -/
theorem gru4_mem_blk (t : Fin cfg4.N) (i : S32768x256.Idx) :
    i ∈ ((cfg4.win 6).blk t).view.set ↔ ∀ a : Fin 2, win4_6.index t a * S1024x256.size a ≤ (i a).val
      ∧ (i a).val < win4_6.index t a * S1024x256.size a + S1024x256.size a := by
  show i ∈ ((View.whole (Pipeline.arrRef spec4 6)).slice (win4_6.rect t)).set ↔ _
  rw [View.set_slice_whole, Rect.mem_set_unit]
  exact Iff.rfl

/-- THE BLOCKS COVER THE ARRAY: row n lies in the block of point n / 1024, and every point writes back. -/
theorem gru4_cover (i : S32768x256.Idx) :
    ∃ t : Fin cfg4.N, (cfg4.win 6).flush t = true ∧ i ∈ ((cfg4.win 6).blk t).view.set := by
  have hN : cfg4.N = 32 := N_4
  have hi0 : (i 0).val < 32768 := (i 0).isLt
  have hi1 : (i 1).val < 256 := (i 1).isLt
  obtain ⟨t, ht⟩ : ∃ t : Fin cfg4.N, t.val = (i 0).val / 1024 := ⟨⟨(i 0).val / 1024, by omega⟩, rfl⟩
  obtain ⟨e00, e01, e10, e11, e20, e21, e30, e31, e40, e41, e50, e51, e60, e61⟩ := gru4_idx t
  refine ⟨t, flush4_6 t, ?_⟩
  rw [gru4_mem_blk]
  intro a
  match a with
  | ⟨0, _⟩ =>
    show win4_6.index t (0 : Fin 2) * 1024 ≤ (i 0).val ∧ (i 0).val < win4_6.index t (0 : Fin 2) * 1024 + 1024
    rw [e60, ht]; omega
  | ⟨1, _⟩ =>
    show win4_6.index t (1 : Fin 2) * 256 ≤ (i 1).val ∧ (i 1).val < win4_6.index t (1 : Fin 2) * 256 + 256
    rw [e61]; omega

/-- THE RESULT ARRAY after the region is the one function of the region's arrays. -/
theorem gru4_final (c : Dev nD) : (dat4 V c).arrAt 6 cfg4.N = gru4_G V c :=
  (dat4 V c).arrAt_eq_of_cover 6 (gru4_G V c) (fun t _ => gru4_flushed_eq V c t) gru4_cover

/-- THE UPDATED HIDDEN STATE: entry (n, j) of the result array is the specification's gated update of the two stacked
    pre-activations of m and h, at node n and feature j. -/
theorem gru_arr4 (c : Dev nD) (n : Fin 32768) (j : Fin 256) :
    (Gen.dat4 (F := Ideal) V c).arrAt 6 cfg4.N (ix2 n j)
      = Cert.GGNN.gru
          (fun n g => (∑ k : Fin 256, ms4 V c (ix2 n k) * wi4 V c (ix2 k g)) + bi4 V c (ix2 (0 : Fin 1) g))
          (fun n g => (∑ k : Fin 256, hs4 V c (ix2 n k) * wh4 V c (ix2 k g)) + bh4 V c (ix2 (0 : Fin 1) g))
          (fun n j => hs4 V c (ix2 n j)) n j :=
  congrFun (gru4_final V c) (ix2 n j)

end Cert.KernelIdeal.KVal.Gru4

end
-- ==== Proof.KLayer1.lean ====
/-
  Layer 1 of the network as the kernel program computes it: from the exit of the first update region to the exit of
  the second. The state h enters as one array [32768, 256]. The message region multiplies it by the layer's eight
  message matrices laid side by side (column 256·t + e is edge type t, feature e) and adds the stacked bias; a reshape
  makes row 8·n + t of a [262144, 256] array the message of node n under edge type t; edge ε takes the row
  8·src ε + type ε; the edges' rows are added by destination node; and the update region applies the gated update to
  the aggregate and the state. Every array a host stretch writes is read at an index as the layer's slice of a launch
  array.
-/
import proofs.«408314_j22325240004845_1_alg».proof.Proof.Gen.KernelIdeal.Frame
import proofs.«408314_j22325240004845_1_alg».proof.Proof.KArgs
import proofs.«408314_j22325240004845_1_alg».proof.Proof.KMsg3
import proofs.«408314_j22325240004845_1_alg».proof.Proof.KGru4
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.KVal.Layer1

open Idealize.ShloMosaic Idealize.ShloMosaic.TcCoe Idealize.SL.Sem Idealize.ShloMosaic.ValueIdx Idealize.ShloMosaic.StableHlo
open Cert.KernelIdeal Cert.KernelIdeal.Gen Cert.KernelIdeal.KVal

variable (m : (ℓ : Loc nD τ sig) → Buf (Elt Ideal) ℓ) (ρ : Dev nD → PrngReg) (c : Dev nD)

/-! ## What each host stretch leaves alone -/

/-- The references the host stretches write, in order. -/
abbrev wr0 : List (Ref sig .tc) := [main_v0, main_v1, main_v2]
abbrev wr1 : List (Ref sig .tc) := [main_v4, main_v5, main_v6, main_v7, main_v8, main_v9, main_v10, main_v11, main_v12, main_v13, main_v14]
abbrev wr2 : List (Ref sig .tc) := [main_v16, main_c, main_v17, main_v18, main_v19]
abbrev wr2_1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v20]
abbrev wr2_2 : List (Ref sig .tc) := [main_cst, main_v21, main_v22, main_v23, main_v24, main_v25, main_v26, main_v27, main_v28, main_v29, main_v30, main_v31, main_v32, main_v33, main_v34, main_v35]
abbrev wr3 : List (Ref sig .tc) := [main_v37, main_v38, main_v39, main_v40, main_v41, main_v42, main_v43]
abbrev wr4 : List (Ref sig .tc) := [main_v45, main_c_0, main_v46, main_v47, main_v48]
abbrev wr4_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v49]
abbrev wr4_2 : List (Ref sig .tc) := [main_cst_1, main_v50, main_v51, main_v52, main_v53, main_v54, main_v55, main_v56, main_v57, main_v58, main_v59, main_v60, main_v61, main_v62, main_v63, main_v64]

/-- A reference outside a stretch's list holds after the stretch what it held before. -/
theorem keep0 (V : Valuation τ sig (Elt Ideal)) (r : Ref sig .tc) (hr : r ∉ wr0) :
    StableHlo.after hostOps0 V (Proc.devRef .tc r) = V (Proc.devRef .tc r) :=
  StableHlo.after_of_writes_sub hostOps0 V (W := wr0) (by
    simp only [hostOps0, List.Forall, nullary_writes, unary_writes, binary_writes, ternary_writes, reshape_writes,
      Finset.singleton_subset_iff, List.mem_toFinset]
    repeat' apply And.intro
    all_goals exact List.mem_map_of_mem (by decide)) hr
theorem keep1 (V : Valuation τ sig (Elt Ideal)) (r : Ref sig .tc) (hr : r ∉ wr1) :
    StableHlo.after hostOps1 V (Proc.devRef .tc r) = V (Proc.devRef .tc r) :=
  StableHlo.after_of_writes_sub hostOps1 V (W := wr1) (by
    simp only [hostOps1, List.Forall, nullary_writes, unary_writes, binary_writes, ternary_writes, reshape_writes,
      Finset.singleton_subset_iff, List.mem_toFinset]
    repeat' apply And.intro
    all_goals exact List.mem_map_of_mem (by decide)) hr
theorem keep2 (V : Valuation τ sig (Elt Ideal)) (r : Ref sig .tc) (hr : r ∉ wr2) :
    StableHlo.after hostOps2 V (Proc.devRef .tc r) = V (Proc.devRef .tc r) :=
  StableHlo.after_of_writes_sub hostOps2 V (W := wr2) (by
    simp only [hostOps2, List.Forall, nullary_writes, unary_writes, binary_writes, ternary_writes, reshape_writes,
      Finset.singleton_subset_iff, List.mem_toFinset]
    repeat' apply And.intro
    all_goals exact List.mem_map_of_mem (by decide)) hr
theorem keep2_1 (V : Valuation τ sig (Elt Ideal)) (r : Ref sig .tc) (hr : r ∉ wr2_1) :
    StableHlo.after hostOps2_1 V (Proc.devRef .tc r) = V (Proc.devRef .tc r) :=
  StableHlo.after_of_writes_sub hostOps2_1 V (W := wr2_1) (by
    simp only [hostOps2_1, List.Forall, nullary_writes, unary_writes, binary_writes, ternary_writes, reshape_writes,
      Finset.singleton_subset_iff, List.mem_toFinset]
    repeat' apply And.intro
    all_goals exact List.mem_map_of_mem (by decide)) hr
theorem keep2_2 (V : Valuation τ sig (Elt Ideal)) (r : Ref sig .tc) (hr : r ∉ wr2_2) :
    StableHlo.after hostOps2_2 V (Proc.devRef .tc r) = V (Proc.devRef .tc r) :=
  StableHlo.after_of_writes_sub hostOps2_2 V (W := wr2_2) (by
    simp only [hostOps2_2, List.Forall, nullary_writes, unary_writes, binary_writes, ternary_writes, reshape_writes,
      Finset.singleton_subset_iff, List.mem_toFinset]
    repeat' apply And.intro
    all_goals exact List.mem_map_of_mem (by decide)) hr
theorem keep3 (V : Valuation τ sig (Elt Ideal)) (r : Ref sig .tc) (hr : r ∉ wr3) :
    StableHlo.after hostOps3 V (Proc.devRef .tc r) = V (Proc.devRef .tc r) :=
  StableHlo.after_of_writes_sub hostOps3 V (W := wr3) (by
    simp only [hostOps3, List.Forall, nullary_writes, unary_writes, binary_writes, ternary_writes, reshape_writes,
      Finset.singleton_subset_iff, List.mem_toFinset]
    repeat' apply And.intro
    all_goals exact List.mem_map_of_mem (by decide)) hr
theorem keep4 (V : Valuation τ sig (Elt Ideal)) (r : Ref sig .tc) (hr : r ∉ wr4) :
    StableHlo.after hostOps4 V (Proc.devRef .tc r) = V (Proc.devRef .tc r) :=
  StableHlo.after_of_writes_sub hostOps4 V (W := wr4) (by
    simp only [hostOps4, List.Forall, nullary_writes, unary_writes, binary_writes, ternary_writes, reshape_writes,
      Finset.singleton_subset_iff, List.mem_toFinset]
    repeat' apply And.intro
    all_goals exact List.mem_map_of_mem (by decide)) hr
theorem keep4_1 (V : Valuation τ sig (Elt Ideal)) (r : Ref sig .tc) (hr : r ∉ wr4_1) :
    StableHlo.after hostOps4_1 V (Proc.devRef .tc r) = V (Proc.devRef .tc r) :=
  StableHlo.after_of_writes_sub hostOps4_1 V (W := wr4_1) (by
    simp only [hostOps4_1, List.Forall, nullary_writes, unary_writes, binary_writes, ternary_writes, reshape_writes,
      Finset.singleton_subset_iff, List.mem_toFinset]
    repeat' apply And.intro
    all_goals exact List.mem_map_of_mem (by decide)) hr
theorem keep4_2 (V : Valuation τ sig (Elt Ideal)) (r : Ref sig .tc) (hr : r ∉ wr4_2) :
    StableHlo.after hostOps4_2 V (Proc.devRef .tc r) = V (Proc.devRef .tc r) :=
  StableHlo.after_of_writes_sub hostOps4_2 V (W := wr4_2) (by
    simp only [hostOps4_2, List.Forall, nullary_writes, unary_writes, binary_writes, ternary_writes, reshape_writes,
      Finset.singleton_subset_iff, List.mem_toFinset]
    repeat' apply And.intro
    all_goals exact List.mem_map_of_mem (by decide)) hr

/-! ## The launch arrays and the state at the boundaries

A launch array is written by no stretch and is no region's array, so every boundary holds the launch memory there.
Which references a stretch writes and which arrays a region owns is decided at each use, for the reference named. -/

/-- At the first message region's entry. -/
theorem W3_launch (r : Ref sig .tc) (h0 : r ∉ wr0 := by decide) (hs0 : ∀ w, Pipeline.arrRef spec0 w ≠ r := by decide)
    (h1 : r ∉ wr1 := by decide) : W3 m ρ c (Proc.devRef .tc r) = m ((c : Thread nD τ).loc r) :=
  (keep1 (W2 m ρ c) r h1).trans ((W2_of_ne m ρ c r hs0).trans (keep0 (W0 m ρ c) r h0))

/-- What the stretches and regions between the first message region's entry and the first update region's exit
    leave alone. -/
theorem W8_W3 (r : Ref sig .tc) (hs1 : ∀ w, Pipeline.arrRef spec1 w ≠ r := by decide) (h2 : r ∉ wr2 := by decide)
    (h21 : r ∉ wr2_1 := by decide) (h22 : r ∉ wr2_2 := by decide) (hs2 : ∀ w, Pipeline.arrRef spec2 w ≠ r := by decide) :
    W8 m ρ c (Proc.devRef .tc r) = W3 m ρ c (Proc.devRef .tc r) :=
  (W8_of_ne m ρ c r hs2).trans ((keep2_2 (W6 m ρ c) r h22).trans ((keep2_1 (W5 m ρ c) r h21).trans
    ((keep2 (W4 m ρ c) r h2).trans (W4_of_ne m ρ c r hs1))))

/-- What the layer's first stretch and its message region leave alone. -/
theorem W10_W8 (r : Ref sig .tc) (h3 : r ∉ wr3 := by decide) (hs3 : ∀ w, Pipeline.arrRef spec3 w ≠ r := by decide) :
    W10 m ρ c (Proc.devRef .tc r) = W8 m ρ c (Proc.devRef .tc r) :=
  (W10_of_ne m ρ c r hs3).trans (keep3 (W8 m ρ c) r h3)

/-- What the reshape-and-index stretch and the take leave alone. -/
theorem W12_W10 (r : Ref sig .tc) (h4 : r ∉ wr4 := by decide) (h41 : r ∉ wr4_1 := by decide) :
    W12 m ρ c (Proc.devRef .tc r) = W10 m ρ c (Proc.devRef .tc r) :=
  (keep4_1 (W11 m ρ c) r h41).trans (keep4 (W10 m ρ c) r h4)

/-- A launch array at the layer's entry. -/
theorem W8_launch (r : Ref sig .tc) (h0 : r ∉ wr0 := by decide) (hs0 : ∀ w, Pipeline.arrRef spec0 w ≠ r := by decide)
    (h1 : r ∉ wr1 := by decide) (hs1 : ∀ w, Pipeline.arrRef spec1 w ≠ r := by decide) (h2 : r ∉ wr2 := by decide)
    (h21 : r ∉ wr2_1 := by decide) (h22 : r ∉ wr2_2 := by decide) (hs2 : ∀ w, Pipeline.arrRef spec2 w ≠ r := by decide) :
    W8 m ρ c (Proc.devRef .tc r) = m ((c : Thread nD τ).loc r) :=
  (W8_W3 m ρ c r hs1 h2 h21 h22 hs2).trans (W3_launch m ρ c r h0 hs0 h1)

/-- A launch array after the take. -/
theorem W12_launch (r : Ref sig .tc) (h0 : r ∉ wr0 := by decide) (hs0 : ∀ w, Pipeline.arrRef spec0 w ≠ r := by decide)
    (h1 : r ∉ wr1 := by decide) (hs1 : ∀ w, Pipeline.arrRef spec1 w ≠ r := by decide) (h2 : r ∉ wr2 := by decide)
    (h21 : r ∉ wr2_1 := by decide) (h22 : r ∉ wr2_2 := by decide) (hs2 : ∀ w, Pipeline.arrRef spec2 w ≠ r := by decide)
    (h3 : r ∉ wr3 := by decide) (hs3 : ∀ w, Pipeline.arrRef spec3 w ≠ r := by decide) (h4 : r ∉ wr4 := by decide)
    (h41 : r ∉ wr4_1 := by decide) : W12 m ρ c (Proc.devRef .tc r) = m ((c : Thread nD τ).loc r) :=
  (W12_W10 m ρ c r h4 h41).trans ((W10_W8 m ρ c r h3 hs3).trans (W8_launch m ρ c r h0 hs0 h1 hs1 h2 h21 h22 hs2))

theorem W2_arg1 : W2 m ρ c (Proc.devRef .tc main_arg1) = aE m c :=
  (W2_of_ne m ρ c main_arg1 (by decide)).trans (keep0 (W0 m ρ c) main_arg1 (by decide))
theorem W8_arg5 : W8 m ρ c (Proc.devRef .tc main_arg5) = aWm m c := W8_launch m ρ c main_arg5
theorem W8_arg6 : W8 m ρ c (Proc.devRef .tc main_arg6) = aBm m c := W8_launch m ρ c main_arg6
theorem W10_arg2 : W10 m ρ c (Proc.devRef .tc main_arg2) = aT m c :=
  (W10_W8 m ρ c main_arg2).trans (W8_launch m ρ c main_arg2)
theorem W12_arg7 : W12 m ρ c (Proc.devRef .tc main_arg7) = aWih m c := W12_launch m ρ c main_arg7
theorem W12_arg8 : W12 m ρ c (Proc.devRef .tc main_arg8) = aWhh m c := W12_launch m ρ c main_arg8
theorem W12_arg9 : W12 m ρ c (Proc.devRef .tc main_arg9) = aBih m c := W12_launch m ρ c main_arg9
theorem W12_arg10 : W12 m ρ c (Proc.devRef .tc main_arg10) = aBhh m c := W12_launch m ρ c main_arg10

/-- The state array at the layer's entry, at its literal type. -/
abbrev hbufIn : FVec Ideal S32768x256 .f32 := W8 m ρ c (Proc.devRef .tc main_v36)
/-- The state array at the layer's exit, at its literal type. -/
abbrev hbufOut : FVec Ideal S32768x256 .f32 := W14 m ρ c (Proc.devRef .tc main_v65)

/-- The message region reads the state and never writes it back. -/
theorem W10_state : W10 m ρ c (Proc.devRef .tc main_v36) = hbufIn m ρ c := by
  have h1 : W10 m ρ c (Proc.devRef .tc main_v36) = (dat3 (F := Ideal) (V9 m ρ) c).arrAt 0 cfg3.N := W10_arr m ρ c 0
  have h2 : (dat3 (F := Ideal) (V9 m ρ) c).arrAt 0 cfg3.N = (dat3 (F := Ideal) (V9 m ρ) c).A 0 :=
    (dat3 (F := Ideal) (V9 m ρ) c).arrAt_in 0 (by decide) cfg3.N
  have h3 : (dat3 (F := Ideal) (V9 m ρ) c).A 0 = V9 m ρ c (Pipeline.arrRef spec3 0) := A_eq3 (V9 m ρ) c 0
  exact h1.trans (h2.trans (h3.trans (keep3 (W8 m ρ c) main_v36 (by decide))))

/-- The state array at the update region's entry is the state at the layer's entry. -/
theorem W13_state : W13 m ρ c (Proc.devRef .tc main_v36) = hbufIn m ρ c :=
  (keep4_2 (W12 m ρ c) main_v36 (by decide)).trans ((W12_W10 m ρ c main_v36).trans (W10_state m ρ c))

/-! ## The layer's first stretch: the message weights and the message bias

Each result is first read as the operations' term over any contents, then at coordinates. -/

theorem h3_v40 (V : Valuation τ sig (Elt Ideal)) :
    (StableHlo.after hostOps3 V (Proc.devRef .tc main_v40) : FVec Ideal S256x2048 .f32)
      = transpose S256x2048 [1, 0] (shapeCast S2048x256 (shapeCast S8x256x256
          (extractStridedSlice S1x8x256x256 ![1, 0, 0, 0] (V (Proc.devRef .tc main_arg5) : FVec Ideal S3x8x256x256 .f32)
            slices_S3x8x256x256_S1x8x256x256_1_0_0_0) shapeCasts_S1x8x256x256_S8x256x256) shapeCasts_S8x256x256_S2048x256)
          transposes_S2048x256_S256x2048_1_0 := by
  after_results; all_goals rfl
theorem h3_v43 (V : Valuation τ sig (Elt Ideal)) :
    (StableHlo.after hostOps3 V (Proc.devRef .tc main_v43) : FVec Ideal S1x2048 .f32)
      = shapeCast S1x2048 (shapeCast S8x256
          (extractStridedSlice S1x8x256 ![1, 0, 0] (V (Proc.devRef .tc main_arg6) : FVec Ideal S3x8x256 .f32)
            slices_S3x8x256_S1x8x256_1_0_0) shapeCasts_S1x8x256_S8x256) shapeCasts_S8x256_S1x2048 := by
  after_results; all_goals rfl

/-- The message weights: entry (d, 256·t + e) of the region's matrix is W_m(t, e, d) of the layer's slice. -/
theorem wmsg_at (d : Fin 256) (t : Fin 8) (e : Fin 256) :
    Msg3.ws3 (V9 m ρ) c (ix2 d (⟨256 * t.val + e.val, by omega⟩ : Fin 2048)) = Wm m c 1 t e d := by
  have h := h3_v40 (W8 m ρ c)
  rw [W8_arg5 m ρ c] at h
  have e1 : Msg3.ws3 (V9 m ρ) c = _ := h
  rw [e1]; unfold Wm
  refine (transpose_ix2_apply _ transposes_S2048x256_S256x2048_1_0 d (⟨256 * t.val + e.val, by omega⟩ : Fin 2048)).trans ?_
  refine (shapeCast_apply _ shapeCasts_S8x256x256_S2048x256 (ix2 (⟨256 * t.val + e.val, by omega⟩ : Fin 2048) d) (ix3 t e d) ?_).trans ?_
  · rw [Shape.rowMajor_val_three, Shape.rowMajor_val_two]
    show (t.val * 256 + e.val) * 256 + d.val = (256 * t.val + e.val) * 256 + d.val
    omega
  refine (shapeCast_1abc_abc_apply _ shapeCasts_S1x8x256x256_S8x256x256 t e d).trans ?_
  exact extractStridedSlice_apply _ (aWm m c) slices_S3x8x256x256_S1x8x256x256_1_0_0_0 (ix4 (0 : Fin 1) t e d) (ix4 (1 : Fin 3) t e d)
    (fun a => match a with
      | ⟨0, _⟩ => rfl
      | ⟨1, _⟩ => (Nat.zero_add _).symm
      | ⟨2, _⟩ => (Nat.zero_add _).symm
      | ⟨3, _⟩ => (Nat.zero_add _).symm)

/-- The message bias: entry (0, 256·t + e) of the region's row is b_m(t, e) of the layer's slice. -/
theorem bmsg_at (t : Fin 8) (e : Fin 256) :
    Msg3.bs3 (V9 m ρ) c (ix2 (0 : Fin 1) (⟨256 * t.val + e.val, by omega⟩ : Fin 2048)) = bm m c 1 t e := by
  have h := h3_v43 (W8 m ρ c)
  rw [W8_arg6 m ρ c] at h
  have e1 : Msg3.bs3 (V9 m ρ) c = _ := h
  rw [e1]; unfold bm
  refine (shapeCast_apply _ shapeCasts_S8x256_S1x2048 (ix2 (0 : Fin 1) (⟨256 * t.val + e.val, by omega⟩ : Fin 2048)) (ix2 t e) ?_).trans ?_
  · rw [Shape.rowMajor_val_two, Shape.rowMajor_val_two]
    show t.val * 256 + e.val = 0 * 2048 + (256 * t.val + e.val)
    omega
  refine (shapeCast_1ab_ab_apply _ shapeCasts_S1x8x256_S8x256 t e).trans ?_
  exact extractStridedSlice_apply _ (aBm m c) slices_S3x8x256_S1x8x256_1_0_0 (ix3 (0 : Fin 1) t e) (ix3 (1 : Fin 3) t e)
    (fun a => match a with
      | ⟨0, _⟩ => rfl
      | ⟨1, _⟩ => (Nat.zero_add _).symm
      | ⟨2, _⟩ => (Nat.zero_add _).symm)

/-- The message region finds the state as the layer found it. -/
theorem hs_eq : Msg3.hs3 (V9 m ρ) c = hbufIn m ρ c := keep3 (W8 m ρ c) main_v36 (by decide)

/-! ## The message region: every node's message under every edge type -/

/-- The message array at the message region's exit, at its literal type. -/
abbrev msgbuf : FVec Ideal S32768x2048 .f32 := W10 m ρ c (Proc.devRef .tc main_v44)

/-- Entry (n, 256·t + e) of the message array is the message of node n under edge type t at feature e. -/
theorem msg_at (H : Cert.GGNN.Hid) (hH : ∀ (n : Fin 32768) (j : Fin 256), hbufIn m ρ c (ix2 n j) = H n j)
    (n : Fin 32768) (t : Fin 8) (e : Fin 256) :
    msgbuf m ρ c (ix2 n (⟨256 * t.val + e.val, by omega⟩ : Fin 2048)) = Cert.GGNN.msg H (Wm m c 1) (bm m c 1) n t e := by
  have hw : msgbuf m ρ c = (dat3 (F := Ideal) (V9 m ρ) c).arrAt 3 cfg3.N := W10_arr m ρ c 3
  rw [hw, Msg3.msg_arr3 (V9 m ρ) c n (⟨256 * t.val + e.val, by omega⟩ : Fin 2048)]
  unfold Cert.GGNN.msg
  rw [bmsg_at m ρ c t e]
  refine congrArg₂ (· + ·) ?_ rfl
  refine Finset.sum_congr rfl fun d _ => ?_
  rw [hs_eq m ρ c, hH n d, wmsg_at m ρ c d t e]

/-! ## The reshape and the edges' row numbers

The message array is reshaped so that row 8·n + t holds node n's message under edge type t, and edge ε's row number
is the word 8·src ε + type ε. -/

theorem h1_v5 (V : Valuation τ sig (Elt Ideal)) :
    (StableHlo.after hostOps1 V (Proc.devRef .tc main_v5) : IVec S524288 32)
      = shapeCast S524288 (extractStridedSlice S1x524288 ![0, 0] (V (Proc.devRef .tc main_arg1) : IVec S2x524288 32)
          slices_S2x524288_S1x524288_0_0) shapeCasts_S1x524288_S524288 := by
  after_results; all_goals rfl
theorem h1_v7 (V : Valuation τ sig (Elt Ideal)) :
    (StableHlo.after hostOps1 V (Proc.devRef .tc main_v7) : IVec S524288 32)
      = shapeCast S524288 (extractStridedSlice S1x524288 ![1, 0] (V (Proc.devRef .tc main_arg1) : IVec S2x524288 32)
          slices_S2x524288_S1x524288_1_0) shapeCasts_S1x524288_S524288 := by
  after_results; all_goals rfl
theorem h4_v45 (V : Valuation τ sig (Elt Ideal)) :
    (StableHlo.after hostOps4 V (Proc.devRef .tc main_v45) : FVec Ideal S262144x256 .f32)
      = shapeCast S262144x256 (V (Proc.devRef .tc main_v44) : FVec Ideal S32768x2048 .f32)
          shapeCasts_S32768x2048_S262144x256 := by
  after_results; all_goals rfl
theorem h4_v48 (V : Valuation τ sig (Elt Ideal)) :
    (StableHlo.after hostOps4 V (Proc.devRef .tc main_v48) : IVec S524288 32)
      = addi (muli (V (Proc.devRef .tc main_v5) : IVec S524288 32)
          (broadcastInDim S524288 ![] bcast_S_S524288 (constantI S_ 32 8#32)))
          (V (Proc.devRef .tc main_arg2) : IVec S524288 32) := by
  after_results; all_goals rfl

/-- The source words, written once before the first message region: row 0 of the edge list. -/
theorem src_W3 (ε : Fin 524288) :
    (W3 m ρ c (Proc.devRef .tc main_v5) : IVec S524288 32) (ix1 ε) = aE m c (ix2 (0 : Fin 2) ε) := by
  have h := h1_v5 (W2 m ρ c)
  rw [W2_arg1 m ρ c] at h
  have e : (W3 m ρ c (Proc.devRef .tc main_v5) : IVec S524288 32) = _ := h
  rw [e]
  refine (shapeCast_1a_a_apply _ shapeCasts_S1x524288_S524288 ε).trans ?_
  exact slice2_axis0_apply 0 (aE m c) slices_S2x524288_S1x524288_0_0 (0 : Fin 1) ε (0 : Fin 2) rfl

/-- The source words are still there at the message region's exit. -/
theorem W10_src : W10 m ρ c (Proc.devRef .tc main_v5) = W3 m ρ c (Proc.devRef .tc main_v5) :=
  (W10_W8 m ρ c main_v5).trans (W8_W3 m ρ c main_v5)

/-- The reshaped message array, the edges' row numbers and the taken rows, each at its literal type. -/
abbrev flatbuf : FVec Ideal S262144x256 .f32 := W11 m ρ c (Proc.devRef .tc main_v45)
abbrev idxbuf : IVec S524288 32 := W11 m ρ c (Proc.devRef .tc main_v48)
abbrev takebuf : FVec Ideal S524288x256 .f32 := W12 m ρ c (Proc.devRef .tc main_v49)

/-- Row 8·n + t of the reshaped array is columns 256·t … 256·t + 255 of row n of the message array. -/
theorem flat_at (n : Fin 32768) (t : Fin 8) (e : Fin 256) :
    flatbuf m ρ c (ix2 (⟨8 * n.val + t.val, by omega⟩ : Fin 262144) e)
      = msgbuf m ρ c (ix2 n (⟨256 * t.val + e.val, by omega⟩ : Fin 2048)) := by
  have e1 : flatbuf m ρ c = shapeCast S262144x256 (msgbuf m ρ c) shapeCasts_S32768x2048_S262144x256 :=
    h4_v45 (W10 m ρ c)
  rw [e1]
  refine shapeCast_apply (msgbuf m ρ c) shapeCasts_S32768x2048_S262144x256
    (ix2 (⟨8 * n.val + t.val, by omega⟩ : Fin 262144) e) (ix2 n (⟨256 * t.val + e.val, by omega⟩ : Fin 2048)) ?_
  rw [Shape.rowMajor_val_two, Shape.rowMajor_val_two]
  show n.val * 2048 + (256 * t.val + e.val) = (8 * n.val + t.val) * 256 + e.val
  omega

/-- Words multiply and add as their values do, modulo 2³²: 8·a + b as a word. -/
theorem word_8a_b (a b : ℕ) :
    IntOp.addi (IntOp.muli (BitVec.ofNat 32 a) 8#32) (BitVec.ofNat 32 b) = BitVec.ofNat 32 (8 * a + b) := by
  show BitVec.ofNat 32 a * 8#32 + BitVec.ofNat 32 b = _
  rw [BitVec.ofNat_add, BitVec.ofNat_mul, BitVec.mul_comm (BitVec.ofNat 32 a)]

/-- The row of the reshaped message array that edge ε takes: 8·src ε + type ε. -/
def rowOf (sn : Fin 524288 → Fin 32768) (st : Fin 524288 → Fin 8) (ε : Fin 524288) : Fin 262144 :=
  ⟨8 * (sn ε).val + (st ε).val, by omega⟩

/-- Edge ε's row number is the word of 8·src ε + type ε. -/
theorem idx_at (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val) (ε : Fin 524288) :
    idxbuf m ρ c (ix1 ε) = BitVec.ofNat 32 (rowOf sn st ε).val := by
  have h := h4_v48 (W10 m ρ c)
  rw [W10_src m ρ c, W10_arg2 m ρ c] at h
  have e : idxbuf m ρ c = _ := h
  rw [e]
  show IntOp.addi (IntOp.muli ((W3 m ρ c (Proc.devRef .tc main_v5) : IVec S524288 32) (ix1 ε)) 8#32) (aT m c (ix1 ε)) = _
  rw [src_W3 m ρ c ε, hsn ε, hst ε]
  exact word_8a_b _ _

/-! ## The take: each edge's message row -/

/-- The taken rows are the edges' messages, as one array. -/
theorem take_eq (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) :
    takebuf m ρ c = Cert.GGNN.edgeMsg (Cert.GGNN.msg H (Wm m c 1) (bm m c 1)) sn st := by
  funext i
  obtain ⟨ε, j, rfl⟩ : ∃ (ε : Fin 524288) (j : Fin 256), i = ix2 ε j := ⟨i 0, i 1, eq_ix2 i⟩
  refine (htake (rowOf sn st) (idx_at m ρ c sn st hsn hst) ε j).trans ?_
  refine (flat_at m ρ c (sn ε) (st ε) j).trans ?_
  exact msg_at m ρ c H hH (sn ε) (st ε) j

/-! ## The layer's last stretch: the aggregation and the update weights -/

theorem h42_v52 (V : Valuation τ sig (Elt Ideal)) :
    (StableHlo.after hostOps4_2 V (Proc.devRef .tc main_v52) : FVec Ideal S32768x256 .f32)
      = Host.scatterAdd scatter_S32768x256_S524288x1_S524288x256_1_0_0_1
          (broadcastInDim S32768x256 ![] bcast_S_S32768x256 (constant (F := Ideal) S_ .f32 0x00000000#32))
          (broadcastInDim S524288x1 ![0] bcast_S524288_S524288x1_0 (V (Proc.devRef .tc main_v7) : IVec S524288 32))
          (V (Proc.devRef .tc main_v49) : FVec Ideal S524288x256 .f32) := by
  after_results; all_goals rfl
theorem h42_v55 (V : Valuation τ sig (Elt Ideal)) :
    (StableHlo.after hostOps4_2 V (Proc.devRef .tc main_v55) : FVec Ideal S256x768 .f32)
      = transpose S256x768 [1, 0] (shapeCast S768x256
          (extractStridedSlice S1x768x256 ![1, 0, 0] (V (Proc.devRef .tc main_arg7) : FVec Ideal S3x768x256 .f32)
            slices_S3x768x256_S1x768x256_1_0_0) shapeCasts_S1x768x256_S768x256) transposes_S768x256_S256x768_1_0 := by
  after_results; all_goals rfl
theorem h42_v58 (V : Valuation τ sig (Elt Ideal)) :
    (StableHlo.after hostOps4_2 V (Proc.devRef .tc main_v58) : FVec Ideal S256x768 .f32)
      = transpose S256x768 [1, 0] (shapeCast S768x256
          (extractStridedSlice S1x768x256 ![1, 0, 0] (V (Proc.devRef .tc main_arg8) : FVec Ideal S3x768x256 .f32)
            slices_S3x768x256_S1x768x256_1_0_0) shapeCasts_S1x768x256_S768x256) transposes_S768x256_S256x768_1_0 := by
  after_results; all_goals rfl
theorem h42_v61 (V : Valuation τ sig (Elt Ideal)) :
    (StableHlo.after hostOps4_2 V (Proc.devRef .tc main_v61) : FVec Ideal S1x768 .f32)
      = shapeCast S1x768 (shapeCast S768
          (extractStridedSlice S1x768 ![1, 0] (V (Proc.devRef .tc main_arg9) : FVec Ideal S3x768 .f32)
            slices_S3x768_S1x768_1_0) shapeCasts_S1x768_S768) shapeCasts_S768_S1x768 := by
  after_results; all_goals rfl
theorem h42_v64 (V : Valuation τ sig (Elt Ideal)) :
    (StableHlo.after hostOps4_2 V (Proc.devRef .tc main_v64) : FVec Ideal S1x768 .f32)
      = shapeCast S1x768 (shapeCast S768
          (extractStridedSlice S1x768 ![1, 0] (V (Proc.devRef .tc main_arg10) : FVec Ideal S3x768 .f32)
            slices_S3x768_S1x768_1_0) shapeCasts_S1x768_S768) shapeCasts_S768_S1x768 := by
  after_results; all_goals rfl

/-- The destination words, written once before the first message region and still there after the take: row 1 of
    the edge list. -/
theorem W12_dst : (W12 m ρ c (Proc.devRef .tc main_v7) : IVec S524288 32)
    = shapeCast S524288 (extractStridedSlice S1x524288 ![1, 0] (aE m c) slices_S2x524288_S1x524288_1_0)
        shapeCasts_S1x524288_S524288 := by
  have h := h1_v7 (W2 m ρ c)
  rw [W2_arg1 m ρ c] at h
  exact ((W12_W10 m ρ c main_v7).trans ((W10_W8 m ρ c main_v7).trans (W8_W3 m ρ c main_v7))).trans h

/-- The aggregate at the update region's entry, at its literal type. -/
abbrev aggbuf : FVec Ideal S32768x256 .f32 := W13 m ρ c (Proc.devRef .tc main_v52)

/-- The aggregate is the aggregation of the taken rows: the same zero array, the same destination column. -/
theorem agg_eq : aggbuf m ρ c = scatArr m c (takebuf m ρ c) := by
  have h := h42_v52 (W12 m ρ c)
  rw [W12_dst m ρ c] at h
  unfold scatArr zeroHid dstCol
  exact h

/-- The input-side update weights: entry (k, g) of the region's matrix is W_ih(g, k) of the layer's slice. -/
theorem wih_at (k : Fin 256) (g : Fin 768) : Gru4.wi4 (V13 m ρ) c (ix2 k g) = Wih m c 1 g k := by
  have h := h42_v55 (W12 m ρ c)
  rw [W12_arg7 m ρ c] at h
  have e1 : Gru4.wi4 (V13 m ρ) c = _ := h
  rw [e1]; unfold Wih
  refine (transpose_ix2_apply _ transposes_S768x256_S256x768_1_0 k g).trans ?_
  refine (shapeCast_1ab_ab_apply _ shapeCasts_S1x768x256_S768x256 g k).trans ?_
  exact extractStridedSlice_apply _ (aWih m c) slices_S3x768x256_S1x768x256_1_0_0 (ix3 (0 : Fin 1) g k) (ix3 (1 : Fin 3) g k)
    (fun a => match a with
      | ⟨0, _⟩ => rfl
      | ⟨1, _⟩ => (Nat.zero_add _).symm
      | ⟨2, _⟩ => (Nat.zero_add _).symm)
/-- The state-side update weights: entry (k, g) of the region's matrix is W_hh(g, k) of the layer's slice. -/
theorem whh_at (k : Fin 256) (g : Fin 768) : Gru4.wh4 (V13 m ρ) c (ix2 k g) = Whh m c 1 g k := by
  have h := h42_v58 (W12 m ρ c)
  rw [W12_arg8 m ρ c] at h
  have e1 : Gru4.wh4 (V13 m ρ) c = _ := h
  rw [e1]; unfold Whh
  refine (transpose_ix2_apply _ transposes_S768x256_S256x768_1_0 k g).trans ?_
  refine (shapeCast_1ab_ab_apply _ shapeCasts_S1x768x256_S768x256 g k).trans ?_
  exact extractStridedSlice_apply _ (aWhh m c) slices_S3x768x256_S1x768x256_1_0_0 (ix3 (0 : Fin 1) g k) (ix3 (1 : Fin 3) g k)
    (fun a => match a with
      | ⟨0, _⟩ => rfl
      | ⟨1, _⟩ => (Nat.zero_add _).symm
      | ⟨2, _⟩ => (Nat.zero_add _).symm)
/-- The input-side update bias: entry (0, g) of the region's row is b_ih(g) of the layer's slice. -/
theorem bih_at (g : Fin 768) : Gru4.bi4 (V13 m ρ) c (ix2 (0 : Fin 1) g) = bih m c 1 g := by
  have h := h42_v61 (W12 m ρ c)
  rw [W12_arg9 m ρ c] at h
  have e1 : Gru4.bi4 (V13 m ρ) c = _ := h
  rw [e1]; unfold bih
  refine (shapeCast_a_1a_apply _ shapeCasts_S768_S1x768 (0 : Fin 1) g).trans ?_
  refine (shapeCast_1a_a_apply _ shapeCasts_S1x768_S768 g).trans ?_
  exact slice2_axis0_apply 1 (aBih m c) slices_S3x768_S1x768_1_0 (0 : Fin 1) g (1 : Fin 3) rfl
/-- The state-side update bias: entry (0, g) of the region's row is b_hh(g) of the layer's slice. -/
theorem bhh_at (g : Fin 768) : Gru4.bh4 (V13 m ρ) c (ix2 (0 : Fin 1) g) = bhh m c 1 g := by
  have h := h42_v64 (W12 m ρ c)
  rw [W12_arg10 m ρ c] at h
  have e1 : Gru4.bh4 (V13 m ρ) c = _ := h
  rw [e1]; unfold bhh
  refine (shapeCast_a_1a_apply _ shapeCasts_S768_S1x768 (0 : Fin 1) g).trans ?_
  refine (shapeCast_1a_a_apply _ shapeCasts_S1x768_S768 g).trans ?_
  exact slice2_axis0_apply 1 (aBhh m c) slices_S3x768_S1x768_1_0 (0 : Fin 1) g (1 : Fin 3) rfl

/-! ## The update region -/

/-- The update region finds the aggregate of the edges' messages. -/
theorem ms_at (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) (n : Fin 32768) (k : Fin 256) :
    Gru4.ms4 (V13 m ρ) c (ix2 n k)
      = kscat m c (Cert.GGNN.edgeMsg (Cert.GGNN.msg H (Wm m c 1) (bm m c 1)) sn st) n k := by
  have e1 : Gru4.ms4 (V13 m ρ) c = aggbuf m ρ c := rfl
  rw [e1, agg_eq m ρ c, take_eq m ρ c sn st hsn hst htake H hH]
  rfl

/-- The update region finds the state as the layer found it. -/
theorem hs4_at (H : Cert.GGNN.Hid) (hH : ∀ (n : Fin 32768) (j : Fin 256), hbufIn m ρ c (ix2 n j) = H n j)
    (n : Fin 32768) (k : Fin 256) : Gru4.hs4 (V13 m ρ) c (ix2 n k) = H n k := by
  have e1 : Gru4.hs4 (V13 m ρ) c = hbufIn m ρ c := W13_state m ρ c
  rw [e1, hH n k]

/-- The two stacked pre-activations and the state, as the update region's value lemma spells them. -/
abbrev giK : Fin 32768 → Fin 768 → EReal := fun n g =>
  (∑ k : Fin 256, Gru4.ms4 (V13 m ρ) c (ix2 n k) * Gru4.wi4 (V13 m ρ) c (ix2 k g)) + Gru4.bi4 (V13 m ρ) c (ix2 (0 : Fin 1) g)
abbrev ghK : Fin 32768 → Fin 768 → EReal := fun n g =>
  (∑ k : Fin 256, Gru4.hs4 (V13 m ρ) c (ix2 n k) * Gru4.wh4 (V13 m ρ) c (ix2 k g)) + Gru4.bh4 (V13 m ρ) c (ix2 (0 : Fin 1) g)
abbrev hK : Fin 32768 → Fin 256 → EReal := fun n j => Gru4.hs4 (V13 m ρ) c (ix2 n j)

theorem giK_eq (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) :
    giK m ρ c = Cert.GGNN.gate (kscat m c (Cert.GGNN.edgeMsg (Cert.GGNN.msg H (Wm m c 1) (bm m c 1)) sn st))
      (Wih m c 1) (bih m c 1) := by
  funext n g
  unfold Cert.GGNN.gate
  show (∑ k : Fin 256, Gru4.ms4 (V13 m ρ) c (ix2 n k) * Gru4.wi4 (V13 m ρ) c (ix2 k g)) + Gru4.bi4 (V13 m ρ) c (ix2 (0 : Fin 1) g) = _
  rw [bih_at m ρ c g]
  refine congrArg₂ (· + ·) ?_ rfl
  refine Finset.sum_congr rfl fun k _ => ?_
  rw [ms_at m ρ c sn st hsn hst htake H hH n k, wih_at m ρ c k g]

theorem ghK_eq (H : Cert.GGNN.Hid) (hH : ∀ (n : Fin 32768) (j : Fin 256), hbufIn m ρ c (ix2 n j) = H n j) :
    ghK m ρ c = Cert.GGNN.gate H (Whh m c 1) (bhh m c 1) := by
  funext n g
  unfold Cert.GGNN.gate
  show (∑ k : Fin 256, Gru4.hs4 (V13 m ρ) c (ix2 n k) * Gru4.wh4 (V13 m ρ) c (ix2 k g)) + Gru4.bh4 (V13 m ρ) c (ix2 (0 : Fin 1) g) = _
  rw [bhh_at m ρ c g]
  refine congrArg₂ (· + ·) ?_ rfl
  refine Finset.sum_congr rfl fun k _ => ?_
  rw [hs4_at m ρ c H hH n k, whh_at m ρ c k g]

theorem hK_eq (H : Cert.GGNN.Hid) (hH : ∀ (n : Fin 32768) (j : Fin 256), hbufIn m ρ c (ix2 n j) = H n j) :
    hK m ρ c = H := by
  funext n j
  exact hs4_at m ρ c H hH n j

/-! ## The layer -/

/-- LAYER 1: the state at the second update region's exit is one propagation layer, with the layer's slice of every
    stacked parameter, of the state at the first update region's exit. -/
theorem layer1_step (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) :
    ∀ (n : Fin 32768) (j : Fin 256), hbufOut m ρ c (ix2 n j)
      = Cert.GGNN.layer (kscat m c) sn st (Wm m c 1) (bm m c 1) (Wih m c 1) (Whh m c 1) (bih m c 1) (bhh m c 1) H n j := by
  intro n j
  have hw : hbufOut m ρ c = (dat4 (F := Ideal) (V13 m ρ) c).arrAt 6 cfg4.N := W14_arr m ρ c 6
  have h1 : hbufOut m ρ c (ix2 n j) = Cert.GGNN.gru (giK m ρ c) (ghK m ρ c) (hK m ρ c) n j := by
    rw [hw]; exact Gru4.gru_arr4 (V13 m ρ) c n j
  rw [h1, giK_eq m ρ c sn st hsn hst htake H hH, ghK_eq m ρ c H hH, hK_eq m ρ c H hH]
  rfl

end Cert.KernelIdeal.KVal.Layer1

end
-- ==== Proof.KMsg5.lean ====
/-
  Region 5 of the program: the messages of every node under every edge type, as one array.

  The region reads the hidden state h, an array [32768, 256], the stacked message weights w, [256, 2048] (the eight
  edge types' 256 output columns side by side), and the stacked bias, one row [1, 2048]; it writes an array
  [32768, 2048]. Its grid has 32 points. Point t stages rows 1024·t … 1024·t + 1023 of h, the whole of w and the bias
  row, and writes back rows 1024·t … 1024·t + 1023 of the result. What the body leaves at entry (p, g) of its block is
      Σ_d hblock(p, d) · w(d, g) + bias(0, g):
  the product is accumulated into the zero array, narrowing an operand's format is the identity on the extended reals,
  and the bias row is repeated down the rows. Row p of point t's block of h is row 1024·t + p of h, so what point t
  writes back is block t of ONE function of the three arrays, `msgArr5`; the 32 blocks tile the result (the point that
  covers row r is r / 1024), so the result array ends holding `msgArr5`.
-/
import proofs.«408314_j22325240004845_1_alg».proof.Proof.Gen.KernelIdeal.Frame
import proofs.«408314_j22325240004845_1_alg».proof.Proof.LibPlainMatmul
import Idealize.ShloMosaic.Lib.ValueLayout
import Idealize.ShloMosaic.Lib.Pipeline.Value

noncomputable section

namespace Cert.KernelIdeal.KVal.Msg5

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The hidden state as the region finds it: one row of 256 per node. -/
abbrev hs5 (c : Dev nD) : Vec Ideal S32768x256 .f32 := V c (Pipeline.arrRef spec5 0)
/-- The stacked message weights as the region finds them: row d, column g. -/
abbrev ws5 (c : Dev nD) : Vec Ideal S256x2048 .f32 := V c (Pipeline.arrRef spec5 1)
/-- The stacked message bias as the region finds it: one row. -/
abbrev bs5 (c : Dev nD) : Vec Ideal S1x2048 .f32 := V c (Pipeline.arrRef spec5 2)

/-! ## The body's arithmetic at one entry of its block -/

/-- The product's dimension numbers are the plain ones: rows by columns, the left operand's second axis contracted
    with the right operand's first. -/
theorem dot5_plain : dot_S1024x256_S256x2048_S1024x2048_1_0_0_1_n_n = DotDims.plain 1024 256 2048 := rfl

/-- Entry (p, g) of what the body stores: row p of the first block against column g of the second, plus the third's
    one row at g. -/
theorem pay5_apply (x0 : Vec Ideal S1024x256 .f32) (x1 : Vec Ideal S256x2048 .f32) (x2 : Vec Ideal S1x2048 .f32)
    (p : Fin 1024) (g : Fin 2048) :
    (k5_pay1 (F := Ideal) x0 x1 x2) (ix2 p g) = (∑ d : Fin 256, x0 (ix2 p d) * x1 (ix2 d g)) + x2 (ix2 (0 : Fin 1) g) := by
  unfold k5_pay1
  refine (addf_apply _ _ _).trans ?_
  refine congrArg₂ (· + ·) ?_ ?_
  · refine (PlainMatmul.matmul_zero_apply 1024 256 2048 none _ _ p g).trans ?_
    refine Finset.sum_congr rfl fun d _ => ?_
    refine congrArg₂ (· * ·) ?_ ?_
    · exact congrFun (shapeCast_self x0 shapeCasts_S1024x256_S1024x256) (ix2 p d)
    · exact congrFun (shapeCast_self x1 shapeCasts_S256x2048_S256x2048) (ix2 d g)
  · refine (broadcastTo_1b_ab_apply _ _ p g).trans ?_
    exact congrFun (shapeCast_self x2 shapeCasts_S1x2048_S1x2048) (ix2 (0 : Fin 1) g)

/-! ## The whole result as one function of the three arrays -/

/-- Entry (n, g) of the result: node n's row against column g of the weights, plus the bias at g. -/
def msgAt5 (h : Vec Ideal S32768x256 .f32) (w : Vec Ideal S256x2048 .f32) (b : Vec Ideal S1x2048 .f32)
    (n : Fin 32768) (g : Fin 2048) : EReal :=
  (∑ d : Fin 256, h (ix2 n d) * w (ix2 d g)) + b (ix2 (0 : Fin 1) g)

/-- The result array. -/
def msgArr5 (h : Vec Ideal S32768x256 .f32) (w : Vec Ideal S256x2048 .f32) (b : Vec Ideal S1x2048 .f32) :
    Vec Ideal S32768x2048 .f32 := fun i => msgAt5 h w b (i 0) (i 1)

/-! ## The blocks a point stages, as parts of the arrays -/

theorem hz5 : (![0, 0] : Fin 2 → Nat) = fun _ => 0 := funext fun a => by fin_cases a <;> rfl

/-- The printed index maps over the grid: the hidden state's and the result's block index is the point on the rows
    and 0 on the columns; the weights' and the bias's is 0 on both axes. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of point t's block of the hidden state is row 1024·t + p of the array. -/
theorem hblk5_apply (c : Dev nD) (t : Fin cfg5.N) (p : Fin 1024) (d : Fin 256) (n : Fin 32768)
    (hn : n.val = t.val * 1024 + p.val) :
    (iblk5 V c 0 t : Vec Ideal S1024x256 .f32) (ix2 p d) = hs5 V c (ix2 n d) := by
  obtain ⟨e0, e1, -⟩ := idx_facts5 t
  unfold iblk5
  show V c (Pipeline.arrRef spec5 0) (((cfg5.win 0).blk t).view.emb (ix2 p d)) = V c (Pipeline.arrRef spec5 0) (ix2 n d)
  refine congrArg _ (funext fun a => Fin.ext ?_)
  match a with
  | ⟨0, _⟩ => show win5_0.index t (0 : Fin 2) * 1024 + 1 * p.val = n.val; omega
  | ⟨1, _⟩ => show win5_0.index t (1 : Fin 2) * 256 + 1 * d.val = d.val; omega

/-- Every point's block of the weights is the whole array. -/
theorem wblk5_apply (c : Dev nD) (t : Fin cfg5.N) (d : Fin 256) (g : Fin 2048) :
    (iblk5 V c 1 t : Vec Ideal S256x2048 .f32) (ix2 d g) = ws5 V c (ix2 d g) := by
  obtain ⟨-, -, e0, e1, -⟩ := idx_facts5 t
  unfold iblk5
  show V c (Pipeline.arrRef spec5 1) (((cfg5.win 1).blk t).view.emb (ix2 d g)) = V c (Pipeline.arrRef spec5 1) (ix2 d g)
  refine congrArg _ (funext fun a => Fin.ext ?_)
  match a with
  | ⟨0, _⟩ => show win5_1.index t (0 : Fin 2) * 256 + 1 * d.val = d.val; omega
  | ⟨1, _⟩ => show win5_1.index t (1 : Fin 2) * 2048 + 1 * g.val = g.val; omega

/-- Every point's block of the bias is the whole row. -/
theorem bblk5_apply (c : Dev nD) (t : Fin cfg5.N) (g : Fin 2048) :
    (iblk5 V c 2 t : Vec Ideal S1x2048 .f32) (ix2 (0 : Fin 1) g) = bs5 V c (ix2 (0 : Fin 1) g) := by
  obtain ⟨-, -, -, -, e0, e1, -⟩ := idx_facts5 t
  unfold iblk5
  show V c (Pipeline.arrRef spec5 2) (((cfg5.win 2).blk t).view.emb (ix2 (0 : Fin 1) g)) = V c (Pipeline.arrRef spec5 2) (ix2 (0 : Fin 1) g)
  refine congrArg _ (funext fun a => Fin.ext ?_)
  match a with
  | ⟨0, _⟩ => show win5_2.index t (0 : Fin 2) * 1 + 1 * (0 : Fin 1).val = (0 : Fin 1).val; omega
  | ⟨1, _⟩ => show win5_2.index t (1 : Fin 2) * 2048 + 1 * g.val = g.val; omega

/-- What the body leaves at (p, g) of point t's block is the result's entry at row 1024·t + p. -/
theorem point5_apply (c : Dev nD) (t : Fin cfg5.N) (p : Fin 1024) (g : Fin 2048) (n : Fin 32768)
    (hn : n.val = t.val * 1024 + p.val) :
    (k5_pay1 (F := Ideal) (iblk5 V c 0 t) (iblk5 V c 1 t) (iblk5 V c 2 t)) (ix2 p g)
      = msgAt5 (hs5 V c) (ws5 V c) (bs5 V c) n g := by
  refine (pay5_apply (iblk5 V c 0 t) (iblk5 V c 1 t) (iblk5 V c 2 t) p g).trans ?_
  unfold msgAt5
  refine congrArg₂ (· + ·) (Finset.sum_congr rfl fun d _ => congrArg₂ (· * ·) ?_ ?_) ?_
  · exact hblk5_apply V c t p d n hn
  · exact wblk5_apply V c t d g
  · exact bblk5_apply V c t g

/-! ## From the blocks to the array -/

/-- What point t writes back is block t of `msgArr5` of the arrays as the region finds them. -/
theorem flushed5_eq (c : Dev nD) (t : Fin cfg5.N) :
    (dat5 (F := Ideal) V c).flushed 3 t
      = ((cfg5.win 3).blk t).view.read (Elt Ideal) (msgArr5 (hs5 V c) (ws5 V c) (bs5 V c)) := by
  show (cfg5.win 3).cut (grid5.coords t) ((dat5 (F := Ideal) V c).after 3 t) = _
  rw [after5_3]
  unfold out5_3
  rw [View.canon_unit_zero hz5]
  simp only [View.ld_unit_zero (S := S1024x256) hz5, View.ld_unit_zero (S := S256x2048) hz5, View.ld_unit_zero (S := S1x2048) hz5]
  obtain ⟨-, -, -, -, -, -, e0, e1⟩ := idx_facts5 t
  funext j
  obtain ⟨p, q, rfl⟩ : ∃ (p : Fin 1024) (q : Fin 2048), j = ix2 p q := ⟨j 0, j 1, eq_ix2 j⟩
  show (k5_pay1 (F := Ideal) (iblk5 V c 0 t) (iblk5 V c 1 t) (iblk5 V c 2 t)) (ix2 p q)
    = msgArr5 (hs5 V c) (ws5 V c) (bs5 V c) (((cfg5.win 3).blk t).view.emb (ix2 p q))
  have hp : p.val < 1024 := p.isLt
  have ht : t.val < 32 := lt_of_lt_of_eq t.isLt N_5
  refine (point5_apply V c t p q ⟨t.val * 1024 + p.val, by omega⟩ rfl).trans ?_
  unfold msgArr5
  refine congrArg₂ (msgAt5 (hs5 V c) (ws5 V c) (bs5 V c)) (Fin.ext ?_) (Fin.ext ?_)
  · show t.val * 1024 + p.val = win5_3.index t (0 : Fin 2) * 1024 + 1 * p.val; omega
  · show q.val = win5_3.index t (1 : Fin 2) * 2048 + 1 * q.val; omega

/-- An index of the result is in point t's block iff each coordinate is in the block's range on its axis. -/
theorem mem_blk5 (t : Fin cfg5.N) (i : S32768x2048.Idx) :
    i ∈ ((cfg5.win 3).blk t).view.set ↔ ∀ a : Fin 2, win5_3.index t a * S1024x2048.size a ≤ (i a).val ∧ (i a).val < win5_3.index t a * S1024x2048.size a + S1024x2048.size a := by
  show i ∈ ((View.whole main_v73).slice (win5_3.rect t)).set ↔ _
  rw [View.set_slice_whole, Rect.mem_set_unit]
  exact Iff.rfl

/-- Every index of the result is in the block of the point its row falls to. -/
theorem cover5 (i : S32768x2048.Idx) :
    ∃ t : Fin cfg5.N, (cfg5.win 3).flush t = true ∧ i ∈ ((cfg5.win 3).blk t).view.set := by
  have hi0 : (i 0).val < 32768 := idx2_lt0 i
  have hi1 : (i 1).val < 2048 := idx2_lt1 i
  obtain ⟨t, ht⟩ : ∃ t : Fin cfg5.N, t.val = (i 0).val / 1024 :=
    ⟨⟨(i 0).val / 1024, by rw [show cfg5.N = 32 from N_5]; omega⟩, rfl⟩
  obtain ⟨-, -, -, -, -, -, e0, e1⟩ := idx_facts5 t
  refine ⟨t, flush5_3 t, ?_⟩
  rw [mem_blk5]
  intro a
  match a with
  | ⟨0, _⟩ => show win5_3.index t (0 : Fin 2) * 1024 ≤ (i 0).val ∧ (i 0).val < win5_3.index t (0 : Fin 2) * 1024 + 1024; omega
  | ⟨1, _⟩ => show win5_3.index t (1 : Fin 2) * 2048 ≤ (i 1).val ∧ (i 1).val < win5_3.index t (1 : Fin 2) * 2048 + 2048; omega

/-- The result array after the region is `msgArr5` of the arrays the region found. -/
theorem final5 (c : Dev nD) :
    (dat5 (F := Ideal) V c).arrAt 3 cfg5.N = msgArr5 (hs5 V c) (ws5 V c) (bs5 V c) :=
  (dat5 (F := Ideal) V c).arrAt_eq_of_cover 3 (msgArr5 (hs5 V c) (ws5 V c) (bs5 V c)) (fun t _ => flushed5_eq V c t) cover5

/-- THE RESULT AT AN ENTRY: node n's row of the hidden state against column g of the weights, plus the bias at g. -/
theorem msg_arr5 (c : Dev nD) (n : Fin 32768) (g : Fin 2048) :
    (dat5 (F := Ideal) V c).arrAt 3 cfg5.N (ix2 n g)
      = (∑ d : Fin 256, hs5 V c (ix2 n d) * ws5 V c (ix2 d g)) + bs5 V c (ix2 (0 : Fin 1) g) := by
  rw [final5 V c]
  rfl

end Cert.KernelIdeal.KVal.Msg5

end
-- ==== Proof.KGru6.lean ====
/-
  The gated recurrent update of one propagation layer, read off the result array of the tiled call that computes it.

  The call walks the 32768 nodes in 32 row blocks of 1024. At row block t it holds rows 1024·t … 1024·t + 1023 of the
  aggregated messages m and of the hidden state h, and the whole of the two stacked weight arrays (256 × 768) and of the two
  stacked bias rows (1 × 768). It forms the two stacked pre-activations

      gi(n, γ) = Σ_k m(n, k) · Wih(k, γ) + bih(γ),      gh(n, γ) = Σ_k h(n, k) · Whh(k, γ) + bhh(γ)

  (a change of float format is the identity on the extended reals; a product accumulated into the zero array is the plain
  sum over the contracted coordinate), cuts each into its three column thirds γ = j, 256 + j, 512 + j (reset, update,
  candidate), and writes back

      h'(n, j) = (1 − z) · c + z · h(n, j),   r = σ(gi_r + gh_r),  z = σ(gi_z + gh_z),  c = tanh(gi_n + r · gh_n).

  Every entry (n, j) of the result depends only on row n of m and h, so what block t writes is the restriction to rows
  1024·t … of ONE function of the whole arrays, and the 32 blocks cover all rows: row n lies in block n / 1024. Hence the
  result array is that function, which is the specification's gated update of the two pre-activations.
-/
import proofs.«408314_j22325240004845_1_alg».proof.Proof.Gen.KernelIdeal.Frame
import proofs.«408314_j22325240004845_1_alg».proof.Proof.Spec
import proofs.«408314_j22325240004845_1_alg».proof.Proof.LibPlainMatmul
import Idealize.ShloMosaic.Lib.Pipeline.Value
import Idealize.ShloMosaic.Lib.ValueIdx

noncomputable section

namespace Cert.KernelIdeal.KVal.Gru6

open Idealize.ShloMosaic Idealize.ShloMosaic.TcCoe Idealize.SL.Sem Idealize.ShloMosaic.ValueIdx Cert.KernelIdeal Cert.KernelIdeal.Gen

/-! ## The update at one entry -/

/-- The gated update at one entry, from the two stacked pre-activation rows of its node and the old state's entry:
    h' = (1 − z) · c + z · h with r = σ(gi_r + gh_r), z = σ(gi_z + gh_z), c = tanh(gi_n + r · gh_n). -/
def gru6_cell (gi gh : Fin 768 → EReal) (h : EReal) (j : Fin 256) : EReal :=
  (Cert.GGNN.one - Ideal.logistic (gi (Cert.GGNN.gZ j) + gh (Cert.GGNN.gZ j)))
      * Ideal.tanh (gi (Cert.GGNN.gN j) + Ideal.logistic (gi (Cert.GGNN.gR j) + gh (Cert.GGNN.gR j)) * gh (Cert.GGNN.gN j))
    + Ideal.logistic (gi (Cert.GGNN.gZ j) + gh (Cert.GGNN.gZ j)) * h

/-- The specification's update of a whole hidden state is that entry update, node by node. -/
theorem gru6_spec_eq_cell (Gi Gh : Fin 32768 → Fin 768 → EReal) (H : Cert.GGNN.Hid) (n : Fin 32768) (j : Fin 256) :
    Cert.GGNN.gru Gi Gh H n j = gru6_cell (Gi n) (Gh n) (H n j) j := rfl

/-! ## The body's operations at an entry of a row block -/

/-- The logistic function of a vector acts entry by entry … -/
theorem gru6_logistic_apply {s : Shape} {φ : FTy} (a : FVec Ideal s φ) (i : s.Idx) :
    logistic a i = Ideal.logistic (a i) := rfl
/-- … and so does the hyperbolic tangent. -/
theorem gru6_tanh_apply {s : Shape} {φ : FTy} (a : FVec Ideal s φ) (i : s.Idx) :
    Idealize.ShloMosaic.tanh a i = Ideal.tanh (a i) := rfl

/-- The product of a row block by a whole weight array, into the zero accumulator, at entry (p, γ): the sum over the
    256 contracted coordinates. -/
theorem gru6_mm_apply (a : FVec Ideal S1024x256 .f32) (w : FVec Ideal S256x768 .f32)
    (hlt : FTy.bits .bf16 < FTy.bits .f32) (p : Fin 1024) (g : Fin 768) :
    matmul dot_S1024x256_S256x768_S1024x768_1_0_0_1_n_n none (truncf .bf16 a hlt) (truncf .bf16 w hlt)
        (constant S1024x768 .f32 0x00000000#32) (ix2 p g)
      = ∑ k : Fin 256, a (ix2 p k) * w (ix2 k g) :=
  PlainMatmul.matmul_zero_apply 1024 256 768 none _ _ p g

/-- The bias row spread over the block's rows, at entry (p, γ): the row's entry γ. -/
theorem gru6_bias_apply (b : FVec Ideal S1x768 .f32) (hbr : S1x768.Broadcasts S1024x768) (p : Fin 1024) (g : Fin 768) :
    broadcastTo S1024x768 b hbr (ix2 p g) = b (ix2 (0 : Fin 1) g) :=
  broadcastTo_apply _ _ _ _ (fun c => by match c with | ⟨0, _⟩ => rfl | ⟨1, _⟩ => rfl)

/-- The reset third of the stacked columns: column j. -/
theorem gru6_thirdR_apply (x : FVec Ideal S1024x768 .f32) (hs : S1024x768.Slices ![0, 0] S1024x256) (p : Fin 1024)
    (q : Fin 256) : extractStridedSlice S1024x256 ![0, 0] x hs (ix2 p q) = x (ix2 p (Cert.GGNN.gR q)) :=
  extractStridedSlice_apply _ _ _ _ _
    (fun c => by match c with | ⟨0, _⟩ => exact (Nat.zero_add _).symm | ⟨1, _⟩ => exact (Nat.zero_add _).symm)
/-- The update third: column 256 + j. -/
theorem gru6_thirdZ_apply (x : FVec Ideal S1024x768 .f32) (hs : S1024x768.Slices ![0, 256] S1024x256) (p : Fin 1024)
    (q : Fin 256) : extractStridedSlice S1024x256 ![0, 256] x hs (ix2 p q) = x (ix2 p (Cert.GGNN.gZ q)) :=
  extractStridedSlice_apply _ _ _ _ _
    (fun c => by match c with | ⟨0, _⟩ => exact (Nat.zero_add _).symm | ⟨1, _⟩ => rfl)
/-- The candidate third: column 512 + j. -/
theorem gru6_thirdN_apply (x : FVec Ideal S1024x768 .f32) (hs : S1024x768.Slices ![0, 512] S1024x256) (p : Fin 1024)
    (q : Fin 256) : extractStridedSlice S1024x256 ![0, 512] x hs (ix2 p q) = x (ix2 p (Cert.GGNN.gN q)) :=
  extractStridedSlice_apply _ _ _ _ _
    (fun c => by match c with | ⟨0, _⟩ => exact (Nat.zero_add _).symm | ⟨1, _⟩ => rfl)

/-- THE BODY'S RESULT AT ENTRY (p, q) OF A ROW BLOCK: the entry update of row p's two pre-activation rows, formed from
    the block's rows of m and h, the whole weights and the bias rows. -/
theorem gru6_pay_apply (v0 v3 : Vec Ideal S1024x256 .f32) (v6 v9 : Vec Ideal S256x768 .f32) (v13 v18 : Vec Ideal S1x768 .f32)
    (v35 : Vec Ideal S1024x256 .f32) (p : Fin 1024) (q : Fin 256) :
    (k6_pay1 (F := Ideal) v0 v3 v6 v9 v13 v18 v35) (ix2 p q)
      = gru6_cell (fun g => (∑ k : Fin 256, v0 (ix2 p k) * v6 (ix2 k g)) + v13 (ix2 (0 : Fin 1) g))
             (fun g => (∑ k : Fin 256, v3 (ix2 p k) * v9 (ix2 k g)) + v18 (ix2 (0 : Fin 1) g))
             (v35 (ix2 p q)) q := by
  unfold k6_pay1 gru6_cell
  simp only [addf_apply, mulf_apply, subf_apply, broadcast_apply, gru6_logistic_apply, gru6_tanh_apply,
    gru6_thirdR_apply, gru6_thirdZ_apply, gru6_thirdN_apply, shapeCast_self, gru6_mm_apply, gru6_bias_apply]
  rfl

/-! ## The region's arrays, and its result as one function of them -/

-- the core's buffer contents when the region is entered
variable (V : (c : Dev nD) → (b : Ref sig .tc) → Buf (Elt Ideal) ((c : Thread nD τ).loc b))

/-- The aggregated messages m, one row of 256 per node. -/
abbrev ms6 (c : Dev nD) : Vec Ideal S32768x256 .f32 := V c (Pipeline.arrRef spec6 0)
/-- The hidden state h before the update. -/
abbrev hs6 (c : Dev nD) : Vec Ideal S32768x256 .f32 := V c (Pipeline.arrRef spec6 1)
/-- The stacked input weights, 256 × 768. -/
abbrev wi6 (c : Dev nD) : Vec Ideal S256x768 .f32 := V c (Pipeline.arrRef spec6 2)
/-- The stacked hidden weights, 256 × 768. -/
abbrev wh6 (c : Dev nD) : Vec Ideal S256x768 .f32 := V c (Pipeline.arrRef spec6 3)
/-- The stacked input bias, one row of 768. -/
abbrev bi6 (c : Dev nD) : Vec Ideal S1x768 .f32 := V c (Pipeline.arrRef spec6 4)
/-- The stacked hidden bias, one row of 768. -/
abbrev bh6 (c : Dev nD) : Vec Ideal S1x768 .f32 := V c (Pipeline.arrRef spec6 5)

/-- The updated hidden state as ONE function of the region's arrays: the specification's gated update of the two
    stacked pre-activations. -/
def gru6_G (c : Dev nD) : Vec Ideal S32768x256 .f32 := fun i =>
  Cert.GGNN.gru
    (fun n g => (∑ k : Fin 256, ms6 V c (ix2 n k) * wi6 V c (ix2 k g)) + bi6 V c (ix2 (0 : Fin 1) g))
    (fun n g => (∑ k : Fin 256, hs6 V c (ix2 n k) * wh6 V c (ix2 k g)) + bh6 V c (ix2 (0 : Fin 1) g))
    (fun n j => hs6 V c (ix2 n j)) (i 0) (i 1)

/-! ## The blocks a grid point holds -/

/-- Row p of row block t is node 1024 · t + p. -/
def gru6_row (t : Fin cfg6.N) (p : Fin 1024) : Fin 32768 :=
  ⟨t.val * 1024 + p.val, by have hN : cfg6.N = 32 := N_6; have := t.isLt; have := p.isLt; omega⟩

/-- Point t's rows of m, … -/
abbrev gru6_mblk (c : Dev nD) (t : Fin cfg6.N) : Vec Ideal S1024x256 .f32 := iblk6 V c 0 t
/-- … its rows of h, … -/
abbrev gru6_hblk (c : Dev nD) (t : Fin cfg6.N) : Vec Ideal S1024x256 .f32 := iblk6 V c 1 t
/-- … and the four whole parameter arrays as it holds them. -/
abbrev gru6_wiblk (c : Dev nD) (t : Fin cfg6.N) : Vec Ideal S256x768 .f32 := iblk6 V c 2 t
abbrev gru6_whblk (c : Dev nD) (t : Fin cfg6.N) : Vec Ideal S256x768 .f32 := iblk6 V c 3 t
abbrev gru6_biblk (c : Dev nD) (t : Fin cfg6.N) : Vec Ideal S1x768 .f32 := iblk6 V c 4 t
abbrev gru6_bhblk (c : Dev nD) (t : Fin cfg6.N) : Vec Ideal S1x768 .f32 := iblk6 V c 5 t

theorem gru6_hz : (![0, 0] : Fin 2 → Nat) = fun _ => 0 := funext fun a => by fin_cases a <;> rfl

/-- The printed index maps over the grid: the two row-blocked inputs and the output sit at block (t, 0); the four
    parameter arrays at block (0, 0). -/
theorem gru6_idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Point t's block of m is rows 1024 · t … of the array. -/
theorem gru6_mblk_apply (c : Dev nD) (t : Fin cfg6.N) (p : Fin 1024) (q : Fin 256) :
    gru6_mblk V c t (ix2 p q) = ms6 V c (ix2 (gru6_row t p) q) := by
  obtain ⟨e0, e1, -⟩ := gru6_idx t
  show ((cfg6.win 0).blk t).view.read (Elt Ideal) (V c (Pipeline.arrRef spec6 0)) (ix2 p q) = _
  rw [View.read_apply]
  show V c (Pipeline.arrRef spec6 0) _ = V c (Pipeline.arrRef spec6 0) _
  congr 1
  funext a
  apply Fin.ext
  match a with
  | ⟨0, _⟩ => show win6_0.index t (0 : Fin 2) * 1024 + 1 * p.val = t.val * 1024 + p.val; rw [e0]; omega
  | ⟨1, _⟩ => show win6_0.index t (1 : Fin 2) * 256 + 1 * q.val = q.val; rw [e1]; omega

/-- Point t's block of h is rows 1024 · t … of the array. -/
theorem gru6_hblk_apply (c : Dev nD) (t : Fin cfg6.N) (p : Fin 1024) (q : Fin 256) :
    gru6_hblk V c t (ix2 p q) = hs6 V c (ix2 (gru6_row t p) q) := by
  obtain ⟨e00, e01, e10, e11, e20, e21, e30, e31, e40, e41, e50, e51, e60, e61⟩ := gru6_idx t
  show ((cfg6.win 1).blk t).view.read (Elt Ideal) (V c (Pipeline.arrRef spec6 1)) (ix2 p q) = _
  rw [View.read_apply]
  show V c (Pipeline.arrRef spec6 1) _ = V c (Pipeline.arrRef spec6 1) _
  congr 1
  funext a
  apply Fin.ext
  match a with
  | ⟨0, _⟩ => show win6_1.index t (0 : Fin 2) * 1024 + 1 * p.val = t.val * 1024 + p.val; rw [e10]; omega
  | ⟨1, _⟩ => show win6_1.index t (1 : Fin 2) * 256 + 1 * q.val = q.val; rw [e11]; omega

/-- The stacked input weights are held whole at every point, … -/
theorem gru6_wiblk_apply (c : Dev nD) (t : Fin cfg6.N) (k : Fin 256) (g : Fin 768) :
    gru6_wiblk V c t (ix2 k g) = wi6 V c (ix2 k g) := by
  obtain ⟨e00, e01, e10, e11, e20, e21, e30, e31, e40, e41, e50, e51, e60, e61⟩ := gru6_idx t
  show ((cfg6.win 2).blk t).view.read (Elt Ideal) (V c (Pipeline.arrRef spec6 2)) (ix2 k g) = _
  rw [View.read_apply]
  show V c (Pipeline.arrRef spec6 2) _ = V c (Pipeline.arrRef spec6 2) _
  congr 1
  funext a
  apply Fin.ext
  match a with
  | ⟨0, _⟩ => show win6_2.index t (0 : Fin 2) * 256 + 1 * k.val = k.val; rw [e20]; omega
  | ⟨1, _⟩ => show win6_2.index t (1 : Fin 2) * 768 + 1 * g.val = g.val; rw [e21]; omega

/-- … the stacked hidden weights too, … -/
theorem gru6_whblk_apply (c : Dev nD) (t : Fin cfg6.N) (k : Fin 256) (g : Fin 768) :
    gru6_whblk V c t (ix2 k g) = wh6 V c (ix2 k g) := by
  obtain ⟨e00, e01, e10, e11, e20, e21, e30, e31, e40, e41, e50, e51, e60, e61⟩ := gru6_idx t
  show ((cfg6.win 3).blk t).view.read (Elt Ideal) (V c (Pipeline.arrRef spec6 3)) (ix2 k g) = _
  rw [View.read_apply]
  show V c (Pipeline.arrRef spec6 3) _ = V c (Pipeline.arrRef spec6 3) _
  congr 1
  funext a
  apply Fin.ext
  match a with
  | ⟨0, _⟩ => show win6_3.index t (0 : Fin 2) * 256 + 1 * k.val = k.val; rw [e30]; omega
  | ⟨1, _⟩ => show win6_3.index t (1 : Fin 2) * 768 + 1 * g.val = g.val; rw [e31]; omega

/-- … and the two bias rows. -/
theorem gru6_biblk_apply (c : Dev nD) (t : Fin cfg6.N) (g : Fin 768) :
    gru6_biblk V c t (ix2 (0 : Fin 1) g) = bi6 V c (ix2 (0 : Fin 1) g) := by
  obtain ⟨e00, e01, e10, e11, e20, e21, e30, e31, e40, e41, e50, e51, e60, e61⟩ := gru6_idx t
  show ((cfg6.win 4).blk t).view.read (Elt Ideal) (V c (Pipeline.arrRef spec6 4)) (ix2 (0 : Fin 1) g) = _
  rw [View.read_apply]
  show V c (Pipeline.arrRef spec6 4) _ = V c (Pipeline.arrRef spec6 4) _
  congr 1
  funext a
  apply Fin.ext
  match a with
  | ⟨0, _⟩ => show win6_4.index t (0 : Fin 2) * 1 + 1 * (0 : Fin 1).val = (0 : Fin 1).val; rw [e40]; rfl
  | ⟨1, _⟩ => show win6_4.index t (1 : Fin 2) * 768 + 1 * g.val = g.val; rw [e41]; omega

theorem gru6_bhblk_apply (c : Dev nD) (t : Fin cfg6.N) (g : Fin 768) :
    gru6_bhblk V c t (ix2 (0 : Fin 1) g) = bh6 V c (ix2 (0 : Fin 1) g) := by
  obtain ⟨e00, e01, e10, e11, e20, e21, e30, e31, e40, e41, e50, e51, e60, e61⟩ := gru6_idx t
  show ((cfg6.win 5).blk t).view.read (Elt Ideal) (V c (Pipeline.arrRef spec6 5)) (ix2 (0 : Fin 1) g) = _
  rw [View.read_apply]
  show V c (Pipeline.arrRef spec6 5) _ = V c (Pipeline.arrRef spec6 5) _
  congr 1
  funext a
  apply Fin.ext
  match a with
  | ⟨0, _⟩ => show win6_5.index t (0 : Fin 2) * 1 + 1 * (0 : Fin 1).val = (0 : Fin 1).val; rw [e50]; rfl
  | ⟨1, _⟩ => show win6_5.index t (1 : Fin 2) * 768 + 1 * g.val = g.val; rw [e51]; omega

/-! ## From the row blocks to the array -/

/-- The one function at node n, feature j: the entry update of node n's two pre-activation rows. -/
theorem gru6_G_apply (c : Dev nD) (n : Fin 32768) (j : Fin 256) :
    gru6_G V c (ix2 n j)
      = gru6_cell (fun g => (∑ k : Fin 256, ms6 V c (ix2 n k) * wi6 V c (ix2 k g)) + bi6 V c (ix2 (0 : Fin 1) g))
          (fun g => (∑ k : Fin 256, hs6 V c (ix2 n k) * wh6 V c (ix2 k g)) + bh6 V c (ix2 (0 : Fin 1) g))
          (hs6 V c (ix2 n j)) j := rfl

/-- Two row blocks are equal when they agree at every entry (p, q). -/
theorem gru6_blk_ext (X Y : Vec Ideal S1024x256 .f32)
    (h : ∀ (p : Fin 1024) (q : Fin 256), X (ix2 p q) = Y (ix2 p q)) : X = Y :=
  funext fun y => by rw [eq_ix2 y]; exact h _ _

/-- WHAT POINT t WRITES BACK is rows 1024 · t … of the one function: the body's result at (p, q) is the entry update
    of the block's rows, which are the arrays' rows at node 1024 · t + p. -/
theorem gru6_flushed_eq (c : Dev nD) (t : Fin cfg6.N) :
    (dat6 V c).flushed 6 t = ((cfg6.win 6).blk t).view.read (Elt Ideal) (gru6_G V c) := by
  show (cfg6.win 6).cut (grid6.coords t) ((dat6 V c).after 6 t) = _
  rw [after6_6]
  unfold out6_6
  rw [View.canon_unit_zero gru6_hz]
  simp only [View.ld_unit_zero (S := S1024x256) gru6_hz, View.ld_unit_zero (S := S256x768) gru6_hz,
    View.ld_unit_zero (S := S1x768) gru6_hz]
  refine gru6_blk_ext _ _ (fun p q => ?_)
  obtain ⟨e00, e01, e10, e11, e20, e21, e30, e31, e40, e41, e50, e51, e60, e61⟩ := gru6_idx t
  show k6_pay1 (F := Ideal) (gru6_mblk V c t) (gru6_hblk V c t) (gru6_wiblk V c t) (gru6_whblk V c t)
        (gru6_biblk V c t) (gru6_bhblk V c t) (gru6_hblk V c t) (ix2 p q)
      = gru6_G V c (((cfg6.win 6).blk t).view.emb (ix2 p q))
  have hemb : ((cfg6.win 6).blk t).view.emb (ix2 p q) = ix2 (gru6_row t p) q := by
    funext a
    apply Fin.ext
    match a with
    | ⟨0, _⟩ => show win6_6.index t (0 : Fin 2) * 1024 + 1 * p.val = t.val * 1024 + p.val; rw [e60]; omega
    | ⟨1, _⟩ => show win6_6.index t (1 : Fin 2) * 256 + 1 * q.val = q.val; rw [e61]; omega
  rw [hemb, gru6_G_apply]
  refine (gru6_pay_apply (gru6_mblk V c t) (gru6_hblk V c t) (gru6_wiblk V c t) (gru6_whblk V c t)
    (gru6_biblk V c t) (gru6_bhblk V c t) (gru6_hblk V c t) p q).trans ?_
  simp only [gru6_mblk_apply, gru6_hblk_apply, gru6_wiblk_apply, gru6_whblk_apply, gru6_biblk_apply, gru6_bhblk_apply]

/-- An index of the result array is in point t's block iff each coordinate is in the block's range on its axis. -/
theorem gru6_mem_blk (t : Fin cfg6.N) (i : S32768x256.Idx) :
    i ∈ ((cfg6.win 6).blk t).view.set ↔ ∀ a : Fin 2, win6_6.index t a * S1024x256.size a ≤ (i a).val
      ∧ (i a).val < win6_6.index t a * S1024x256.size a + S1024x256.size a := by
  show i ∈ ((View.whole (Pipeline.arrRef spec6 6)).slice (win6_6.rect t)).set ↔ _
  rw [View.set_slice_whole, Rect.mem_set_unit]
  exact Iff.rfl

/-- THE BLOCKS COVER THE ARRAY: row n lies in the block of point n / 1024, and every point writes back. -/
theorem gru6_cover (i : S32768x256.Idx) :
    ∃ t : Fin cfg6.N, (cfg6.win 6).flush t = true ∧ i ∈ ((cfg6.win 6).blk t).view.set := by
  have hN : cfg6.N = 32 := N_6
  have hi0 : (i 0).val < 32768 := (i 0).isLt
  have hi1 : (i 1).val < 256 := (i 1).isLt
  obtain ⟨t, ht⟩ : ∃ t : Fin cfg6.N, t.val = (i 0).val / 1024 := ⟨⟨(i 0).val / 1024, by omega⟩, rfl⟩
  obtain ⟨e00, e01, e10, e11, e20, e21, e30, e31, e40, e41, e50, e51, e60, e61⟩ := gru6_idx t
  refine ⟨t, flush6_6 t, ?_⟩
  rw [gru6_mem_blk]
  intro a
  match a with
  | ⟨0, _⟩ =>
    show win6_6.index t (0 : Fin 2) * 1024 ≤ (i 0).val ∧ (i 0).val < win6_6.index t (0 : Fin 2) * 1024 + 1024
    rw [e60, ht]; omega
  | ⟨1, _⟩ =>
    show win6_6.index t (1 : Fin 2) * 256 ≤ (i 1).val ∧ (i 1).val < win6_6.index t (1 : Fin 2) * 256 + 256
    rw [e61]; omega

/-- THE RESULT ARRAY after the region is the one function of the region's arrays. -/
theorem gru6_final (c : Dev nD) : (dat6 V c).arrAt 6 cfg6.N = gru6_G V c :=
  (dat6 V c).arrAt_eq_of_cover 6 (gru6_G V c) (fun t _ => gru6_flushed_eq V c t) gru6_cover

/-- THE UPDATED HIDDEN STATE: entry (n, j) of the result array is the specification's gated update of the two stacked
    pre-activations of m and h, at node n and feature j. -/
theorem gru_arr6 (c : Dev nD) (n : Fin 32768) (j : Fin 256) :
    (Gen.dat6 (F := Ideal) V c).arrAt 6 cfg6.N (ix2 n j)
      = Cert.GGNN.gru
          (fun n g => (∑ k : Fin 256, ms6 V c (ix2 n k) * wi6 V c (ix2 k g)) + bi6 V c (ix2 (0 : Fin 1) g))
          (fun n g => (∑ k : Fin 256, hs6 V c (ix2 n k) * wh6 V c (ix2 k g)) + bh6 V c (ix2 (0 : Fin 1) g))
          (fun n j => hs6 V c (ix2 n j)) n j :=
  congrFun (gru6_final V c) (ix2 n j)

end Cert.KernelIdeal.KVal.Gru6

end
-- ==== Proof.KLayer2.lean ====
/-
  Layer 2 (the third propagation layer) of the network on the kernel program's side: from the second update region's
  exit to the third update region's exit. The state h enters as one array. The message region multiplies it by the
  layer's eight message matrices laid side by side (column 256·t + e is edge type t, feature e) and adds the bias row;
  a reshape makes row 8·n + t of a [262144, 256] array the message of node n under edge type t; each edge takes the
  row 8·src + type; the rows are added by destination node into a zero array; and the update region applies the gated
  update to the aggregate and the state. Every host stretch is read at an index as the layer's slice of a launch array.
-/
import proofs.«408314_j22325240004845_1_alg».proof.Proof.Gen.KernelIdeal.Frame
import proofs.«408314_j22325240004845_1_alg».proof.Proof.KArgs
import proofs.«408314_j22325240004845_1_alg».proof.Proof.KMsg5
import proofs.«408314_j22325240004845_1_alg».proof.Proof.KGru6
import Idealize.ShloMosaic.Lib.ValueLayout
import Idealize.ShloMosaic.Lib.Pipeline.Value
import Idealize.ShloMosaic.Lib.StableHlo.Run

noncomputable section

namespace Cert.KernelIdeal.KVal.Layer2

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-! ## What each host stretch leaves alone -/

/-- The references each stretch writes. -/
abbrev wr0 : List (Ref sig .tc) :=
  [main_v0, main_v1, main_v2]
abbrev wr1 : List (Ref sig .tc) :=
  [main_v4, main_v5, main_v6, main_v7, main_v8, main_v9, main_v10, main_v11, main_v12, main_v13, main_v14]
abbrev wr2 : List (Ref sig .tc) :=
  [main_v16, main_c, main_v17, main_v18, main_v19]
abbrev wr2_1 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9,
   main_call0_v10, main_call0_v11, main_call0_c_3, main_call0_v12, main_call0_v13, main_call0_v14, main_call0_cst,
   main_call0_v15, main_v20]
abbrev wr2_2 : List (Ref sig .tc) :=
  [main_cst, main_v21, main_v22, main_v23, main_v24, main_v25, main_v26, main_v27, main_v28, main_v29, main_v30,
   main_v31, main_v32, main_v33, main_v34, main_v35]
abbrev wr3 : List (Ref sig .tc) :=
  [main_v37, main_v38, main_v39, main_v40, main_v41, main_v42, main_v43]
abbrev wr4 : List (Ref sig .tc) :=
  [main_v45, main_c_0, main_v46, main_v47, main_v48]
abbrev wr4_1 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9,
   main_call1_v10, main_call1_v11, main_call1_c_3, main_call1_v12, main_call1_v13, main_call1_v14, main_call1_cst,
   main_call1_v15, main_v49]
abbrev wr4_2 : List (Ref sig .tc) :=
  [main_cst_1, main_v50, main_v51, main_v52, main_v53, main_v54, main_v55, main_v56, main_v57, main_v58, main_v59,
   main_v60, main_v61, main_v62, main_v63, main_v64]
abbrev wr5 : List (Ref sig .tc) :=
  [main_v66, main_v67, main_v68, main_v69, main_v70, main_v71, main_v72]
abbrev wr6 : List (Ref sig .tc) :=
  [main_v74, main_c_2, main_v75, main_v76, main_v77]
abbrev wr6_1 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9,
   main_call2_v10, main_call2_v11, main_call2_c_3, main_call2_v12, main_call2_v13, main_call2_v14, main_call2_cst,
   main_call2_v15, main_v78]
abbrev wr6_2 : List (Ref sig .tc) :=
  [main_cst_3, main_v79, main_v80, main_v81, main_v82, main_v83, main_v84, main_v85, main_v86, main_v87, main_v88,
   main_v89, main_v90, main_v91, main_v92, main_v93]

/-- A reference outside a stretch's list holds after the stretch what it held before. -/
theorem keep0 (V : Valuation τ sig (Elt Ideal)) (r : Ref sig .tc) (hr : r ∉ wr0) :
    StableHlo.after hostOps0 V (Proc.devRef .tc r) = V (Proc.devRef .tc r) :=
  StableHlo.after_of_writes_sub hostOps0 V (W := wr0) (by
    simp only [hostOps0, List.Forall, nullary_writes, unary_writes, binary_writes, ternary_writes, reshape_writes,
      Finset.singleton_subset_iff, List.mem_toFinset]
    repeat' apply And.intro
    all_goals exact List.mem_map_of_mem (by decide)) hr
theorem keep1 (V : Valuation τ sig (Elt Ideal)) (r : Ref sig .tc) (hr : r ∉ wr1) :
    StableHlo.after hostOps1 V (Proc.devRef .tc r) = V (Proc.devRef .tc r) :=
  StableHlo.after_of_writes_sub hostOps1 V (W := wr1) (by
    simp only [hostOps1, List.Forall, nullary_writes, unary_writes, binary_writes, ternary_writes, reshape_writes,
      Finset.singleton_subset_iff, List.mem_toFinset]
    repeat' apply And.intro
    all_goals exact List.mem_map_of_mem (by decide)) hr
theorem keep2 (V : Valuation τ sig (Elt Ideal)) (r : Ref sig .tc) (hr : r ∉ wr2) :
    StableHlo.after hostOps2 V (Proc.devRef .tc r) = V (Proc.devRef .tc r) :=
  StableHlo.after_of_writes_sub hostOps2 V (W := wr2) (by
    simp only [hostOps2, List.Forall, nullary_writes, unary_writes, binary_writes, ternary_writes, reshape_writes,
      Finset.singleton_subset_iff, List.mem_toFinset]
    repeat' apply And.intro
    all_goals exact List.mem_map_of_mem (by decide)) hr
theorem keep2_1 (V : Valuation τ sig (Elt Ideal)) (r : Ref sig .tc) (hr : r ∉ wr2_1) :
    StableHlo.after hostOps2_1 V (Proc.devRef .tc r) = V (Proc.devRef .tc r) :=
  StableHlo.after_of_writes_sub hostOps2_1 V (W := wr2_1) (by
    simp only [hostOps2_1, List.Forall, nullary_writes, unary_writes, binary_writes, ternary_writes, reshape_writes,
      Finset.singleton_subset_iff, List.mem_toFinset]
    repeat' apply And.intro
    all_goals exact List.mem_map_of_mem (by decide)) hr
theorem keep2_2 (V : Valuation τ sig (Elt Ideal)) (r : Ref sig .tc) (hr : r ∉ wr2_2) :
    StableHlo.after hostOps2_2 V (Proc.devRef .tc r) = V (Proc.devRef .tc r) :=
  StableHlo.after_of_writes_sub hostOps2_2 V (W := wr2_2) (by
    simp only [hostOps2_2, List.Forall, nullary_writes, unary_writes, binary_writes, ternary_writes, reshape_writes,
      Finset.singleton_subset_iff, List.mem_toFinset]
    repeat' apply And.intro
    all_goals exact List.mem_map_of_mem (by decide)) hr
theorem keep3 (V : Valuation τ sig (Elt Ideal)) (r : Ref sig .tc) (hr : r ∉ wr3) :
    StableHlo.after hostOps3 V (Proc.devRef .tc r) = V (Proc.devRef .tc r) :=
  StableHlo.after_of_writes_sub hostOps3 V (W := wr3) (by
    simp only [hostOps3, List.Forall, nullary_writes, unary_writes, binary_writes, ternary_writes, reshape_writes,
      Finset.singleton_subset_iff, List.mem_toFinset]
    repeat' apply And.intro
    all_goals exact List.mem_map_of_mem (by decide)) hr
theorem keep4 (V : Valuation τ sig (Elt Ideal)) (r : Ref sig .tc) (hr : r ∉ wr4) :
    StableHlo.after hostOps4 V (Proc.devRef .tc r) = V (Proc.devRef .tc r) :=
  StableHlo.after_of_writes_sub hostOps4 V (W := wr4) (by
    simp only [hostOps4, List.Forall, nullary_writes, unary_writes, binary_writes, ternary_writes, reshape_writes,
      Finset.singleton_subset_iff, List.mem_toFinset]
    repeat' apply And.intro
    all_goals exact List.mem_map_of_mem (by decide)) hr
theorem keep4_1 (V : Valuation τ sig (Elt Ideal)) (r : Ref sig .tc) (hr : r ∉ wr4_1) :
    StableHlo.after hostOps4_1 V (Proc.devRef .tc r) = V (Proc.devRef .tc r) :=
  StableHlo.after_of_writes_sub hostOps4_1 V (W := wr4_1) (by
    simp only [hostOps4_1, List.Forall, nullary_writes, unary_writes, binary_writes, ternary_writes, reshape_writes,
      Finset.singleton_subset_iff, List.mem_toFinset]
    repeat' apply And.intro
    all_goals exact List.mem_map_of_mem (by decide)) hr
theorem keep4_2 (V : Valuation τ sig (Elt Ideal)) (r : Ref sig .tc) (hr : r ∉ wr4_2) :
    StableHlo.after hostOps4_2 V (Proc.devRef .tc r) = V (Proc.devRef .tc r) :=
  StableHlo.after_of_writes_sub hostOps4_2 V (W := wr4_2) (by
    simp only [hostOps4_2, List.Forall, nullary_writes, unary_writes, binary_writes, ternary_writes, reshape_writes,
      Finset.singleton_subset_iff, List.mem_toFinset]
    repeat' apply And.intro
    all_goals exact List.mem_map_of_mem (by decide)) hr
theorem keep5 (V : Valuation τ sig (Elt Ideal)) (r : Ref sig .tc) (hr : r ∉ wr5) :
    StableHlo.after hostOps5 V (Proc.devRef .tc r) = V (Proc.devRef .tc r) :=
  StableHlo.after_of_writes_sub hostOps5 V (W := wr5) (by
    simp only [hostOps5, List.Forall, nullary_writes, unary_writes, binary_writes, ternary_writes, reshape_writes,
      Finset.singleton_subset_iff, List.mem_toFinset]
    repeat' apply And.intro
    all_goals exact List.mem_map_of_mem (by decide)) hr
theorem keep6 (V : Valuation τ sig (Elt Ideal)) (r : Ref sig .tc) (hr : r ∉ wr6) :
    StableHlo.after hostOps6 V (Proc.devRef .tc r) = V (Proc.devRef .tc r) :=
  StableHlo.after_of_writes_sub hostOps6 V (W := wr6) (by
    simp only [hostOps6, List.Forall, nullary_writes, unary_writes, binary_writes, ternary_writes, reshape_writes,
      Finset.singleton_subset_iff, List.mem_toFinset]
    repeat' apply And.intro
    all_goals exact List.mem_map_of_mem (by decide)) hr
theorem keep6_1 (V : Valuation τ sig (Elt Ideal)) (r : Ref sig .tc) (hr : r ∉ wr6_1) :
    StableHlo.after hostOps6_1 V (Proc.devRef .tc r) = V (Proc.devRef .tc r) :=
  StableHlo.after_of_writes_sub hostOps6_1 V (W := wr6_1) (by
    simp only [hostOps6_1, List.Forall, nullary_writes, unary_writes, binary_writes, ternary_writes, reshape_writes,
      Finset.singleton_subset_iff, List.mem_toFinset]
    repeat' apply And.intro
    all_goals exact List.mem_map_of_mem (by decide)) hr
theorem keep6_2 (V : Valuation τ sig (Elt Ideal)) (r : Ref sig .tc) (hr : r ∉ wr6_2) :
    StableHlo.after hostOps6_2 V (Proc.devRef .tc r) = V (Proc.devRef .tc r) :=
  StableHlo.after_of_writes_sub hostOps6_2 V (W := wr6_2) (by
    simp only [hostOps6_2, List.Forall, nullary_writes, unary_writes, binary_writes, ternary_writes, reshape_writes,
      Finset.singleton_subset_iff, List.mem_toFinset]
    repeat' apply And.intro
    all_goals exact List.mem_map_of_mem (by decide)) hr

/-! ## The launch arrays, the edge list's rows and the state at the boundaries

A launch array is written by no stretch and is no region's array, so every boundary holds the launch memory there. The
two rows of the edge list are written once, by the stretch before the first message region, and by nothing after. -/

/-- Nothing before the first message region's entry touches `r`. -/
abbrev Early (r : Ref sig .tc) : Prop := r ∉ wr0 ∧ (∀ w, Pipeline.arrRef spec0 w ≠ r) ∧ r ∉ wr1
/-- Nothing from the first message region's entry to the second update region's exit touches `r`. -/
abbrev Mid (r : Ref sig .tc) : Prop :=
  (∀ w, Pipeline.arrRef spec1 w ≠ r) ∧ r ∉ wr2 ∧ r ∉ wr2_1 ∧ r ∉ wr2_2 ∧ (∀ w, Pipeline.arrRef spec2 w ≠ r) ∧ r ∉ wr3
    ∧ (∀ w, Pipeline.arrRef spec3 w ≠ r) ∧ r ∉ wr4 ∧ r ∉ wr4_1 ∧ r ∉ wr4_2 ∧ (∀ w, Pipeline.arrRef spec4 w ≠ r)
/-- Neither the layer's first stretch nor its message region touches `r`. -/
abbrev Late5 (r : Ref sig .tc) : Prop := r ∉ wr5 ∧ ∀ w, Pipeline.arrRef spec5 w ≠ r
/-- Neither the reshape-and-index stretch nor the take touches `r`. -/
abbrev Late6 (r : Ref sig .tc) : Prop := r ∉ wr6 ∧ r ∉ wr6_1

theorem W2_launch (r : Ref sig .tc) (h : r ∉ wr0 ∧ ∀ w, Pipeline.arrRef spec0 w ≠ r) :
    W2 m ρ c (Proc.devRef .tc r) = m ((c : Thread nD τ).loc r) :=
  (W2_of_ne m ρ c r h.2).trans (keep0 (W0 m ρ c) r h.1)
theorem W3_launch (r : Ref sig .tc) (h : Early r) : W3 m ρ c (Proc.devRef .tc r) = m ((c : Thread nD τ).loc r) :=
  (keep1 (W2 m ρ c) r h.2.2).trans (W2_launch m ρ c r ⟨h.1, h.2.1⟩)
theorem W14_W3 (r : Ref sig .tc) (h : Mid r) : W14 m ρ c (Proc.devRef .tc r) = W3 m ρ c (Proc.devRef .tc r) := by
  obtain ⟨a1, a2, a3, a4, a5, a6, a7, a8, a9, a10, a11⟩ := h
  exact (W14_of_ne m ρ c r a11).trans ((keep4_2 (W12 m ρ c) r a10).trans ((keep4_1 (W11 m ρ c) r a9).trans
    ((keep4 (W10 m ρ c) r a8).trans ((W10_of_ne m ρ c r a7).trans ((keep3 (W8 m ρ c) r a6).trans
    ((W8_of_ne m ρ c r a5).trans ((keep2_2 (W6 m ρ c) r a4).trans ((keep2_1 (W5 m ρ c) r a3).trans
    ((keep2 (W4 m ρ c) r a2).trans (W4_of_ne m ρ c r a1))))))))))
theorem W16_W14 (r : Ref sig .tc) (h : Late5 r) : W16 m ρ c (Proc.devRef .tc r) = W14 m ρ c (Proc.devRef .tc r) :=
  (W16_of_ne m ρ c r h.2).trans (keep5 (W14 m ρ c) r h.1)
theorem W18_W16 (r : Ref sig .tc) (h : Late6 r) : W18 m ρ c (Proc.devRef .tc r) = W16 m ρ c (Proc.devRef .tc r) :=
  (keep6_1 (W17 m ρ c) r h.2).trans (keep6 (W16 m ρ c) r h.1)

/-- A launch array at the layer's entry, at its message region's exit, and after the take. -/
theorem W14_launch (r : Ref sig .tc) (h0 : Early r) (h1 : Mid r) :
    W14 m ρ c (Proc.devRef .tc r) = m ((c : Thread nD τ).loc r) :=
  (W14_W3 m ρ c r h1).trans (W3_launch m ρ c r h0)
theorem W16_launch (r : Ref sig .tc) (h0 : Early r) (h1 : Mid r) (h2 : Late5 r) :
    W16 m ρ c (Proc.devRef .tc r) = m ((c : Thread nD τ).loc r) :=
  (W16_W14 m ρ c r h2).trans (W14_launch m ρ c r h0 h1)
theorem W18_launch (r : Ref sig .tc) (h0 : Early r) (h1 : Mid r) (h2 : Late5 r) (h3 : Late6 r) :
    W18 m ρ c (Proc.devRef .tc r) = m ((c : Thread nD τ).loc r) :=
  (W18_W16 m ρ c r h3).trans (W16_launch m ρ c r h0 h1 h2)

/-- The state array at the layer's entry, at its literal type. -/
abbrev hbufIn : FVec Ideal S32768x256 .f32 := W14 m ρ c (Proc.devRef .tc main_v65)

/-- The layer's first stretch does not write the state. -/
theorem W15_state : W15 m ρ c (Proc.devRef .tc main_v65) = hbufIn m ρ c :=
  keep5 (W14 m ρ c) main_v65 (by decide)
/-- The message region reads the state and never writes it back. -/
theorem W16_state : W16 m ρ c (Proc.devRef .tc main_v65) = hbufIn m ρ c := by
  have h1 : W16 m ρ c (Proc.devRef .tc main_v65) = (dat5 (F := Ideal) (V15 m ρ) c).arrAt 0 cfg5.N := W16_arr m ρ c 0
  have h2 : (dat5 (F := Ideal) (V15 m ρ) c).arrAt 0 cfg5.N = (dat5 (F := Ideal) (V15 m ρ) c).A 0 :=
    (dat5 (F := Ideal) (V15 m ρ) c).arrAt_in 0 (by decide) cfg5.N
  have h3 : (dat5 (F := Ideal) (V15 m ρ) c).A 0 = V15 m ρ c (Pipeline.arrRef spec5 0) := A_eq5 (V15 m ρ) c 0
  exact h1.trans (h2.trans (h3.trans (W15_state m ρ c)))
/-- Nor do the three stretches before the update region. -/
theorem W19_state : W19 m ρ c (Proc.devRef .tc main_v65) = hbufIn m ρ c :=
  (keep6_2 (W18 m ρ c) main_v65 (by decide)).trans ((keep6_1 (W17 m ρ c) main_v65 (by decide)).trans
    ((keep6 (W16 m ρ c) main_v65 (by decide)).trans (W16_state m ρ c)))

/-! ## What the layer's stretches write, over any contents -/

theorem h1_v5 (V : Valuation τ sig (Elt Ideal)) :
    (StableHlo.after hostOps1 V (Proc.devRef .tc main_v5) : IVec S524288 32)
      = shapeCast S524288 (extractStridedSlice S1x524288 ![0, 0] (V (Proc.devRef .tc main_arg1) : IVec S2x524288 32)
          slices_S2x524288_S1x524288_0_0) shapeCasts_S1x524288_S524288 := by
  after_results; all_goals rfl
theorem h1_v7 (V : Valuation τ sig (Elt Ideal)) :
    (StableHlo.after hostOps1 V (Proc.devRef .tc main_v7) : IVec S524288 32)
      = shapeCast S524288 (extractStridedSlice S1x524288 ![1, 0] (V (Proc.devRef .tc main_arg1) : IVec S2x524288 32)
          slices_S2x524288_S1x524288_1_0) shapeCasts_S1x524288_S524288 := by
  after_results; all_goals rfl
theorem h5_v69 (V : Valuation τ sig (Elt Ideal)) :
    (StableHlo.after hostOps5 V (Proc.devRef .tc main_v69) : FVec Ideal S256x2048 .f32)
      = transpose S256x2048 [1, 0] (shapeCast S2048x256 (shapeCast S8x256x256
          (extractStridedSlice S1x8x256x256 ![2, 0, 0, 0] (V (Proc.devRef .tc main_arg5) : FVec Ideal S3x8x256x256 .f32)
            slices_S3x8x256x256_S1x8x256x256_2_0_0_0) shapeCasts_S1x8x256x256_S8x256x256) shapeCasts_S8x256x256_S2048x256)
          transposes_S2048x256_S256x2048_1_0 := by
  after_results; all_goals rfl
theorem h5_v72 (V : Valuation τ sig (Elt Ideal)) :
    (StableHlo.after hostOps5 V (Proc.devRef .tc main_v72) : FVec Ideal S1x2048 .f32)
      = shapeCast S1x2048 (shapeCast S8x256
          (extractStridedSlice S1x8x256 ![2, 0, 0] (V (Proc.devRef .tc main_arg6) : FVec Ideal S3x8x256 .f32)
            slices_S3x8x256_S1x8x256_2_0_0) shapeCasts_S1x8x256_S8x256) shapeCasts_S8x256_S1x2048 := by
  after_results; all_goals rfl
theorem h6_v74 (V : Valuation τ sig (Elt Ideal)) :
    (StableHlo.after hostOps6 V (Proc.devRef .tc main_v74) : FVec Ideal S262144x256 .f32)
      = shapeCast S262144x256 (V (Proc.devRef .tc main_v73) : FVec Ideal S32768x2048 .f32)
          shapeCasts_S32768x2048_S262144x256 := by
  after_results; all_goals rfl
theorem h6_v77 (V : Valuation τ sig (Elt Ideal)) :
    (StableHlo.after hostOps6 V (Proc.devRef .tc main_v77) : IVec S524288 32)
      = addi (muli (V (Proc.devRef .tc main_v5) : IVec S524288 32)
          (broadcastInDim S524288 ![] bcast_S_S524288 (constantI S_ 32 8#32)))
          (V (Proc.devRef .tc main_arg2) : IVec S524288 32) := by
  after_results; all_goals rfl
theorem h62_v81 (V : Valuation τ sig (Elt Ideal)) :
    (StableHlo.after hostOps6_2 V (Proc.devRef .tc main_v81) : FVec Ideal S32768x256 .f32)
      = Host.scatterAdd scatter_S32768x256_S524288x1_S524288x256_1_0_0_1
          (broadcastInDim S32768x256 ![] bcast_S_S32768x256 (constant (F := Ideal) S_ .f32 0x00000000#32))
          (broadcastInDim S524288x1 ![0] bcast_S524288_S524288x1_0 (V (Proc.devRef .tc main_v7) : IVec S524288 32))
          (V (Proc.devRef .tc main_v78) : FVec Ideal S524288x256 .f32) := by
  after_results; all_goals rfl
theorem h62_v84 (V : Valuation τ sig (Elt Ideal)) :
    (StableHlo.after hostOps6_2 V (Proc.devRef .tc main_v84) : FVec Ideal S256x768 .f32)
      = transpose S256x768 [1, 0] (shapeCast S768x256
          (extractStridedSlice S1x768x256 ![2, 0, 0] (V (Proc.devRef .tc main_arg7) : FVec Ideal S3x768x256 .f32)
            slices_S3x768x256_S1x768x256_2_0_0) shapeCasts_S1x768x256_S768x256) transposes_S768x256_S256x768_1_0 := by
  after_results; all_goals rfl
theorem h62_v87 (V : Valuation τ sig (Elt Ideal)) :
    (StableHlo.after hostOps6_2 V (Proc.devRef .tc main_v87) : FVec Ideal S256x768 .f32)
      = transpose S256x768 [1, 0] (shapeCast S768x256
          (extractStridedSlice S1x768x256 ![2, 0, 0] (V (Proc.devRef .tc main_arg8) : FVec Ideal S3x768x256 .f32)
            slices_S3x768x256_S1x768x256_2_0_0) shapeCasts_S1x768x256_S768x256) transposes_S768x256_S256x768_1_0 := by
  after_results; all_goals rfl
theorem h62_v90 (V : Valuation τ sig (Elt Ideal)) :
    (StableHlo.after hostOps6_2 V (Proc.devRef .tc main_v90) : FVec Ideal S1x768 .f32)
      = shapeCast S1x768 (shapeCast S768
          (extractStridedSlice S1x768 ![2, 0] (V (Proc.devRef .tc main_arg9) : FVec Ideal S3x768 .f32)
            slices_S3x768_S1x768_2_0) shapeCasts_S1x768_S768) shapeCasts_S768_S1x768 := by
  after_results; all_goals rfl
theorem h62_v93 (V : Valuation τ sig (Elt Ideal)) :
    (StableHlo.after hostOps6_2 V (Proc.devRef .tc main_v93) : FVec Ideal S1x768 .f32)
      = shapeCast S1x768 (shapeCast S768
          (extractStridedSlice S1x768 ![2, 0] (V (Proc.devRef .tc main_arg10) : FVec Ideal S3x768 .f32)
            slices_S3x768_S1x768_2_0) shapeCasts_S1x768_S768) shapeCasts_S768_S1x768 := by
  after_results; all_goals rfl

/-! ## The layer's buffers, each at its literal type -/

/-- The message region's weights and bias row, and its result. -/
abbrev wbuf : FVec Ideal S256x2048 .f32 := W15 m ρ c (Proc.devRef .tc main_v69)
abbrev bbuf : FVec Ideal S1x2048 .f32 := W15 m ρ c (Proc.devRef .tc main_v72)
abbrev msgbuf : FVec Ideal S32768x2048 .f32 := W16 m ρ c (Proc.devRef .tc main_v73)
/-- The result with one row per (node, edge type), the row index of each edge, and the rows the edges take. -/
abbrev flatbuf : FVec Ideal S262144x256 .f32 := W17 m ρ c (Proc.devRef .tc main_v74)
abbrev idxbuf : IVec S524288 32 := W17 m ρ c (Proc.devRef .tc main_v77)
abbrev takebuf : FVec Ideal S524288x256 .f32 := W18 m ρ c (Proc.devRef .tc main_v78)
/-- The edge list's source row and the edge types, as the row-index stretch finds them. -/
abbrev srcbuf : IVec S524288 32 := W16 m ρ c (Proc.devRef .tc main_v5)
abbrev typbuf : IVec S524288 32 := W16 m ρ c (Proc.devRef .tc main_arg2)
/-- The update region's arrays: the aggregate, the two gate matrices and the two gate bias rows. -/
abbrev aggbuf : FVec Ideal S32768x256 .f32 := W19 m ρ c (Proc.devRef .tc main_v81)
abbrev wibuf : FVec Ideal S256x768 .f32 := W19 m ρ c (Proc.devRef .tc main_v84)
abbrev whbuf : FVec Ideal S256x768 .f32 := W19 m ρ c (Proc.devRef .tc main_v87)
abbrev bibuf : FVec Ideal S1x768 .f32 := W19 m ρ c (Proc.devRef .tc main_v90)
abbrev bhbuf : FVec Ideal S1x768 .f32 := W19 m ρ c (Proc.devRef .tc main_v93)
/-- The state array at the layer's exit. -/
abbrev hbufOut : FVec Ideal S32768x256 .f32 := W20 m ρ c (Proc.devRef .tc main_v94)

/-! ## The edge list's rows -/

/-- The source words at the message region's exit: row 0 of the edge list. -/
theorem src_at (ε : Fin 524288) : srcbuf m ρ c (ix1 ε) = aE m c (ix2 (0 : Fin 2) ε) := by
  have e : srcbuf m ρ c
      = shapeCast S524288 (extractStridedSlice S1x524288 ![0, 0] (aE m c) slices_S2x524288_S1x524288_0_0)
          shapeCasts_S1x524288_S524288 := by
    have h := h1_v5 (W2 m ρ c)
    rw [W2_launch m ρ c main_arg1 (by decide)] at h
    exact ((W16_W14 m ρ c main_v5 (by decide)).trans (W14_W3 m ρ c main_v5 (by decide))).trans h
  rw [e]
  refine (shapeCast_1a_a_apply _ shapeCasts_S1x524288_S524288 ε).trans ?_
  exact slice2_axis0_apply 0 (aE m c) slices_S2x524288_S1x524288_0_0 (0 : Fin 1) ε (0 : Fin 2) rfl

/-- The destination words after the take, as an array: row 1 of the edge list. -/
theorem dst_eq : (W18 m ρ c (Proc.devRef .tc main_v7) : IVec S524288 32)
    = shapeCast S524288 (extractStridedSlice S1x524288 ![1, 0] (aE m c) slices_S2x524288_S1x524288_1_0)
        shapeCasts_S1x524288_S524288 := by
  have h := h1_v7 (W2 m ρ c)
  rw [W2_launch m ρ c main_arg1 (by decide)] at h
  exact ((W18_W16 m ρ c main_v7 (by decide)).trans ((W16_W14 m ρ c main_v7 (by decide)).trans
    (W14_W3 m ρ c main_v7 (by decide)))).trans h

/-! ## The message region's weights and bias -/

/-- Entry (d, 256·t + e) of the region's matrix is W_m(t, e, d) of the layer's slice. -/
theorem wmsg_at (d : Fin 256) (t : Fin 8) (e : Fin 256) :
    wbuf m ρ c (ix2 d (⟨256 * t.val + e.val, by omega⟩ : Fin 2048)) = Wm m c 2 t e d := by
  have h := h5_v69 (W14 m ρ c)
  rw [W14_launch m ρ c main_arg5 (by decide) (by decide)] at h
  have e1 : wbuf m ρ c = _ := h
  rw [e1]; unfold Wm
  refine (transpose_ix2_apply _ transposes_S2048x256_S256x2048_1_0 d (⟨256 * t.val + e.val, by omega⟩ : Fin 2048)).trans ?_
  refine (shapeCast_apply _ shapeCasts_S8x256x256_S2048x256 (ix2 (⟨256 * t.val + e.val, by omega⟩ : Fin 2048) d)
    (ix3 t e d) ?_).trans ?_
  · rw [Shape.rowMajor_val_three, Shape.rowMajor_val_two]
    show (t.val * 256 + e.val) * 256 + d.val = (256 * t.val + e.val) * 256 + d.val
    omega
  refine (shapeCast_1abc_abc_apply _ shapeCasts_S1x8x256x256_S8x256x256 t e d).trans ?_
  exact extractStridedSlice_apply _ (aWm m c) slices_S3x8x256x256_S1x8x256x256_2_0_0_0 (ix4 (0 : Fin 1) t e d)
    (ix4 (2 : Fin 3) t e d) (fun a => match a with
      | ⟨0, _⟩ => rfl
      | ⟨1, _⟩ => (Nat.zero_add _).symm
      | ⟨2, _⟩ => (Nat.zero_add _).symm
      | ⟨3, _⟩ => (Nat.zero_add _).symm)

/-- Entry (0, 256·t + e) of the region's bias row is b_m(t, e) of the layer's slice. -/
theorem bmsg_at (t : Fin 8) (e : Fin 256) :
    bbuf m ρ c (ix2 (0 : Fin 1) (⟨256 * t.val + e.val, by omega⟩ : Fin 2048)) = bm m c 2 t e := by
  have h := h5_v72 (W14 m ρ c)
  rw [W14_launch m ρ c main_arg6 (by decide) (by decide)] at h
  have e1 : bbuf m ρ c = _ := h
  rw [e1]; unfold bm
  refine (shapeCast_apply _ shapeCasts_S8x256_S1x2048 (ix2 (0 : Fin 1) (⟨256 * t.val + e.val, by omega⟩ : Fin 2048))
    (ix2 t e) ?_).trans ?_
  · rw [Shape.rowMajor_val_two, Shape.rowMajor_val_two]
    show t.val * 256 + e.val = 0 * 2048 + (256 * t.val + e.val)
    omega
  refine (shapeCast_1ab_ab_apply _ shapeCasts_S1x8x256_S8x256 t e).trans ?_
  exact extractStridedSlice_apply _ (aBm m c) slices_S3x8x256_S1x8x256_2_0_0 (ix3 (0 : Fin 1) t e) (ix3 (2 : Fin 3) t e)
    (fun a => match a with
      | ⟨0, _⟩ => rfl
      | ⟨1, _⟩ => (Nat.zero_add _).symm
      | ⟨2, _⟩ => (Nat.zero_add _).symm)

/-! ## The message region, the reshape, the row index and the take -/

/-- The message region's result: entry (n, 256·t + e) is the message of node n under edge type t at feature e. -/
theorem msg_at (H : Cert.GGNN.Hid) (hH : ∀ (n : Fin 32768) (j : Fin 256), hbufIn m ρ c (ix2 n j) = H n j)
    (n : Fin 32768) (t : Fin 8) (e : Fin 256) :
    msgbuf m ρ c (ix2 n (⟨256 * t.val + e.val, by omega⟩ : Fin 2048)) = Cert.GGNN.msg H (Wm m c 2) (bm m c 2) n t e := by
  have hw : msgbuf m ρ c = (dat5 (F := Ideal) (V15 m ρ) c).arrAt 3 cfg5.N := W16_arr m ρ c 3
  have hh : Msg5.hs5 (V15 m ρ) c = hbufIn m ρ c := W15_state m ρ c
  rw [hw]
  refine (Msg5.msg_arr5 (V15 m ρ) c n _).trans ?_
  unfold Cert.GGNN.msg
  refine congrArg₂ (· + ·) (Finset.sum_congr rfl fun d _ => ?_) (bmsg_at m ρ c t e)
  have h1 : Msg5.hs5 (V15 m ρ) c (ix2 n d) = H n d := (congrFun hh (ix2 n d)).trans (hH n d)
  exact congrArg₂ (· * ·) h1 (wmsg_at m ρ c d t e)

/-- The reshape: row 8·n + t holds columns 256·t … 256·t + 255 of row n. -/
theorem flat_at (H : Cert.GGNN.Hid) (hH : ∀ (n : Fin 32768) (j : Fin 256), hbufIn m ρ c (ix2 n j) = H n j)
    (n : Fin 32768) (t : Fin 8) (e : Fin 256) :
    flatbuf m ρ c (ix2 (⟨8 * n.val + t.val, by omega⟩ : Fin 262144) e) = Cert.GGNN.msg H (Wm m c 2) (bm m c 2) n t e := by
  have e1 : flatbuf m ρ c = shapeCast S262144x256 (msgbuf m ρ c) shapeCasts_S32768x2048_S262144x256 :=
    h6_v74 (W16 m ρ c)
  rw [e1]
  refine (shapeCast_apply (msgbuf m ρ c) shapeCasts_S32768x2048_S262144x256
    (ix2 (⟨8 * n.val + t.val, by omega⟩ : Fin 262144) e) (ix2 n (⟨256 * t.val + e.val, by omega⟩ : Fin 2048)) ?_).trans
    (msg_at m ρ c H hH n t e)
  rw [Shape.rowMajor_val_two, Shape.rowMajor_val_two]
  show n.val * 2048 + (256 * t.val + e.val) = (8 * n.val + t.val) * 256 + e.val
  omega

/-- Words add and multiply as the naturals they are written from. -/
theorem word_eq (s t : Nat) : BitVec.ofNat 32 s * 8#32 + BitVec.ofNat 32 t = BitVec.ofNat 32 (8 * s + t) := by
  rw [show (8#32 : BitVec 32) = BitVec.ofNat 32 8 from rfl, ← BitVec.ofNat_mul, ← BitVec.ofNat_add, Nat.mul_comm]

/-- The row index of edge ε: eight times its source node plus its type. -/
theorem idx_at (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val) (ε : Fin 524288) :
    idxbuf m ρ c (ix1 ε) = BitVec.ofNat 32 (8 * (sn ε).val + (st ε).val) := by
  have e1 : idxbuf m ρ c = addi (muli (srcbuf m ρ c)
      (broadcastInDim S524288 ![] bcast_S_S524288 (constantI S_ 32 8#32))) (typbuf m ρ c) := h6_v77 (W16 m ρ c)
  have e2 : typbuf m ρ c = aT m c := W16_launch m ρ c main_arg2 (by decide) (by decide) (by decide)
  have a1 : srcbuf m ρ c (ix1 ε) = BitVec.ofNat 32 (sn ε).val := (src_at m ρ c ε).trans (hsn ε)
  have a2 : typbuf m ρ c (ix1 ε) = BitVec.ofNat 32 (st ε).val := (congrFun e2 (ix1 ε)).trans (hst ε)
  rw [e1]
  show srcbuf m ρ c (ix1 ε) * 8#32 + typbuf m ρ c (ix1 ε) = _
  rw [a1, a2]
  exact word_eq _ _

/-- The rows the edges take are the edges' messages, as one array. -/
theorem take_eq (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) :
    takebuf m ρ c = Cert.GGNN.edgeMsg (Cert.GGNN.msg H (Wm m c 2) (bm m c 2)) sn st := by
  funext i
  have hi : takebuf m ρ c i = takebuf m ρ c (ix2 (i 0) (i 1)) := congrArg (takebuf m ρ c) (eq_ix2 i)
  refine hi.trans ((htake (fun ε => (⟨8 * (sn ε).val + (st ε).val, by omega⟩ : Fin 262144))
    (fun ε => idx_at m ρ c sn st hsn hst ε) (i 0) (i 1)).trans ?_)
  exact flat_at m ρ c H hH (sn (i 0)) (st (i 0)) (i 1)

/-! ## The aggregation -/

/-- The aggregate is the float scatter-add of the taken rows into the zero array along the destination column. -/
theorem agg_eq : aggbuf m ρ c = scatArr m c (takebuf m ρ c) := by
  have h := h62_v81 (W18 m ρ c)
  rw [dst_eq m ρ c] at h
  unfold scatArr zeroHid dstCol
  exact h

/-! ## The update region's gate matrices and bias rows -/

theorem wih_at (k : Fin 256) (g : Fin 768) : wibuf m ρ c (ix2 k g) = Wih m c 2 g k := by
  have h := h62_v84 (W18 m ρ c)
  rw [W18_launch m ρ c main_arg7 (by decide) (by decide) (by decide) (by decide)] at h
  have e1 : wibuf m ρ c = _ := h
  rw [e1]; unfold Wih
  refine (transpose_ix2_apply _ transposes_S768x256_S256x768_1_0 k g).trans ?_
  refine (shapeCast_1ab_ab_apply _ shapeCasts_S1x768x256_S768x256 g k).trans ?_
  exact extractStridedSlice_apply _ (aWih m c) slices_S3x768x256_S1x768x256_2_0_0 (ix3 (0 : Fin 1) g k) (ix3 (2 : Fin 3) g k)
    (fun a => match a with
      | ⟨0, _⟩ => rfl
      | ⟨1, _⟩ => (Nat.zero_add _).symm
      | ⟨2, _⟩ => (Nat.zero_add _).symm)

theorem whh_at (k : Fin 256) (g : Fin 768) : whbuf m ρ c (ix2 k g) = Whh m c 2 g k := by
  have h := h62_v87 (W18 m ρ c)
  rw [W18_launch m ρ c main_arg8 (by decide) (by decide) (by decide) (by decide)] at h
  have e1 : whbuf m ρ c = _ := h
  rw [e1]; unfold Whh
  refine (transpose_ix2_apply _ transposes_S768x256_S256x768_1_0 k g).trans ?_
  refine (shapeCast_1ab_ab_apply _ shapeCasts_S1x768x256_S768x256 g k).trans ?_
  exact extractStridedSlice_apply _ (aWhh m c) slices_S3x768x256_S1x768x256_2_0_0 (ix3 (0 : Fin 1) g k) (ix3 (2 : Fin 3) g k)
    (fun a => match a with
      | ⟨0, _⟩ => rfl
      | ⟨1, _⟩ => (Nat.zero_add _).symm
      | ⟨2, _⟩ => (Nat.zero_add _).symm)

theorem bih_at (g : Fin 768) : bibuf m ρ c (ix2 (0 : Fin 1) g) = bih m c 2 g := by
  have h := h62_v90 (W18 m ρ c)
  rw [W18_launch m ρ c main_arg9 (by decide) (by decide) (by decide) (by decide)] at h
  have e1 : bibuf m ρ c = _ := h
  rw [e1]; unfold bih
  refine (shapeCast_a_1a_apply _ shapeCasts_S768_S1x768 (0 : Fin 1) g).trans ?_
  refine (shapeCast_1a_a_apply _ shapeCasts_S1x768_S768 g).trans ?_
  exact slice2_axis0_apply 2 (aBih m c) slices_S3x768_S1x768_2_0 (0 : Fin 1) g (2 : Fin 3) rfl

theorem bhh_at (g : Fin 768) : bhbuf m ρ c (ix2 (0 : Fin 1) g) = bhh m c 2 g := by
  have h := h62_v93 (W18 m ρ c)
  rw [W18_launch m ρ c main_arg10 (by decide) (by decide) (by decide) (by decide)] at h
  have e1 : bhbuf m ρ c = _ := h
  rw [e1]; unfold bhh
  refine (shapeCast_a_1a_apply _ shapeCasts_S768_S1x768 (0 : Fin 1) g).trans ?_
  refine (shapeCast_1a_a_apply _ shapeCasts_S1x768_S768 g).trans ?_
  exact slice2_axis0_apply 2 (aBhh m c) slices_S3x768_S1x768_2_0 (0 : Fin 1) g (2 : Fin 3) rfl

/-! ## The layer -/

/-- The state after the layer's update region is the network's layer applied to the state before its message region,
    with the layer's slice of every stacked parameter and the aggregation as the program spells it. -/
theorem layer2_step (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (htake : ∀ (r : Fin 524288 → Fin 262144), (∀ ε : Fin 524288, idxbuf m ρ c (ix1 ε) = BitVec.ofNat 32 (r ε).val) →
        ∀ (ε : Fin 524288) (j : Fin 256), takebuf m ρ c (ix2 ε j) = flatbuf m ρ c (ix2 (r ε) j))
    (H : Cert.GGNN.Hid) (hH : ∀ (n : Fin 32768) (j : Fin 256), hbufIn m ρ c (ix2 n j) = H n j) :
    ∀ (n : Fin 32768) (j : Fin 256), hbufOut m ρ c (ix2 n j)
      = Cert.GGNN.layer (kscat m c) sn st (Wm m c 2) (bm m c 2) (Wih m c 2) (Whh m c 2) (bih m c 2) (bhh m c 2) H n j := by
  intro n j
  have hw : hbufOut m ρ c = (dat6 (F := Ideal) (V19 m ρ) c).arrAt 6 cfg6.N := W20_arr m ρ c 6
  have hm : Gru6.ms6 (V19 m ρ) c
      = scatArr m c (Cert.GGNN.edgeMsg (Cert.GGNN.msg H (Wm m c 2) (bm m c 2)) sn st) :=
    (agg_eq m ρ c).trans (congrArg (scatArr m c) (take_eq m ρ c sn st hsn hst htake H hH))
  have hh : Gru6.hs6 (V19 m ρ) c = hbufIn m ρ c := W19_state m ρ c
  have hGi : (fun (n : Fin 32768) (g : Fin 768) =>
        (∑ k : Fin 256, Gru6.ms6 (V19 m ρ) c (ix2 n k) * Gru6.wi6 (V19 m ρ) c (ix2 k g))
          + Gru6.bi6 (V19 m ρ) c (ix2 (0 : Fin 1) g))
      = Cert.GGNN.gate (kscat m c (Cert.GGNN.edgeMsg (Cert.GGNN.msg H (Wm m c 2) (bm m c 2)) sn st))
          (Wih m c 2) (bih m c 2) := by
    funext n g; unfold Cert.GGNN.gate
    refine congrArg₂ (· + ·) (Finset.sum_congr rfl fun k _ => ?_) (bih_at m ρ c g)
    exact congrArg₂ (· * ·) (congrFun hm (ix2 n k)) (wih_at m ρ c k g)
  have hGh : (fun (n : Fin 32768) (g : Fin 768) =>
        (∑ k : Fin 256, Gru6.hs6 (V19 m ρ) c (ix2 n k) * Gru6.wh6 (V19 m ρ) c (ix2 k g))
          + Gru6.bh6 (V19 m ρ) c (ix2 (0 : Fin 1) g))
      = Cert.GGNN.gate H (Whh m c 2) (bhh m c 2) := by
    funext n g; unfold Cert.GGNN.gate
    refine congrArg₂ (· + ·) (Finset.sum_congr rfl fun k _ => ?_) (bhh_at m ρ c g)
    exact congrArg₂ (· * ·) ((congrFun hh (ix2 n k)).trans (hH n k)) (whh_at m ρ c k g)
  have hHf : (fun (n : Fin 32768) (j : Fin 256) => Gru6.hs6 (V19 m ρ) c (ix2 n j)) = H :=
    funext fun n => funext fun j => (congrFun hh (ix2 n j)).trans (hH n j)
  rw [hw]
  refine (Gru6.gru_arr6 (V19 m ρ) c n j).trans ?_
  unfold Cert.GGNN.layer
  exact congrFun (congrFun (congr (congr (congrArg Cert.GGNN.gru hGi) hGh) hHf) n) j

end Cert.KernelIdeal.KVal.Layer2

end
-- ==== Proof.KTake.lean ====
/-
  Taking rows of a table at in-range row numbers. The program forms, from a vector of index words and a table of
  262144 rows, the words with a negative one moved up by the table's height, the column of those words, the mask
  "0 ≤ word ≤ 262143" (reduced by `and` over the column's unit axis), the gather of rows at the column, and the
  select of the gathered row where the mask holds against a NaN elsewhere. When every index word is the word of a
  row number below 262144 the wrap leaves it alone, the mask is 1 everywhere and entry (ε, j) of the result is the
  table at (r ε, j).
-/
import proofs.«408314_j22325240004845_1_alg».proof.Proof.Gen.KernelIdeal.Launch
import Idealize.ShloMosaic.Lib.ValueIdx
import Idealize.ShloMosaic.Lib.ValueLayout
import Idealize.ShloMosaic.Lib.StableHlo.Predicate
import Idealize.ShloMosaic.Lib.Pipeline.Value

open Idealize.ShloMosaic Idealize.ShloMosaic.TcCoe Idealize.SL.Sem Idealize.ShloMosaic.ValueIdx Idealize.ShloMosaic.StableHlo Cert.KernelIdeal Cert.KernelIdeal.Gen

noncomputable section

namespace Cert.KernelIdeal.KVal.Take

/-! ## The composite function of (table, index words) -/

/-- The index words, a negative one moved up by the table's height 262144. -/
def wrapIdx (idx : IVec S524288 32) : IVec S524288 32 :=
  select (cmpi .slt idx (broadcastInDim S524288 ![] bcast_S_S524288 (constantI S_ 32 0#32)))
    (addi idx (broadcastInDim S524288 ![] bcast_S_S524288 (constantI S_ 32 262144#32))) idx

/-- Those words as a column of start indices. -/
def colIdx (idx : IVec S524288 32) : IVec S524288x1 32 :=
  broadcastInDim S524288x1 ![0] bcast_S524288_S524288x1_0 (wrapIdx idx)

/-- The mask "0 ≤ word ≤ 262143" on the column, reduced by `and` over its unit axis. -/
def inRange (idx : IVec S524288 32) : IVec S524288 1 :=
  Host.reduce IntOp.andi
    (andi (cmpi .sge (colIdx idx) (broadcastInDim S524288x1 ![] bcast_S_S524288x1 (constantI S_ 32 0#32)))
      (cmpi .sle (colIdx idx) (broadcastInDim S524288x1 ![0, 1] bcast_S1x1_S524288x1_0_1
        (broadcastInDim S1x1 ![1] bcast_S1_S1x1_1 (constantI S1 32 262143#32)))))
    (constantI S_ 1 1#1) reducesTo_S524288x1_S524288_d1 h_S_

/-- The take: the gathered row where the word is in range, a NaN elsewhere. -/
def takeFn (x : FVec Ideal S262144x256 .f32) (idx : IVec S524288 32) : FVec Ideal S524288x256 .f32 :=
  select (broadcastInDim S524288x256 ![0] bcast_S524288_S524288x256_0 (inRange idx))
    (Host.gather gather_S262144x256_S524288x1_S524288x256_1_0_n_n_0_1_1256 x (colIdx idx))
    (broadcastInDim S524288x256 ![] bcast_S_S524288x256 (constant (F := Ideal) S_ .f32 0x7FC00000#32))

/-! ## A typed reference's transport -/

/-- Contents carried to a typed reference's buffer and back are unchanged. -/
theorem ofBuf_toBuf {T : BufTy} (x : StableHlo.TRef sig T) (v : T.Contents (Elt Ideal)) :
    x.ofBuf (x.toBuf v) = v := by
  obtain ⟨r, h, _, _⟩ := x
  subst h
  rfl

/-! ## Words: the word of a row number below 262144 is not negative and at most 262143 -/

/-- The word of a natural below 262144 has that value. -/
theorem word_toNat {r : Nat} (hr : r < 262144) : (BitVec.ofNat 32 r).toNat = r := by
  rw [BitVec.toNat_ofNat]; exact Nat.mod_eq_of_lt (by omega)

/-- It is not below zero, -/
theorem word_not_neg {r : Nat} (hr : r < 262144) : IntOp.cmpi .slt (BitVec.ofNat 32 r) 0#32 = 0#1 := by
  refine eq_zero_of_ne_one fun h => ?_
  have h' := (Predicate.slt_iff_toNat (a := BitVec.ofNat 32 r) (b := 0#32) (by rw [word_toNat hr]; omega) (by decide)).mp h
  exact absurd h' (Nat.not_lt_zero _)

/-- it is at least zero, -/
theorem word_ge_zero {r : Nat} (hr : r < 262144) : IntOp.cmpi .sge (BitVec.ofNat 32 r) 0#32 = 1#1 :=
  (Predicate.sge_iff_toNat (a := BitVec.ofNat 32 r) (b := 0#32) (by rw [word_toNat hr]; omega) (by decide)).mpr (Nat.zero_le _)

/-- and at most 262143. -/
theorem word_le_max {r : Nat} (hr : r < 262144) : IntOp.cmpi .sle (BitVec.ofNat 32 r) 262143#32 = 1#1 := by
  refine (Predicate.sle_iff_toNat (a := BitVec.ofNat 32 r) (b := 262143#32) (by rw [word_toNat hr]; omega) (by decide)).mpr ?_
  rw [word_toNat hr]
  show r ≤ 262143
  omega

/-! ## An `and`-reduction of a mask that is 1 everywhere -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by `and`, from 1, of a mask that is 1 everywhere is 1 everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-! ## The two broadcasts of a vector along a rectangle's first axis, read at an entry -/

/-- The vector as a column reads, at (ε, k), the vector at ε. -/
theorem col_apply (v : IVec S524288 32) (ε : Fin 524288) (k : Fin 1) :
    broadcastInDim S524288x1 ![0] bcast_S524288_S524288x1_0 v (ix2 ε k) = v (ix1 ε) :=
  broadcastInDim_apply _ _ v (ix2 ε k) (ix1 ε) (fun a => by
    obtain rfl : a = 0 := Subsingleton.elim _ _
    rw [if_neg (by decide)]; rfl)

/-- The mask laid along the rows reads, at (ε, j), the mask at ε. -/
theorem row_apply (v : IVec S524288 1) (ε : Fin 524288) (j : Fin 256) :
    broadcastInDim S524288x256 ![0] bcast_S524288_S524288x256_0 v (ix2 ε j) = v (ix1 ε) :=
  broadcastInDim_apply _ _ v (ix2 ε j) (ix1 ε) (fun a => by
    obtain rfl : a = 0 := Subsingleton.elim _ _
    rw [if_neg (by decide)]; rfl)

/-! ## The take at in-range row numbers -/

/-- When every index word is the word of a row number below 262144, entry (ε, j) of the take is the table at
    (r ε, j): the wrap leaves the word alone, the mask is 1, and the gather reads the row. -/
theorem takeFn_apply
    (hg : ∀ (x : FVec Ideal S262144x256 .f32) (idx : IVec S524288x1 32) (ε : Fin 524288) (j : Fin 256) (r : Fin 262144),
        idx (ix2 ε (0 : Fin 1)) = BitVec.ofNat 32 r.val →
        Host.gather gather_S262144x256_S524288x1_S524288x256_1_0_n_n_0_1_1256 x idx (ix2 ε j) = x (ix2 r j))
    (x : FVec Ideal S262144x256 .f32) (idx : IVec S524288 32) (r : Fin 524288 → Fin 262144)
    (hidx : ∀ ε : Fin 524288, idx (ix1 ε) = BitVec.ofNat 32 (r ε).val) (ε : Fin 524288) (j : Fin 256) :
    takeFn x idx (ix2 ε j) = x (ix2 (r ε) j) := by
  have hwrap : ∀ ε : Fin 524288, wrapIdx idx (ix1 ε) = BitVec.ofNat 32 (r ε).val := fun ε => by
    show Scalar.select (IntOp.cmpi .slt (idx (ix1 ε)) 0#32) (IntOp.addi (idx (ix1 ε)) 262144#32) (idx (ix1 ε)) = _
    rw [hidx ε, word_not_neg (r ε).isLt, select_zero]
  have hcol : ∀ (ε : Fin 524288) (k : Fin 1), colIdx idx (ix2 ε k) = BitVec.ofNat 32 (r ε).val := fun ε k => by
    unfold colIdx
    rw [col_apply, hwrap]
  have hmask : ∀ ε : Fin 524288, inRange idx (ix1 ε) = 1#1 := fun ε => by
    unfold inRange
    refine reduce_andi_one _ _ _ _ rfl (fun i => ?_) _
    obtain ⟨a, k, rfl⟩ : ∃ (a : Fin 524288) (k : Fin 1), i = ix2 a k := ⟨i 0, i 1, eq_ix2 i⟩
    show IntOp.andi (IntOp.cmpi .sge (colIdx idx (ix2 a k)) 0#32) (IntOp.cmpi .sle (colIdx idx (ix2 a k)) 262143#32) = 1#1
    rw [hcol a k, word_ge_zero (r a).isLt, word_le_max (r a).isLt]
    decide
  unfold takeFn
  rw [select_apply, row_apply, hmask ε, select_one]
  exact hg x (colIdx idx) ε j (r ε) (hcol ε 0)

/-! ## The three takes of the program: each result buffer is the composite of its table and index buffers -/

set_option maxRecDepth 8192 in
set_option maxHeartbeats 2000000 in
/-- The first take's result buffer holds the composite of its table and index buffers. -/
theorem after_take0 (W : Valuation τ sig (Elt Ideal)) :
    (StableHlo.after hostOps2_1 W (Proc.devRef .tc main_v20) : FVec Ideal S524288x256 .f32)
      = takeFn (W (Proc.devRef .tc main_v16)) (W (Proc.devRef .tc main_v19)) := by
  have etab : ∀ p1 p2 p3, (StableHlo.TRef.of main_v16 p1 p2 p3 : StableHlo.TRef sig ⟨S262144x256, .f32⟩).ofBuf
      (W (Proc.devRef .tc main_v16)) = W (Proc.devRef .tc main_v16) := fun _ _ _ => cast_eq _ _
  have eidx : ∀ p1 p2 p3, (StableHlo.TRef.of main_v19 p1 p2 p3 : StableHlo.TRef sig ⟨S524288, .i32⟩).ofBuf
      (W (Proc.devRef .tc main_v19)) = W (Proc.devRef .tc main_v19) := fun _ _ _ => cast_eq _ _
  show StableHlo.after hostOps2_1 W (Proc.devRef .tc main_v20) = _
  simp only [hostOps2_1]
  after_results_simp
  simp only [ofBuf_toBuf, etab, eidx]
  exact cast_eq _ _

set_option maxRecDepth 8192 in
set_option maxHeartbeats 2000000 in
/-- The second take's result buffer holds the composite of its table and index buffers. -/
theorem after_take1 (W : Valuation τ sig (Elt Ideal)) :
    (StableHlo.after hostOps4_1 W (Proc.devRef .tc main_v49) : FVec Ideal S524288x256 .f32)
      = takeFn (W (Proc.devRef .tc main_v45)) (W (Proc.devRef .tc main_v48)) := by
  have etab : ∀ p1 p2 p3, (StableHlo.TRef.of main_v45 p1 p2 p3 : StableHlo.TRef sig ⟨S262144x256, .f32⟩).ofBuf
      (W (Proc.devRef .tc main_v45)) = W (Proc.devRef .tc main_v45) := fun _ _ _ => cast_eq _ _
  have eidx : ∀ p1 p2 p3, (StableHlo.TRef.of main_v48 p1 p2 p3 : StableHlo.TRef sig ⟨S524288, .i32⟩).ofBuf
      (W (Proc.devRef .tc main_v48)) = W (Proc.devRef .tc main_v48) := fun _ _ _ => cast_eq _ _
  show StableHlo.after hostOps4_1 W (Proc.devRef .tc main_v49) = _
  simp only [hostOps4_1]
  after_results_simp
  simp only [ofBuf_toBuf, etab, eidx]
  exact cast_eq _ _

set_option maxRecDepth 8192 in
set_option maxHeartbeats 2000000 in
/-- The third take's result buffer holds the composite of its table and index buffers. -/
theorem after_take2 (W : Valuation τ sig (Elt Ideal)) :
    (StableHlo.after hostOps6_1 W (Proc.devRef .tc main_v78) : FVec Ideal S524288x256 .f32)
      = takeFn (W (Proc.devRef .tc main_v74)) (W (Proc.devRef .tc main_v77)) := by
  have etab : ∀ p1 p2 p3, (StableHlo.TRef.of main_v74 p1 p2 p3 : StableHlo.TRef sig ⟨S262144x256, .f32⟩).ofBuf
      (W (Proc.devRef .tc main_v74)) = W (Proc.devRef .tc main_v74) := fun _ _ _ => cast_eq _ _
  have eidx : ∀ p1 p2 p3, (StableHlo.TRef.of main_v77 p1 p2 p3 : StableHlo.TRef sig ⟨S524288, .i32⟩).ofBuf
      (W (Proc.devRef .tc main_v77)) = W (Proc.devRef .tc main_v77) := fun _ _ _ => cast_eq _ _
  show StableHlo.after hostOps6_1 W (Proc.devRef .tc main_v78) = _
  simp only [hostOps6_1]
  after_results_simp
  simp only [ofBuf_toBuf, etab, eidx]
  exact cast_eq _ _

/-! ## The three takes read at an entry -/

/-- Entry (ε, j) of the first take's result is the table's row `r ε` at column `j`, when every index
    word is the word of `r ε`. -/
theorem take_value0 (W : Valuation τ sig (Elt Ideal))
    (hg : ∀ (x : FVec Ideal S262144x256 .f32) (idx : IVec S524288x1 32) (ε : Fin 524288) (j : Fin 256) (r : Fin 262144),
        idx (ix2 ε (0 : Fin 1)) = BitVec.ofNat 32 r.val →
        Host.gather gather_S262144x256_S524288x1_S524288x256_1_0_n_n_0_1_1256 x idx (ix2 ε j) = x (ix2 r j))
    (r : Fin 524288 → Fin 262144)
    (hidx : ∀ ε : Fin 524288, (W (Proc.devRef .tc main_v19) : IVec S524288 32) (ix1 ε) = BitVec.ofNat 32 (r ε).val)
    (ε : Fin 524288) (j : Fin 256) :
    (StableHlo.after hostOps2_1 W (Proc.devRef .tc main_v20) : FVec Ideal S524288x256 .f32) (ix2 ε j)
      = (W (Proc.devRef .tc main_v16) : FVec Ideal S262144x256 .f32) (ix2 (r ε) j) :=
  (congrFun (after_take0 W) (ix2 ε j)).trans (takeFn_apply hg _ _ r hidx ε j)

/-- Entry (ε, j) of the second take's result is the table's row `r ε` at column `j`, when every index
    word is the word of `r ε`. -/
theorem take_value1 (W : Valuation τ sig (Elt Ideal))
    (hg : ∀ (x : FVec Ideal S262144x256 .f32) (idx : IVec S524288x1 32) (ε : Fin 524288) (j : Fin 256) (r : Fin 262144),
        idx (ix2 ε (0 : Fin 1)) = BitVec.ofNat 32 r.val →
        Host.gather gather_S262144x256_S524288x1_S524288x256_1_0_n_n_0_1_1256 x idx (ix2 ε j) = x (ix2 r j))
    (r : Fin 524288 → Fin 262144)
    (hidx : ∀ ε : Fin 524288, (W (Proc.devRef .tc main_v48) : IVec S524288 32) (ix1 ε) = BitVec.ofNat 32 (r ε).val)
    (ε : Fin 524288) (j : Fin 256) :
    (StableHlo.after hostOps4_1 W (Proc.devRef .tc main_v49) : FVec Ideal S524288x256 .f32) (ix2 ε j)
      = (W (Proc.devRef .tc main_v45) : FVec Ideal S262144x256 .f32) (ix2 (r ε) j) :=
  (congrFun (after_take1 W) (ix2 ε j)).trans (takeFn_apply hg _ _ r hidx ε j)

/-- Entry (ε, j) of the third take's result is the table's row `r ε` at column `j`, when every index
    word is the word of `r ε`. -/
theorem take_value2 (W : Valuation τ sig (Elt Ideal))
    (hg : ∀ (x : FVec Ideal S262144x256 .f32) (idx : IVec S524288x1 32) (ε : Fin 524288) (j : Fin 256) (r : Fin 262144),
        idx (ix2 ε (0 : Fin 1)) = BitVec.ofNat 32 r.val →
        Host.gather gather_S262144x256_S524288x1_S524288x256_1_0_n_n_0_1_1256 x idx (ix2 ε j) = x (ix2 r j))
    (r : Fin 524288 → Fin 262144)
    (hidx : ∀ ε : Fin 524288, (W (Proc.devRef .tc main_v77) : IVec S524288 32) (ix1 ε) = BitVec.ofNat 32 (r ε).val)
    (ε : Fin 524288) (j : Fin 256) :
    (StableHlo.after hostOps6_1 W (Proc.devRef .tc main_v78) : FVec Ideal S524288x256 .f32) (ix2 ε j)
      = (W (Proc.devRef .tc main_v74) : FVec Ideal S262144x256 .f32) (ix2 (r ε) j) :=
  (congrFun (after_take2 W) (ix2 ε j)).trans (takeFn_apply hg _ _ r hidx ε j)

end Cert.KernelIdeal.KVal.Take
-- ==== Proof.LibGatherRows.lean ====
/-
  `stablehlo.gather` READ AT ONE RESULT ENTRY, for the two "take whole rows" shapes of dimension numbers.

  (1) Rows of a matrix: operand `N × C`, start indices `R × 1`, result `R × C`; offset axis the result's second,
      the operand's first axis collapsed and named by the one component of the start index, slice `1 × C`.
      Entry `(e, j)` of the result is the operand at `(r, j)` when start index `e` is the word of `r < N`.
  (2) Rows of a 3-D table by two indices: operand `N × T × C`, start indices `R × 2`, result `R × C`; the operand's
      first two axes collapsed and named by the two components, slice `1 × 1 × C`.
      Entry `(e, j)` is the operand at `(n, t, j)` when start index `e` is the pair of words of `n < N`, `t < T`.

  In both, a start index is read as a signed 32-bit integer and clamped to `[0, size − slice]`; a natural below the
  axis's size (itself below `2 ^ 31`) reads back as itself and the clamp `min v (size − 1)` does not move it.
  Each statement is given twice: for the record built from the attribute lists (conditions `wf` an argument), and for
  ANY record whose fields are those lists (the hypotheses close by `rfl` on a record written out field by field).
-/
import Idealize.ShloMosaic.PureOps.ShapeOps
import Idealize.ShloMosaic.Lib.ValueIdx

namespace Idealize.ShloMosaic.GatherRows

open Idealize.ShloMosaic Idealize.ShloMosaic.ValueIdx

/-- A natural below `2 ^ 31`, written as a 32-bit word and read back signed, is itself. -/
theorem toInt_toNat_ofNat {v : Nat} (hv : v < 2 ^ 31) : (BitVec.ofNat 32 v).toInt.toNat = v := by
  have h1 : (BitVec.ofNat 32 v).toNat = v := by
    rw [BitVec.toNat_ofNat]; exact Nat.mod_eq_of_lt (by omega)
  rw [BitVec.toInt_eq_toNat_cond, h1]
  split
  · simp
  · omega

section Rows
variable {α : Type} {N C R : Nat}

/-- The dimension numbers "start index `e` is one row number; take that whole row" for an `N × C` matrix, an `R × 1`
    array of start indices and an `R × C` result, under conditions `wf` stated elsewhere. -/
abbrev rowsDims (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![R, 1]⟩ ⟨2, ![R, C]⟩ [1] [0] [] [0] [] 1 ![1, C])

/-- On the row axis the operand is read at the start index, when that is in range (the clamp `min v (N − 1)` leaves
    `v < N` alone), -/
theorem rows_operand_row (idx : IVec ⟨2, ![R, 1]⟩ 32) (e : Fin R) (j : Fin C) (r : Fin N)
    (h : idx (ix2 e (0 : Fin 1)) = BitVec.ofNat 32 r.val) (hN : N < 2 ^ 31) :
    ((rowsDims wf).operandIdx (ix2 e j) idx 0).val = r.val := by
  show (rowsDims wf).start (ix2 e j) idx 0 + (rowsDims wf).batchCoord (ix2 e j) 0 + (rowsDims wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowsDims wf).startIndexMap from List.mem_singleton.mpr rfl)]
  have hsi : (rowsDims wf).siIdx (ix2 e j) ⟨List.idxOf (0 : Fin 2) (rowsDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi, h, toInt_toNat_ofNat (by have := r.isLt; omega)]
  show min r.val (N - 1) = r.val
  exact Nat.min_eq_left (by have := r.isLt; omega)

/-- and on the column axis at the result entry's column. -/
theorem rows_operand_col (idx : IVec ⟨2, ![R, 1]⟩ 32) (e : Fin R) (j : Fin C) :
    ((rowsDims wf).operandIdx (ix2 e j) idx 1).val = j.val := by
  show (rowsDims wf).start (ix2 e j) idx 1 + (rowsDims wf).batchCoord (ix2 e j) 1 + (rowsDims wf).offCoord (ix2 e j) 1 = _
  rw [GatherDims.batchCoord_eq_zero _ _ _ List.not_mem_nil, Nat.add_zero]
  unfold GatherDims.start
  rw [dif_neg (show (1 : Fin 2) ∉ ([0] : List (Fin 2)) by decide), Nat.zero_add]
  rfl

/-- The gather read at `(e, j)`, for the record built from the attribute lists: the matrix at `(r, j)`. -/
theorem rowsDims_apply
    (x : (⟨2, ![N, C]⟩ : Shape).Idx → α) (idx : IVec ⟨2, ![R, 1]⟩ 32) (e : Fin R) (j : Fin C) (r : Fin N)
    (h : idx (ix2 e (0 : Fin 1)) = BitVec.ofNat 32 r.val) (hN : N < 2 ^ 31) :
    Host.gather (rowsDims wf) x idx (ix2 e j) = x (ix2 r j) := by
  unfold Host.gather
  congr 1
  funext a
  match a with
  | ⟨0, _⟩ => exact Fin.ext (rows_operand_row wf idx e j r h hN)
  | ⟨1, _⟩ => exact Fin.ext (rows_operand_col wf idx e j)

/-- ROWS OF A MATRIX, for any dimension numbers with these attribute lists: a gather of whole rows of an `N × C`
    matrix at an `R × 1` array of start indices reads, at result entry `(e, j)`, the matrix at `(r, j)`, where `r` is
    the in-range row that start index `e` names. -/
theorem gather_rows_apply (d : GatherDims ⟨2, ![N, C]⟩ ⟨2, ![R, 1]⟩ ⟨2, ![R, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![R, 1]⟩ 32) (e : Fin R) (j : Fin C) (r : Fin N)
    (h : idx (ix2 e (0 : Fin 1)) = BitVec.ofNat 32 r.val) (hN : N < 2 ^ 31) :
    Host.gather d x idx (ix2 e j) = x (ix2 r j) := by
  obtain ⟨od, cd, ob, sb, sm, iv, ss, wf⟩ := d
  simp only at hod hcd hob hsb hsm hiv hss
  subst hod hcd hob hsb hsm hiv hss
  exact rowsDims_apply wf x idx e j r h hN

end Rows

section TableRows
variable {α : Type} {N T C R : Nat}

/-- The dimension numbers "start index `e` is a pair (first axis, second axis); take the whole third axis there" for an
    `N × T × C` table, an `R × 2` array of start indices and an `R × C` result, under conditions `wf` stated elsewhere. -/
abbrev tableDims (wf : GatherDims.WF ⟨3, ![N, T, C]⟩ ⟨2, ![R, 2]⟩ ⟨2, ![R, C]⟩ [1] [0, 1] [] [0, 1] [] 1 ![1, 1, C]) :
    GatherDims ⟨3, ![N, T, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

variable (wf : GatherDims.WF ⟨3, ![N, T, C]⟩ ⟨2, ![R, 2]⟩ ⟨2, ![R, C]⟩ [1] [0, 1] [] [0, 1] [] 1 ![1, 1, C])

/-- On the first axis the operand is read at the first component of the start index, when that is in range, -/
theorem table_operand_fst (idx : IVec ⟨2, ![R, 2]⟩ 32) (e : Fin R) (j : Fin C) (n : Fin N)
    (h0 : idx (ix2 e (0 : Fin 2)) = BitVec.ofNat 32 n.val) (hN : N < 2 ^ 31) :
    ((tableDims wf).operandIdx (ix2 e j) idx 0).val = n.val := by
  show (tableDims wf).start (ix2 e j) idx 0 + (tableDims wf).batchCoord (ix2 e j) 0 + (tableDims wf).offCoord (ix2 e j) 0 = _
  rw [GatherDims.batchCoord_eq_zero _ _ _ List.not_mem_nil, Nat.add_zero,
    GatherDims.offCoord_eq_zero _ _ _ (fun h => ((GatherDims.mem_sKept _ _).mp h).1
      (show (0 : Fin 3) ∈ ([0, 1] : List (Fin 3)) by decide)), Nat.add_zero]
  unfold GatherDims.start
  rw [dif_pos (show (0 : Fin 3) ∈ ([0, 1] : List (Fin 3)) by decide)]
  have hsi : (tableDims wf).siIdx (ix2 e j) ⟨List.idxOf (0 : Fin 3) (tableDims wf).startIndexMap,
      List.idxOf_lt_length_iff.2 (show (0 : Fin 3) ∈ ([0, 1] : List (Fin 3)) by decide)⟩ = ix2 e (0 : Fin 2) := by
    funext b; refine Fin.ext ?_
    match b with
    | ⟨0, _⟩ => rfl
    | ⟨1, _⟩ => rfl
  rw [hsi, h0, toInt_toNat_ofNat (by have := n.isLt; omega)]
  show min n.val (N - 1) = n.val
  exact Nat.min_eq_left (by have := n.isLt; omega)

/-- on the second at the second component, when that is in range, -/
theorem table_operand_snd (idx : IVec ⟨2, ![R, 2]⟩ 32) (e : Fin R) (j : Fin C) (t : Fin T)
    (h1 : idx (ix2 e (1 : Fin 2)) = BitVec.ofNat 32 t.val) (hT : T < 2 ^ 31) :
    ((tableDims wf).operandIdx (ix2 e j) idx 1).val = t.val := by
  show (tableDims wf).start (ix2 e j) idx 1 + (tableDims wf).batchCoord (ix2 e j) 1 + (tableDims wf).offCoord (ix2 e j) 1 = _
  rw [GatherDims.batchCoord_eq_zero _ _ _ List.not_mem_nil, Nat.add_zero,
    GatherDims.offCoord_eq_zero _ _ _ (fun h => ((GatherDims.mem_sKept _ _).mp h).1
      (show (1 : Fin 3) ∈ ([0, 1] : List (Fin 3)) by decide)), Nat.add_zero]
  unfold GatherDims.start
  rw [dif_pos (show (1 : Fin 3) ∈ ([0, 1] : List (Fin 3)) by decide)]
  have hsi : (tableDims wf).siIdx (ix2 e j) ⟨List.idxOf (1 : Fin 3) (tableDims wf).startIndexMap,
      List.idxOf_lt_length_iff.2 (show (1 : Fin 3) ∈ ([0, 1] : List (Fin 3)) by decide)⟩ = ix2 e (1 : Fin 2) := by
    funext b; refine Fin.ext ?_
    match b with
    | ⟨0, _⟩ => rfl
    | ⟨1, _⟩ => rfl
  rw [hsi, h1, toInt_toNat_ofNat (by have := t.isLt; omega)]
  show min t.val (T - 1) = t.val
  exact Nat.min_eq_left (by have := t.isLt; omega)

/-- and on the third at the result entry's column. -/
theorem table_operand_col (idx : IVec ⟨2, ![R, 2]⟩ 32) (e : Fin R) (j : Fin C) :
    ((tableDims wf).operandIdx (ix2 e j) idx 2).val = j.val := by
  show (tableDims wf).start (ix2 e j) idx 2 + (tableDims wf).batchCoord (ix2 e j) 2 + (tableDims wf).offCoord (ix2 e j) 2 = _
  rw [GatherDims.batchCoord_eq_zero _ _ _ List.not_mem_nil, Nat.add_zero]
  unfold GatherDims.start
  rw [dif_neg (show (2 : Fin 3) ∉ ([0, 1] : List (Fin 3)) by decide), Nat.zero_add]
  rfl

/-- The gather read at `(e, j)`, for the record built from the attribute lists: the table at `(n, t, j)`. -/
theorem tableDims_apply
    (x : (⟨3, ![N, T, C]⟩ : Shape).Idx → α) (idx : IVec ⟨2, ![R, 2]⟩ 32) (e : Fin R) (j : Fin C) (n : Fin N) (t : Fin T)
    (h0 : idx (ix2 e (0 : Fin 2)) = BitVec.ofNat 32 n.val) (h1 : idx (ix2 e (1 : Fin 2)) = BitVec.ofNat 32 t.val)
    (hN : N < 2 ^ 31) (hT : T < 2 ^ 31) :
    Host.gather (tableDims wf) x idx (ix2 e j) = x (ix3 n t j) := by
  unfold Host.gather
  congr 1
  funext a
  match a with
  | ⟨0, _⟩ => exact Fin.ext (table_operand_fst wf idx e j n h0 hN)
  | ⟨1, _⟩ => exact Fin.ext (table_operand_snd wf idx e j t h1 hT)
  | ⟨2, _⟩ => exact Fin.ext (table_operand_col wf idx e j)

/-- ROWS OF A 3-D TABLE BY TWO INDICES, for any dimension numbers with these attribute lists: a gather of whole
    last-axis rows of an `N × T × C` table at an `R × 2` array of start indices reads, at result entry `(e, j)`, the
    table at `(n, t, j)`, where `(n, t)` is the in-range pair that start index `e` names. -/
theorem gather_table_rows_apply (d : GatherDims ⟨3, ![N, T, C]⟩ ⟨2, ![R, 2]⟩ ⟨2, ![R, C]⟩)
    (hod : d.offsetDims = [1]) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1, C])
    (x : (⟨3, ![N, T, C]⟩ : Shape).Idx → α) (idx : IVec ⟨2, ![R, 2]⟩ 32) (e : Fin R) (j : Fin C) (n : Fin N) (t : Fin T)
    (h0 : idx (ix2 e (0 : Fin 2)) = BitVec.ofNat 32 n.val) (h1 : idx (ix2 e (1 : Fin 2)) = BitVec.ofNat 32 t.val)
    (hN : N < 2 ^ 31) (hT : T < 2 ^ 31) :
    Host.gather d x idx (ix2 e j) = x (ix3 n t j) := by
  obtain ⟨od, cd, ob, sb, sm, iv, ss, wf⟩ := d
  simp only at hod hcd hob hsb hsm hiv hss
  subst hod hcd hob hsb hsm hiv hss
  exact tableDims_apply wf x idx e j n t h0 h1 hN hT

end TableRows
end Idealize.ShloMosaic.GatherRows
-- ==== Proof.KChain.lean ====
/-
  The kernel program's result: @main's boundaries walked from the launch to the return. The projection region leaves
  h₀; each layer's message region, take, aggregation and GRU region leave the next state; the readout region sums each
  graph's nodes. The take's row gather reads the row 8·src + type of the flattened message table, which is the
  message of (src, type), the start word being in range.
-/
import proofs.«408314_j22325240004845_1_alg».proof.Proof.KFirst
import proofs.«408314_j22325240004845_1_alg».proof.Proof.KLast
import proofs.«408314_j22325240004845_1_alg».proof.Proof.KLayer0
import proofs.«408314_j22325240004845_1_alg».proof.Proof.KLayer1
import proofs.«408314_j22325240004845_1_alg».proof.Proof.KLayer2
import proofs.«408314_j22325240004845_1_alg».proof.Proof.KTake
import proofs.«408314_j22325240004845_1_alg».proof.Proof.LibGatherRows

noncomputable section

namespace Cert.KernelIdeal.KVal

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-- The kernel program's row gather at one result index, the start word in range. -/
theorem rows_read (x : FVec Ideal S262144x256 .f32) (idx : IVec S524288x1 32) (ε : Fin 524288) (j : Fin 256) (r : Fin 262144)
    (h : idx (ix2 ε (0 : Fin 1)) = BitVec.ofNat 32 r.val) :
    Host.gather gather_S262144x256_S524288x1_S524288x256_1_0_n_n_0_1_1256 x idx (ix2 ε j) = x (ix2 r j) :=
  GatherRows.gather_rows_apply _ rfl rfl rfl rfl rfl rfl rfl x idx ε j r h (by norm_num)

/-- The state after the first layer. -/
theorem state1 (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (n : Fin 32768) (j : Fin 256) :
    Layer0.h8 m ρ c (ix2 n j)
      = Cert.GGNN.layer (kscat m c) sn st (Wm m c 0) (bm m c 0) (Wih m c 0) (Whh m c 0) (bih m c 0) (bhh m c 0)
          (Cert.GGNN.proj (X m c) (Wp m c) (bp m c)) n j :=
  Layer0.layer0_step m ρ c sn st hsn hst
    (fun r hr ε j => Take.take_value0 (W5 m ρ c) rows_read r hr ε j) _ (fun n j => first_step m ρ c n j) n j

/-- The state after the second layer. -/
theorem state2 (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (n : Fin 32768) (j : Fin 256) :
    Layer1.hbufOut m ρ c (ix2 n j)
      = Cert.GGNN.layer (kscat m c) sn st (Wm m c 1) (bm m c 1) (Wih m c 1) (Whh m c 1) (bih m c 1) (bhh m c 1)
          (Cert.GGNN.layer (kscat m c) sn st (Wm m c 0) (bm m c 0) (Wih m c 0) (Whh m c 0) (bih m c 0) (bhh m c 0)
            (Cert.GGNN.proj (X m c) (Wp m c) (bp m c))) n j :=
  Layer1.layer1_step m ρ c sn st hsn hst
    (fun r hr ε j => Take.take_value1 (W11 m ρ c) rows_read r hr ε j) _ (fun n j => state1 m ρ c sn st hsn hst n j) n j

/-- The state after the third layer. -/
theorem state3 (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (n : Fin 32768) (j : Fin 256) :
    Layer2.hbufOut m ρ c (ix2 n j)
      = Cert.GGNN.layer (kscat m c) sn st (Wm m c 2) (bm m c 2) (Wih m c 2) (Whh m c 2) (bih m c 2) (bhh m c 2)
          (Cert.GGNN.layer (kscat m c) sn st (Wm m c 1) (bm m c 1) (Wih m c 1) (Whh m c 1) (bih m c 1) (bhh m c 1)
            (Cert.GGNN.layer (kscat m c) sn st (Wm m c 0) (bm m c 0) (Wih m c 0) (Whh m c 0) (bih m c 0) (bhh m c 0)
              (Cert.GGNN.proj (X m c) (Wp m c) (bp m c)))) n j :=
  Layer2.layer2_step m ρ c sn st hsn hst
    (fun r hr ε j => Take.take_value2 (W17 m ρ c) rows_read r hr ε j) _ (fun n j => state2 m ρ c sn st hsn hst n j) n j

/-- The result buffer at the return: the network's output of the launch arrays. -/
theorem kernel_value (sn : Fin 524288 → Fin 32768) (st : Fin 524288 → Fin 8)
    (hsn : ∀ ε : Fin 524288, aE m c (ix2 (0 : Fin 2) ε) = BitVec.ofNat 32 (sn ε).val)
    (hst : ∀ ε : Fin 524288, aT m c (ix1 ε) = BitVec.ofNat 32 (st ε).val)
    (b : Fin 32) (j : Fin 256) :
    outbuf m ρ c (ix2 b j)
      = Cert.GGNN.out (kscat m c) sn st (X m c) (Wp m c) (bp m c) (Wm m c) (bm m c) (Wih m c) (Whh m c) (bih m c) (bhh m c) b j := by
  unfold Cert.GGNN.out
  exact last_step m ρ c _ (fun n j => state3 m ρ c sn st hsn hst n j) b j

end Cert.KernelIdeal.KVal

end
-- ==== Proof.RArgs.lean ====
/-
  The reference program's launch arrays read as the curried parameter functions of the network (Spec.lean), the
  two-column array of start indices its gather takes (source node and edge type, each with jnp's wrap of a negative
  index), and the aggregation by destination node as the reference program spells it.
-/
import proofs.«408314_j22325240004845_1_alg».proof.Proof.Gen.ReferenceIdeal.Run
import proofs.«408314_j22325240004845_1_alg».proof.Proof.Spec

noncomputable section

namespace Cert.ReferenceIdeal.RVal

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

variable (V0 : Valuation τ sig (Elt Ideal))

/-- The eleven launch arrays, each at its literal type. -/
abbrev aX : FVec Ideal S32x1024x215 .f32 := V0 (Proc.devRef .tc main_arg0)
abbrev aE : IVec S2x524288 32 := V0 (Proc.devRef .tc main_arg1)
abbrev aT : IVec S524288 32 := V0 (Proc.devRef .tc main_arg2)
abbrev aWp : FVec Ideal S256x215 .f32 := V0 (Proc.devRef .tc main_arg3)
abbrev aBp : FVec Ideal S256 .f32 := V0 (Proc.devRef .tc main_arg4)
abbrev aWm : FVec Ideal S3x8x256x256 .f32 := V0 (Proc.devRef .tc main_arg5)
abbrev aBm : FVec Ideal S3x8x256 .f32 := V0 (Proc.devRef .tc main_arg6)
abbrev aWih : FVec Ideal S3x768x256 .f32 := V0 (Proc.devRef .tc main_arg7)
abbrev aWhh : FVec Ideal S3x768x256 .f32 := V0 (Proc.devRef .tc main_arg8)
abbrev aBih : FVec Ideal S3x768 .f32 := V0 (Proc.devRef .tc main_arg9)
abbrev aBhh : FVec Ideal S3x768 .f32 := V0 (Proc.devRef .tc main_arg10)

/-- Node n's feature row: node n is node n mod 1024 of graph n / 1024. -/
def X : Fin 32768 → Fin 215 → EReal :=
  fun n k => aX V0 (ix3 (⟨n.val / 1024, by omega⟩ : Fin 32) (⟨n.val % 1024, by omega⟩ : Fin 1024) k)
def Wp : Fin 256 → Fin 215 → EReal := fun j k => aWp V0 (ix2 j k)
def bp : Fin 256 → EReal := fun j => aBp V0 (ix1 j)
def Wm : Fin 3 → Fin 8 → Fin 256 → Fin 256 → EReal := fun l t e d => aWm V0 (ix4 l t e d)
def bm : Fin 3 → Fin 8 → Fin 256 → EReal := fun l t e => aBm V0 (ix3 l t e)
def Wih : Fin 3 → Fin 768 → Fin 256 → EReal := fun l g k => aWih V0 (ix3 l g k)
def Whh : Fin 3 → Fin 768 → Fin 256 → EReal := fun l g k => aWhh V0 (ix3 l g k)
def bih : Fin 3 → Fin 768 → EReal := fun l g => aBih V0 (ix2 l g)
def bhh : Fin 3 → Fin 768 → EReal := fun l g => aBhh V0 (ix2 l g)

/-- The gather's start indices: per edge the source word and the type word, a negative one moved up by the axis extent. -/
def idxCol : IVec S524288x2 32 :=
  (concatenate S524288x2 1 [⟨S524288x1, (broadcastInDim S524288x1 ![0] bcast_S524288_S524288x1_0 (select (cmpi .slt (res_main_v7 V0) (broadcastInDim S524288 ![] bcast_S_S524288 (constantI S_ 32 0#32))) (addi (res_main_v7 V0) (broadcastInDim S524288 ![] bcast_S_S524288 (constantI S_ 32 32768#32))) (res_main_v7 V0)))⟩, ⟨S524288x1, (broadcastInDim S524288x1 ![0] bcast_S524288_S524288x1_0 (select (cmpi .slt (V0 (Proc.devRef .tc main_arg2)) (broadcastInDim S524288 ![] bcast_S_S524288 (constantI S_ 32 0#32))) (addi (V0 (Proc.devRef .tc main_arg2)) (broadcastInDim S524288 ![] bcast_S_S524288 (constantI S_ 32 8#32))) (V0 (Proc.devRef .tc main_arg2))))⟩] concatenates_S524288x1_S524288x1_S524288x2_d1)

/-- The destination words as the scatter takes them: row 1 of the edge list, as a column. -/
def dstCol : IVec S524288x1 32 := broadcastInDim S524288x1 ![0] bcast_S524288_S524288x1_0 (res_main_v9 V0)

/-- The zero array the aggregation adds into. -/
def zeroHid : FVec Ideal S32768x256 .f32 :=
  broadcastInDim S32768x256 ![] bcast_S_S32768x256 (constant (F := Ideal) S_ .f32 0x00000000#32)

/-- The aggregation as an array operation: the edges' message rows added into the zero array at their destination rows. -/
def scatArr (u : FVec Ideal S524288x256 .f32) : FVec Ideal S32768x256 .f32 :=
  Host.scatterAdd scatter_S32768x256_S524288x1_S524288x256_1_0_0_1 zeroHid (dstCol V0) u

/-- The aggregation, curried: what Spec.lean's `layer` takes as `scat`. -/
def rscat : Cert.GGNN.EdgeArr → Cert.GGNN.Hid := fun u n k => scatArr V0 u (ix2 n k)

end Cert.ReferenceIdeal.RVal

end
-- ==== Proof.LibHostContract.lean ====
/-
  A host contraction, and two broadcasts, read at one entry over the extended reals.

  For `A : [M, K]` and `B : [K, N]` under the dimension numbers "contract the left operand's axis 1 with the right
  operand's axis 0, no batch axis", the host's product is, at entry `(i, l)`, the sum over the contracted coordinate `k`
  of `A (i, k) * B (k, l)`. For two stacks `A, B : [G, m, K]` under "batch axis 0 of both, contract the last axis of
  both", member `g` of the product is the table of inner products of the rows of the two members `g`: entry `(g, i, l)`
  is the sum over `d` of `A (g, i, d) * B (g, l, d)`. In both, the contraction index has one axis of extent `K`, so the
  sum over it is re-indexed by its one coordinate. The dimension numbers are taken with their conditions as a
  hypothesis, so the lemmas apply to a record whatever proof of its conditions it carries. Nothing is assumed of the
  entries (they may be infinite).

  A vector of `K` entries laid as one row and copied down `M` rows reads its entry `k` at `(b, k)`; a `G × n` array given
  a middle axis of extent one reads its entry `(g, d)` at `(g, 0, d)`. Both for any element type.
-/
import Idealize.ShloMosaic.PureOps.Ideal.Laws
import Idealize.ShloMosaic.Lib.ValueIdx
import Idealize.ShloMosaic.Lib.Pipeline.Value

noncomputable section

namespace Idealize.ShloMosaic.HostContract

open Idealize.ShloMosaic Idealize.ShloMosaic.ValueIdx

/-! ## A contraction of two matrices, and of two stacks of matrices row against row, read at one entry -/

section Contractions
variable {M K N : Nat}

/-- The dimension numbers "contract the left operand's axis 1 with the right operand's axis 0, no batch axis" for an
    `M × K` by `K × N` product, under conditions `w` stated elsewhere. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

variable (w : DotDims.WF ⟨2, ![M, K]⟩ ⟨2, ![K, N]⟩ ⟨2, ![M, N]⟩ [1] [0] [0] [1] [] [])

/-- The left operand is read on the row of the output entry, -/
theorem plain_lhs_row (j : (⟨2, ![M, N]⟩ : Shape).Idx) (q : (plainDims w).contr.Idx) :
    ((plainDims w).lhsIdx j q 0).val = (j 0).val := rfl
/-- at the contracted coordinate; -/
theorem plain_lhs_col (j : (⟨2, ![M, N]⟩ : Shape).Idx) (q : (plainDims w).contr.Idx) :
    ((plainDims w).lhsIdx j q 1).val = (q ⟨0, Nat.one_pos⟩).val :=
  (plainDims w).lhsIdx_val_of_single rfl j q
/-- the right operand at the contracted coordinate, -/
theorem plain_rhs_row (j : (⟨2, ![M, N]⟩ : Shape).Idx) (q : (plainDims w).contr.Idx) :
    ((plainDims w).rhsIdx j q 0).val = (q ⟨0, Nat.one_pos⟩).val :=
  (plainDims w).rhsIdx_val_of_single rfl j q
/-- on the column of the output entry. -/
theorem plain_rhs_col (j : (⟨2, ![M, N]⟩ : Shape).Idx) (q : (plainDims w).contr.Idx) :
    ((plainDims w).rhsIdx j q 1).val = (j 1).val := rfl

/-- The product at an entry: `(A · B) (i, l) = ∑ k, A (i, k) * B (k, l)`. -/
theorem plain_dot_apply {φ₁ φ₂ : FTy} (prec : Option ContractPrecision)
    (A : FVec Ideal ⟨2, ![M, K]⟩ φ₁) (B : FVec Ideal ⟨2, ![K, N]⟩ φ₂) (i : Fin M) (l : Fin N) :
    Host.dotGeneral (plainDims w) prec A B (ix2 i l) = ∑ k : Fin K, A (ix2 i k) * B (ix2 k l) := by
  show FloatOps.dotGeneral _ prec _ A B (ix2 i l) = _
  rw [Ideal.dotGeneral_apply, ← Equiv.sum_comp (contrEquiv1 (plainDims w) K rfl rfl).symm]
  refine Finset.sum_congr rfl fun k _ => ?_
  have hk := contrEquiv1_symm_val (plainDims w) K rfl rfl k
  have el : (plainDims w).lhsIdx (ix2 i l) ((contrEquiv1 (plainDims w) K rfl rfl).symm k) = ix2 i k :=
    funext fun c => Fin.ext (by
      match c with
      | ⟨0, _⟩ => exact plain_lhs_row w _ _
      | ⟨1, _⟩ => exact (plain_lhs_col w _ _).trans hk)
  have er : (plainDims w).rhsIdx (ix2 i l) ((contrEquiv1 (plainDims w) K rfl rfl).symm k) = ix2 k l :=
    funext fun c => Fin.ext (by
      match c with
      | ⟨0, _⟩ => exact (plain_rhs_row w _ _).trans hk
      | ⟨1, _⟩ => exact plain_rhs_col w _ _)
  rw [el, er]

end Contractions

section Gram
variable {G m K : Nat}

/-- The dimension numbers "batch axis 0 of both operands, contract the last axis of both" for two stacks of `m × K`
    matrices: member `g` of the result is the table of inner products of the rows of the two members `g`. -/
abbrev gramDims (w : DotDims.WF ⟨3, ![G, m, K]⟩ ⟨3, ![G, m, K]⟩ ⟨3, ![G, m, m]⟩ [2] [2] [1] [1] [0] [0]) :
    DotDims ⟨3, ![G, m, K]⟩ ⟨3, ![G, m, K]⟩ ⟨3, ![G, m, m]⟩ := ⟨[2], [2], [1], [1], [0], [0], w⟩

variable (w : DotDims.WF ⟨3, ![G, m, K]⟩ ⟨3, ![G, m, K]⟩ ⟨3, ![G, m, m]⟩ [2] [2] [1] [1] [0] [0])

/-- The left operand is read in the member of the output entry, -/
theorem gram_lhs_batch (j : (⟨3, ![G, m, m]⟩ : Shape).Idx) (q : (gramDims w).contr.Idx) :
    ((gramDims w).lhsIdx j q 0).val = (j 0).val := rfl
/-- on the row the entry's middle coordinate names, -/
theorem gram_lhs_row (j : (⟨3, ![G, m, m]⟩ : Shape).Idx) (q : (gramDims w).contr.Idx) :
    ((gramDims w).lhsIdx j q 1).val = (j 1).val := rfl
/-- at the contracted coordinate; -/
theorem gram_lhs_col (j : (⟨3, ![G, m, m]⟩ : Shape).Idx) (q : (gramDims w).contr.Idx) :
    ((gramDims w).lhsIdx j q 2).val = (q ⟨0, Nat.one_pos⟩).val :=
  (gramDims w).lhsIdx_val_of_single rfl j q
/-- the right operand in the same member, -/
theorem gram_rhs_batch (j : (⟨3, ![G, m, m]⟩ : Shape).Idx) (q : (gramDims w).contr.Idx) :
    ((gramDims w).rhsIdx j q 0).val = (j 0).val := rfl
/-- on the row the entry's last coordinate names, -/
theorem gram_rhs_row (j : (⟨3, ![G, m, m]⟩ : Shape).Idx) (q : (gramDims w).contr.Idx) :
    ((gramDims w).rhsIdx j q 1).val = (j 2).val := rfl
/-- at the contracted coordinate. -/
theorem gram_rhs_col (j : (⟨3, ![G, m, m]⟩ : Shape).Idx) (q : (gramDims w).contr.Idx) :
    ((gramDims w).rhsIdx j q 2).val = (q ⟨0, Nat.one_pos⟩).val :=
  (gramDims w).rhsIdx_val_of_single rfl j q

/-- The table at an entry: `gram (g, i, l) = ∑ d, A (g, i, d) * B (g, l, d)`. -/
theorem gram_dot_apply {φ₁ φ₂ : FTy} (prec : Option ContractPrecision)
    (A : FVec Ideal ⟨3, ![G, m, K]⟩ φ₁) (B : FVec Ideal ⟨3, ![G, m, K]⟩ φ₂) (g : Fin G) (i l : Fin m) :
    Host.dotGeneral (gramDims w) prec A B (ix3 g i l) = ∑ d : Fin K, A (ix3 g i d) * B (ix3 g l d) := by
  show FloatOps.dotGeneral _ prec _ A B (ix3 g i l) = _
  rw [Ideal.dotGeneral_apply, ← Equiv.sum_comp (contrEquiv1 (gramDims w) K rfl rfl).symm]
  refine Finset.sum_congr rfl fun k _ => ?_
  have hk := contrEquiv1_symm_val (gramDims w) K rfl rfl k
  have el : (gramDims w).lhsIdx (ix3 g i l) ((contrEquiv1 (gramDims w) K rfl rfl).symm k) = ix3 g i k :=
    funext fun c => Fin.ext (by
      match c with
      | ⟨0, _⟩ => exact gram_lhs_batch w _ _
      | ⟨1, _⟩ => exact gram_lhs_row w _ _
      | ⟨2, _⟩ => exact (gram_lhs_col w _ _).trans hk)
  have er : (gramDims w).rhsIdx (ix3 g i l) ((contrEquiv1 (gramDims w) K rfl rfl).symm k) = ix3 g l k :=
    funext fun c => Fin.ext (by
      match c with
      | ⟨0, _⟩ => exact gram_rhs_batch w _ _
      | ⟨1, _⟩ => exact gram_rhs_row w _ _
      | ⟨2, _⟩ => exact (gram_rhs_col w _ _).trans hk)
  rw [el, er]

end Gram

/-! ## Broadcasts read at an index -/

section Broadcasts
variable {α : Type}

/-- A vector of `K` entries laid as one row and copied down `M` rows reads, at `(b, k)`, its entry `k`. -/
theorem bias_apply {M K : Nat} (h1 : (⟨1, ![K]⟩ : Shape).BroadcastsInDim ⟨2, ![1, K]⟩ ![1])
    (h2 : (⟨2, ![1, K]⟩ : Shape).BroadcastsInDim ⟨2, ![M, K]⟩ ![0, 1]) (x : (⟨1, ![K]⟩ : Shape).Idx → α)
    (b : Fin M) (k : Fin K) :
    broadcastInDim ⟨2, ![M, K]⟩ ![0, 1] h2 (broadcastInDim ⟨2, ![1, K]⟩ ![1] h1 x) (ix2 b k) = x (ix1 k) := by
  have hk : k.val < K := k.isLt
  refine (broadcastInDim_apply ![0, 1] h2 _ (ix2 b k) (ix2 (0 : Fin 1) k) ?_).trans
    (broadcastInDim_apply ![1] h1 x (ix2 (0 : Fin 1) k) (ix1 k) ?_)
  · intro a
    match a with
    | ⟨0, _⟩ => show (0 : ℕ) = if (1 : ℕ) = 1 then 0 else _; rw [if_pos rfl]
    | ⟨1, _⟩ =>
      show k.val = if K = 1 then 0 else k.val
      split
      · omega
      · rfl
  · intro a
    match a with
    | ⟨0, _⟩ =>
      show k.val = if K = 1 then 0 else k.val
      split
      · omega
      · rfl

/-- A `G × n` array given a middle axis of extent one reads, at `(g, 0, d)`, its entry `(g, d)`. -/
theorem unit_axis_apply {G n : Nat} (h : (⟨2, ![G, n]⟩ : Shape).BroadcastsInDim ⟨3, ![G, 1, n]⟩ ![0, 2])
    (x : (⟨2, ![G, n]⟩ : Shape).Idx → α) (g : Fin G) (z : Fin 1) (d : Fin n) :
    broadcastInDim ⟨3, ![G, 1, n]⟩ ![0, 2] h x (ix3 g z d) = x (ix2 g d) := by
  have hg : g.val < G := g.isLt
  have hd : d.val < n := d.isLt
  refine broadcastInDim_apply ![0, 2] h x (ix3 g z d) (ix2 g d) ?_
  intro a
  match a with
  | ⟨0, _⟩ =>
    show g.val = if G = 1 then 0 else g.val
    split
    · omega
    · rfl
  | ⟨1, _⟩ =>
    show d.val = if n = 1 then 0 else d.val
    split
    · omega
    · rfl

end Broadcasts

end Idealize.ShloMosaic.HostContract

end
-- ==== Proof.RefStages.lean ====
/-
  The stages of the reference network, each read at one entry over the extended reals, for arbitrary arrays of the
  literal shapes:

  * the projection            (x · Wpᵀ + bp)(n, j) = Σ_k x(n / 1024, n % 1024, k) · Wp(j, k) + bp(j);
  * the per-type messages     (h · W3 + b2)(n, t, e) = Σ_d h(n, d) · W3(t, e, d) + b2(t, e), one contracted axis;
  * a stacked gate            (a · wᵀ + b)(n, g) = Σ_k a(n, k) · w(g, k) + b(g);
  * slice ℓ of a stacked parameter, read at an index, is the stack at (ℓ, …);
  * a column third of the stacked gates at (n, j) is the stack at column c + j, c = 0, 256, 512;
  * 1 / (1 + exp(−x)) with the word of 1.0 for both ones is the logistic function of x;
  * the gated update, entry by entry;
  * the readout: the sum over each graph's block of 1024 consecutive nodes.
-/
import proofs.«408314_j22325240004845_1_alg».proof.Proof.RArgs
import proofs.«408314_j22325240004845_1_alg».proof.Proof.LibHostContract
import Idealize.ShloMosaic.PureOps.Ideal.Laws
import Idealize.ShloMosaic.Lib.ValueIdx
import Idealize.ShloMosaic.Lib.Pipeline.Value

noncomputable section

namespace Cert.ReferenceIdeal.RVal

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Idealize.ShloMosaic.HostContract

/-! ## The word of 1.0, and the pointwise host operations at an index -/

/-- The word 0x3F800000 is the float 1.0. -/
theorem one_word : Ideal.ofBits .f32 0x3F800000#32 = 1 := by
  simp [Ideal.ofBits, Ideal.ieee, -EReal.coe_mul]; norm_num

theorem hdivf_apply {s : Shape} {φ : FTy} (a b : FVec Ideal s φ) (i : s.Idx) : Host.divf a b i = Ideal.div (a i) (b i) := rfl
theorem hexp_apply {s : Shape} {φ : FTy} (a : FVec Ideal s φ) (i : s.Idx) : Host.exp a i = Ideal.exp (a i) := rfl
theorem hnegf_apply {s : Shape} {φ : FTy} (a : FVec Ideal s φ) (i : s.Idx) : Host.negf a i = -(a i) := rfl
theorem htanh_apply {s : Shape} {φ : FTy} (a : FVec Ideal s φ) (i : s.Idx) : Host.tanh a i = Ideal.tanh (a i) := rfl

/-- The array every entry of which is the word of 1.0. -/
abbrev onesArr : FVec Ideal S32768x256 .f32 :=
  broadcastInDim S32768x256 ![] bcast_S_S32768x256 (constant (F := Ideal) S_ .f32 0x3F800000#32)

/-- It reads that word's value everywhere. -/
theorem ones_apply (i : S32768x256.Idx) : onesArr i = Ideal.ofBits .f32 0x3F800000#32 := rfl

/-! ## The projection -/

/-- h₀(n, j) = Σ_k x(n / 1024, n % 1024, k) · Wp(j, k) + bp(j). -/
theorem proj_apply (x : FVec Ideal S32x1024x215 .f32) (w : FVec Ideal S256x215 .f32) (b : FVec Ideal S256 .f32)
    (n : Fin 32768) (j : Fin 256) :
    (addf (Host.dotGeneral dot_S32768x215_S215x256_S32768x256_1_0_0_1_n_n none
        (shapeCast _ x shapeCasts_S32x1024x215_S32768x215)
        (transpose S215x256 [1, 0] w transposes_S256x215_S215x256_1_0))
      (broadcastInDim S32768x256 ![0, 1] bcast_S1x256_S32768x256_0_1 (broadcastInDim S1x256 ![1] bcast_S256_S1x256_1 b))
      : FVec Ideal S32768x256 .f32) (ix2 n j)
    = (∑ k : Fin 215, x (ix3 (⟨n.val / 1024, by omega⟩ : Fin 32) (⟨n.val % 1024, by omega⟩ : Fin 1024) k) * w (ix2 j k))
        + b (ix1 j) := by
  rw [addf_apply]
  refine congrArg₂ (· + ·) ?_ (bias_apply _ _ b n j)
  refine (plain_dot_apply dot_S32768x215_S215x256_S32768x256_1_0_0_1_n_n_wf none _ _ n j).trans ?_
  refine Finset.sum_congr rfl fun k _ => ?_
  refine congrArg₂ (· * ·) ?_ ?_
  · refine shapeCast_apply x _ (ix2 n k)
      (ix3 (⟨n.val / 1024, by omega⟩ : Fin 32) (⟨n.val % 1024, by omega⟩ : Fin 1024) k) ?_
    rw [Shape.rowMajor_val_three, Shape.rowMajor_val_two]
    show (n.val / 1024 * 1024 + n.val % 1024) * 215 + k.val = n.val * 215 + k.val
    omega
  · exact transpose_apply [1, 0] w _ (ix2 k j) (ix2 j k) (fun b => match b with | ⟨0, _⟩ => rfl | ⟨1, _⟩ => rfl)

/-! ## The per-type messages: one contracted axis, the right operand's last -/

/-- The message contraction's dimension numbers: [32768, 256] against [8, 256, 256], contracting axis 1 with axis 2. -/
abbrev dM : DotDims S32768x256 S8x256x256 S32768x8x256 := dot_S32768x256_S8x256x256_S32768x8x256_1_2_0_01_n_n

/-- The left operand is read on the node of the output entry, -/
theorem dM_lhs_0 (j : S32768x8x256.Idx) (q : dM.contr.Idx) : (dM.lhsIdx j q 0).val = (j 0).val := rfl
/-- at the contracted coordinate; -/
theorem dM_lhs_1 (j : S32768x8x256.Idx) (q : dM.contr.Idx) : (dM.lhsIdx j q 1).val = (q ⟨0, Nat.one_pos⟩).val :=
  dM.lhsIdx_val_of_single rfl j q
/-- the right operand at the edge type of the output entry, -/
theorem dM_rhs_0 (j : S32768x8x256.Idx) (q : dM.contr.Idx) : (dM.rhsIdx j q 0).val = (j 1).val := rfl
/-- its output feature, -/
theorem dM_rhs_1 (j : S32768x8x256.Idx) (q : dM.contr.Idx) : (dM.rhsIdx j q 1).val = (j 2).val := rfl
/-- and the contracted coordinate. -/
theorem dM_rhs_2 (j : S32768x8x256.Idx) (q : dM.contr.Idx) : (dM.rhsIdx j q 2).val = (q ⟨0, Nat.one_pos⟩).val :=
  dM.rhsIdx_val_of_single rfl j q

/-- (h · W3)(n, t, e) = Σ_d h(n, d) · W3(t, e, d). -/
theorem msg_dot_apply (h : FVec Ideal S32768x256 .f32) (W3 : FVec Ideal S8x256x256 .f32)
    (n : Fin 32768) (t : Fin 8) (e : Fin 256) :
    Host.dotGeneral dM none h W3 (ix3 n t e) = ∑ d : Fin 256, h (ix2 n d) * W3 (ix3 t e d) := by
  show FloatOps.dotGeneral _ none _ h W3 (ix3 n t e) = _
  rw [Ideal.dotGeneral_apply, ← Equiv.sum_comp (contrEquiv1 dM 256 rfl rfl).symm]
  refine Finset.sum_congr rfl fun k _ => ?_
  have hk := contrEquiv1_symm_val dM 256 rfl rfl k
  have el : dM.lhsIdx (ix3 n t e) ((contrEquiv1 dM 256 rfl rfl).symm k) = ix2 n k :=
    funext fun c => Fin.ext (by
      match c with
      | ⟨0, _⟩ => exact dM_lhs_0 _ _
      | ⟨1, _⟩ => exact (dM_lhs_1 _ _).trans hk)
  have er : dM.rhsIdx (ix3 n t e) ((contrEquiv1 dM 256 rfl rfl).symm k) = ix3 t e k :=
    funext fun c => Fin.ext (by
      match c with
      | ⟨0, _⟩ => exact dM_rhs_0 _ _
      | ⟨1, _⟩ => exact dM_rhs_1 _ _
      | ⟨2, _⟩ => exact (dM_rhs_2 _ _).trans hk)
  rw [el, er]

/-- An [8, 256] array laid as one slab and copied to every node reads its entry (t, e) at (n, t, e). -/
theorem msg_bias_apply (b2 : FVec Ideal S8x256 .f32) (n : Fin 32768) (t : Fin 8) (e : Fin 256) :
    broadcastInDim S32768x8x256 ![0, 1, 2] bcast_S1x8x256_S32768x8x256_0_1_2
      (broadcastInDim S1x8x256 ![1, 2] bcast_S8x256_S1x8x256_1_2 b2) (ix3 n t e) = b2 (ix2 t e) := by
  refine (broadcastInDim_apply ![0, 1, 2] bcast_S1x8x256_S32768x8x256_0_1_2 _ (ix3 n t e) (ix3 (0 : Fin 1) t e) ?_).trans
    (broadcastInDim_apply ![1, 2] bcast_S8x256_S1x8x256_1_2 b2 (ix3 (0 : Fin 1) t e) (ix2 t e) ?_)
  · intro a
    match a with
    | ⟨0, _⟩ => rfl
    | ⟨1, _⟩ => rfl
    | ⟨2, _⟩ => rfl
  · intro a
    match a with
    | ⟨0, _⟩ => rfl
    | ⟨1, _⟩ => rfl

/-- The message array of a state h: Ht = h · W3 + b2. -/
abbrev msgArr (h : FVec Ideal S32768x256 .f32) (W3 : FVec Ideal S8x256x256 .f32) (b2 : FVec Ideal S8x256 .f32) :
    FVec Ideal S32768x8x256 .f32 :=
  addf (Host.dotGeneral dot_S32768x256_S8x256x256_S32768x8x256_1_2_0_01_n_n none h W3)
    (broadcastInDim S32768x8x256 ![0, 1, 2] bcast_S1x8x256_S32768x8x256_0_1_2
      (broadcastInDim S1x8x256 ![1, 2] bcast_S8x256_S1x8x256_1_2 b2))

/-- Ht(n, t, e) = Σ_d h(n, d) · W3(t, e, d) + b2(t, e). -/
theorem msg_apply (h : FVec Ideal S32768x256 .f32) (W3 : FVec Ideal S8x256x256 .f32) (b2 : FVec Ideal S8x256 .f32)
    (n : Fin 32768) (t : Fin 8) (e : Fin 256) :
    msgArr h W3 b2 (ix3 n t e) = (∑ d : Fin 256, h (ix2 n d) * W3 (ix3 t e d)) + b2 (ix2 t e) := by
  refine (addf_apply _ _ _).trans ?_
  exact congrArg₂ (· + ·) (msg_dot_apply h W3 n t e) (msg_bias_apply b2 n t e)

/-! ## A stacked gate pre-activation -/

/-- The gate array of an input a: a · wᵀ + b. -/
abbrev gateArr (a : FVec Ideal S32768x256 .f32) (w : FVec Ideal S768x256 .f32) (b : FVec Ideal S768 .f32) :
    FVec Ideal S32768x768 .f32 :=
  addf (Host.dotGeneral dot_S32768x256_S256x768_S32768x768_1_0_0_1_n_n none a
      (transpose S256x768 [1, 0] w transposes_S768x256_S256x768_1_0))
    (broadcastInDim S32768x768 ![0, 1] bcast_S1x768_S32768x768_0_1 (broadcastInDim S1x768 ![1] bcast_S768_S1x768_1 b))

/-- g(n, γ) = Σ_k a(n, k) · w(γ, k) + b(γ). -/
theorem gate_apply (a : FVec Ideal S32768x256 .f32) (w : FVec Ideal S768x256 .f32) (b : FVec Ideal S768 .f32)
    (n : Fin 32768) (g : Fin 768) :
    gateArr a w b (ix2 n g) = (∑ k : Fin 256, a (ix2 n k) * w (ix2 g k)) + b (ix1 g) := by
  refine (addf_apply _ _ _).trans ?_
  refine congrArg₂ (· + ·) ?_ (bias_apply _ _ b n g)
  refine (plain_dot_apply dot_S32768x256_S256x768_S32768x768_1_0_0_1_n_n_wf none _ _ n g).trans ?_
  refine Finset.sum_congr rfl fun k _ => ?_
  exact congrArg (a (ix2 n k) * ·)
    (transpose_apply [1, 0] w _ (ix2 k g) (ix2 g k) (fun b => match b with | ⟨0, _⟩ => rfl | ⟨1, _⟩ => rfl))

/-! ## Slice ℓ of a stacked parameter -/

/-- Slice ℓ of the [3, 8, 256, 256] message weights, as an [8, 256, 256] array, at (t, e, d) is the stack at (ℓ, t, e, d). -/
theorem wm_slice_apply (W : FVec Ideal S3x8x256x256 .f32) (l : Fin 3)
    (hs : S3x8x256x256.Slices ![l.val, 0, 0, 0] S1x8x256x256) (t : Fin 8) (e d : Fin 256) :
    shapeCast _ (extractStridedSlice S1x8x256x256 ![l.val, 0, 0, 0] W hs) shapeCasts_S1x8x256x256_S8x256x256 (ix3 t e d)
      = W (ix4 l t e d) := by
  refine (shapeCast_apply _ _ (ix3 t e d) (ix4 (0 : Fin 1) t e d) ?_).trans
    (extractStridedSlice_apply _ W hs _ (ix4 l t e d) ?_)
  · rw [Shape.rowMajor_val_four, Shape.rowMajor_val_three]
    show ((0 * 8 + t.val) * 256 + e.val) * 256 + d.val = (t.val * 256 + e.val) * 256 + d.val
    omega
  · intro a
    match a with
    | ⟨0, _⟩ => rfl
    | ⟨1, _⟩ => exact (Nat.zero_add _).symm
    | ⟨2, _⟩ => exact (Nat.zero_add _).symm
    | ⟨3, _⟩ => exact (Nat.zero_add _).symm

/-- Slice ℓ of the [3, 8, 256] message biases, as an [8, 256] array, at (t, e) is the stack at (ℓ, t, e). -/
theorem bm_slice_apply (B : FVec Ideal S3x8x256 .f32) (l : Fin 3)
    (hs : S3x8x256.Slices ![l.val, 0, 0] S1x8x256) (t : Fin 8) (e : Fin 256) :
    shapeCast _ (extractStridedSlice S1x8x256 ![l.val, 0, 0] B hs) shapeCasts_S1x8x256_S8x256 (ix2 t e)
      = B (ix3 l t e) := by
  refine (shapeCast_apply _ _ (ix2 t e) (ix3 (0 : Fin 1) t e) ?_).trans
    (extractStridedSlice_apply _ B hs _ (ix3 l t e) ?_)
  · rw [Shape.rowMajor_val_three, Shape.rowMajor_val_two]
    show (0 * 8 + t.val) * 256 + e.val = t.val * 256 + e.val
    omega
  · intro a
    match a with
    | ⟨0, _⟩ => rfl
    | ⟨1, _⟩ => exact (Nat.zero_add _).symm
    | ⟨2, _⟩ => exact (Nat.zero_add _).symm

/-- Slice ℓ of a [3, 768, 256] stack of gate weights, as a [768, 256] array, at (g, k) is the stack at (ℓ, g, k). -/
theorem w_slice_apply (W : FVec Ideal S3x768x256 .f32) (l : Fin 3)
    (hs : S3x768x256.Slices ![l.val, 0, 0] S1x768x256) (g : Fin 768) (k : Fin 256) :
    shapeCast _ (extractStridedSlice S1x768x256 ![l.val, 0, 0] W hs) shapeCasts_S1x768x256_S768x256 (ix2 g k)
      = W (ix3 l g k) := by
  refine (shapeCast_apply _ _ (ix2 g k) (ix3 (0 : Fin 1) g k) ?_).trans
    (extractStridedSlice_apply _ W hs _ (ix3 l g k) ?_)
  · rw [Shape.rowMajor_val_three, Shape.rowMajor_val_two]
    show (0 * 768 + g.val) * 256 + k.val = g.val * 256 + k.val
    omega
  · intro a
    match a with
    | ⟨0, _⟩ => rfl
    | ⟨1, _⟩ => exact (Nat.zero_add _).symm
    | ⟨2, _⟩ => exact (Nat.zero_add _).symm

/-- Slice ℓ of a [3, 768] stack of gate biases, as a [768] array, at g is the stack at (ℓ, g). -/
theorem b_slice_apply (B : FVec Ideal S3x768 .f32) (l : Fin 3)
    (hs : S3x768.Slices ![l.val, 0] S1x768) (g : Fin 768) :
    shapeCast _ (extractStridedSlice S1x768 ![l.val, 0] B hs) shapeCasts_S1x768_S768 (ix1 g) = B (ix2 l g) := by
  refine (shapeCast_apply _ _ (ix1 g) (ix2 (0 : Fin 1) g) ?_).trans
    (extractStridedSlice_apply _ B hs _ (ix2 l g) ?_)
  · rw [Shape.rowMajor_val_two, Shape.rowMajor_val_one]
    show 0 * 768 + g.val = g.val
    omega
  · intro a
    match a with
    | ⟨0, _⟩ => rfl
    | ⟨1, _⟩ => exact (Nat.zero_add _).symm

/-! ## The three column thirds of the stacked gates -/

/-- Columns c … c + 255 of a [32768, 768] array, at (n, j), are the array at (n, c + j). -/
theorem col_slice_apply (c : Nat) (hs : S32768x768.Slices ![0, c] S32768x256) (G : FVec Ideal S32768x768 .f32)
    (n : Fin 32768) (j : Fin 256) (g : Fin 768) (hg : g.val = c + j.val) :
    extractStridedSlice S32768x256 ![0, c] G hs (ix2 n j) = G (ix2 n g) :=
  extractStridedSlice_apply _ G hs (ix2 n j) (ix2 n g)
    (fun a => match a with | ⟨0, _⟩ => (Nat.zero_add _).symm | ⟨1, _⟩ => hg)

/-! ## The logistic function as the reference spells it, and the gated update -/

/-- 1 / (1 + exp(−(gi + gh))) on the column third at c, with the word of 1.0 for both ones, is the logistic function of
    the two stacks' sum at column c + j. -/
theorem sigm_apply (c : Nat) (hs : S32768x768.Slices ![0, c] S32768x256) (gi gh : FVec Ideal S32768x768 .f32)
    (n : Fin 32768) (j : Fin 256) (g : Fin 768) (hg : g.val = c + j.val) :
    Host.divf onesArr (addf onesArr (Host.exp (Host.negf (addf (extractStridedSlice S32768x256 ![0, c] gi hs)
      (extractStridedSlice S32768x256 ![0, c] gh hs))))) (ix2 n j)
      = Ideal.logistic (gi (ix2 n g) + gh (ix2 n g)) := by
  rw [hdivf_apply, addf_apply, hexp_apply, hnegf_apply, addf_apply, ones_apply, col_slice_apply c hs gi n j g hg,
    col_slice_apply c hs gh n j g hg, one_word]
  rfl

/-- The new state at (n, j): (1 − z) · tanh(gi_n + r · gh_n) + z · h, with r the logistic function of the first thirds'
    sum and z given as the logistic function of the second thirds' sum. -/
theorem upd_apply (gi gh : FVec Ideal S32768x768 .f32) (z h : FVec Ideal S32768x256 .f32) (n : Fin 32768) (j : Fin 256)
    (hz : z (ix2 n j) = Ideal.logistic (gi (ix2 n (Cert.GGNN.gZ j)) + gh (ix2 n (Cert.GGNN.gZ j)))) :
    (addf (mulf (subf onesArr z) (Host.tanh (addf
        (extractStridedSlice S32768x256 ![0, 512] gi slices_S32768x768_S32768x256_0_512)
        (mulf (Host.divf onesArr (addf onesArr (Host.exp (Host.negf (addf
            (extractStridedSlice S32768x256 ![0, 0] gi slices_S32768x768_S32768x256_0_0)
            (extractStridedSlice S32768x256 ![0, 0] gh slices_S32768x768_S32768x256_0_0))))))
          (extractStridedSlice S32768x256 ![0, 512] gh slices_S32768x768_S32768x256_0_512)))))
      (mulf z h) : FVec Ideal S32768x256 .f32) (ix2 n j)
      = Cert.GGNN.gru (fun n g => gi (ix2 n g)) (fun n g => gh (ix2 n g)) (fun n j => h (ix2 n j)) n j := by
  rw [addf_apply, mulf_apply, subf_apply, htanh_apply, addf_apply, mulf_apply, mulf_apply, ones_apply, hz,
    sigm_apply 0 _ gi gh n j (Cert.GGNN.gR j) (Nat.zero_add _).symm,
    col_slice_apply 512 _ gi n j (Cert.GGNN.gN j) rfl, col_slice_apply 512 _ gh n j (Cert.GGNN.gN j) rfl]
  rfl

/-- The update gate's array: the logistic function, as the reference spells it, of the second thirds' sum. -/
abbrev zArr (gi gh : FVec Ideal S32768x768 .f32) : FVec Ideal S32768x256 .f32 :=
  Host.divf onesArr (addf onesArr (Host.exp (Host.negf (addf
    (extractStridedSlice S32768x256 ![0, 256] gi slices_S32768x768_S32768x256_0_256)
    (extractStridedSlice S32768x256 ![0, 256] gh slices_S32768x768_S32768x256_0_256)))))

/-- It is the logistic function of the two stacks' sum at column 256 + j. -/
theorem z_apply (gi gh : FVec Ideal S32768x768 .f32) (n : Fin 32768) (j : Fin 256) :
    zArr gi gh (ix2 n j) = Ideal.logistic (gi (ix2 n (Cert.GGNN.gZ j)) + gh (ix2 n (Cert.GGNN.gZ j))) :=
  sigm_apply 256 _ gi gh n j (Cert.GGNN.gZ j) rfl

/-- The new state's array, of the two gate stacks, the update gate and the old state. -/
abbrev updArr (gi gh : FVec Ideal S32768x768 .f32) (z h : FVec Ideal S32768x256 .f32) : FVec Ideal S32768x256 .f32 :=
  addf (mulf (subf onesArr z) (Host.tanh (addf
      (extractStridedSlice S32768x256 ![0, 512] gi slices_S32768x768_S32768x256_0_512)
      (mulf (Host.divf onesArr (addf onesArr (Host.exp (Host.negf (addf
          (extractStridedSlice S32768x256 ![0, 0] gi slices_S32768x768_S32768x256_0_0)
          (extractStridedSlice S32768x256 ![0, 0] gh slices_S32768x768_S32768x256_0_0))))))
        (extractStridedSlice S32768x256 ![0, 512] gh slices_S32768x768_S32768x256_0_512)))))
    (mulf z h)

/-! ## The readout -/

/-- The sum over axis 1 of a [32768, 256] array viewed [32, 1024, 256], at (b, j), is the sum over graph b's 1024 nodes. -/
theorem readout_apply (h : FVec Ideal S32768x256 .f32) (b : Fin 32) (j : Fin 256) :
    (Host.reduceAdd (shapeCast _ h shapeCasts_S32768x256_S32x1024x256) (constant (F := Ideal) S_ .f32 0x00000000#32)
      reducesTo_S32x1024x256_S32x256_d1 h_S_ : FVec Ideal S32x256 .f32) (ix2 b j)
      = ∑ n : Fin 1024, h (ix2 (⟨b.val * 1024 + n.val, by omega⟩ : Fin 32768) j) := by
  have hr : S32x1024x256.Reduces [1] S32x256 := by decide
  show Ideal.hostReduceAdd reducesTo_S32x1024x256_S32x256_d1 _ (Ideal.ofBits .f32 0x00000000#32) (ix2 b j) = _
  rw [Ideal.hostReduceAdd_single _ hr, Ideal.ofBits_zero_f32, zero_add]
  refine Finset.sum_congr rfl fun (n : Fin 1024) _ => ?_
  refine shapeCast_apply h _ _ (ix2 (⟨b.val * 1024 + n.val, by omega⟩ : Fin 32768) j) ?_
  rw [Shape.rowMajor_val_two, Shape.rowMajor_val_three]
  rfl

end Cert.ReferenceIdeal.RVal

end
-- ==== Proof.RefValue.lean ====
/-
  The reference program's result, read at one entry, is the gated graph network of Spec.lean at the reference's launch
  arrays (RArgs.lean), given that the edge gather reads, for edge ε, the row of its operand at the edge's source node and
  type.

  A layer is taken once, for an arbitrary previous state array h and slice ℓ of the stacked parameters: the stacked gates
  of the aggregated messages and of h, the update gate, and the new state, each read at an entry with the lemmas of
  RefStages.lean, are Spec's layer at the curried arrays. The reference's named terms are then three instances of it, on
  top of the projection, and the result is the readout of the third.
-/
import proofs.«408314_j22325240004845_1_alg».proof.Proof.RefStages

noncomputable section

namespace Cert.ReferenceIdeal.RVal

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

variable (V0 : Valuation τ sig (Elt Ideal)) (sn : Fin 524288 → Fin 32768) (st : Fin 524288 → Fin 8)

/-- A [32768, 256] array as a hidden state: one extended real per node and feature. -/
abbrev cur (h : FVec Ideal S32768x256 .f32) : Cert.GGNN.Hid := fun n j => h (ix2 n j)

/-! ## Slice ℓ of each stacked parameter, as an array and curried -/

abbrev wmS (l : Fin 3) (hs : S3x8x256x256.Slices ![l.val, 0, 0, 0] S1x8x256x256) : FVec Ideal S8x256x256 .f32 :=
  shapeCast _ (extractStridedSlice S1x8x256x256 ![l.val, 0, 0, 0] (aWm V0) hs) shapeCasts_S1x8x256x256_S8x256x256
abbrev bmS (l : Fin 3) (hs : S3x8x256.Slices ![l.val, 0, 0] S1x8x256) : FVec Ideal S8x256 .f32 :=
  shapeCast _ (extractStridedSlice S1x8x256 ![l.val, 0, 0] (aBm V0) hs) shapeCasts_S1x8x256_S8x256
abbrev wS (W : FVec Ideal S3x768x256 .f32) (l : Fin 3) (hs : S3x768x256.Slices ![l.val, 0, 0] S1x768x256) :
    FVec Ideal S768x256 .f32 :=
  shapeCast _ (extractStridedSlice S1x768x256 ![l.val, 0, 0] W hs) shapeCasts_S1x768x256_S768x256
abbrev bS (B : FVec Ideal S3x768 .f32) (l : Fin 3) (hs : S3x768.Slices ![l.val, 0] S1x768) : FVec Ideal S768 .f32 :=
  shapeCast _ (extractStridedSlice S1x768 ![l.val, 0] B hs) shapeCasts_S1x768_S768

/-! ## One layer -/

/-- The stacked gates of the aggregated messages of a state h, as the reference spells them: the messages of every node and
    type, gathered per edge, added into the zero array by destination, times the input weights, plus their biases. -/
abbrev giArr (h : FVec Ideal S32768x256 .f32) (W3 : FVec Ideal S8x256x256 .f32) (b2 : FVec Ideal S8x256 .f32)
    (wih : FVec Ideal S768x256 .f32) (bi : FVec Ideal S768 .f32) : FVec Ideal S32768x768 .f32 :=
  gateArr (scatArr V0 (Host.gather gather_S32768x8x256_S524288x2_S524288x256_1_01_n_n_01_1_11256 (msgArr h W3 b2) (idxCol V0)))
    wih bi

/-- They are Spec's gate of the aggregated edge messages, at slice ℓ of the parameters. -/
theorem gi_apply
    (hedge : ∀ (Ht : FVec Ideal S32768x8x256 .f32) (ε : Fin 524288) (j : Fin 256),
      Host.gather gather_S32768x8x256_S524288x2_S524288x256_1_01_n_n_01_1_11256 Ht (idxCol V0) (ix2 ε j)
        = Ht (ix3 (sn ε) (st ε) j))
    (l : Fin 3) (hsWm : S3x8x256x256.Slices ![l.val, 0, 0, 0] S1x8x256x256) (hsBm : S3x8x256.Slices ![l.val, 0, 0] S1x8x256)
    (hsW : S3x768x256.Slices ![l.val, 0, 0] S1x768x256) (hsB : S3x768.Slices ![l.val, 0] S1x768)
    (h : FVec Ideal S32768x256 .f32) (n : Fin 32768) (g : Fin 768) :
    giArr V0 h (wmS V0 l hsWm) (bmS V0 l hsBm) (wS (aWih V0) l hsW) (bS (aBih V0) l hsB) (ix2 n g)
      = Cert.GGNN.gate (rscat V0 (Cert.GGNN.edgeMsg (Cert.GGNN.msg (cur h) (Wm V0 l) (bm V0 l)) sn st))
          (Wih V0 l) (bih V0 l) n g := by
  refine (gate_apply _ _ _ n g).trans ?_
  have hu : Host.gather gather_S32768x8x256_S524288x2_S524288x256_1_01_n_n_01_1_11256
      (msgArr h (wmS V0 l hsWm) (bmS V0 l hsBm)) (idxCol V0)
      = Cert.GGNN.edgeMsg (Cert.GGNN.msg (cur h) (Wm V0 l) (bm V0 l)) sn st := by
    funext i
    obtain ⟨ε, j, rfl⟩ : ∃ (ε : Fin 524288) (j : Fin 256), i = ix2 ε j := ⟨i 0, i 1, eq_ix2 i⟩
    refine (hedge _ ε j).trans ?_
    refine (msg_apply h _ _ (sn ε) (st ε) j).trans ?_
    show _ = (∑ d : Fin 256, h (ix2 (sn ε) d) * Wm V0 l (st ε) j d) + bm V0 l (st ε) j
    exact congrArg₂ (· + ·)
      (Finset.sum_congr rfl fun d _ => congrArg (h (ix2 (sn ε) d) * ·) (wm_slice_apply (aWm V0) l hsWm (st ε) j d))
      (bm_slice_apply (aBm V0) l hsBm (st ε) j)
  rw [hu]
  show _ = (∑ k : Fin 256, rscat V0 (Cert.GGNN.edgeMsg (Cert.GGNN.msg (cur h) (Wm V0 l) (bm V0 l)) sn st) n k * Wih V0 l g k)
    + bih V0 l g
  exact congrArg₂ (· + ·)
    (Finset.sum_congr rfl fun k _ => congrArg (_ * ·) (w_slice_apply (aWih V0) l hsW g k))
    (b_slice_apply (aBih V0) l hsB g)

/-- The stacked gates of the state h itself are Spec's gate of h, at slice ℓ of the hidden weights. -/
theorem gh_apply (l : Fin 3) (hsW : S3x768x256.Slices ![l.val, 0, 0] S1x768x256) (hsB : S3x768.Slices ![l.val, 0] S1x768)
    (h : FVec Ideal S32768x256 .f32) (n : Fin 32768) (g : Fin 768) :
    gateArr h (wS (aWhh V0) l hsW) (bS (aBhh V0) l hsB) (ix2 n g) = Cert.GGNN.gate (cur h) (Whh V0 l) (bhh V0 l) n g := by
  refine (gate_apply _ _ _ n g).trans ?_
  show _ = (∑ k : Fin 256, h (ix2 n k) * Whh V0 l g k) + bhh V0 l g
  exact congrArg₂ (· + ·)
    (Finset.sum_congr rfl fun k _ => congrArg (_ * ·) (w_slice_apply (aWhh V0) l hsW g k))
    (b_slice_apply (aBhh V0) l hsB g)

/-- ONE LAYER: for any previous state array h and slice ℓ, the new state array — of the two gate stacks gi, gh and the
    update gate z, each named by its defining equation — is, entry by entry, Spec's layer of the curried h. -/
theorem layer_apply
    (hedge : ∀ (Ht : FVec Ideal S32768x8x256 .f32) (ε : Fin 524288) (j : Fin 256),
      Host.gather gather_S32768x8x256_S524288x2_S524288x256_1_01_n_n_01_1_11256 Ht (idxCol V0) (ix2 ε j)
        = Ht (ix3 (sn ε) (st ε) j))
    (l : Fin 3) (hsWm : S3x8x256x256.Slices ![l.val, 0, 0, 0] S1x8x256x256) (hsBm : S3x8x256.Slices ![l.val, 0, 0] S1x8x256)
    (hsW : S3x768x256.Slices ![l.val, 0, 0] S1x768x256) (hsB : S3x768.Slices ![l.val, 0] S1x768)
    (h : FVec Ideal S32768x256 .f32) (gi gh : FVec Ideal S32768x768 .f32) (z : FVec Ideal S32768x256 .f32)
    (hgi : gi = giArr V0 h (wmS V0 l hsWm) (bmS V0 l hsBm) (wS (aWih V0) l hsW) (bS (aBih V0) l hsB))
    (hgh : gh = gateArr h (wS (aWhh V0) l hsW) (bS (aBhh V0) l hsB))
    (hz : z = zArr gi gh) (n : Fin 32768) (j : Fin 256) :
    updArr gi gh z h (ix2 n j)
      = Cert.GGNN.layer (rscat V0) sn st (Wm V0 l) (bm V0 l) (Wih V0 l) (Whh V0 l) (bih V0 l) (bhh V0 l) (cur h) n j := by
  have hzn : z (ix2 n j) = Ideal.logistic (gi (ix2 n (Cert.GGNN.gZ j)) + gh (ix2 n (Cert.GGNN.gZ j))) := by
    rw [hz]; exact z_apply gi gh n j
  refine (upd_apply gi gh z h n j hzn).trans ?_
  have egi : (fun n g => gi (ix2 n g))
      = Cert.GGNN.gate (rscat V0 (Cert.GGNN.edgeMsg (Cert.GGNN.msg (cur h) (Wm V0 l) (bm V0 l)) sn st)) (Wih V0 l) (bih V0 l) := by
    funext n g; rw [hgi]; exact gi_apply V0 sn st hedge l hsWm hsBm hsW hsB h n g
  have egh : (fun n g => gh (ix2 n g)) = Cert.GGNN.gate (cur h) (Whh V0 l) (bhh V0 l) := by
    funext n g; rw [hgh]; exact gh_apply V0 l hsW hsB h n g
  rw [egi, egh]
  rfl

/-! ## The reference's named terms -/

/-- The projection's term is Spec's projection of the launch arrays. -/
theorem h0_cur : cur (res_main_v5 V0) = Cert.GGNN.proj (X V0) (Wp V0) (bp V0) := by
  funext n j
  exact proj_apply (aX V0) (aWp V0) (aBp V0) n j

/-- The first layer's new state. -/
theorem h1_cur
    (hedge : ∀ (Ht : FVec Ideal S32768x8x256 .f32) (ε : Fin 524288) (j : Fin 256),
      Host.gather gather_S32768x8x256_S524288x2_S524288x256_1_01_n_n_01_1_11256 Ht (idxCol V0) (ix2 ε j)
        = Ht (ix3 (sn ε) (st ε) j)) :
    cur (res_main_v80 V0)
      = Cert.GGNN.layer (rscat V0) sn st (Wm V0 0) (bm V0 0) (Wih V0 0) (Whh V0 0) (bih V0 0) (bhh V0 0)
          (Cert.GGNN.proj (X V0) (Wp V0) (bp V0)) := by
  funext n j
  have e := layer_apply V0 sn st hedge 0 _ _ _ _ (res_main_v5 V0) (res_main_v47 V0) (res_main_v52 V0) (res_main_v72 V0)
    rfl rfl rfl n j
  rw [h0_cur] at e
  exact e

/-- The second layer's new state. -/
theorem h2_cur
    (hedge : ∀ (Ht : FVec Ideal S32768x8x256 .f32) (ε : Fin 524288) (j : Fin 256),
      Host.gather gather_S32768x8x256_S524288x2_S524288x256_1_01_n_n_01_1_11256 Ht (idxCol V0) (ix2 ε j)
        = Ht (ix3 (sn ε) (st ε) j)) :
    cur (res_main_v151 V0)
      = Cert.GGNN.layer (rscat V0) sn st (Wm V0 1) (bm V0 1) (Wih V0 1) (Whh V0 1) (bih V0 1) (bhh V0 1)
          (Cert.GGNN.layer (rscat V0) sn st (Wm V0 0) (bm V0 0) (Wih V0 0) (Whh V0 0) (bih V0 0) (bhh V0 0)
            (Cert.GGNN.proj (X V0) (Wp V0) (bp V0))) := by
  funext n j
  have e := layer_apply V0 sn st hedge 1 _ _ _ _ (res_main_v80 V0) (res_main_v118 V0) (res_main_v123 V0) (res_main_v143 V0)
    rfl rfl rfl n j
  rw [h1_cur V0 sn st hedge] at e
  exact e

/-- THE REFERENCE'S RESULT at (b, j) is the network of Spec.lean at the reference's launch arrays, with the aggregation the
    reference's own scatter-add and the edges' source nodes and types those the gather reads. -/
theorem ref_value
    (hedge : ∀ (Ht : FVec Ideal S32768x8x256 .f32) (ε : Fin 524288) (j : Fin 256),
      Host.gather gather_S32768x8x256_S524288x2_S524288x256_1_01_n_n_01_1_11256 Ht (idxCol V0) (ix2 ε j)
        = Ht (ix3 (sn ε) (st ε) j))
    (b : Fin 32) (j : Fin 256) :
    (Host.reduceAdd (shapeCast _ (addf (mulf (subf (broadcastInDim S32768x256 ![] bcast_S_S32768x256 (constant S_ .f32 0x3F800000#32)) (res_main_v214 V0)) (Host.tanh (addf (extractStridedSlice S32768x256 ![0, 512] (res_main_v189 V0) slices_S32768x768_S32768x256_0_512) (mulf (Host.divf (broadcastInDim S32768x256 ![] bcast_S_S32768x256 (constant S_ .f32 0x3F800000#32)) (addf (broadcastInDim S32768x256 ![] bcast_S_S32768x256 (constant S_ .f32 0x3F800000#32)) (Host.exp (Host.negf (addf (extractStridedSlice S32768x256 ![0, 0] (res_main_v189 V0) slices_S32768x768_S32768x256_0_0) (extractStridedSlice S32768x256 ![0, 0] (res_main_v194 V0) slices_S32768x768_S32768x256_0_0)))))) (extractStridedSlice S32768x256 ![0, 512] (res_main_v194 V0) slices_S32768x768_S32768x256_0_512))))) (mulf (res_main_v214 V0) (res_main_v151 V0))) shapeCasts_S32768x256_S32x1024x256) (constant S_ .f32 0x00000000#32) reducesTo_S32x1024x256_S32x256_d1 h_S_ : FVec Ideal S32x256 .f32) (ix2 b j)
      = Cert.GGNN.out (rscat V0) sn st (X V0) (Wp V0) (bp V0) (Wm V0) (bm V0) (Wih V0) (Whh V0) (bih V0) (bhh V0) b j := by
  refine (readout_apply _ b j).trans ?_
  unfold Cert.GGNN.out Cert.GGNN.readout
  refine Finset.sum_congr rfl fun n _ => ?_
  have e := layer_apply V0 sn st hedge 2 _ _ _ _ (res_main_v151 V0) (res_main_v189 V0) (res_main_v194 V0) (res_main_v214 V0)
    rfl rfl rfl ⟨b.val * 1024 + n.val, by omega⟩ j
  rw [h2_cur V0 sn st hedge] at e
  exact e

end Cert.ReferenceIdeal.RVal

end
-- ==== Proof.RefEdges.lean ====
/-
  The reference's array of start indices read at one edge. Its first column is the edge's source node and its second the
  edge's type, each passed through the wrap of a negative index (a word below zero is moved up by the axis extent); the
  word of a natural below 2 ^ 31 is not below zero, so the wrap leaves it. Hence the gather of the per-node, per-type
  table of message rows at that array reads, at edge ε and column j, the table at (source of ε, type of ε, j).
-/
import proofs.«408314_j22325240004845_1_alg».proof.Proof.RArgs
import proofs.«408314_j22325240004845_1_alg».proof.Proof.LibGatherRows
import Idealize.ShloMosaic.Lib.StableHlo.Predicate
import Idealize.ShloMosaic.Lib.Pipeline.Value
import Idealize.ShloMosaic.Lib.ValueIdx

noncomputable section

namespace Cert.ReferenceIdeal.RVal

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx
open Idealize.ShloMosaic.GatherRows

/-- The word of a natural below 2 ^ 31 is not below zero as a signed word, so a select on "below zero" between the
    word moved up by `k` and the word itself takes the word itself. -/
theorem wrap_word {v : Nat} (hv : v < 2 ^ 31) (k : BitVec 32) :
    Scalar.select (IntOp.cmpi .slt (BitVec.ofNat 32 v) 0#32) (IntOp.addi (BitVec.ofNat 32 v) k) (BitVec.ofNat 32 v)
      = BitVec.ofNat 32 v := by
  have h : ¬ IntOp.cmpi .slt (BitVec.ofNat 32 v) 0#32 = 1#1 := by
    rw [Predicate.slt_iff_toNat (by rw [BitVec.toNat_ofNat]; omega) (by decide)]
    show ¬ (BitVec.ofNat 32 v).toNat < 0
    omega
  rw [eq_zero_of_ne_one h, select_zero]

/-- The wrap of a vector of words, read at an edge whose word is that of a natural below 2 ^ 31: the word. -/
theorem wrapVec_apply (x : IVec S524288 32) (k : BitVec 32) (ε : Fin 524288) {v : Nat} (hv : v < 2 ^ 31)
    (hx : x (ix1 ε) = BitVec.ofNat 32 v) :
    select (cmpi .slt x (broadcastInDim S524288 ![] bcast_S_S524288 (constantI S_ 32 0#32)))
      (addi x (broadcastInDim S524288 ![] bcast_S_S524288 (constantI S_ 32 k))) x (ix1 ε) = BitVec.ofNat 32 v := by
  show Scalar.select (IntOp.cmpi .slt (x (ix1 ε)) 0#32) (IntOp.addi (x (ix1 ε)) k) (x (ix1 ε)) = _
  rw [hx]
  exact wrap_word hv k

/-- A vector over the edges laid out as a one-column array reads, at (ε, 0), the vector at ε. -/
theorem col_apply {α : Type} (w : S524288.Idx → α) (ε : Fin 524288) :
    broadcastInDim S524288x1 ![0] bcast_S524288_S524288x1_0 w (ix2 ε (0 : Fin 1)) = w (ix1 ε) := by
  refine broadcastInDim_apply _ _ w _ (ix1 ε) fun a => ?_
  match a with
  | ⟨0, _⟩ => rfl

/-- Row 0 of the edge list, as a vector over the edges, read at an edge. -/
theorem src_apply (V0 : Valuation τ sig (Elt Ideal)) (ε : Fin 524288) :
    (res_main_v7 V0 : IVec S524288 32) (ix1 ε) = aE V0 (ix2 (0 : Fin 2) ε) := by
  unfold res_main_v7
  refine (shapeCast_apply _ _ (ix1 ε) (ix2 (0 : Fin 1) ε) ?_).trans ?_
  · rw [Shape.rowMajor_val_two, Shape.rowMajor_val_one]
    show 0 * 524288 + ε.val = ε.val
    omega
  · refine extractStridedSlice_apply _ _ _ _ (ix2 (0 : Fin 2) ε) fun a => ?_
    match a with
    | ⟨0, _⟩ => rfl
    | ⟨1, _⟩ => show ε.val = 0 + ε.val; omega

/-- The first column of the start indices at an edge: the word of the edge's source node. -/
theorem idxCol_src (V0 : Valuation τ sig (Elt Ideal)) (sn : Fin 524288 → Fin 32768)
    (hsn : ∀ ε : Fin 524288, aE V0 (ix2 (0 : Fin 2) ε) = BitVec.ofNat 32 (sn ε).val) (ε : Fin 524288) :
    idxCol V0 (ix2 ε (0 : Fin 2)) = BitVec.ofNat 32 (sn ε).val := by
  unfold idxCol
  refine (concatenate_pair_apply_left (s₁ := S524288x1) (s₂ := S524288x1) 1 _ _ _ (ix2 ε (0 : Fin 2)) rfl (ix2 ε (0 : Fin 1)) (fun b => by
    match b with
    | ⟨0, _⟩ => rfl
    | ⟨1, _⟩ => rfl)).trans ?_
  refine (col_apply _ ε).trans ?_
  exact wrapVec_apply _ _ ε (by have := (sn ε).isLt; omega) ((src_apply V0 ε).trans (hsn ε))

/-- The second column of the start indices at an edge: the word of the edge's type. -/
theorem idxCol_typ (V0 : Valuation τ sig (Elt Ideal)) (st : Fin 524288 → Fin 8)
    (hst : ∀ ε : Fin 524288, aT V0 (ix1 ε) = BitVec.ofNat 32 (st ε).val) (ε : Fin 524288) :
    idxCol V0 (ix2 ε (1 : Fin 2)) = BitVec.ofNat 32 (st ε).val := by
  unfold idxCol
  refine (concatenate_pair_apply_right (s₁ := S524288x1) (s₂ := S524288x1) 1 _ _ _ (ix2 ε (1 : Fin 2)) rfl rfl (ix2 ε (0 : Fin 1)) (fun b hb => by
    match b with
    | ⟨0, _⟩ => rfl
    | ⟨1, _⟩ => exact absurd rfl hb) rfl).trans ?_
  refine (col_apply _ ε).trans ?_
  exact wrapVec_apply _ _ ε (by have := (st ε).isLt; omega) (hst ε)

/-- THE EDGES' ROWS. The reference's gather of the table of message rows (node × type × column) at its start indices
    reads, at edge ε and column j, the table at the edge's source node and type. -/
theorem edge_rows (V0 : Valuation τ sig (Elt Ideal)) (sn : Fin 524288 → Fin 32768) (st : Fin 524288 → Fin 8)
    (hsn : ∀ ε : Fin 524288, aE V0 (ix2 (0 : Fin 2) ε) = BitVec.ofNat 32 (sn ε).val)
    (hst : ∀ ε : Fin 524288, aT V0 (ix1 ε) = BitVec.ofNat 32 (st ε).val)
    (Ht : FVec Ideal S32768x8x256 .f32) (ε : Fin 524288) (j : Fin 256) :
    Host.gather gather_S32768x8x256_S524288x2_S524288x256_1_01_n_n_01_1_11256 Ht (idxCol V0) (ix2 ε j) = Ht (ix3 (sn ε) (st ε) j) :=
  gather_table_rows_apply _ rfl rfl rfl rfl rfl rfl rfl Ht (idxCol V0) ε j (sn ε) (st ε)
    (idxCol_src V0 sn hsn ε) (idxCol_typ V0 st hst ε) (by norm_num) (by norm_num)

end Cert.ReferenceIdeal.RVal

end
-- ==== Proof.Bridge.lean ====
/-
  Both programs are launched on memories that agree on the eleven argument arrays. Then the reference's reading of
  the network's parameters is the kernel program's, array by array, and so is the aggregation by destination node:
  both are the float scatter-add of the message rows into a zero array along the same destination column.
-/
import proofs.«408314_j22325240004845_1_alg».proof.Proof.KArgs
import proofs.«408314_j22325240004845_1_alg».proof.Proof.RArgs

noncomputable section

namespace Cert.Bridge

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's launch contents on core c. -/
abbrev V0 : Valuation Cert.ReferenceIdeal.τ Cert.ReferenceIdeal.sig (Elt Ideal) := launchContents m' c

theorem X_eq (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.RVal.X (V0 m' c) = Cert.KernelIdeal.KVal.X m c := by
  funext n k
  unfold Cert.ReferenceIdeal.RVal.X Cert.KernelIdeal.KVal.X
  exact congrFun h _

theorem Wp_eq (h : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.RVal.Wp (V0 m' c) = Cert.KernelIdeal.KVal.Wp m c := by
  funext j k
  unfold Cert.ReferenceIdeal.RVal.Wp Cert.KernelIdeal.KVal.Wp
  exact congrFun h _

theorem bp_eq (h : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.RVal.bp (V0 m' c) = Cert.KernelIdeal.KVal.bp m c := by
  funext j
  unfold Cert.ReferenceIdeal.RVal.bp Cert.KernelIdeal.KVal.bp
  exact congrFun h _

theorem Wm_eq (h : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5)) :
    Cert.ReferenceIdeal.RVal.Wm (V0 m' c) = Cert.KernelIdeal.KVal.Wm m c := by
  funext l t e d
  unfold Cert.ReferenceIdeal.RVal.Wm Cert.KernelIdeal.KVal.Wm
  exact congrFun h _

theorem bm_eq (h : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    Cert.ReferenceIdeal.RVal.bm (V0 m' c) = Cert.KernelIdeal.KVal.bm m c := by
  funext l t e
  unfold Cert.ReferenceIdeal.RVal.bm Cert.KernelIdeal.KVal.bm
  exact congrFun h _

theorem Wih_eq (h : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Cert.ReferenceIdeal.RVal.Wih (V0 m' c) = Cert.KernelIdeal.KVal.Wih m c := by
  funext l g k
  unfold Cert.ReferenceIdeal.RVal.Wih Cert.KernelIdeal.KVal.Wih
  exact congrFun h _

theorem Whh_eq (h : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8)) :
    Cert.ReferenceIdeal.RVal.Whh (V0 m' c) = Cert.KernelIdeal.KVal.Whh m c := by
  funext l g k
  unfold Cert.ReferenceIdeal.RVal.Whh Cert.KernelIdeal.KVal.Whh
  exact congrFun h _

theorem bih_eq (h : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.ReferenceIdeal.RVal.bih (V0 m' c) = Cert.KernelIdeal.KVal.bih m c := by
  funext l g
  unfold Cert.ReferenceIdeal.RVal.bih Cert.KernelIdeal.KVal.bih
  exact congrFun h _

theorem bhh_eq (h : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10)) :
    Cert.ReferenceIdeal.RVal.bhh (V0 m' c) = Cert.KernelIdeal.KVal.bhh m c := by
  funext l g
  unfold Cert.ReferenceIdeal.RVal.bhh Cert.KernelIdeal.KVal.bhh
  exact congrFun h _

/-- The two programs' edge lists agree, hence their destination columns. -/
theorem dstCol_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RVal.dstCol (V0 m' c) = Cert.KernelIdeal.KVal.dstCol m c := by
  unfold Cert.ReferenceIdeal.RVal.dstCol Cert.KernelIdeal.KVal.dstCol Cert.ReferenceIdeal.Value.res_main_v9
  have e : (V0 m' c (Proc.devRef .tc Cert.ReferenceIdeal.main_arg1) : IVec Cert.ReferenceIdeal.S2x524288 32)
      = Cert.KernelIdeal.KVal.aE m c := h
  rw [e]
  rfl

/-- The aggregation by destination node is one function in the two programs. -/
theorem scat_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RVal.rscat (V0 m' c) = Cert.KernelIdeal.KVal.kscat m c := by
  funext u n k
  unfold Cert.ReferenceIdeal.RVal.rscat Cert.KernelIdeal.KVal.kscat Cert.ReferenceIdeal.RVal.scatArr Cert.KernelIdeal.KVal.scatArr
  rw [dstCol_eq m m' c h]
  rfl

/-- The integer range facts transfer to the reference's launch arrays. -/
theorem aE_eq (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.RVal.aE (V0 m' c) = Cert.KernelIdeal.KVal.aE m c := h

theorem aT_eq (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.RVal.aT (V0 m' c) = Cert.KernelIdeal.KVal.aT m c := h

end Cert.Bridge

end
-- ==== Proof.PreRange.lean ====
/-
  The integer part of the precondition, decoded. The precondition is a conjunction of scalar tests; two of them say
  that every entry of row 0 of the [2 × 524288] edge table is a word w with 0 ≤ w < 32768 (signed), and that every
  entry of the [524288] type table is a word w with 0 ≤ w < 8 (signed). A 32-bit word in [0, n) signed, n < 2³¹, is
  `BitVec.ofNat 32 k` for the natural k = w.toNat < n. Nothing here depends on the float family.
-/
import proofs.«408314_j22325240004845_1_alg».proof.Pre_finite_inputs
import Idealize.ShloMosaic.Lib.ReduceAll
import Idealize.ShloMosaic.Lib.ValueIdx
import Idealize.ShloMosaic.Lib.Pipeline.Value

noncomputable section

namespace Cert.PreRange

open Idealize.ShloMosaic Idealize.ShloMosaic.ValueIdx
open Cert.Pre_finite_inputs

/-- The rank-0 shape has one index. -/
instance : Subsingleton S_.Idx := ⟨fun a b => funext fun d => d.elim0⟩

/-- A 32-bit word w with 0 ≤ w < n signed (n < 2³¹) has w.toNat < n. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt] at h1
  have hpos : 2 * w.toNat < 2 ^ 32 := BitVec.toInt_pos_iff.1 h0
  have ew : w.toInt = (w.toNat : Int) := BitVec.toInt_eq_toNat_of_lt hpos
  have en : (BitVec.ofNat 32 n).toInt = (n : Int) := by
    rw [BitVec.toInt_eq_toNat_of_lt (by rw [BitVec.toNat_ofNat]; omega), BitVec.toNat_ofNat]
    omega
  rw [ew, en] at h1
  omega

/-- A 32-bit word is `BitVec.ofNat 32` of its value. -/
theorem eq_ofNat_toNat (w : BitVec 32) : w = BitVec.ofNat 32 w.toNat :=
  BitVec.eq_of_toNat_eq (by rw [BitVec.toNat_ofNat]; exact (Nat.mod_eq_of_lt w.isLt).symm)

variable [Facts]

/-- Row 0 of the [2 × 524288] table, as a [524288] vector, reads at ε the table at (0, ε). -/
theorem row0_apply (a1 : IVec S2x524288 32) (ε : Fin 524288) :
    shapeCast S524288 (extractStridedSlice S1x524288 ![0, 0] a1 Facts.slices_S2x524288_S1x524288_0_0)
        Facts.shapeCasts_S1x524288_S524288 (ix1 ε) = a1 (ix2 (0 : Fin 2) ε) := by
  refine (shapeCast_apply _ _ (ix1 ε) (ix2 (0 : Fin 1) ε) ?_).trans ?_
  · rw [Shape.rowMajor_val_two, Shape.rowMajor_val_one]
    show 0 * 524288 + ε.val = ε.val
    omega
  · refine extractStridedSlice_apply _ _ _ (ix2 (0 : Fin 1) ε) (ix2 (0 : Fin 2) ε) ?_
    intro a
    match a with
    | ⟨0, _⟩ => rfl
    | ⟨1, _⟩ => show ε.val = 0 + ε.val; omega

theorem range_of_pre {F : FTy → Type} [FloatOps F]
    (a0 : FVec F S32x1024x215 .f32) (a1 : IVec S2x524288 32) (a2 : IVec S524288 32) (a3 : FVec F S256x215 .f32)
    (a4 : FVec F S256 .f32) (a5 : FVec F S3x8x256x256 .f32) (a6 : FVec F S3x8x256 .f32) (a7 : FVec F S3x768x256 .f32)
    (a8 : FVec F S3x768x256 .f32) (a9 : FVec F S3x768 .f32) (a10 : FVec F S3x768 .f32)
    (h : Cert.Pre_finite_inputs.fn (F := F) a0 a1 a2 a3 a4 a5 a6 a7 a8 a9 a10 = fun _ => 1#1) :
    ∃ (sn : Fin 524288 → Fin 32768) (st : Fin 524288 → Fin 8),
      (∀ ε : Fin 524288, a1 (ix2 (0 : Fin 2) ε) = BitVec.ofNat 32 (sn ε).val)
      ∧ (∀ ε : Fin 524288, a2 (ix1 ε) = BitVec.ofNat 32 (st ε).val) := by
  have e := congrFun h ix0
  dsimp only [fn, fn_part1, fn_part2, fn_part3] at e
  -- the conjunction's last two conjuncts are the two integer tests
  obtain ⟨e', h60⟩ := IntOp.andi_eq_one.1 e
  obtain ⟨-, h53⟩ := IntOp.andi_eq_one.1 e'
  have hA := Host.reduce_andi_all _ _ _ _ ix0 h53
  have hB := Host.reduce_andi_all _ _ _ _ ix0 h60
  have hn : ∀ ε : Fin 524288, (a1 (ix2 (0 : Fin 2) ε)).toNat < 32768 := fun ε => by
    obtain ⟨c0, c1⟩ := IntOp.andi_eq_one.1 (hA (ix1 ε))
    rw [← row0_apply a1 ε]
    exact toNat_lt_of_signed_range _ 32768 (by omega) c0 c1
  have ht : ∀ ε : Fin 524288, (a2 (ix1 ε)).toNat < 8 := fun ε => by
    obtain ⟨c0, c1⟩ := IntOp.andi_eq_one.1 (hB (ix1 ε))
    exact toNat_lt_of_signed_range _ 8 (by omega) c0 c1
  exact ⟨fun ε => ⟨(a1 (ix2 (0 : Fin 2) ε)).toNat, hn ε⟩, fun ε => ⟨(a2 (ix1 ε)).toNat, ht ε⟩,
    fun ε => eq_ofNat_toNat _, fun ε => eq_ofNat_toNat _⟩

end Cert.PreRange

end
-- ==== Proof.lean ====
/-
  A gated graph network over 32768 nodes (32 graphs of 1024), hidden width 256, eight edge types, three propagation
  layers, and a per-graph sum readout: the Pallas program (projection, message and GRU stages as tiled kernels, the
  per-edge gather and the aggregation by destination on the host) against its jnp reference, on the extended reals.

  The two programs differ in how an edge finds its message row: the kernel program flattens the [32768, 8, 256] table of
  messages to [262144, 256] and reads row 8·src + type; the reference reads (src, type). These agree exactly when the
  source node and the edge type are in range of the axes the reference indexes, which is the precondition's integer
  part (beside the finiteness of the float inputs, which the proof never opens: the two sides are the same sums and
  the same pointwise expressions). Under it both results are `GGNN.out` (Proof/Spec.lean) of the launch arrays:
  the kernel program's by walking @main's boundaries (Proof/KFirst, KLayer0–2, KLast over the regions' value lemmas),
  the reference's by reading its run's term (Proof/RefValue), and the two readings of the launch arrays coincide
  where the memories agree (Proof/Bridge).
-/
import proofs.«408314_j22325240004845_1_alg».proof.Defs
import proofs.«408314_j22325240004845_1_alg».proof.Proof.Gen.Kernel
import proofs.«408314_j22325240004845_1_alg».proof.Proof.Gen.Kernel.Skeleton
import proofs.«408314_j22325240004845_1_alg».proof.Proof.Gen.Kernel.Launch
import proofs.«408314_j22325240004845_1_alg».proof.Proof.Gen.Kernel.Points
import proofs.«408314_j22325240004845_1_alg».proof.Proof.Gen.Kernel.Frame
import proofs.«408314_j22325240004845_1_alg».proof.Proof.Gen.KernelIdeal
import proofs.«408314_j22325240004845_1_alg».proof.Proof.Gen.KernelIdeal.Skeleton
import proofs.«408314_j22325240004845_1_alg».proof.Proof.Gen.KernelIdeal.Launch
import proofs.«408314_j22325240004845_1_alg».proof.Proof.Gen.KernelIdeal.Points
import proofs.«408314_j22325240004845_1_alg».proof.Proof.Gen.KernelIdeal.Frame
import proofs.«408314_j22325240004845_1_alg».proof.Proof.Gen.ReferenceIdeal
import proofs.«408314_j22325240004845_1_alg».proof.Proof.Gen.ReferenceIdeal.Run
import proofs.«408314_j22325240004845_1_alg».proof.Proof.Gen.Pre_finite_inputs
import proofs.«408314_j22325240004845_1_alg».proof.Proof.KRun
import proofs.«408314_j22325240004845_1_alg».proof.Proof.KChain
import proofs.«408314_j22325240004845_1_alg».proof.Proof.RefValue
import proofs.«408314_j22325240004845_1_alg».proof.Proof.RefEdges
import proofs.«408314_j22325240004845_1_alg».proof.Proof.Bridge
import proofs.«408314_j22325240004845_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

/-- The three frames: the two kernel programs' are generated whole; the reference's is its generated run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The common result on core c, given the decoded source nodes and edge types. -/
abbrev outArr (m : (ℓ : Loc Cert.KernelIdeal.nD Cert.KernelIdeal.τ Cert.KernelIdeal.sig) → Buf (Elt Ideal) ℓ)
    (c : Dev Cert.KernelIdeal.nD) (sn : Fin 524288 → Fin 32768) (st : Fin 524288 → Fin 8) :
    FVec Ideal Cert.KernelIdeal.S32x256 .f32 :=
  fun i => Cert.GGNN.out (Cert.KernelIdeal.KVal.kscat m c) sn st (Cert.KernelIdeal.KVal.X m c)
    (Cert.KernelIdeal.KVal.Wp m c) (Cert.KernelIdeal.KVal.bp m c) (Cert.KernelIdeal.KVal.Wm m c) (Cert.KernelIdeal.KVal.bm m c)
    (Cert.KernelIdeal.KVal.Wih m c) (Cert.KernelIdeal.KVal.Whh m c) (Cert.KernelIdeal.KVal.bih m c) (Cert.KernelIdeal.KVal.bhh m c)
    (i 0) (i 1)

/-- Both idealized programs end with `GGNN.out` of the launch arrays in the result buffer. -/
theorem algebraic : Cert.algebraic_KernelIdeal_ReferenceIdeal := by
  intro m ρ m' ρ' hpre hagree
  choose sn st hsn hst using fun c => Cert.PreRange.range_of_pre _ _ _ _ _ _ _ _ _ _ _ (hpre c)
  refine ⟨fun c => outArr m c (sn c) (st c), ?_, ?_⟩
  · refine (θ_run Cert.KernelIdeal.defs _ _).mono (fun r h c => ⟨(h c).1.trans ?_, (h c).2⟩)
      (Cert.KernelIdeal.KVal.run_result (F := Ideal) m ρ)
    funext i
    obtain ⟨b, j, rfl⟩ : ∃ (b : Fin 32) (j : Fin 256), i = ix2 b j := ⟨i 0, i 1, eq_ix2 i⟩
    exact Cert.KernelIdeal.KVal.kernel_value m ρ c (sn c) (st c) (hsn c) (hst c) b j
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    have hsn' : ∀ ε : Fin 524288, Cert.ReferenceIdeal.RVal.aE (Cert.Bridge.V0 m' c) (ix2 (0 : Fin 2) ε) = BitVec.ofNat 32 (sn c ε).val := by
      intro ε; rw [Cert.Bridge.aE_eq m m' c h1]; exact hsn c ε
    have hst' : ∀ ε : Fin 524288, Cert.ReferenceIdeal.RVal.aT (Cert.Bridge.V0 m' c) (ix1 ε) = BitVec.ofNat 32 (st c ε).val := by
      intro ε; rw [Cert.Bridge.aT_eq m m' c h2]; exact hst c ε
    funext i
    obtain ⟨b, j, rfl⟩ : ∃ (b : Fin 32) (j : Fin 256), i = ix2 b j := ⟨i 0, i 1, eq_ix2 i⟩
    refine (Cert.ReferenceIdeal.RVal.ref_value (Cert.Bridge.V0 m' c) (sn c) (st c)
      (Cert.ReferenceIdeal.RVal.edge_rows (Cert.Bridge.V0 m' c) (sn c) (st c) hsn' hst') b j).trans ?_
    rw [Cert.Bridge.scat_eq m m' c h1, Cert.Bridge.X_eq m m' c h0, Cert.Bridge.Wp_eq m m' c h3, Cert.Bridge.bp_eq m m' c h4,
      Cert.Bridge.Wm_eq m m' c h5, Cert.Bridge.bm_eq m m' c h6, Cert.Bridge.Wih_eq m m' c h7, Cert.Bridge.Whh_eq m m' c h8,
      Cert.Bridge.bih_eq m m' c h9, Cert.Bridge.bhh_eq m m' c h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
